-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S500000x3 : Shape := ⟨2, ![500000, 3]⟩
abbrev S2x64 : Shape := ⟨2, ![2, 64]⟩
abbrev S64 : Shape := ⟨1, ![64]⟩
abbrev S64x64 : Shape := ⟨2, ![64, 64]⟩
abbrev S3x64 : Shape := ⟨2, ![3, 64]⟩
abbrev S3x384x64 : Shape := ⟨3, ![3, 384, 64]⟩
abbrev S3x64x64 : Shape := ⟨3, ![3, 64, 64]⟩
abbrev S3x256x64 : Shape := ⟨3, ![3, 256, 64]⟩
abbrev S64x1 : Shape := ⟨2, ![64, 1]⟩
abbrev S1 : Shape := ⟨1, ![1]⟩
abbrev S2x500000 : Shape := ⟨2, ![2, 500000]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S500000x3 : S_.BroadcastsInDim S500000x3 (![] : Fin 0 → Fin S500000x3.rank)
  reducesTo_S500000x3_S_d0_1 : S500000x3.ReducesTo [0, 1] S_
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S3x64 : S_.BroadcastsInDim S3x64 (![] : Fin 0 → Fin S3x64.rank)
  reducesTo_S3x64_S_d0_1 : S3x64.ReducesTo [0, 1] S_
  bcast_S_S3x384x64 : S_.BroadcastsInDim S3x384x64 (![] : Fin 0 → Fin S3x384x64.rank)
  reducesTo_S3x384x64_S_d0_1_2 : S3x384x64.ReducesTo [0, 1, 2] S_
  bcast_S_S3x64x64 : S_.BroadcastsInDim S3x64x64 (![] : Fin 0 → Fin S3x64x64.rank)
  reducesTo_S3x64x64_S_d0_1_2 : S3x64x64.ReducesTo [0, 1, 2] S_
  bcast_S_S3x256x64 : S_.BroadcastsInDim S3x256x64 (![] : Fin 0 → Fin S3x256x64.rank)
  reducesTo_S3x256x64_S_d0_1_2 : S3x256x64.ReducesTo [0, 1, 2] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S2x500000 : S_.BroadcastsInDim S2x500000 (![] : Fin 0 → Fin S2x500000.rank)
  reducesTo_S2x500000_S_d0_1 : S2x500000.ReducesTo [0, 1] S_

variable [Facts]

def fn_part6 {F : FTy → Type} [FloatOps F] (main_arg21 : FVec F S1 .f32) (main_arg22 : IVec S2x500000 32) (main_v98 : IVec S_ 1) (main_v101 : IVec S64x1 1) (main_c_39 : IVec S_ 1) : IVec S_ 1 :=
  let main_v102 : IVec S_ 1 := (fun x v => Host.reduce IntOp.andi x v reducesTo_S64x1_S_d0_1 h_S_) main_v101 main_c_39
  let main_v103 : IVec S_ 1 := andi main_v98 main_v102
  let main_v104 : FVec F S1 .f32 := Host.absf main_arg21
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  let main_c_42 : IVec S_ 32 := constantI S_ 32 0#32
  let main_v109 : IVec S2x500000 32 := broadcastInDim S2x500000 ![] bcast_S_S2x500000 main_c_42
  let main_v110 : IVec S2x500000 1 := cmpi .sge main_arg22 main_v109
  let main_c_43 : IVec S_ 1 := constantI S_ 1 1#1
  let main_v111 : IVec S_ 1 := (fun x v => Host.reduce IntOp.andi x v reducesTo_S2x500000_S_d0_1 h_S_) main_v110 main_c_43
  let main_v112 : IVec S_ 1 := andi main_v108 main_v111
  let main_c_44 : IVec S_ 32 := constantI S_ 32 100000#32
  let main_v113 : IVec S2x500000 32 := broadcastInDim S2x500000 ![] bcast_S_S2x500000 main_c_44
  let main_v114 : IVec S2x500000 1 := cmpi .slt main_arg22 main_v113
  let main_c_45 : IVec S_ 1 := constantI S_ 1 1#1
  let main_v115 : IVec S_ 1 := (fun x v => Host.reduce IntOp.andi x v reducesTo_S2x500000_S_d0_1 h_S_) main_v114 main_c_45
  let main_v116 : IVec S_ 1 := andi main_v112 main_v115
  main_v116

def fn_part5 {F : FTy → Type} [FloatOps F] (main_arg18 : FVec F S64x64 .f32) (main_arg19 : FVec F S64 .f32) (main_arg20 : FVec F S64x1 .f32) (main_arg21 : FVec F S1 .f32) (main_arg22 : IVec S2x500000 32) (main_v83 : IVec S_ 1) (main_v84 : FVec F S3x64 .f32) (main_cst_32 : FVec F S_ .f32) : IVec S_ 1 :=
  let main_v85 : FVec F S3x64 .f32 := broadcastInDim S3x64 ![] bcast_S_S3x64 main_cst_32
  let main_v86 : IVec S3x64 1 := cmpf .olt main_v84 main_v85
  let main_c_33 : IVec S_ 1 := constantI S_ 1 1#1
  let main_v87 : IVec S_ 1 := (fun x v => Host.reduce IntOp.andi x v reducesTo_S3x64_S_d0_1 h_S_) main_v86 main_c_33
  let main_v88 : IVec S_ 1 := andi main_v83 main_v87
  let main_v89 : FVec F S64x64 .f32 := Host.absf main_arg18
  let main_cst_34 : FVec F S_ .f32 := constant S_ .f32 0x7F800000#32
  let main_v90 : FVec F S64x64 .f32 := broadcastInDim S64x64 ![] bcast_S_S64x64 main_cst_34
  let main_v91 : IVec S64x64 1 := cmpf .olt main_v89 main_v90
  let main_c_35 : IVec S_ 1 := constantI S_ 1 1#1
  let main_v92 : IVec S_ 1 := (fun x v => Host.reduce IntOp.andi x v reducesTo_S64x64_S_d0_1 h_S_) main_v91 main_c_35
  let main_v93 : IVec S_ 1 := andi main_v88 main_v92
  let main_v94 : FVec F S64 .f32 := Host.absf main_arg19
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x1 .f32 := Host.absf main_arg20
  let main_cst_38 : FVec F S_ .f32 := constant S_ .f32 0x7F800000#32
  let main_v100 : FVec F S64x1 .f32 := broadcastInDim S64x1 ![] bcast_S_S64x1 main_cst_38
  let main_v101 : IVec S64x1 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S3x256x64 .f32) (main_arg15 : FVec F S3x64 .f32) (main_arg16 : FVec F S3x64x64 .f32) (main_arg17 : FVec F S3x64 .f32) (main_arg18 : FVec F S64x64 .f32) (main_arg19 : FVec F S64 .f32) (main_arg20 : FVec F S64x1 .f32) (main_arg21 : FVec F S1 .f32) (main_arg22 : IVec S2x500000 32) (main_v63 : IVec S_ 1) (main_v67 : IVec S_ 1) : IVec S_ 1 :=
  let main_v68 : IVec S_ 1 := andi main_v63 main_v67
  let main_v69 : FVec F S3x256x64 .f32 := Host.absf main_arg14
  let main_cst_26 : FVec F S_ .f32 := constant S_ .f32 0x7F800000#32
  let main_v70 : FVec F S3x256x64 .f32 := broadcastInDim S3x256x64 ![] bcast_S_S3x256x64 main_cst_26
  let main_v71 : IVec S3x256x64 1 := cmpf .olt main_v69 main_v70
  let main_c_27 : IVec S_ 1 := constantI S_ 1 1#1
  let main_v72 : IVec S_ 1 := (fun x v => Host.reduce IntOp.andi x v reducesTo_S3x256x64_S_d0_1_2 h_S_) main_v71 main_c_27
  let main_v73 : IVec S_ 1 := andi main_v68 main_v72
  let main_v74 : FVec F S3x64 .f32 := Host.absf main_arg15
  let main_cst_28 : FVec F S_ .f32 := constant S_ .f32 0x7F800000#32
  let main_v75 : FVec F S3x64 .f32 := broadcastInDim S3x64 ![] bcast_S_S3x64 main_cst_28
  let main_v76 : IVec S3x64 1 := cmpf .olt main_v74 main_v75
  let main_c_29 : IVec S_ 1 := constantI S_ 1 1#1
  let main_v77 : IVec S_ 1 := (fun x v => Host.reduce IntOp.andi x v reducesTo_S3x64_S_d0_1 h_S_) main_v76 main_c_29
  let main_v78 : IVec S_ 1 := andi main_v73 main_v77
  let main_v79 : FVec F S3x64x64 .f32 := Host.absf main_arg16
  let main_cst_30 : FVec F S_ .f32 := constant S_ .f32 0x7F800000#32
  let main_v80 : FVec F S3x64x64 .f32 := broadcastInDim S3x64x64 ![] bcast_S_S3x64x64 main_cst_30
  let main_v81 : IVec S3x64x64 1 := cmpf .olt main_v79 main_v80
  let main_c_31 : IVec S_ 1 := constantI S_ 1 1#1
  let main_v82 : IVec S_ 1 := (fun x v => Host.reduce IntOp.andi x v reducesTo_S3x64x64_S_d0_1_2 h_S_) main_v81 main_c_31
  let main_v83 : IVec S_ 1 := andi main_v78 main_v82
  let main_v84 : FVec F S3x64 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S3x64 .f32) (main_arg12 : FVec F S3x64x64 .f32) (main_arg13 : FVec F S3x64 .f32) (main_arg14 : FVec F S3x256x64 .f32) (main_arg15 : FVec F S3x64 .f32) (main_arg16 : FVec F S3x64x64 .f32) (main_arg17 : FVec F S3x64 .f32) (main_arg18 : FVec F S64x64 .f32) (main_arg19 : FVec F S64 .f32) (main_arg20 : FVec F S64x1 .f32) (main_arg21 : FVec F S1 .f32) (main_arg22 : IVec S2x500000 32) (main_v48 : IVec S_ 1) (main_v49 : FVec F S3x384x64 .f32) (main_v50 : FVec F S3x384x64 .f32) : IVec S_ 1 :=
  let main_v51 : IVec S3x384x64 1 := cmpf .olt main_v49 main_v50
  let main_c_19 : IVec S_ 1 := constantI S_ 1 1#1
  let main_v52 : IVec S_ 1 := (fun x v => Host.reduce IntOp.andi x v reducesTo_S3x384x64_S_d0_1_2 h_S_) main_v51 main_c_19
  let main_v53 : IVec S_ 1 := andi main_v48 main_v52
  let main_v54 : FVec F S3x64 .f32 := Host.absf main_arg11
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  let main_v59 : FVec F S3x64x64 .f32 := Host.absf main_arg12
  let main_cst_22 : FVec F S_ .f32 := constant S_ .f32 0x7F800000#32
  let main_v60 : FVec F S3x64x64 .f32 := broadcastInDim S3x64x64 ![] bcast_S_S3x64x64 main_cst_22
  let main_v61 : IVec S3x64x64 1 := cmpf .olt main_v59 main_v60
  let main_c_23 : IVec S_ 1 := constantI S_ 1 1#1
  let main_v62 : IVec S_ 1 := (fun x v => Host.reduce IntOp.andi x v reducesTo_S3x64x64_S_d0_1_2 h_S_) main_v61 main_c_23
  let main_v63 : IVec S_ 1 := andi main_v58 main_v62
  let main_v64 : FVec F S3x64 .f32 := Host.absf main_arg13
  let main_cst_24 : FVec F S_ .f32 := constant S_ .f32 0x7F800000#32
  let main_v65 : FVec F S3x64 .f32 := broadcastInDim S3x64 ![] bcast_S_S3x64 main_cst_24
  let main_v66 : IVec S3x64 1 := cmpf .olt main_v64 main_v65
  let main_c_25 : IVec S_ 1 := constantI S_ 1 1#1
  let main_v67 : IVec S_ 1 := (fun x v => Host.reduce IntOp.andi x v reducesTo_S3x64_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S64 .f32) (main_arg8 : FVec F S64x64 .f32) (main_arg9 : FVec F S64 .f32) (main_arg10 : FVec F S3x384x64 .f32) (main_arg11 : FVec F S3x64 .f32) (main_arg12 : FVec F S3x64x64 .f32) (main_arg13 : FVec F S3x64 .f32) (main_arg14 : FVec F S3x256x64 .f32) (main_arg15 : FVec F S3x64 .f32) (main_arg16 : FVec F S3x64x64 .f32) (main_arg17 : FVec F S3x64 .f32) (main_arg18 : FVec F S64x64 .f32) (main_arg19 : FVec F S64 .f32) (main_arg20 : FVec F S64x1 .f32) (main_arg21 : FVec F S1 .f32) (main_arg22 : IVec S2x500000 32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S3x384x64 .f32 := Host.absf main_arg10
  let main_cst_18 : FVec F S_ .f32 := constant S_ .f32 0x7F800000#32
  let main_v50 : FVec F S3x384x64 .f32 := broadcastInDim S3x384x64 ![] bcast_S_S3x384x64 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S64x64 .f32) (main_arg5 : FVec F S64 .f32) (main_arg6 : FVec F S3x64 .f32) (main_arg7 : FVec F S64 .f32) (main_arg8 : FVec F S64x64 .f32) (main_arg9 : FVec F S64 .f32) (main_arg10 : FVec F S3x384x64 .f32) (main_arg11 : FVec F S3x64 .f32) (main_arg12 : FVec F S3x64x64 .f32) (main_arg13 : FVec F S3x64 .f32) (main_arg14 : FVec F S3x256x64 .f32) (main_arg15 : FVec F S3x64 .f32) (main_arg16 : FVec F S3x64x64 .f32) (main_arg17 : FVec F S3x64 .f32) (main_arg18 : FVec F S64x64 .f32) (main_arg19 : FVec F S64 .f32) (main_arg20 : FVec F S64x1 .f32) (main_arg21 : FVec F S1 .f32) (main_arg22 : IVec S2x500000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S3x64 .f32 := Host.absf main_arg6
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x2 .f32) (main_arg1 : FVec F S500000x3 .f32) (main_arg2 : FVec F S2x64 .f32) (main_arg3 : FVec F S64 .f32) (main_arg4 : FVec F S64x64 .f32) (main_arg5 : FVec F S64 .f32) (main_arg6 : FVec F S3x64 .f32) (main_arg7 : FVec F S64 .f32) (main_arg8 : FVec F S64x64 .f32) (main_arg9 : FVec F S64 .f32) (main_arg10 : FVec F S3x384x64 .f32) (main_arg11 : FVec F S3x64 .f32) (main_arg12 : FVec F S3x64x64 .f32) (main_arg13 : FVec F S3x64 .f32) (main_arg14 : FVec F S3x256x64 .f32) (main_arg15 : FVec F S3x64 .f32) (main_arg16 : FVec F S3x64x64 .f32) (main_arg17 : FVec F S3x64 .f32) (main_arg18 : FVec F S64x64 .f32) (main_arg19 : FVec F S64 .f32) (main_arg20 : FVec F S64x1 .f32) (main_arg21 : FVec F S1 .f32) (main_arg22 : IVec S2x500000 32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S500000x3 .f32 := Host.absf main_arg1
  let main_cst_0 : FVec F S_ .f32 := constant S_ .f32 0x7F800000#32
  let main_v5 : FVec F S500000x3 .f32 := broadcastInDim S500000x3 ![] bcast_S_S500000x3 main_cst_0
  let main_v6 : IVec S500000x3 1 := cmpf .olt main_v4 main_v5
  let main_c_1 : IVec S_ 1 := constantI S_ 1 1#1
  let main_v7 : IVec S_ 1 := (fun x v => Host.reduce IntOp.andi x v reducesTo_S500000x3_S_d0_1 h_S_) main_v6 main_c_1
  let main_v8 : IVec S_ 1 := andi main_v3 main_v7
  let main_v9 : FVec F S2x64 .f32 := Host.absf main_arg2
  let main_cst_2 : FVec F S_ .f32 := constant S_ .f32 0x7F800000#32
  let main_v10 : FVec F S2x64 .f32 := broadcastInDim S2x64 ![] bcast_S_S2x64 main_cst_2
  let main_v11 : IVec S2x64 1 := cmpf .olt main_v9 main_v10
  let main_c_3 : IVec S_ 1 := constantI S_ 1 1#1
  let main_v12 : IVec S_ 1 := (fun x v => Host.reduce IntOp.andi x v reducesTo_S2x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x2 : Shape := ⟨2, ![100000, 2]⟩
abbrev S500000x3 : Shape := ⟨2, ![500000, 3]⟩
abbrev S2x64 : Shape := ⟨2, ![2, 64]⟩
abbrev S64 : Shape := ⟨1, ![64]⟩
abbrev S64x64 : Shape := ⟨2, ![64, 64]⟩
abbrev S3x64 : Shape := ⟨2, ![3, 64]⟩
abbrev S3x384x64 : Shape := ⟨3, ![3, 384, 64]⟩
abbrev S3x64x64 : Shape := ⟨3, ![3, 64, 64]⟩
abbrev S3x256x64 : Shape := ⟨3, ![3, 256, 64]⟩
abbrev S64x1 : Shape := ⟨2, ![64, 1]⟩
abbrev S1 : Shape := ⟨1, ![1]⟩
abbrev S2x500000 : Shape := ⟨2, ![2, 500000]⟩
abbrev S1x500000 : Shape := ⟨2, ![1, 500000]⟩
abbrev S500000 : Shape := ⟨1, ![500000]⟩
abbrev S1x64 : Shape := ⟨2, ![1, 64]⟩
abbrev S100000x64 : Shape := ⟨2, ![100000, 64]⟩
abbrev S5000x2 : Shape := ⟨2, ![5000, 2]⟩
abbrev S5000x64 : Shape := ⟨2, ![5000, 64]⟩
abbrev S500000x64 : Shape := ⟨2, ![500000, 64]⟩
abbrev S5000x3 : Shape := ⟨2, ![5000, 3]⟩
abbrev S100000x128 : Shape := ⟨2, ![100000, 128]⟩
abbrev S500000x128 : Shape := ⟨2, ![500000, 128]⟩
abbrev S_ : Shape := ⟨0, ![]⟩
abbrev S500000x1 : Shape := ⟨2, ![500000, 1]⟩
abbrev S1x1 : Shape := ⟨2, ![1, 1]⟩
abbrev S1x384x64 : Shape := ⟨3, ![1, 384, 64]⟩
abbrev S384x64 : Shape := ⟨2, ![384, 64]⟩
abbrev S1x64x64 : Shape := ⟨3, ![1, 64, 64]⟩
abbrev S5000x128 : Shape := ⟨2, ![5000, 128]⟩
abbrev S5000x384 : Shape := ⟨2, ![5000, 384]⟩
abbrev S1x256x64 : Shape := ⟨3, ![1, 256, 64]⟩
abbrev S256x64 : Shape := ⟨2, ![256, 64]⟩
abbrev S5000x256 : Shape := ⟨2, ![5000, 256]⟩
abbrev S100000x1 : Shape := ⟨2, ![100000, 1]⟩
abbrev S5000x1 : Shape := ⟨2, ![5000, 1]⟩

abbrev nBuf : Space → Nat
  | .hbm => 258
  | .vmem => 90
  | .smem => 0
  | _ => 0

abbrev hbmTy0_0 (i : Nat) : BufTy := match i % 128 with
  | 0 => ⟨S100000x2, .f32⟩
  | 1 => ⟨S500000x3, .f32⟩
  | 2 => ⟨S2x64, .f32⟩
  | 3 => ⟨S64, .f32⟩
  | 4 => ⟨S64x64, .f32⟩
  | 5 => ⟨S64, .f32⟩
  | 6 => ⟨S3x64, .f32⟩
  | 7 => ⟨S64, .f32⟩
  | 8 => ⟨S64x64, .f32⟩
  | 9 => ⟨S64, .f32⟩
  | 10 => ⟨S3x384x64, .f32⟩
  | 11 => ⟨S3x64, .f32⟩
  | 12 => ⟨S3x64x64, .f32⟩
  | 13 => ⟨S3x64, .f32⟩
  | 14 => ⟨S3x256x64, .f32⟩
  | 15 => ⟨S3x64, .f32⟩
  | 16 => ⟨S3x64x64, .f32⟩
  | 17 => ⟨S3x64, .f32⟩
  | 18 => ⟨S64x64, .f32⟩
  | 19 => ⟨S64, .f32⟩
  | 20 => ⟨S64x1, .f32⟩
  | 21 => ⟨S1, .f32⟩
  | 22 => ⟨S2x500000, .i32⟩
  | 23 => ⟨S1x500000, .i32⟩
  | 24 => ⟨S500000, .i32⟩
  | 25 => ⟨S1x500000, .i32⟩
  | 26 => ⟨S500000, .i32⟩
  | 27 => ⟨S1x64, .f32⟩
  | 28 => ⟨S1x64, .f32⟩
  | 29 => ⟨S100000x64, .f32⟩
  | 30 => ⟨S1x64, .f32⟩
  | 31 => ⟨S1x64, .f32⟩
  | 32 => ⟨S500000x64, .f32⟩
  | 33 => ⟨S100000x128, .f32⟩
  | 34 => ⟨S500000x128, .f32⟩
  | 35 => ⟨S_, .i32⟩
  | 36 => ⟨S500000, .i32⟩
  | 37 => ⟨S500000, .i1⟩
  | 38 => ⟨S_, .i32⟩
  | 39 => ⟨S500000, .i32⟩
  | 40 => ⟨S500000, .i32⟩
  | 41 => ⟨S500000, .i32⟩
  | 42 => ⟨S500000x1, .i32⟩
  | 43 => ⟨S1, .i32⟩
  | 44 => ⟨S_, .i32⟩
  | 45 => ⟨S500000x1, .i32⟩
  | 46 => ⟨S500000x1, .i1⟩
  | 47 => ⟨S1x1, .i32⟩
  | 48 => ⟨S500000x1, .i32⟩
  | 49 => ⟨S500000x1, .i1⟩
  | 50 => ⟨S500000x1, .i1⟩
  | 51 => ⟨S_, .i1⟩
  | 52 => ⟨S500000, .i1⟩
  | 53 => ⟨S500000x128, .f32⟩
  | 54 => ⟨S500000x128, .i1⟩
  | 55 => ⟨S_, .f32⟩
  | 56 => ⟨S500000x128, .f32⟩
  | 57 => ⟨S500000x128, .f32⟩
  | 58 => ⟨S_, .i32⟩
  | 59 => ⟨S500000, .i32⟩
  | 60 => ⟨S500000, .i1⟩
  | 61 => ⟨S_, .i32⟩
  | 62 => ⟨S500000, .i32⟩
  | 63 => ⟨S500000, .i32⟩
  | 64 => ⟨S500000, .i32⟩
  | 65 => ⟨S500000x1, .i32⟩
  | 66 => ⟨S1, .i32⟩
  | 67 => ⟨S_, .i32⟩
  | 68 => ⟨S500000x1, .i32⟩
  | 69 => ⟨S500000x1, .i1⟩
  | 70 => ⟨S1x1, .i32⟩
  | 71 => ⟨S500000x1, .i32⟩
  | 72 => ⟨S500000x1, .i1⟩
  | 73 => ⟨S500000x1, .i1⟩
  | 74 => ⟨S_, .i1⟩
  | 75 => ⟨S500000, .i1⟩
  | 76 => ⟨S500000x128, .f32⟩
  | 77 => ⟨S500000x128, .i1⟩
  | 78 => ⟨S_, .f32⟩
  | 79 => ⟨S500000x128, .f32⟩
  | 80 => ⟨S500000x128, .f32⟩
  | 81 => ⟨S_, .f32⟩
  | 82 => ⟨S100000x128, .f32⟩
  | 83 => ⟨S500000x1, .i32⟩
  | 84 => ⟨S100000x128, .f32⟩
  | 85 => ⟨S1x384x64, .f32⟩
  | 86 => ⟨S384x64, .f32⟩
  | 87 => ⟨S1x64, .f32⟩
  | 88 => ⟨S64, .f32⟩
  | 89 => ⟨S1x64x64, .f32⟩
  | 90 => ⟨S64x64, .f32⟩
  | 91 => ⟨S1x64, .f32⟩
  | 92 => ⟨S64, .f32⟩
  | 93 => ⟨S1x64, .f32⟩
  | 94 => ⟨S1x64, .f32⟩
  | 95 => ⟨S500000x64, .f32⟩
  | 96 => ⟨S1x256x64, .f32⟩
  | 97 => ⟨S256x64, .f32⟩
  | 98 => ⟨S1x64, .f32⟩
  | 99 => ⟨S64, .f32⟩
  | 100 => ⟨S1x64x64, .f32⟩
  | 101 => ⟨S64x64, .f32⟩
  | 102 => ⟨S1x64, .f32⟩
  | 103 => ⟨S64, .f32⟩
  | 104 => ⟨S1x64, .f32⟩
  | 105 => ⟨S1x64, .f32⟩
  | 106 => ⟨S100000x64, .f32⟩
  | 107 => ⟨S100000x128, .f32⟩
  | 108 => ⟨S500000x128, .f32⟩
  | 109 => ⟨S_, .i32⟩
  | 110 => ⟨S500000, .i32⟩
  | 111 => ⟨S500000, .i1⟩
  | 112 => ⟨S_, .i32⟩
  | 113 => ⟨S500000, .i32⟩
  | 114 => ⟨S500000, .i32⟩
  | 115 => ⟨S500000, .i32⟩
  | 116 => ⟨S500000x1, .i32⟩
  | 117 => ⟨S1, .i32⟩
  | 118 => ⟨S_, .i32⟩
  | 119 => ⟨S500000x1, .i32⟩
  | 120 => ⟨S500000x1, .i1⟩
  | 121 => ⟨S1x1, .i32⟩
  | 122 => ⟨S500000x1, .i32⟩
  | 123 => ⟨S500000x1, .i1⟩
  | 124 => ⟨S500000x1, .i1⟩
  | 125 => ⟨S_, .i1⟩
  | 126 => ⟨S500000, .i1⟩
  | 127 => ⟨S500000x128, .f32⟩
  | _ => ⟨S100000x2, .f32⟩

abbrev hbmTy0_1 (i : Nat) : BufTy := match i % 128 with
  | 0 => ⟨S500000x128, .i1⟩
  | 1 => ⟨S_, .f32⟩
  | 2 => ⟨S500000x128, .f32⟩
  | 3 => ⟨S500000x128, .f32⟩
  | 4 => ⟨S_, .i32⟩
  | 5 => ⟨S500000, .i32⟩
  | 6 => ⟨S500000, .i1⟩
  | 7 => ⟨S_, .i32⟩
  | 8 => ⟨S500000, .i32⟩
  | 9 => ⟨S500000, .i32⟩
  | 10 => ⟨S500000, .i32⟩
  | 11 => ⟨S500000x1, .i32⟩
  | 12 => ⟨S1, .i32⟩
  | 13 => ⟨S_, .i32⟩
  | 14 => ⟨S500000x1, .i32⟩
  | 15 => ⟨S500000x1, .i1⟩
  | 16 => ⟨S1x1, .i32⟩
  | 17 => ⟨S500000x1, .i32⟩
  | 18 => ⟨S500000x1, .i1⟩
  | 19 => ⟨S500000x1, .i1⟩
  | 20 => ⟨S_, .i1⟩
  | 21 => ⟨S500000, .i1⟩
  | 22 => ⟨S500000x128, .f32⟩
  | 23 => ⟨S500000x128, .i1⟩
  | 24 => ⟨S_, .f32⟩
  | 25 => ⟨S500000x128, .f32⟩
  | 26 => ⟨S500000x128, .f32⟩
  | 27 => ⟨S_, .f32⟩
  | 28 => ⟨S100000x128, .f32⟩
  | 29 => ⟨S500000x1, .i32⟩
  | 30 => ⟨S100000x128, .f32⟩
  | 31 => ⟨S1x384x64, .f32⟩
  | 32 => ⟨S384x64, .f32⟩
  | 33 => ⟨S1x64, .f32⟩
  | 34 => ⟨S64, .f32⟩
  | 35 => ⟨S1x64x64, .f32⟩
  | 36 => ⟨S64x64, .f32⟩
  | 37 => ⟨S1x64, .f32⟩
  | 38 => ⟨S64, .f32⟩
  | 39 => ⟨S1x64, .f32⟩
  | 40 => ⟨S1x64, .f32⟩
  | 41 => ⟨S500000x64, .f32⟩
  | 42 => ⟨S1x256x64, .f32⟩
  | 43 => ⟨S256x64, .f32⟩
  | 44 => ⟨S1x64, .f32⟩
  | 45 => ⟨S64, .f32⟩
  | 46 => ⟨S1x64x64, .f32⟩
  | 47 => ⟨S64x64, .f32⟩
  | 48 => ⟨S1x64, .f32⟩
  | 49 => ⟨S64, .f32⟩
  | 50 => ⟨S1x64, .f32⟩
  | 51 => ⟨S1x64, .f32⟩
  | 52 => ⟨S100000x64, .f32⟩
  | 53 => ⟨S100000x128, .f32⟩
  | 54 => ⟨S500000x128, .f32⟩
  | 55 => ⟨S_, .i32⟩
  | 56 => ⟨S500000, .i32⟩
  | 57 => ⟨S500000, .i1⟩
  | 58 => ⟨S_, .i32⟩
  | 59 => ⟨S500000, .i32⟩
  | 60 => ⟨S500000, .i32⟩
  | 61 => ⟨S500000, .i32⟩
  | 62 => ⟨S500000x1, .i32⟩
  | 63 => ⟨S1, .i32⟩
  | 64 => ⟨S_, .i32⟩
  | 65 => ⟨S500000x1, .i32⟩
  | 66 => ⟨S500000x1, .i1⟩
  | 67 => ⟨S1x1, .i32⟩
  | 68 => ⟨S500000x1, .i32⟩
  | 69 => ⟨S500000x1, .i1⟩
  | 70 => ⟨S500000x1, .i1⟩
  | 71 => ⟨S_, .i1⟩
  | 72 => ⟨S500000, .i1⟩
  | 73 => ⟨S500000x128, .f32⟩
  | 74 => ⟨S500000x128, .i1⟩
  | 75 => ⟨S_, .f32⟩
  | 76 => ⟨S500000x128, .f32⟩
  | 77 => ⟨S500000x128, .f32⟩
  | 78 => ⟨S_, .i32⟩
  | 79 => ⟨S500000, .i32⟩
  | 80 => ⟨S500000, .i1⟩
  | 81 => ⟨S_, .i32⟩
  | 82 => ⟨S500000, .i32⟩
  | 83 => ⟨S500000, .i32⟩
  | 84 => ⟨S500000, .i32⟩
  | 85 => ⟨S500000x1, .i32⟩
  | 86 => ⟨S1, .i32⟩
  | 87 => ⟨S_, .i32⟩
  | 88 => ⟨S500000x1, .i32⟩
  | 89 => ⟨S500000x1, .i1⟩
  | 90 => ⟨S1x1, .i32⟩
  | 91 => ⟨S500000x1, .i32⟩
  | 92 => ⟨S500000x1, .i1⟩
  | 93 => ⟨S500000x1, .i1⟩
  | 94 => ⟨S_, .i1⟩
  | 95 => ⟨S500000, .i1⟩
  | 96 => ⟨S500000x128, .f32⟩
  | 97 => ⟨S500000x128, .i1⟩
  | 98 => ⟨S_, .f32⟩
  | 99 => ⟨S500000x128, .f32⟩
  | 100 => ⟨S500000x128, .f32⟩
  | 101 => ⟨S_, .f32⟩
  | 102 => ⟨S100000x128, .f32⟩
  | 103 => ⟨S500000x1, .i32⟩
  | 104 => ⟨S100000x128, .f32⟩
  | 105 => ⟨S1x384x64, .f32⟩
  | 106 => ⟨S384x64, .f32⟩
  | 107 => ⟨S1x64, .f32⟩
  | 108 => ⟨S64, .f32⟩
  | 109 => ⟨S1x64x64, .f32⟩
  | 110 => ⟨S64x64, .f32⟩
  | 111 => ⟨S1x64, .f32⟩
  | 112 => ⟨S64, .f32⟩
  | 113 => ⟨S1x64, .f32⟩
  | 114 => ⟨S1x64, .f32⟩
  | 115 => ⟨S500000x64, .f32⟩
  | 116 => ⟨S1x256x64, .f32⟩
  | 117 => ⟨S256x64, .f32⟩
  | 118 => ⟨S1x64, .f32⟩
  | 119 => ⟨S64, .f32⟩
  | 120 => ⟨S1x64x64, .f32⟩
  | 121 => ⟨S64x64, .f32⟩
  | 122 => ⟨S1x64, .f32⟩
  | 123 => ⟨S64, .f32⟩
  | 124 => ⟨S1x64, .f32⟩
  | 125 => ⟨S1x64, .f32⟩
  | 126 => ⟨S100000x64, .f32⟩
  | 127 => ⟨S1x64, .f32⟩
  | _ => ⟨S100000x2, .f32⟩

abbrev hbmTy0_2 (i : Nat) : BufTy := match i % 128 with
  | 0 => ⟨S1x1, .f32⟩
  | 1 => ⟨S100000x1, .f32⟩
  | _ => ⟨S100000x2, .f32⟩

abbrev hbmTy (i : Nat) : BufTy := match i / 128 with
  | 0 => hbmTy0_0 i
  | 1 => hbmTy0_1 i
  | 2 => hbmTy0_2 i
  | _ => ⟨S100000x2, .f32⟩

abbrev bufTy : (tb : Table) → Fin (tcTables nBuf tb) → BufTy
  | .hbm, ⟨i, _⟩ => hbmTy i
  | .local _ .vmem, ⟨0, _⟩ => ⟨S5000x2, .f32⟩
  | .local _ .vmem, ⟨1, _⟩ => ⟨S5000x2, .f32⟩
  | .local _ .vmem, ⟨2, _⟩ => ⟨S2x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x3, .f32⟩
  | .local _ .vmem, ⟨9, _⟩ => ⟨S5000x3, .f32⟩
  | .local _ .vmem, ⟨10, _⟩ => ⟨S3x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S384x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S256x64, .f32⟩
  | .local _ .vmem, ⟨33, _⟩ => ⟨S1x64, .f32⟩
  | .local _ .vmem, ⟨34, _⟩ => ⟨S64x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S384x64, .f32⟩
  | .local _ .vmem, ⟨45, _⟩ => ⟨S1x64, .f32⟩
  | .local _ .vmem, ⟨46, _⟩ => ⟨S64x64, .f32⟩
  | .local _ .vmem, ⟨47, _⟩ => ⟨S1x64, .f32⟩
  | .local _ .vmem, ⟨48, _⟩ => ⟨S5000x64, .f32⟩
  | .local _ .vmem, ⟨49, _⟩ => ⟨S5000x64, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S256x64, .f32⟩
  | .local _ .vmem, ⟨55, _⟩ => ⟨S1x64, .f32⟩
  | .local _ .vmem, ⟨56, _⟩ => ⟨S64x64, .f32⟩
  | .local _ .vmem, ⟨57, _⟩ => ⟨S1x64, .f32⟩
  | .local _ .vmem, ⟨58, _⟩ => ⟨S5000x64, .f32⟩
  | .local _ .vmem, ⟨59, _⟩ => ⟨S5000x64, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S384x64, .f32⟩
  | .local _ .vmem, ⟨67, _⟩ => ⟨S1x64, .f32⟩
  | .local _ .vmem, ⟨68, _⟩ => ⟨S64x64, .f32⟩
  | .local _ .vmem, ⟨69, _⟩ => ⟨S1x64, .f32⟩
  | .local _ .vmem, ⟨70, _⟩ => ⟨S5000x64, .f32⟩
  | .local _ .vmem, ⟨71, _⟩ => ⟨S5000x64, .f32⟩
  | .local _ .vmem, ⟨72, _⟩ => ⟨S5000x128, .f32⟩
  | .local _ .vmem, ⟨73, _⟩ => ⟨S5000x128, .f32⟩
  | .local _ .vmem, ⟨74, _⟩ => ⟨S5000x128, .f32⟩
  | .local _ .vmem, ⟨75, _⟩ => ⟨S5000x128, .f32⟩
  | .local _ .vmem, ⟨76, _⟩ => ⟨S256x64, .f32⟩
  | .local _ .vmem, ⟨77, _⟩ => ⟨S1x64, .f32⟩
  | .local _ .vmem, ⟨78, _⟩ => ⟨S64x64, .f32⟩
  | .local _ .vmem, ⟨79, _⟩ => ⟨S1x64, .f32⟩
  | .local _ .vmem, ⟨80, _⟩ => ⟨S5000x64, .f32⟩
  | .local _ .vmem, ⟨81, _⟩ => ⟨S5000x64, .f32⟩
  | .local _ .vmem, ⟨82, _⟩ => ⟨S5000x64, .f32⟩
  | .local _ .vmem, ⟨83, _⟩ => ⟨S5000x64, .f32⟩
  | .local _ .vmem, ⟨84, _⟩ => ⟨S64x64, .f32⟩
  | .local _ .vmem, ⟨85, _⟩ => ⟨S1x64, .f32⟩
  | .local _ .vmem, ⟨86, _⟩ => ⟨S64x1, .f32⟩
  | .local _ .vmem, ⟨87, _⟩ => ⟨S1x1, .f32⟩
  | .local _ .vmem, ⟨88, _⟩ => ⟨S5000x1, .f32⟩
  | .local _ .vmem, ⟨89, _⟩ => ⟨S5000x1, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_call0_c : Ref sig .tc := ⟨.hbm, 35, rfl⟩
abbrev main_call0_v0 : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_c_1 : Ref sig .tc := ⟨.hbm, 43, rfl⟩
abbrev main_call0_c_2 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_3 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_call0_cst : Ref sig .tc := ⟨.hbm, 55, rfl⟩
abbrev main_call0_v15 : Ref sig .tc := ⟨.hbm, 56, rfl⟩
abbrev main_v12 : Ref sig .tc := ⟨.hbm, 57, rfl⟩
abbrev main_call1_c : Ref sig .tc := ⟨.hbm, 58, rfl⟩
abbrev main_call1_v0 : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_c_1 : Ref sig .tc := ⟨.hbm, 66, rfl⟩
abbrev main_call1_c_2 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_3 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_call1_cst : Ref sig .tc := ⟨.hbm, 78, rfl⟩
abbrev main_call1_v15 : Ref sig .tc := ⟨.hbm, 79, rfl⟩
abbrev main_v13 : Ref sig .tc := ⟨.hbm, 80, rfl⟩
abbrev main_cst : Ref sig .tc := ⟨.hbm, 81, rfl⟩
abbrev main_v14 : Ref sig .tc := ⟨.hbm, 82, rfl⟩
abbrev main_v15 : Ref sig .tc := ⟨.hbm, 83, rfl⟩
abbrev main_v16 : Ref sig .tc := ⟨.hbm, 84, rfl⟩
abbrev main_v17 : Ref sig .tc := ⟨.hbm, 85, rfl⟩
abbrev main_v18 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_v22 : Ref sig .tc := ⟨.hbm, 90, rfl⟩
abbrev main_v23 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_call2_c : Ref sig .tc := ⟨.hbm, 109, rfl⟩
abbrev main_call2_v0 : Ref sig .tc := ⟨.hbm, 110, rfl⟩
abbrev main_call2_v1 : Ref sig .tc := ⟨.hbm, 111, rfl⟩
abbrev main_call2_c_0 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_call2_v5 : Ref sig .tc := ⟨.hbm, 116, rfl⟩
abbrev main_call2_c_1 : Ref sig .tc := ⟨.hbm, 117, rfl⟩
abbrev main_call2_c_2 : Ref sig .tc := ⟨.hbm, 118, rfl⟩
abbrev main_call2_v6 : Ref sig .tc := ⟨.hbm, 119, rfl⟩
abbrev main_call2_v7 : Ref sig .tc := ⟨.hbm, 120, rfl⟩
abbrev main_call2_v8 : Ref sig .tc := ⟨.hbm, 121, rfl⟩
abbrev main_call2_v9 : Ref sig .tc := ⟨.hbm, 122, rfl⟩
abbrev main_call2_v10 : Ref sig .tc := ⟨.hbm, 123, rfl⟩
abbrev main_call2_v11 : Ref sig .tc := ⟨.hbm, 124, rfl⟩
abbrev main_call2_c_3 : Ref sig .tc := ⟨.hbm, 125, rfl⟩
abbrev main_call2_v12 : Ref sig .tc := ⟨.hbm, 126, rfl⟩
abbrev main_call2_v13 : Ref sig .tc := ⟨.hbm, 127, rfl⟩
abbrev main_call2_v14 : Ref sig .tc := ⟨.hbm, 128, rfl⟩
abbrev main_call2_cst : Ref sig .tc := ⟨.hbm, 129, rfl⟩
abbrev main_call2_v15 : Ref sig .tc := ⟨.hbm, 130, rfl⟩
abbrev main_v41 : Ref sig .tc := ⟨.hbm, 131, rfl⟩
abbrev main_call3_c : Ref sig .tc := ⟨.hbm, 132, rfl⟩
abbrev main_call3_v0 : Ref sig .tc := ⟨.hbm, 133, rfl⟩
abbrev main_call3_v1 : Ref sig .tc := ⟨.hbm, 134, rfl⟩
abbrev main_call3_c_0 : Ref sig .tc := ⟨.hbm, 135, rfl⟩
abbrev main_call3_v2 : Ref sig .tc := ⟨.hbm, 136, rfl⟩
abbrev main_call3_v3 : Ref sig .tc := ⟨.hbm, 137, rfl⟩
abbrev main_call3_v4 : Ref sig .tc := ⟨.hbm, 138, rfl⟩
abbrev main_call3_v5 : Ref sig .tc := ⟨.hbm, 139, rfl⟩
abbrev main_call3_c_1 : Ref sig .tc := ⟨.hbm, 140, rfl⟩
abbrev main_call3_c_2 : Ref sig .tc := ⟨.hbm, 141, rfl⟩
abbrev main_call3_v6 : Ref sig .tc := ⟨.hbm, 142, rfl⟩
abbrev main_call3_v7 : Ref sig .tc := ⟨.hbm, 143, rfl⟩
abbrev main_call3_v8 : Ref sig .tc := ⟨.hbm, 144, rfl⟩
abbrev main_call3_v9 : Ref sig .tc := ⟨.hbm, 145, rfl⟩
abbrev main_call3_v10 : Ref sig .tc := ⟨.hbm, 146, rfl⟩
abbrev main_call3_v11 : Ref sig .tc := ⟨.hbm, 147, rfl⟩
abbrev main_call3_c_3 : Ref sig .tc := ⟨.hbm, 148, rfl⟩
abbrev main_call3_v12 : Ref sig .tc := ⟨.hbm, 149, rfl⟩
abbrev main_call3_v13 : Ref sig .tc := ⟨.hbm, 150, rfl⟩
abbrev main_call3_v14 : Ref sig .tc := ⟨.hbm, 151, rfl⟩
abbrev main_call3_cst : Ref sig .tc := ⟨.hbm, 152, rfl⟩
abbrev main_call3_v15 : Ref sig .tc := ⟨.hbm, 153, rfl⟩
abbrev main_v42 : Ref sig .tc := ⟨.hbm, 154, rfl⟩
abbrev main_cst_0 : Ref sig .tc := ⟨.hbm, 155, rfl⟩
abbrev main_v43 : Ref sig .tc := ⟨.hbm, 156, rfl⟩
abbrev main_v44 : Ref sig .tc := ⟨.hbm, 157, rfl⟩
abbrev main_v45 : Ref sig .tc := ⟨.hbm, 158, rfl⟩
abbrev main_v46 : Ref sig .tc := ⟨.hbm, 159, rfl⟩
abbrev main_v47 : Ref sig .tc := ⟨.hbm, 160, rfl⟩
abbrev main_v48 : Ref sig .tc := ⟨.hbm, 161, rfl⟩
abbrev main_v49 : Ref sig .tc := ⟨.hbm, 162, rfl⟩
abbrev main_v50 : Ref sig .tc := ⟨.hbm, 163, rfl⟩
abbrev main_v51 : Ref sig .tc := ⟨.hbm, 164, rfl⟩
abbrev main_v52 : Ref sig .tc := ⟨.hbm, 165, rfl⟩
abbrev main_v53 : Ref sig .tc := ⟨.hbm, 166, rfl⟩
abbrev main_v54 : Ref sig .tc := ⟨.hbm, 167, rfl⟩
abbrev main_v55 : Ref sig .tc := ⟨.hbm, 168, rfl⟩
abbrev main_v56 : Ref sig .tc := ⟨.hbm, 169, rfl⟩
abbrev main_v57 : Ref sig .tc := ⟨.hbm, 170, rfl⟩
abbrev main_v58 : Ref sig .tc := ⟨.hbm, 171, rfl⟩
abbrev main_v59 : Ref sig .tc := ⟨.hbm, 172, rfl⟩
abbrev main_v60 : Ref sig .tc := ⟨.hbm, 173, rfl⟩
abbrev main_v61 : Ref sig .tc := ⟨.hbm, 174, rfl⟩
abbrev main_v62 : Ref sig .tc := ⟨.hbm, 175, rfl⟩
abbrev main_v63 : Ref sig .tc := ⟨.hbm, 176, rfl⟩
abbrev main_v64 : Ref sig .tc := ⟨.hbm, 177, rfl⟩
abbrev main_v65 : Ref sig .tc := ⟨.hbm, 178, rfl⟩
abbrev main_v66 : Ref sig .tc := ⟨.hbm, 179, rfl⟩
abbrev main_v67 : Ref sig .tc := ⟨.hbm, 180, rfl⟩
abbrev main_v68 : Ref sig .tc := ⟨.hbm, 181, rfl⟩
abbrev main_v69 : Ref sig .tc := ⟨.hbm, 182, rfl⟩
abbrev main_call4_c : Ref sig .tc := ⟨.hbm, 183, rfl⟩
abbrev main_call4_v0 : Ref sig .tc := ⟨.hbm, 184, rfl⟩
abbrev main_call4_v1 : Ref sig .tc := ⟨.hbm, 185, rfl⟩
abbrev main_call4_c_0 : Ref sig .tc := ⟨.hbm, 186, rfl⟩
abbrev main_call4_v2 : Ref sig .tc := ⟨.hbm, 187, rfl⟩
abbrev main_call4_v3 : Ref sig .tc := ⟨.hbm, 188, rfl⟩
abbrev main_call4_v4 : Ref sig .tc := ⟨.hbm, 189, rfl⟩
abbrev main_call4_v5 : Ref sig .tc := ⟨.hbm, 190, rfl⟩
abbrev main_call4_c_1 : Ref sig .tc := ⟨.hbm, 191, rfl⟩
abbrev main_call4_c_2 : Ref sig .tc := ⟨.hbm, 192, rfl⟩
abbrev main_call4_v6 : Ref sig .tc := ⟨.hbm, 193, rfl⟩
abbrev main_call4_v7 : Ref sig .tc := ⟨.hbm, 194, rfl⟩
abbrev main_call4_v8 : Ref sig .tc := ⟨.hbm, 195, rfl⟩
abbrev main_call4_v9 : Ref sig .tc := ⟨.hbm, 196, rfl⟩
abbrev main_call4_v10 : Ref sig .tc := ⟨.hbm, 197, rfl⟩
abbrev main_call4_v11 : Ref sig .tc := ⟨.hbm, 198, rfl⟩
abbrev main_call4_c_3 : Ref sig .tc := ⟨.hbm, 199, rfl⟩
abbrev main_call4_v12 : Ref sig .tc := ⟨.hbm, 200, rfl⟩
abbrev main_call4_v13 : Ref sig .tc := ⟨.hbm, 201, rfl⟩
abbrev main_call4_v14 : Ref sig .tc := ⟨.hbm, 202, rfl⟩
abbrev main_call4_cst : Ref sig .tc := ⟨.hbm, 203, rfl⟩
abbrev main_call4_v15 : Ref sig .tc := ⟨.hbm, 204, rfl⟩
abbrev main_v70 : Ref sig .tc := ⟨.hbm, 205, rfl⟩
abbrev main_call5_c : Ref sig .tc := ⟨.hbm, 206, rfl⟩
abbrev main_call5_v0 : Ref sig .tc := ⟨.hbm, 207, rfl⟩
abbrev main_call5_v1 : Ref sig .tc := ⟨.hbm, 208, rfl⟩
abbrev main_call5_c_0 : Ref sig .tc := ⟨.hbm, 209, rfl⟩
abbrev main_call5_v2 : Ref sig .tc := ⟨.hbm, 210, rfl⟩
abbrev main_call5_v3 : Ref sig .tc := ⟨.hbm, 211, rfl⟩
abbrev main_call5_v4 : Ref sig .tc := ⟨.hbm, 212, rfl⟩
abbrev main_call5_v5 : Ref sig .tc := ⟨.hbm, 213, rfl⟩
abbrev main_call5_c_1 : Ref sig .tc := ⟨.hbm, 214, rfl⟩
abbrev main_call5_c_2 : Ref sig .tc := ⟨.hbm, 215, rfl⟩
abbrev main_call5_v6 : Ref sig .tc := ⟨.hbm, 216, rfl⟩
abbrev main_call5_v7 : Ref sig .tc := ⟨.hbm, 217, rfl⟩
abbrev main_call5_v8 : Ref sig .tc := ⟨.hbm, 218, rfl⟩
abbrev main_call5_v9 : Ref sig .tc := ⟨.hbm, 219, rfl⟩
abbrev main_call5_v10 : Ref sig .tc := ⟨.hbm, 220, rfl⟩
abbrev main_call5_v11 : Ref sig .tc := ⟨.hbm, 221, rfl⟩
abbrev main_call5_c_3 : Ref sig .tc := ⟨.hbm, 222, rfl⟩
abbrev main_call5_v12 : Ref sig .tc := ⟨.hbm, 223, rfl⟩
abbrev main_call5_v13 : Ref sig .tc := ⟨.hbm, 224, rfl⟩
abbrev main_call5_v14 : Ref sig .tc := ⟨.hbm, 225, rfl⟩
abbrev main_call5_cst : Ref sig .tc := ⟨.hbm, 226, rfl⟩
abbrev main_call5_v15 : Ref sig .tc := ⟨.hbm, 227, rfl⟩
abbrev main_v71 : Ref sig .tc := ⟨.hbm, 228, rfl⟩
abbrev main_cst_1 : Ref sig .tc := ⟨.hbm, 229, rfl⟩
abbrev main_v72 : Ref sig .tc := ⟨.hbm, 230, rfl⟩
abbrev main_v73 : Ref sig .tc := ⟨.hbm, 231, rfl⟩
abbrev main_v74 : Ref sig .tc := ⟨.hbm, 232, rfl⟩
abbrev main_v75 : Ref sig .tc := ⟨.hbm, 233, rfl⟩
abbrev main_v76 : Ref sig .tc := ⟨.hbm, 234, rfl⟩
abbrev main_v77 : Ref sig .tc := ⟨.hbm, 235, rfl⟩
abbrev main_v78 : Ref sig .tc := ⟨.hbm, 236, rfl⟩
abbrev main_v79 : Ref sig .tc := ⟨.hbm, 237, rfl⟩
abbrev main_v80 : Ref sig .tc := ⟨.hbm, 238, rfl⟩
abbrev main_v81 : Ref sig .tc := ⟨.hbm, 239, rfl⟩
abbrev main_v82 : Ref sig .tc := ⟨.hbm, 240, rfl⟩
abbrev main_v83 : Ref sig .tc := ⟨.hbm, 241, rfl⟩
abbrev main_v84 : Ref sig .tc := ⟨.hbm, 242, rfl⟩
abbrev main_v85 : Ref sig .tc := ⟨.hbm, 243, rfl⟩
abbrev main_v86 : Ref sig .tc := ⟨.hbm, 244, rfl⟩
abbrev main_v87 : Ref sig .tc := ⟨.hbm, 245, rfl⟩
abbrev main_v88 : Ref sig .tc := ⟨.hbm, 246, rfl⟩
abbrev main_v89 : Ref sig .tc := ⟨.hbm, 247, rfl⟩
abbrev main_v90 : Ref sig .tc := ⟨.hbm, 248, rfl⟩
abbrev main_v91 : Ref sig .tc := ⟨.hbm, 249, rfl⟩
abbrev main_v92 : Ref sig .tc := ⟨.hbm, 250, rfl⟩
abbrev main_v93 : Ref sig .tc := ⟨.hbm, 251, rfl⟩
abbrev main_v94 : Ref sig .tc := ⟨.hbm, 252, rfl⟩
abbrev main_v95 : Ref sig .tc := ⟨.hbm, 253, rfl⟩
abbrev main_v96 : Ref sig .tc := ⟨.hbm, 254, rfl⟩
abbrev main_v97 : Ref sig .tc := ⟨.hbm, 255, rfl⟩
abbrev main_v98 : Ref sig .tc := ⟨.hbm, 256, rfl⟩
abbrev main_v99 : Ref sig .tc := ⟨.hbm, 257, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg6_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg7_0 : Ref sig .tc := ⟨.vmem, 48, rfl⟩
abbrev cc4_stg7_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg6_0 : Ref sig .tc := ⟨.vmem, 58, rfl⟩
abbrev cc5_stg6_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg2_1 : Ref sig .tc := ⟨.vmem, 65, rfl⟩
abbrev cc6_stg3_0 : Ref sig .tc := ⟨.vmem, 66, rfl⟩
abbrev cc6_stg4_0 : Ref sig .tc := ⟨.vmem, 67, rfl⟩
abbrev cc6_stg5_0 : Ref sig .tc := ⟨.vmem, 68, rfl⟩
abbrev cc6_stg6_0 : Ref sig .tc := ⟨.vmem, 69, rfl⟩
abbrev cc6_stg7_0 : Ref sig .tc := ⟨.vmem, 70, rfl⟩
abbrev cc6_stg7_1 : Ref sig .tc := ⟨.vmem, 71, rfl⟩
abbrev cc7_stg0_0 : Ref sig .tc := ⟨.vmem, 72, rfl⟩
abbrev cc7_stg0_1 : Ref sig .tc := ⟨.vmem, 73, rfl⟩
abbrev cc7_stg1_0 : Ref sig .tc := ⟨.vmem, 74, rfl⟩
abbrev cc7_stg1_1 : Ref sig .tc := ⟨.vmem, 75, rfl⟩
abbrev cc7_stg2_0 : Ref sig .tc := ⟨.vmem, 76, rfl⟩
abbrev cc7_stg3_0 : Ref sig .tc := ⟨.vmem, 77, rfl⟩
abbrev cc7_stg4_0 : Ref sig .tc := ⟨.vmem, 78, rfl⟩
abbrev cc7_stg5_0 : Ref sig .tc := ⟨.vmem, 79, rfl⟩
abbrev cc7_stg6_0 : Ref sig .tc := ⟨.vmem, 80, rfl⟩
abbrev cc7_stg6_1 : Ref sig .tc := ⟨.vmem, 81, rfl⟩
abbrev cc8_stg0_0 : Ref sig .tc := ⟨.vmem, 82, rfl⟩
abbrev cc8_stg0_1 : Ref sig .tc := ⟨.vmem, 83, rfl⟩
abbrev cc8_stg1_0 : Ref sig .tc := ⟨.vmem, 84, rfl⟩
abbrev cc8_stg2_0 : Ref sig .tc := ⟨.vmem, 85, rfl⟩
abbrev cc8_stg3_0 : Ref sig .tc := ⟨.vmem, 86, rfl⟩
abbrev cc8_stg4_0 : Ref sig .tc := ⟨.vmem, 87, rfl⟩
abbrev cc8_stg5_0 : Ref sig .tc := ⟨.vmem, 88, rfl⟩
abbrev cc8_stg5_1 : Ref sig .tc := ⟨.vmem, 89, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem6_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem7_0 : DmaSem sig := 48
abbrev cc4_sem7_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem3_0 : DmaSem sig := 55
abbrev cc5_sem4_0 : DmaSem sig := 56
abbrev cc5_sem5_0 : DmaSem sig := 57
abbrev cc5_sem6_0 : DmaSem sig := 58
abbrev cc5_sem6_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem2_1 : DmaSem sig := 65
abbrev cc6_sem3_0 : DmaSem sig := 66
abbrev cc6_sem4_0 : DmaSem sig := 67
abbrev cc6_sem5_0 : DmaSem sig := 68
abbrev cc6_sem6_0 : DmaSem sig := 69
abbrev cc6_sem7_0 : DmaSem sig := 70
abbrev cc6_sem7_1 : DmaSem sig := 71
abbrev cc7_sem0_0 : DmaSem sig := 72
abbrev cc7_sem0_1 : DmaSem sig := 73
abbrev cc7_sem1_0 : DmaSem sig := 74
abbrev cc7_sem1_1 : DmaSem sig := 75
abbrev cc7_sem2_0 : DmaSem sig := 76
abbrev cc7_sem3_0 : DmaSem sig := 77
abbrev cc7_sem4_0 : DmaSem sig := 78
abbrev cc7_sem5_0 : DmaSem sig := 79
abbrev cc7_sem6_0 : DmaSem sig := 80
abbrev cc7_sem6_1 : DmaSem sig := 81
abbrev cc8_sem0_0 : DmaSem sig := 82
abbrev cc8_sem0_1 : DmaSem sig := 83
abbrev cc8_sem1_0 : DmaSem sig := 84
abbrev cc8_sem2_0 : DmaSem sig := 85
abbrev cc8_sem3_0 : DmaSem sig := 86
abbrev cc8_sem4_0 : DmaSem sig := 87
abbrev cc8_sem5_0 : DmaSem sig := 88
abbrev cc8_sem5_1 : DmaSem sig := 89

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S384x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S384x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S384x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x64 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S256x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S64x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S5000x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x1 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x1 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x1 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  shapeCasts_S64_S1x64 : S64.ShapeCasts S1x64
  inb_S5000x2_S5000x2_0_0 : ∀ a, (![0, 0] : Fin 2 → Nat) a + S5000x2.size a ≤ S5000x2.size a
  h_S5000x2 : 0 < S5000x2.numel
  bitsLt_bf16_f32 : FTy.bits .bf16 < FTy.bits .f32
  inb_S2x64_S2x64_0_0 : ∀ a, (![0, 0] : Fin 2 → Nat) a + S2x64.size a ≤ S2x64.size a
  h_S2x64 : 0 < S2x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  inb_S5000x3_S5000x3_0_0 : ∀ a, (![0, 0] : Fin 2 → Nat) a + S5000x3.size a ≤ S5000x3.size a
  h_S5000x3 : 0 < S5000x3.numel
  inb_S3x64_S3x64_0_0 : ∀ a, (![0, 0] : Fin 2 → Nat) a + S3x64.size a ≤ S3x64.size a
  h_S3x64 : 0 < S3x64.numel
  concatenates_S100000x64_S100000x64_S100000x128_d1 : Shape.Concatenates [S100000x64, S100000x64] S100000x128 1
  concatenates_S500000x64_S500000x64_S500000x128_d1 : Shape.Concatenates [S500000x64, S500000x64] S500000x128 1
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  bcast_S_S100000x128 : S_.BroadcastsInDim S100000x128 (![] : Fin 0 → Fin S100000x128.rank)
  slices_S3x384x64_S1x384x64_0_0_0 : S3x384x64.Slices ![0, 0, 0] S1x384x64
  shapeCasts_S1x384x64_S384x64 : S1x384x64.ShapeCasts S384x64
  slices_S3x64_S1x64_0_0 : S3x64.Slices ![0, 0] S1x64
  shapeCasts_S1x64_S64 : S1x64.ShapeCasts S64
  slices_S3x64x64_S1x64x64_0_0_0 : S3x64x64.Slices ![0, 0, 0] S1x64x64
  shapeCasts_S1x64x64_S64x64 : S1x64x64.ShapeCasts S64x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x128_S5000x384_d1 : Shape.Concatenates [S5000x128, S5000x128, S5000x128] S5000x384 1
  inb_S384x64_S384x64_0_0 : ∀ a, (![0, 0] : Fin 2 → Nat) a + S384x64.size a ≤ S384x64.size a
  h_S384x64 : 0 < S384x64.numel
  shapeCasts_S384x64_S384x64 : S384x64.ShapeCasts S384x64
  shapeCasts_S64x64_S64x64 : S64x64.ShapeCasts S64x64
  slices_S3x256x64_S1x256x64_0_0_0 : S3x256x64.Slices ![0, 0, 0] S1x256x64
  shapeCasts_S1x256x64_S256x64 : S1x256x64.ShapeCasts S256x64
  concatenates_S5000x128_S5000x128_S5000x256_d1 : Shape.Concatenates [S5000x128, S5000x128] S5000x256 1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  slices_S3x384x64_S1x384x64_1_0_0 : S3x384x64.Slices ![1, 0, 0] S1x384x64
  slices_S3x64_S1x64_1_0 : S3x64.Slices ![1, 0] S1x64
  slices_S3x64x64_S1x64x64_1_0_0 : S3x64x64.Slices ![1, 0, 0] S1x64x64
  slices_S3x256x64_S1x256x64_1_0_0 : S3x256x64.Slices ![1, 0, 0] S1x256x64
  slices_S3x384x64_S1x384x64_2_0_0 : S3x384x64.Slices ![2, 0, 0] S1x384x64
  slices_S3x64_S1x64_2_0 : S3x64.Slices ![2, 0] S1x64
  slices_S3x64x64_S1x64x64_2_0_0 : S3x64x64.Slices ![2, 0, 0] S1x64x64
  slices_S3x256x64_S1x256x64_2_0_0 : S3x256x64.Slices ![2, 0, 0] S1x256x64
  shapeCasts_S1_S1x1 : S1.ShapeCasts S1x1
  shapeCasts_S5000x64_S5000x64 : S5000x64.ShapeCasts S5000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  dot_S5000x2_S2x64_S5000x64_1_0_0_1_n_n_wf : DotDims.WF S5000x2 S2x64 S5000x64 [1] [0] [0] [1] [] []
  dot_S5000x64_S64x64_S5000x64_1_0_0_1_n_n_wf : DotDims.WF S5000x64 S64x64 S5000x64 [1] [0] [0] [1] [] []
  dot_S5000x3_S3x64_S5000x64_1_0_0_1_n_n_wf : DotDims.WF S5000x3 S3x64 S5000x64 [1] [0] [0] [1] [] []
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  dot_S5000x384_S384x64_S5000x64_1_0_0_1_n_n_wf : DotDims.WF S5000x384 S384x64 S5000x64 [1] [0] [0] [1] [] []
  dot_S5000x256_S256x64_S5000x64_1_0_0_1_n_n_wf : DotDims.WF S5000x256 S256x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x2.size a ≤ S100000x2.size a
  hwx0_0 : ∀ i : grid0.Coords, EltTy.bits .f32 = 32 ∨ (Rect.block (s := S100000x2) S5000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x64.size a ≤ S2x64.size a
  hwx0_1 : ∀ i : grid0.Coords, EltTy.bits .f32 = 32 ∨ (Rect.block (s := S2x64) S2x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x3.size a ≤ S500000x3.size a
  hwx1_0 : ∀ i : grid1.Coords, EltTy.bits .f32 = 32 ∨ (Rect.block (s := S500000x3) S5000x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x64.size a ≤ S3x64.size a
  hwx1_1 : ∀ i : grid1.Coords, EltTy.bits .f32 = 32 ∨ (Rect.block (s := S3x64) S3x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S500000x64.size a
  hwx1_5 : ∀ i : grid1.Coords, EltTy.bits .f32 = 32 ∨ (Rect.block (s := S500000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S500000x128.size a
  hwx2_0 : ∀ i : grid2.Coords, EltTy.bits .f32 = 32 ∨ (Rect.block (s := S500000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S500000x128.size a
  hwx2_1 : ∀ i : grid2.Coords, EltTy.bits .f32 = 32 ∨ (Rect.block (s := S500000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S500000x128.size a
  hwx2_2 : ∀ i : grid2.Coords, EltTy.bits .f32 = 32 ∨ (Rect.block (s := S500000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S384x64.size a ≤ S384x64.size a
  hwx2_3 : ∀ i : grid2.Coords, EltTy.bits .f32 = 32 ∨ (Rect.block (s := S384x64) S384x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S500000x64.size a
  hwx2_7 : ∀ i : grid2.Coords, EltTy.bits .f32 = 32 ∨ (Rect.block (s := S500000x64) S5000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x64.size a ≤ S256x64.size a
  hwx3_2 : ∀ i : grid3.Coords, EltTy.bits .f32 = 32 ∨ (Rect.block (s := S256x64) S256x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S500000x128.size a
  hwx4_0 : ∀ i : grid4.Coords, EltTy.bits .f32 = 32 ∨ (Rect.block (s := S500000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S500000x128.size a
  hwx4_1 : ∀ i : grid4.Coords, EltTy.bits .f32 = 32 ∨ (Rect.block (s := S500000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S500000x128.size a
  hwx4_2 : ∀ i : grid4.Coords, EltTy.bits .f32 = 32 ∨ (Rect.block (s := S500000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S384x64.size a ≤ S384x64.size a
  hwx4_3 : ∀ i : grid4.Coords, EltTy.bits .f32 = 32 ∨ (Rect.block (s := S384x64) S384x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x64.size a ≤ S500000x64.size a
  hwx4_7 : ∀ i : grid4.Coords, EltTy.bits .f32 = 32 ∨ (Rect.block (s := S500000x64) S5000x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x64.size a ≤ S256x64.size a
  hwx5_2 : ∀ i : grid5.Coords, EltTy.bits .f32 = 32 ∨ (Rect.block (s := S256x64) S256x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S100000x64.size a
  hwx5_6 : ∀ i : grid5.Coords, EltTy.bits .f32 = 32 ∨ (Rect.block (s := S100000x64) S5000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S500000x128.size a
  hwx6_0 : ∀ i : grid6.Coords, EltTy.bits .f32 = 32 ∨ (Rect.block (s := S500000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S500000x128.size a
  hwx6_1 : ∀ i : grid6.Coords, EltTy.bits .f32 = 32 ∨ (Rect.block (s := S500000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S500000x128.size a
  hwx6_2 : ∀ i : grid6.Coords, EltTy.bits .f32 = 32 ∨ (Rect.block (s := S500000x128) S5000x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S384x64.size a ≤ S384x64.size a
  hwx6_3 : ∀ i : grid6.Coords, EltTy.bits .f32 = 32 ∨ (Rect.block (s := S384x64) S384x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x64.size a ≤ S64x64.size a
  hwx6_5 : ∀ i : grid6.Coords, EltTy.bits .f32 = 32 ∨ (Rect.block (s := S64x64) S64x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x64.size a ≤ S500000x64.size a
  hwx6_7 : ∀ i : grid6.Coords, EltTy.bits .f32 = 32 ∨ (Rect.block (s := S500000x64) S5000x64.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S256x64.size a ≤ S256x64.size a
  hwx7_2 : ∀ i : grid7.Coords, EltTy.bits .f32 = 32 ∨ (Rect.block (s := S256x64) S256x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S64x64.size a ≤ S64x64.size a
  hwx7_4 : ∀ i : grid7.Coords, EltTy.bits .f32 = 32 ∨ (Rect.block (s := S64x64) S64x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x64.size a ≤ S100000x64.size a
  hwx7_6 : ∀ i : grid7.Coords, EltTy.bits .f32 = 32 ∨ (Rect.block (s := S100000x64) S5000x64.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x1.size a ≤ S64x1.size a
  hwx8_3 : ∀ i : grid8.Coords, EltTy.bits .f32 = 32 ∨ (Rect.block (s := S64x1) S64x1.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x1.size a ≤ S1x1.size a
  hwx8_4 : ∀ i : grid8.Coords, EltTy.bits .f32 = 32 ∨ (Rect.block (s := S1x1) S1x1.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x1.size a ≤ S100000x1.size a
  hwx8_5 : ∀ i : grid8.Coords, EltTy.bits .f32 = 32 ∨ (Rect.block (s := S100000x1) S5000x1.size (cc8_transform_5 i) (hinb8_5 i)).WholeWords (EltTy.packing .f32)

variable [Facts₀]

def dot_S5000x2_S2x64_S5000x64_1_0_0_1_n_n : DotDims S5000x2 S2x64 S5000x64 where
  lhsContracting := [1]
  rhsContracting := [0]
  lhsNonContracting := [0]
  rhsNonContracting := [1]
  lhsBatch := []
  rhsBatch := []
  wf := dot_S5000x2_S2x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x3_S3x64_S5000x64_1_0_0_1_n_n : DotDims S5000x3 S3x64 S5000x64 where
  lhsContracting := [1]
  rhsContracting := [0]
  lhsNonContracting := [0]
  rhsNonContracting := [1]
  lhsBatch := []
  rhsBatch := []
  wf := dot_S5000x3_S3x64_S5000x64_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S5000x384_S384x64_S5000x64_1_0_0_1_n_n : DotDims S5000x384 S384x64 S5000x64 where
  lhsContracting := [1]
  rhsContracting := [0]
  lhsNonContracting := [0]
  rhsNonContracting := [1]
  lhsBatch := []
  rhsBatch := []
  wf := dot_S5000x384_S384x64_S5000x64_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S5000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S3x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v11) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v18) S384x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v22) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v26) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v27) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v10) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29) S256x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v36) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v33) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v37) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v38) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v40) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v42) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v47) S384x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v54) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v51) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v55) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v56) S5000x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v39) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v45) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v58) S256x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v65) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v62) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v66) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v67) S5000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v69) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v70) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v71) S5000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v76) S384x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v83) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v80) S64x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v84) S1x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v85) S5000x64.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v68) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v74) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v87) S256x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v94) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v91) S64x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v95) S1x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v96) S5000x64.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v96) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg18) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v97) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg20) S64x1.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v98) S1x1.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v99) S5000x1.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S100000x2 : Shape := ⟨2, ![100000, 2]⟩
abbrev S500000x3 : Shape := ⟨2, ![500000, 3]⟩
abbrev S2x64 : Shape := ⟨2, ![2, 64]⟩
abbrev S64 : Shape := ⟨1, ![64]⟩
abbrev S64x64 : Shape := ⟨2, ![64, 64]⟩
abbrev S3x64 : Shape := ⟨2, ![3, 64]⟩
abbrev S3x384x64 : Shape := ⟨3, ![3, 384, 64]⟩
abbrev S3x64x64 : Shape := ⟨3, ![3, 64, 64]⟩
abbrev S3x256x64 : Shape := ⟨3, ![3, 256, 64]⟩
abbrev S64x1 : Shape := ⟨2, ![64, 1]⟩
abbrev S1 : Shape := ⟨1, ![1]⟩
abbrev S2x500000 : Shape := ⟨2, ![2, 500000]⟩
abbrev S1x500000 : Shape := ⟨2, ![1, 500000]⟩
abbrev S500000 : Shape := ⟨1, ![500000]⟩
abbrev S100000x64 : Shape := ⟨2, ![100000, 64]⟩
abbrev S1x64 : Shape := ⟨2, ![1, 64]⟩
abbrev S_ : Shape := ⟨0, ![]⟩
abbrev S500000x64 : Shape := ⟨2, ![500000, 64]⟩
abbrev S100000x128 : Shape := ⟨2, ![100000, 128]⟩
abbrev S500000x128 : Shape := ⟨2, ![500000, 128]⟩
abbrev S500000x1 : Shape := ⟨2, ![500000, 1]⟩
abbrev S500000x384 : Shape := ⟨2, ![500000, 384]⟩
abbrev S100000x256 : Shape := ⟨2, ![100000, 256]⟩
abbrev S1x256x64 : Shape := ⟨3, ![1, 256, 64]⟩
abbrev S256x64 : Shape := ⟨2, ![256, 64]⟩
abbrev S1x64x64 : Shape := ⟨3, ![1, 64, 64]⟩
abbrev S1x384x64 : Shape := ⟨3, ![1, 384, 64]⟩
abbrev S384x64 : Shape := ⟨2, ![384, 64]⟩
abbrev S100000x1 : Shape := ⟨2, ![100000, 1]⟩
abbrev S1x1 : Shape := ⟨2, ![1, 1]⟩

abbrev nBuf : Space → Nat
  | .hbm => 276
  | .vmem => 0
  | .smem => 0
  | _ => 0

abbrev hbmTy0_0 (i : Nat) : BufTy := match i % 128 with
  | 0 => ⟨S100000x2, .f32⟩
  | 1 => ⟨S500000x3, .f32⟩
  | 2 => ⟨S2x64, .f32⟩
  | 3 => ⟨S64, .f32⟩
  | 4 => ⟨S64x64, .f32⟩
  | 5 => ⟨S64, .f32⟩
  | 6 => ⟨S3x64, .f32⟩
  | 7 => ⟨S64, .f32⟩
  | 8 => ⟨S64x64, .f32⟩
  | 9 => ⟨S64, .f32⟩
  | 10 => ⟨S3x384x64, .f32⟩
  | 11 => ⟨S3x64, .f32⟩
  | 12 => ⟨S3x64x64, .f32⟩
  | 13 => ⟨S3x64, .f32⟩
  | 14 => ⟨S3x256x64, .f32⟩
  | 15 => ⟨S3x64, .f32⟩
  | 16 => ⟨S3x64x64, .f32⟩
  | 17 => ⟨S3x64, .f32⟩
  | 18 => ⟨S64x64, .f32⟩
  | 19 => ⟨S64, .f32⟩
  | 20 => ⟨S64x1, .f32⟩
  | 21 => ⟨S1, .f32⟩
  | 22 => ⟨S2x500000, .i32⟩
  | 23 => ⟨S1x500000, .i32⟩
  | 24 => ⟨S500000, .i32⟩
  | 25 => ⟨S1x500000, .i32⟩
  | 26 => ⟨S500000, .i32⟩
  | 27 => ⟨S100000x64, .f32⟩
  | 28 => ⟨S1x64, .f32⟩
  | 29 => ⟨S100000x64, .f32⟩
  | 30 => ⟨S100000x64, .f32⟩
  | 31 => ⟨S_, .f32⟩
  | 32 => ⟨S100000x64, .f32⟩
  | 33 => ⟨S100000x64, .f32⟩
  | 34 => ⟨S100000x64, .f32⟩
  | 35 => ⟨S1x64, .f32⟩
  | 36 => ⟨S100000x64, .f32⟩
  | 37 => ⟨S100000x64, .f32⟩
  | 38 => ⟨S_, .f32⟩
  | 39 => ⟨S100000x64, .f32⟩
  | 40 => ⟨S100000x64, .f32⟩
  | 41 => ⟨S500000x64, .f32⟩
  | 42 => ⟨S1x64, .f32⟩
  | 43 => ⟨S500000x64, .f32⟩
  | 44 => ⟨S500000x64, .f32⟩
  | 45 => ⟨S_, .f32⟩
  | 46 => ⟨S500000x64, .f32⟩
  | 47 => ⟨S500000x64, .f32⟩
  | 48 => ⟨S500000x64, .f32⟩
  | 49 => ⟨S1x64, .f32⟩
  | 50 => ⟨S500000x64, .f32⟩
  | 51 => ⟨S500000x64, .f32⟩
  | 52 => ⟨S_, .f32⟩
  | 53 => ⟨S500000x64, .f32⟩
  | 54 => ⟨S500000x64, .f32⟩
  | 55 => ⟨S100000x128, .f32⟩
  | 56 => ⟨S500000x128, .f32⟩
  | 57 => ⟨S_, .i32⟩
  | 58 => ⟨S500000, .i32⟩
  | 59 => ⟨S500000, .i1⟩
  | 60 => ⟨S_, .i32⟩
  | 61 => ⟨S500000, .i32⟩
  | 62 => ⟨S500000, .i32⟩
  | 63 => ⟨S500000, .i32⟩
  | 64 => ⟨S500000x1, .i32⟩
  | 65 => ⟨S500000x128, .f32⟩
  | 66 => ⟨S_, .i32⟩
  | 67 => ⟨S500000, .i32⟩
  | 68 => ⟨S500000, .i1⟩
  | 69 => ⟨S_, .i32⟩
  | 70 => ⟨S500000, .i32⟩
  | 71 => ⟨S500000, .i32⟩
  | 72 => ⟨S500000, .i32⟩
  | 73 => ⟨S500000x1, .i32⟩
  | 74 => ⟨S500000x128, .f32⟩
  | 75 => ⟨S500000x384, .f32⟩
  | 76 => ⟨S_, .f32⟩
  | 77 => ⟨S100000x128, .f32⟩
  | 78 => ⟨S500000x1, .i32⟩
  | 79 => ⟨S100000x128, .f32⟩
  | 80 => ⟨S100000x256, .f32⟩
  | 81 => ⟨S1x256x64, .f32⟩
  | 82 => ⟨S256x64, .f32⟩
  | 83 => ⟨S1x64, .f32⟩
  | 84 => ⟨S64, .f32⟩
  | 85 => ⟨S1x64x64, .f32⟩
  | 86 => ⟨S64x64, .f32⟩
  | 87 => ⟨S1x64, .f32⟩
  | 88 => ⟨S64, .f32⟩
  | 89 => ⟨S100000x64, .f32⟩
  | 90 => ⟨S1x64, .f32⟩
  | 91 => ⟨S100000x64, .f32⟩
  | 92 => ⟨S100000x64, .f32⟩
  | 93 => ⟨S_, .f32⟩
  | 94 => ⟨S100000x64, .f32⟩
  | 95 => ⟨S100000x64, .f32⟩
  | 96 => ⟨S100000x64, .f32⟩
  | 97 => ⟨S1x64, .f32⟩
  | 98 => ⟨S100000x64, .f32⟩
  | 99 => ⟨S100000x64, .f32⟩
  | 100 => ⟨S_, .f32⟩
  | 101 => ⟨S100000x64, .f32⟩
  | 102 => ⟨S100000x64, .f32⟩
  | 103 => ⟨S1x384x64, .f32⟩
  | 104 => ⟨S384x64, .f32⟩
  | 105 => ⟨S1x64, .f32⟩
  | 106 => ⟨S64, .f32⟩
  | 107 => ⟨S1x64x64, .f32⟩
  | 108 => ⟨S64x64, .f32⟩
  | 109 => ⟨S1x64, .f32⟩
  | 110 => ⟨S64, .f32⟩
  | 111 => ⟨S500000x64, .f32⟩
  | 112 => ⟨S1x64, .f32⟩
  | 113 => ⟨S500000x64, .f32⟩
  | 114 => ⟨S500000x64, .f32⟩
  | 115 => ⟨S_, .f32⟩
  | 116 => ⟨S500000x64, .f32⟩
  | 117 => ⟨S500000x64, .f32⟩
  | 118 => ⟨S500000x64, .f32⟩
  | 119 => ⟨S1x64, .f32⟩
  | 120 => ⟨S500000x64, .f32⟩
  | 121 => ⟨S500000x64, .f32⟩
  | 122 => ⟨S_, .f32⟩
  | 123 => ⟨S500000x64, .f32⟩
  | 124 => ⟨S500000x64, .f32⟩
  | 125 => ⟨S100000x128, .f32⟩
  | 126 => ⟨S500000x128, .f32⟩
  | 127 => ⟨S_, .i32⟩
  | _ => ⟨S100000x2, .f32⟩

abbrev hbmTy0_1 (i : Nat) : BufTy := match i % 128 with
  | 0 => ⟨S500000, .i32⟩
  | 1 => ⟨S500000, .i1⟩
  | 2 => ⟨S_, .i32⟩
  | 3 => ⟨S500000, .i32⟩
  | 4 => ⟨S500000, .i32⟩
  | 5 => ⟨S500000, .i32⟩
  | 6 => ⟨S500000x1, .i32⟩
  | 7 => ⟨S500000x128, .f32⟩
  | 8 => ⟨S_, .i32⟩
  | 9 => ⟨S500000, .i32⟩
  | 10 => ⟨S500000, .i1⟩
  | 11 => ⟨S_, .i32⟩
  | 12 => ⟨S500000, .i32⟩
  | 13 => ⟨S500000, .i32⟩
  | 14 => ⟨S500000, .i32⟩
  | 15 => ⟨S500000x1, .i32⟩
  | 16 => ⟨S500000x128, .f32⟩
  | 17 => ⟨S500000x384, .f32⟩
  | 18 => ⟨S_, .f32⟩
  | 19 => ⟨S100000x128, .f32⟩
  | 20 => ⟨S500000x1, .i32⟩
  | 21 => ⟨S100000x128, .f32⟩
  | 22 => ⟨S100000x256, .f32⟩
  | 23 => ⟨S1x256x64, .f32⟩
  | 24 => ⟨S256x64, .f32⟩
  | 25 => ⟨S1x64, .f32⟩
  | 26 => ⟨S64, .f32⟩
  | 27 => ⟨S1x64x64, .f32⟩
  | 28 => ⟨S64x64, .f32⟩
  | 29 => ⟨S1x64, .f32⟩
  | 30 => ⟨S64, .f32⟩
  | 31 => ⟨S100000x64, .f32⟩
  | 32 => ⟨S1x64, .f32⟩
  | 33 => ⟨S100000x64, .f32⟩
  | 34 => ⟨S100000x64, .f32⟩
  | 35 => ⟨S_, .f32⟩
  | 36 => ⟨S100000x64, .f32⟩
  | 37 => ⟨S100000x64, .f32⟩
  | 38 => ⟨S100000x64, .f32⟩
  | 39 => ⟨S1x64, .f32⟩
  | 40 => ⟨S100000x64, .f32⟩
  | 41 => ⟨S100000x64, .f32⟩
  | 42 => ⟨S_, .f32⟩
  | 43 => ⟨S100000x64, .f32⟩
  | 44 => ⟨S100000x64, .f32⟩
  | 45 => ⟨S1x384x64, .f32⟩
  | 46 => ⟨S384x64, .f32⟩
  | 47 => ⟨S1x64, .f32⟩
  | 48 => ⟨S64, .f32⟩
  | 49 => ⟨S1x64x64, .f32⟩
  | 50 => ⟨S64x64, .f32⟩
  | 51 => ⟨S1x64, .f32⟩
  | 52 => ⟨S64, .f32⟩
  | 53 => ⟨S500000x64, .f32⟩
  | 54 => ⟨S1x64, .f32⟩
  | 55 => ⟨S500000x64, .f32⟩
  | 56 => ⟨S500000x64, .f32⟩
  | 57 => ⟨S_, .f32⟩
  | 58 => ⟨S500000x64, .f32⟩
  | 59 => ⟨S500000x64, .f32⟩
  | 60 => ⟨S500000x64, .f32⟩
  | 61 => ⟨S1x64, .f32⟩
  | 62 => ⟨S500000x64, .f32⟩
  | 63 => ⟨S500000x64, .f32⟩
  | 64 => ⟨S_, .f32⟩
  | 65 => ⟨S500000x64, .f32⟩
  | 66 => ⟨S500000x64, .f32⟩
  | 67 => ⟨S100000x128, .f32⟩
  | 68 => ⟨S500000x128, .f32⟩
  | 69 => ⟨S_, .i32⟩
  | 70 => ⟨S500000, .i32⟩
  | 71 => ⟨S500000, .i1⟩
  | 72 => ⟨S_, .i32⟩
  | 73 => ⟨S500000, .i32⟩
  | 74 => ⟨S500000, .i32⟩
  | 75 => ⟨S500000, .i32⟩
  | 76 => ⟨S500000x1, .i32⟩
  | 77 => ⟨S500000x128, .f32⟩
  | 78 => ⟨S_, .i32⟩
  | 79 => ⟨S500000, .i32⟩
  | 80 => ⟨S500000, .i1⟩
  | 81 => ⟨S_, .i32⟩
  | 82 => ⟨S500000, .i32⟩
  | 83 => ⟨S500000, .i32⟩
  | 84 => ⟨S500000, .i32⟩
  | 85 => ⟨S500000x1, .i32⟩
  | 86 => ⟨S500000x128, .f32⟩
  | 87 => ⟨S500000x384, .f32⟩
  | 88 => ⟨S_, .f32⟩
  | 89 => ⟨S100000x128, .f32⟩
  | 90 => ⟨S500000x1, .i32⟩
  | 91 => ⟨S100000x128, .f32⟩
  | 92 => ⟨S100000x256, .f32⟩
  | 93 => ⟨S1x256x64, .f32⟩
  | 94 => ⟨S256x64, .f32⟩
  | 95 => ⟨S1x64, .f32⟩
  | 96 => ⟨S64, .f32⟩
  | 97 => ⟨S1x64x64, .f32⟩
  | 98 => ⟨S64x64, .f32⟩
  | 99 => ⟨S1x64, .f32⟩
  | 100 => ⟨S64, .f32⟩
  | 101 => ⟨S100000x64, .f32⟩
  | 102 => ⟨S1x64, .f32⟩
  | 103 => ⟨S100000x64, .f32⟩
  | 104 => ⟨S100000x64, .f32⟩
  | 105 => ⟨S_, .f32⟩
  | 106 => ⟨S100000x64, .f32⟩
  | 107 => ⟨S100000x64, .f32⟩
  | 108 => ⟨S100000x64, .f32⟩
  | 109 => ⟨S1x64, .f32⟩
  | 110 => ⟨S100000x64, .f32⟩
  | 111 => ⟨S100000x64, .f32⟩
  | 112 => ⟨S_, .f32⟩
  | 113 => ⟨S100000x64, .f32⟩
  | 114 => ⟨S100000x64, .f32⟩
  | 115 => ⟨S1x384x64, .f32⟩
  | 116 => ⟨S384x64, .f32⟩
  | 117 => ⟨S1x64, .f32⟩
  | 118 => ⟨S64, .f32⟩
  | 119 => ⟨S1x64x64, .f32⟩
  | 120 => ⟨S64x64, .f32⟩
  | 121 => ⟨S1x64, .f32⟩
  | 122 => ⟨S64, .f32⟩
  | 123 => ⟨S500000x64, .f32⟩
  | 124 => ⟨S1x64, .f32⟩
  | 125 => ⟨S500000x64, .f32⟩
  | 126 => ⟨S500000x64, .f32⟩
  | 127 => ⟨S_, .f32⟩
  | _ => ⟨S100000x2, .f32⟩

abbrev hbmTy0_2 (i : Nat) : BufTy := match i % 128 with
  | 0 => ⟨S500000x64, .f32⟩
  | 1 => ⟨S500000x64, .f32⟩
  | 2 => ⟨S500000x64, .f32⟩
  | 3 => ⟨S1x64, .f32⟩
  | 4 => ⟨S500000x64, .f32⟩
  | 5 => ⟨S500000x64, .f32⟩
  | 6 => ⟨S_, .f32⟩
  | 7 => ⟨S500000x64, .f32⟩
  | 8 => ⟨S500000x64, .f32⟩
  | 9 => ⟨S100000x64, .f32⟩
  | 10 => ⟨S1x64, .f32⟩
  | 11 => ⟨S100000x64, .f32⟩
  | 12 => ⟨S100000x64, .f32⟩
  | 13 => ⟨S_, .f32⟩
  | 14 => ⟨S100000x64, .f32⟩
  | 15 => ⟨S100000x64, .f32⟩
  | 16 => ⟨S100000x1, .f32⟩
  | 17 => ⟨S1x1, .f32⟩
  | 18 => ⟨S100000x1, .f32⟩
  | 19 => ⟨S100000x1, .f32⟩
  | _ => ⟨S100000x2, .f32⟩

abbrev hbmTy (i : Nat) : BufTy := match i / 128 with
  | 0 => hbmTy0_0 i
  | 1 => hbmTy0_1 i
  | 2 => hbmTy0_2 i
  | _ => ⟨S100000x2, .f32⟩

abbrev bufTy : (tb : Table) → Fin (tcTables nBuf tb) → BufTy
  | .hbm, ⟨i, _⟩ => hbmTy i
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_call0_cst : Ref sig .tc := ⟨.hbm, 31, rfl⟩
abbrev main_call0_v0 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_call1_cst : Ref sig .tc := ⟨.hbm, 38, rfl⟩
abbrev main_call1_v0 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_call2_cst : Ref sig .tc := ⟨.hbm, 45, rfl⟩
abbrev main_call2_v0 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_call3_cst : Ref sig .tc := ⟨.hbm, 52, rfl⟩
abbrev main_call3_v0 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_c : Ref sig .tc := ⟨.hbm, 57, rfl⟩
abbrev main_v26 : Ref sig .tc := ⟨.hbm, 58, rfl⟩
abbrev main_v27 : Ref sig .tc := ⟨.hbm, 59, rfl⟩
abbrev main_c_0 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_c_1 : Ref sig .tc := ⟨.hbm, 66, rfl⟩
abbrev main_v33 : Ref sig .tc := ⟨.hbm, 67, rfl⟩
abbrev main_v34 : Ref sig .tc := ⟨.hbm, 68, rfl⟩
abbrev main_c_2 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_call4_cst : Ref sig .tc := ⟨.hbm, 93, rfl⟩
abbrev main_call4_v0 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_call5_cst : Ref sig .tc := ⟨.hbm, 100, rfl⟩
abbrev main_call5_v0 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_call6_cst : Ref sig .tc := ⟨.hbm, 115, rfl⟩
abbrev main_call6_v0 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_call7_cst : Ref sig .tc := ⟨.hbm, 122, rfl⟩
abbrev main_call7_v0 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_c_3 : Ref sig .tc := ⟨.hbm, 127, rfl⟩
abbrev main_v83 : Ref sig .tc := ⟨.hbm, 128, rfl⟩
abbrev main_v84 : Ref sig .tc := ⟨.hbm, 129, rfl⟩
abbrev main_c_4 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_c_5 : Ref sig .tc := ⟨.hbm, 136, rfl⟩
abbrev main_v90 : Ref sig .tc := ⟨.hbm, 137, rfl⟩
abbrev main_v91 : Ref sig .tc := ⟨.hbm, 138, rfl⟩
abbrev main_c_6 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_cst_7 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_call8_cst : Ref sig .tc := ⟨.hbm, 163, rfl⟩
abbrev main_call8_v0 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_call9_cst : Ref sig .tc := ⟨.hbm, 170, rfl⟩
abbrev main_call9_v0 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_call10_cst : Ref sig .tc := ⟨.hbm, 185, rfl⟩
abbrev main_call10_v0 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_call11_cst : Ref sig .tc := ⟨.hbm, 192, rfl⟩
abbrev main_call11_v0 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_c_8 : Ref sig .tc := ⟨.hbm, 197, rfl⟩
abbrev main_v140 : Ref sig .tc := ⟨.hbm, 198, rfl⟩
abbrev main_v141 : Ref sig .tc := ⟨.hbm, 199, rfl⟩
abbrev main_c_9 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_c_10 : Ref sig .tc := ⟨.hbm, 206, rfl⟩
abbrev main_v147 : Ref sig .tc := ⟨.hbm, 207, rfl⟩
abbrev main_v148 : Ref sig .tc := ⟨.hbm, 208, rfl⟩
abbrev main_c_11 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_cst_12 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_call12_cst : Ref sig .tc := ⟨.hbm, 233, rfl⟩
abbrev main_call12_v0 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_call13_cst : Ref sig .tc := ⟨.hbm, 240, rfl⟩
abbrev main_call13_v0 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_call14_cst : Ref sig .tc := ⟨.hbm, 255, rfl⟩
abbrev main_call14_v0 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_call15_cst : Ref sig .tc := ⟨.hbm, 262, rfl⟩
abbrev main_call15_v0 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_call16_cst : Ref sig .tc := ⟨.hbm, 269, rfl⟩
abbrev main_call16_v0 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  concatenates_S100000x64_S100000x64_S100000x128_d1 : Shape.Concatenates [S100000x64, S100000x64] S100000x128 1
  concatenates_S500000x64_S500000x64_S500000x128_d1 : Shape.Concatenates [S500000x64, S500000x64] S500000x128 1
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  bcast_S_S100000x128 : S_.BroadcastsInDim S100000x128 (![] : Fin 0 → Fin S100000x128.rank)
  concatenates_S100000x128_S100000x128_S100000x256_d1 : Shape.Concatenates [S100000x128, S100000x128] S100000x256 1
  slices_S3x256x64_S1x256x64_0_0_0 : S3x256x64.Slices ![0, 0, 0] S1x256x64
  shapeCasts_S1x256x64_S256x64 : S1x256x64.ShapeCasts S256x64
  slices_S3x64_S1x64_0_0 : S3x64.Slices ![0, 0] S1x64
  shapeCasts_S1x64_S64 : S1x64.ShapeCasts S64
  slices_S3x64x64_S1x64x64_0_0_0 : S3x64x64.Slices ![0, 0, 0] S1x64x64
  shapeCasts_S1x64x64_S64x64 : S1x64x64.ShapeCasts S64x64
  slices_S3x384x64_S1x384x64_0_0_0 : S3x384x64.Slices ![0, 0, 0] S1x384x64
  shapeCasts_S1x384x64_S384x64 : S1x384x64.ShapeCasts S384x64
  slices_S3x256x64_S1x256x64_1_0_0 : S3x256x64.Slices ![1, 0, 0] S1x256x64
  slices_S3x64_S1x64_1_0 : S3x64.Slices ![1, 0] S1x64
  slices_S3x64x64_S1x64x64_1_0_0 : S3x64x64.Slices ![1, 0, 0] S1x64x64
  slices_S3x384x64_S1x384x64_1_0_0 : S3x384x64.Slices ![1, 0, 0] S1x384x64
  slices_S3x256x64_S1x256x64_2_0_0 : S3x256x64.Slices ![2, 0, 0] S1x256x64
  slices_S3x64_S1x64_2_0 : S3x64.Slices ![2, 0] S1x64
  slices_S3x64x64_S1x64x64_2_0_0 : S3x64x64.Slices ![2, 0, 0] S1x64x64
  slices_S3x384x64_S1x384x64_2_0_0 : S3x384x64.Slices ![2, 0, 0] S1x384x64
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x2_S2x64_S100000x64_1_0_0_1_n_n_wf : DotDims.WF S100000x2 S2x64 S100000x64 [1] [0] [0] [1] [] []
  dot_S100000x64_S64x64_S100000x64_1_0_0_1_n_n_wf : DotDims.WF S100000x64 S64x64 S100000x64 [1] [0] [0] [1] [] []
  dot_S500000x3_S3x64_S500000x64_1_0_0_1_n_n_wf : DotDims.WF S500000x3 S3x64 S500000x64 [1] [0] [0] [1] [] []
  dot_S500000x64_S64x64_S500000x64_1_0_0_1_n_n_wf : DotDims.WF S500000x64 S64x64 S500000x64 [1] [0] [0] [1] [] []
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  dot_S100000x256_S256x64_S100000x64_1_0_0_1_n_n_wf : DotDims.WF S100000x256 S256x64 S100000x64 [1] [0] [0] [1] [] []
  dot_S500000x384_S384x64_S500000x64_1_0_0_1_n_n_wf : DotDims.WF S500000x384 S384x64 S500000x64 [1] [0] [0] [1] [] []
  dot_S100000x64_S64x1_S100000x1_1_0_0_1_n_n_wf : DotDims.WF S100000x64 S64x1 S100000x1 [1] [0] [0] [1] [] []

variable [Facts₀]

def dot_S100000x2_S2x64_S100000x64_1_0_0_1_n_n : DotDims S100000x2 S2x64 S100000x64 where
  lhsContracting := [1]
  rhsContracting := [0]
  lhsNonContracting := [0]
  rhsNonContracting := [1]
  lhsBatch := []
  rhsBatch := []
  wf := dot_S100000x2_S2x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S500000x3_S3x64_S500000x64_1_0_0_1_n_n : DotDims S500000x3 S3x64 S500000x64 where
  lhsContracting := [1]
  rhsContracting := [0]
  lhsNonContracting := [0]
  rhsNonContracting := [1]
  lhsBatch := []
  rhsBatch := []
  wf := dot_S500000x3_S3x64_S500000x64_1_0_0_1_n_n_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def dot_S500000x384_S384x64_S500000x64_1_0_0_1_n_n : DotDims S500000x384 S384x64 S500000x64 where
  lhsContracting := [1]
  rhsContracting := [0]
  lhsNonContracting := [0]
  rhsNonContracting := [1]
  lhsBatch := []
  rhsBatch := []
  wf := dot_S500000x384_S384x64_S500000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.LibRows.lean ====
/-
  Row-wise dense layers on extended reals, and the two spellings of each piece that a tiled kernel and a host
  program use, read at an index.

  A two-layer perceptron applied to every row of a matrix is a function of that row alone; so it does not matter
  whether it is evaluated on the whole matrix or on a block of rows at a time.  This file fixes the row function
  (`mlpRow`, `decRow`), the matrix function (`mlpArr`, `decArr`), and reads the operations from which the two
  programs build it — the product into a zero accumulator, the host product, a bias laid along the rows in either
  spelling, a lane concatenation — at an index, in the one form both sides meet.
-/
import Idealize.ShloMosaic.Lib.ValueIdx
import Idealize.ShloMosaic.Lib.Pipeline.Value
import Idealize.ShloMosaic.PureOps.Ideal.Laws
import Idealize.ShloMosaic.Lib.StackMember

noncomputable section

namespace Cert.Rows

open Idealize.ShloMosaic Idealize.ShloMosaic.ValueIdx
open scoped BigOperators

/-- A matrix of extended reals with `R` rows and `C` columns. -/
abbrev Arr2 (R C : Nat) := (⟨2, ![R, C]⟩ : Shape).Idx → EReal
/-- A vector of extended reals with `C` entries. -/
abbrev Arr1 (C : Nat) := (⟨1, ![C]⟩ : Shape).Idx → EReal

/-- The value of the zero word: what a rectifier compares with. -/
abbrev z32 : EReal := Ideal.ofBits .f32 0x00000000#32

/-- Row `r` of a matrix. -/
def rowOf {R K : Nat} (X : Arr2 R K) (r : Fin R) : Fin K → EReal := fun c => X (ix2 r c)

/-- One dense layer on one row: `x · W + b`. -/
def denseRow {K C : Nat} (x : Fin K → EReal) (W : Arr2 K C) (b : Fin C → EReal) : Fin C → EReal :=
  fun q => (∑ c : Fin K, x c * W (ix2 c q)) + b q

/-- The rectifier on one row. -/
def reluRow {C : Nat} (v : Fin C → EReal) : Fin C → EReal := fun q => max (v q) z32

/-- Two dense layers, each followed by the rectifier. -/
def mlpRow {K H C : Nat} (x : Fin K → EReal) (W1 : Arr2 K H) (b1 : Fin H → EReal) (W2 : Arr2 H C) (b2 : Fin C → EReal) :
    Fin C → EReal := reluRow (denseRow (reluRow (denseRow x W1 b1)) W2 b2)

/-- Two dense layers with the rectifier between them only. -/
def decRow {K H C : Nat} (x : Fin K → EReal) (W1 : Arr2 K H) (b1 : Fin H → EReal) (W2 : Arr2 H C) (b2 : Fin C → EReal) :
    Fin C → EReal := denseRow (reluRow (denseRow x W1 b1)) W2 b2

/-- Two rows laid end to end. -/
def cat2Row {A B N : Nat} (h : A + B = N) (a : Fin A → EReal) (b : Fin B → EReal) : Fin N → EReal :=
  fun k => if hk : k.val < A then a ⟨k.val, hk⟩ else b ⟨k.val - A, by have := k.isLt; omega⟩

/-- Three rows laid end to end. -/
def cat3Row {A B C N : Nat} (h : A + B + C = N) (a : Fin A → EReal) (b : Fin B → EReal) (c : Fin C → EReal) : Fin N → EReal :=
  fun k => if hk : k.val < A then a ⟨k.val, hk⟩
    else if hk2 : k.val < A + B then b ⟨k.val - A, by omega⟩
    else c ⟨k.val - (A + B), by have := k.isLt; omega⟩

/-- A vector's entries by position. -/
def vecOf {C : Nat} (b : Arr1 C) : Fin C → EReal := fun q => b (ix1 q)
/-- The first row's entries of a one-row matrix. -/
def row0 {C : Nat} (b : Arr2 1 C) : Fin C → EReal := fun q => b (ix2 0 q)

/-- The perceptron applied to every row of `X`. -/
def mlpArr {R K H C : Nat} (X : Arr2 R K) (W1 : Arr2 K H) (b1 : Fin H → EReal) (W2 : Arr2 H C) (b2 : Fin C → EReal) : Arr2 R C :=
  fun i => mlpRow (rowOf X (i 0)) W1 b1 W2 b2 (i 1)

/-- The perceptron applied to every row of `[X | Y]`. -/
def mlpArr2 {R A B K H C : Nat} (hK : A + B = K) (X : Arr2 R A) (Y : Arr2 R B) (W1 : Arr2 K H) (b1 : Fin H → EReal)
    (W2 : Arr2 H C) (b2 : Fin C → EReal) : Arr2 R C :=
  fun i => mlpRow (cat2Row hK (rowOf X (i 0)) (rowOf Y (i 0))) W1 b1 W2 b2 (i 1)

/-- The perceptron applied to every row of `[X | Y | Z]`. -/
def mlpArr3 {R A B D K H C : Nat} (hK : A + B + D = K) (X : Arr2 R A) (Y : Arr2 R B) (Z : Arr2 R D) (W1 : Arr2 K H)
    (b1 : Fin H → EReal) (W2 : Arr2 H C) (b2 : Fin C → EReal) : Arr2 R C :=
  fun i => mlpRow (cat3Row hK (rowOf X (i 0)) (rowOf Y (i 0)) (rowOf Z (i 0))) W1 b1 W2 b2 (i 1)

/-- The decoder (no final rectifier) applied to every row of `X`. -/
def decArr {R K H C : Nat} (X : Arr2 R K) (W1 : Arr2 K H) (b1 : Fin H → EReal) (W2 : Arr2 H C) (b2 : Fin C → EReal) : Arr2 R C :=
  fun i => decRow (rowOf X (i 0)) W1 b1 W2 b2 (i 1)

/-! ## The product, in the kernel's spelling, read at an index -/

/-- A plain `M×K` by `K×N` product accumulated into the zero splat, read at `(a, b)`: the sum over the contracted
    coordinate of the products of the entries. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  have h := StackMember.dotGeneral_plain_apply (m := m) (n := n) prec A B a b
  rw [← h]
  exact congrFun (matmul_zero_eq_dotGeneral (DotDims.plain m k n) prec A B) (ix2 a b)

/-! ## A bias laid along the rows, in the kernel's spelling -/

/-- The kernel broadcasts a one-row matrix (after an identity cast) down `R` rows: entry `(p, q)` is entry `(0, q)`. -/
theorem bias_rows_apply {R C : Nat} (v : Arr2 1 C) (h1 : (⟨2, ![1, C]⟩ : Shape).ShapeCasts ⟨2, ![1, C]⟩)
    (h2 : (⟨2, ![1, C]⟩ : Shape).Broadcasts ⟨2, ![R, C]⟩) (p : Fin R) (q : Fin C) :
    broadcastTo ⟨2, ![R, C]⟩ (shapeCast ⟨2, ![1, C]⟩ v h1) h2 (ix2 p q) = v (ix2 0 q) := by
  rw [shapeCast_self]
  refine broadcastTo_apply v h2 (ix2 p q) (ix2 0 q) (fun a => ?_)
  match a with
  | ⟨0, _⟩ => simp
  | ⟨1, _⟩ =>
    show q.val = if C = 1 then 0 else q.val
    have := q.isLt
    split_ifs with hC <;> omega

/-! ## Lane concatenation, row by row -/

/-- A row of `[x | y]` is that row of `x` followed by that row of `y`. -/
theorem rowOf_concat2 {R A B N : Nat} (hN : A + B = N) (x : Arr2 R A) (y : Arr2 R B)
    (h : Shape.Concatenates [(⟨2, ![R, A]⟩ : Shape), ⟨2, ![R, B]⟩] ⟨2, ![R, N]⟩ 1) (r : Fin R) :
    rowOf (concatenate ⟨2, ![R, N]⟩ 1 [⟨⟨2, ![R, A]⟩, x⟩, ⟨⟨2, ![R, B]⟩, y⟩] h) r = cat2Row hN (rowOf x r) (rowOf y r) := by
  funext k
  unfold rowOf cat2Row
  by_cases hk : k.val < A
  · rw [dif_pos hk]
    exact concatenate_pair_apply_left 1 x y h (ix2 r k) rfl (ix2 r ⟨k.val, hk⟩)
      (fun b => by match b with | ⟨0, _⟩ => rfl | ⟨1, _⟩ => rfl)
  · rw [dif_neg hk]
    refine concatenate_pair_apply_right 1 x y h (ix2 r k) rfl rfl (ix2 r ⟨k.val - A, by have := k.isLt; omega⟩)
      (fun b hb => by match b with | ⟨0, _⟩ => rfl | ⟨1, _⟩ => exact absurd rfl hb) ?_
    show k.val - A + A = k.val
    omega

/-- A row of `[x | y | z]` is that row of `x`, then of `y`, then of `z`. -/
theorem rowOf_concat3 {R A B D N : Nat} (hN : A + B + D = N) (x : Arr2 R A) (y : Arr2 R B) (z : Arr2 R D)
    (h : Shape.Concatenates [(⟨2, ![R, A]⟩ : Shape), ⟨2, ![R, B]⟩, ⟨2, ![R, D]⟩] ⟨2, ![R, N]⟩ 1) (r : Fin R) :
    rowOf (concatenate ⟨2, ![R, N]⟩ 1 [⟨⟨2, ![R, A]⟩, x⟩, ⟨⟨2, ![R, B]⟩, y⟩, ⟨⟨2, ![R, D]⟩, z⟩] h) r
      = cat3Row hN (rowOf x r) (rowOf y r) (rowOf z r) := by
  funext k
  unfold rowOf cat3Row
  have hkN := k.isLt
  by_cases hk : k.val < A
  · rw [dif_pos hk]
    refine concatenate_apply_piece 1 [⟨⟨2, ![R, A]⟩, x⟩, ⟨⟨2, ![R, B]⟩, y⟩, ⟨⟨2, ![R, D]⟩, z⟩] h (ix2 r k) 0 (by simp) ⟨2, ![R, A]⟩ x rfl rfl 0 rfl (ix2 r ⟨k.val, hk⟩)
      (fun b hb => by match b with | ⟨0, _⟩ => rfl | ⟨1, _⟩ => exact absurd rfl hb) ?_
    show 0 + k.val = k.val
    omega
  · rw [dif_neg hk]
    by_cases hk2 : k.val < A + B
    · rw [dif_pos hk2]
      refine concatenate_apply_piece 1 [⟨⟨2, ![R, A]⟩, x⟩, ⟨⟨2, ![R, B]⟩, y⟩, ⟨⟨2, ![R, D]⟩, z⟩] h (ix2 r k) 1 (by simp) ⟨2, ![R, B]⟩ y rfl rfl A (by simp) (ix2 r ⟨k.val - A, by omega⟩)
        (fun b hb => by match b with | ⟨0, _⟩ => rfl | ⟨1, _⟩ => exact absurd rfl hb) ?_
      show A + (k.val - A) = k.val
      omega
    · rw [dif_neg hk2]
      refine concatenate_apply_piece 1 [⟨⟨2, ![R, A]⟩, x⟩, ⟨⟨2, ![R, B]⟩, y⟩, ⟨⟨2, ![R, D]⟩, z⟩] h (ix2 r k) 2 (by simp) ⟨2, ![R, D]⟩ z rfl rfl (A + B) (by simp) (ix2 r ⟨k.val - (A + B), by omega⟩)
        (fun b hb => by match b with | ⟨0, _⟩ => rfl | ⟨1, _⟩ => exact absurd rfl hb) ?_
      show A + B + (k.val - (A + B)) = k.val
      omega

/-! ## The host's spelling of a bias and of the rectifier, read at an index -/

/-- The host lays a vector along the rows in two steps, `[C] → [1, C] → [R, C]`: entry `(p, q)` is entry `q`. -/
theorem host_bias_apply {R C : Nat} (b : Arr1 C) (h1 : (⟨1, ![C]⟩ : Shape).BroadcastsInDim ⟨2, ![1, C]⟩ ![1])
    (h2 : (⟨2, ![1, C]⟩ : Shape).BroadcastsInDim ⟨2, ![R, C]⟩ ![0, 1]) (p : Fin R) (q : Fin C) :
    broadcastInDim ⟨2, ![R, C]⟩ ![0, 1] h2 (broadcastInDim ⟨2, ![1, C]⟩ ![1] h1 b) (ix2 p q) = b (ix1 q) := by
  have hq := q.isLt
  rw [broadcastInDim_apply ![0, 1] h2 _ (ix2 p q) (ix2 0 q) (fun a => by
    match a with
    | ⟨0, _⟩ => simp
    | ⟨1, _⟩ =>
      show q.val = if C = 1 then 0 else q.val
      split_ifs with hC <;> omega)]
  exact broadcastInDim_apply ![1] h1 b (ix2 0 q) (ix1 q) (fun a => by
    match a with
    | ⟨0, _⟩ =>
      show q.val = if C = 1 then 0 else q.val
      split_ifs with hC <;> omega)

/-- The host's rectifier compares with a broadcast of the scalar zero constant. -/
theorem host_relu_apply {t : Shape} (Y : FVec Ideal t .f32) (h : (⟨0, ![]⟩ : Shape).BroadcastsInDim t ![]) (i : t.Idx) :
    maximumf Y (broadcastInDim t ![] h (constant (F := Ideal) ⟨0, ![]⟩ .f32 0x00000000#32)) i = max (Y i) z32 := by
  show max (Y i) (broadcastInDim t ![] h (constant (F := Ideal) ⟨0, ![]⟩ .f32 0x00000000#32) i) = _
  rw [broadcastInDim_apply ![] h _ i ix0 (fun a => a.elim0)]
  rfl

/-- The kernel's rectifier compares with a splat of the scalar zero. -/
theorem kernel_relu_apply {t : Shape} (Y : FVec Ideal t .f32) (i : t.Idx) :
    maximumf Y (broadcast t (Scalar.ofBits (F := Ideal) .f32 0x00000000#32)) i = max (Y i) z32 := rfl

/-- The host's plain product read at `(a, b)` (Lib/StackMember.lean), restated beside the kernel's. -/
theorem dotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  StackMember.dotGeneral_plain_apply prec A B a b

end Cert.Rows

end
-- ==== Proof.KPay01.lean ====
/-
  What the bodies of the plain two-layer kernels (the node encoder, the edge encoder, the decoder) leave at an entry
  of their output block, at the ideal values: the row function of LibRows on the matching row of the input block.
  A change of float format is the identity there, the product into a zero accumulator is the plain sum of products, the
  bias block is one row laid along every row, and the rectifier compares with the zero word.
-/
import proofs.«406922_j70815420776874_1_alg».proof.Proof.Gen.KernelIdeal.Skeleton
import proofs.«406922_j70815420776874_1_alg».proof.Proof.LibRows

noncomputable section

namespace Cert.KernelIdeal.Pay

open Idealize.ShloMosaic Idealize.ShloMosaic.ValueIdx Cert.KernelIdeal Cert.KernelIdeal.Gen Cert.Rows
open scoped BigOperators

/-! ## One layer, generic in the sizes -/

/-- A product into the zero accumulator plus a one-row bias laid along the rows, read at `(p, q)`: the dense layer
    on row `p` of the left factor.  The sum of products comes from the product's reading, the bias entry from the
    broadcast's; the sum of the two blocks is entrywise. -/
theorem dense_apply {R K C : Nat} {φ₁ φ₂ : FTy} (prec : Option ContractPrecision)
    (A : FVec Ideal ⟨2, ![R, K]⟩ φ₁) (W : FVec Ideal ⟨2, ![K, C]⟩ φ₂) (b : Arr2 1 C)
    (h1 : (⟨2, ![1, C]⟩ : Shape).ShapeCasts ⟨2, ![1, C]⟩) (h2 : (⟨2, ![1, C]⟩ : Shape).Broadcasts ⟨2, ![R, C]⟩)
    (p : Fin R) (q : Fin C) :
    addf (matmul (DotDims.plain R K C) prec A W (constant ⟨2, ![R, C]⟩ .f32 0x00000000#32))
        (broadcastTo ⟨2, ![R, C]⟩ (shapeCast ⟨2, ![1, C]⟩ b h1) h2) (ix2 p q)
      = denseRow (fun c => A (ix2 p c)) W (row0 b) q := by
  show matmul (DotDims.plain R K C) prec A W (constant ⟨2, ![R, C]⟩ .f32 0x00000000#32) (ix2 p q)
      + broadcastTo ⟨2, ![R, C]⟩ (shapeCast ⟨2, ![1, C]⟩ b h1) h2 (ix2 p q)
    = (∑ c : Fin K, A (ix2 p c) * W (ix2 c q)) + b (ix2 0 q)
  rw [matmul_plain_zero_apply prec A W p q, bias_rows_apply b h1 h2 p q]

/-- Two layers with the rectifier after each, in the kernel's spelling with both factors of each product narrowed
    first: the perceptron on row `p`.  Narrowing is the identity on extended reals, so the hidden block read at
    `(p, c)` is the rectified first layer on row `p`, and the outer layer is a dense layer on that row. -/
theorem mlp_apply {R K H C : Nat} (hb : FTy.bits .bf16 < FTy.bits .f32)
    (X : FVec Ideal ⟨2, ![R, K]⟩ .f32) (W1 : FVec Ideal ⟨2, ![K, H]⟩ .f32) (b1 : FVec Ideal ⟨2, ![1, H]⟩ .f32)
    (W2 : FVec Ideal ⟨2, ![H, C]⟩ .f32) (b2 : FVec Ideal ⟨2, ![1, C]⟩ .f32)
    (h11 : (⟨2, ![1, H]⟩ : Shape).ShapeCasts ⟨2, ![1, H]⟩) (h12 : (⟨2, ![1, H]⟩ : Shape).Broadcasts ⟨2, ![R, H]⟩)
    (h21 : (⟨2, ![1, C]⟩ : Shape).ShapeCasts ⟨2, ![1, C]⟩) (h22 : (⟨2, ![1, C]⟩ : Shape).Broadcasts ⟨2, ![R, C]⟩)
    (p : Fin R) (q : Fin C) :
    maximumf
        (addf
          (matmul (DotDims.plain R H C) none
            (truncf .bf16
              (maximumf
                (addf (matmul (DotDims.plain R K H) none (truncf .bf16 X hb) (truncf .bf16 W1 hb)
                    (constant ⟨2, ![R, H]⟩ .f32 0x00000000#32))
                  (broadcastTo ⟨2, ![R, H]⟩ (shapeCast ⟨2, ![1, H]⟩ b1 h11) h12))
                (broadcast ⟨2, ![R, H]⟩ (Scalar.ofBits (F := Ideal) .f32 0x00000000#32))) hb)
            (truncf .bf16 W2 hb) (constant ⟨2, ![R, C]⟩ .f32 0x00000000#32))
          (broadcastTo ⟨2, ![R, C]⟩ (shapeCast ⟨2, ![1, C]⟩ b2 h21) h22))
        (broadcast ⟨2, ![R, C]⟩ (Scalar.ofBits (F := Ideal) .f32 0x00000000#32)) (ix2 p q)
      = mlpRow (rowOf X p) W1 (row0 b1) W2 (row0 b2) q := by
  show max (addf
          (matmul (DotDims.plain R H C) none
            (truncf .bf16
              (maximumf
                (addf (matmul (DotDims.plain R K H) none (truncf .bf16 X hb) (truncf .bf16 W1 hb)
                    (constant ⟨2, ![R, H]⟩ .f32 0x00000000#32))
                  (broadcastTo ⟨2, ![R, H]⟩ (shapeCast ⟨2, ![1, H]⟩ b1 h11) h12))
                (broadcast ⟨2, ![R, H]⟩ (Scalar.ofBits (F := Ideal) .f32 0x00000000#32))) hb)
            (truncf .bf16 W2 hb) (constant ⟨2, ![R, C]⟩ .f32 0x00000000#32))
          (broadcastTo ⟨2, ![R, C]⟩ (shapeCast ⟨2, ![1, C]⟩ b2 h21) h22) (ix2 p q)) z32
      = max (denseRow (reluRow (denseRow (rowOf X p) W1 (row0 b1))) W2 (row0 b2) q) z32
  refine congrArg (fun t => max t z32) ?_
  refine (dense_apply none _ _ b2 h21 h22 p q).trans ?_
  refine congrArg (fun v => denseRow v W2 (row0 b2) q) (funext fun c => ?_)
  show max (addf (matmul (DotDims.plain R K H) none (truncf .bf16 X hb) (truncf .bf16 W1 hb)
                    (constant ⟨2, ![R, H]⟩ .f32 0x00000000#32))
                  (broadcastTo ⟨2, ![R, H]⟩ (shapeCast ⟨2, ![1, H]⟩ b1 h11) h12) (ix2 p c)) z32
      = max (denseRow (rowOf X p) W1 (row0 b1) c) z32
  refine congrArg (fun t => max t z32) ?_
  exact dense_apply none _ _ b1 h11 h12 p c

/-- The decoder's spelling: the same two layers without the closing rectifier, the input block first passed through
    a cast of its shape to itself (`X'`, equal to `X`). -/
theorem dec_apply {R K H C : Nat} (hb : FTy.bits .bf16 < FTy.bits .f32)
    (X' X : FVec Ideal ⟨2, ![R, K]⟩ .f32) (hX : X' = X) (W1 : FVec Ideal ⟨2, ![K, H]⟩ .f32)
    (b1 : FVec Ideal ⟨2, ![1, H]⟩ .f32) (W2 : FVec Ideal ⟨2, ![H, C]⟩ .f32) (b2 : FVec Ideal ⟨2, ![1, C]⟩ .f32)
    (h11 : (⟨2, ![1, H]⟩ : Shape).ShapeCasts ⟨2, ![1, H]⟩) (h12 : (⟨2, ![1, H]⟩ : Shape).Broadcasts ⟨2, ![R, H]⟩)
    (h21 : (⟨2, ![1, C]⟩ : Shape).ShapeCasts ⟨2, ![1, C]⟩) (h22 : (⟨2, ![1, C]⟩ : Shape).Broadcasts ⟨2, ![R, C]⟩)
    (p : Fin R) (q : Fin C) :
    addf
        (matmul (DotDims.plain R H C) none
          (truncf .bf16
            (maximumf
              (addf (matmul (DotDims.plain R K H) none (truncf .bf16 X' hb) (truncf .bf16 W1 hb)
                  (constant ⟨2, ![R, H]⟩ .f32 0x00000000#32))
                (broadcastTo ⟨2, ![R, H]⟩ (shapeCast ⟨2, ![1, H]⟩ b1 h11) h12))
              (broadcast ⟨2, ![R, H]⟩ (Scalar.ofBits (F := Ideal) .f32 0x00000000#32))) hb)
          (truncf .bf16 W2 hb) (constant ⟨2, ![R, C]⟩ .f32 0x00000000#32))
        (broadcastTo ⟨2, ![R, C]⟩ (shapeCast ⟨2, ![1, C]⟩ b2 h21) h22) (ix2 p q)
      = decRow (rowOf X p) W1 (row0 b1) W2 (row0 b2) q := by
  subst hX
  refine (dense_apply none _ _ b2 h21 h22 p q).trans ?_
  refine congrArg (fun v => denseRow v W2 (row0 b2) q) (funext fun c => ?_)
  show max (addf (matmul (DotDims.plain R K H) none (truncf .bf16 X' hb) (truncf .bf16 W1 hb)
                    (constant ⟨2, ![R, H]⟩ .f32 0x00000000#32))
                  (broadcastTo ⟨2, ![R, H]⟩ (shapeCast ⟨2, ![1, H]⟩ b1 h11) h12) (ix2 p c)) z32
      = max (denseRow (rowOf X' p) W1 (row0 b1) c) z32
  refine congrArg (fun t => max t z32) ?_
  exact dense_apply none _ _ b1 h11 h12 p c

/-! ## The three kernels -/

/-- Node encoder: entry `(p, q)` of the block is the perceptron of row `p` of the input block. -/
theorem pay0_apply (x : Vec Ideal S5000x2 .f32) (w1 : Vec Ideal S2x64 .f32) (b1 : Vec Ideal S1x64 .f32)
    (w2 : Vec Ideal S64x64 .f32) (b2 : Vec Ideal S1x64 .f32) (p : Fin 5000) (q : Fin 64) :
    k0_pay1 (F := Ideal) x w1 b1 w2 b2 (ix2 p q) = mlpRow (rowOf x p) w1 (row0 b1) w2 (row0 b2) q := by
  unfold k0_pay1
  exact mlp_apply _ x w1 b1 w2 b2 _ _ _ _ p q

/-- Edge encoder: the same with three input columns. -/
theorem pay1_apply (x : Vec Ideal S5000x3 .f32) (w1 : Vec Ideal S3x64 .f32) (b1 : Vec Ideal S1x64 .f32)
    (w2 : Vec Ideal S64x64 .f32) (b2 : Vec Ideal S1x64 .f32) (p : Fin 5000) (q : Fin 64) :
    k1_pay1 (F := Ideal) x w1 b1 w2 b2 (ix2 p q) = mlpRow (rowOf x p) w1 (row0 b1) w2 (row0 b2) q := by
  unfold k1_pay1
  exact mlp_apply _ x w1 b1 w2 b2 _ _ _ _ p q

/-- Decoder: no rectifier after the second layer, one output column. -/
theorem pay8_apply (x : Vec Ideal S5000x64 .f32) (w1 : Vec Ideal S64x64 .f32) (b1 : Vec Ideal S1x64 .f32)
    (w2 : Vec Ideal S64x1 .f32) (b2 : Vec Ideal S1x1 .f32) (p : Fin 5000) (q : Fin 1) :
    k8_pay1 (F := Ideal) x w1 b1 w2 b2 (ix2 p q) = decRow (rowOf x p) w1 (row0 b1) w2 (row0 b2) q := by
  unfold k8_pay1
  exact dec_apply _ _ x (shapeCast_self x _) w1 b1 w2 b2 _ _ _ _ p q

end Cert.KernelIdeal.Pay

end
-- ==== Proof.KArr0.lean ====
/-
  Region 0 (the node encoder) as one function of whole arrays: whatever the core's buffers hold when the region is
  entered, after its twenty grid points the output array holds, row by row, the perceptron of LibRows of the input
  array's rows.  Point `t` handles rows `5000 t … 5000 t + 4999`; a block's row `p` is the array's row
  `5000 t + p`, and the blocks of the twenty points cover the array.
-/
import proofs.«406922_j70815420776874_1_alg».proof.Proof.Gen.KernelIdeal.Frame
import proofs.«406922_j70815420776874_1_alg».proof.Proof.KPay01

-- membership in a rectangle of full-size extents recurses once per coordinate of the long axis
set_option maxRecDepth 16384

noncomputable section

namespace Cert.KernelIdeal.Arr

open Idealize.ShloMosaic Idealize.ShloMosaic.ValueIdx Idealize.ShloMosaic.TcCoe Idealize.SL.Sem
open Cert.KernelIdeal Cert.KernelIdeal.Gen Cert.Rows
open Idealize.ShloMosaic.Pipeline (Dat Cfg Window)

variable (V : (c : Dev nD) → (b : Ref sig .tc) → Buf (Elt Ideal) ((c : Thread nD τ).loc b))

namespace R0

/-- A block that starts at the origin of its staging buffer. -/
theorem origin2 : (![0, 0] : Fin 2 → Nat) = fun _ => 0 := funext fun a => by fin_cases a <;> rfl

/-- The node encoder on whole arrays: the perceptron of every row of the node features. -/
abbrev nodeEnc (c : Dev nD) : Arr2 100000 64 :=
  mlpArr (V c main_arg0 : Arr2 100000 2) (V c main_arg2 : Arr2 2 64) (row0 (V c main_v4 : Arr2 1 64))
    (V c main_arg4 : Arr2 64 64) (row0 (V c main_v5 : Arr2 1 64))

/-- The block indices over the grid: the row windows (features in, encodings out) sit at block `t` of the rows and
    block 0 of the columns; the weights and biases are one block each. -/
theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the feature block at point `t` is row `5000 t + p` of the feature array. -/
theorem feature_row0 (c : Dev nD) (t : Fin cfg0.N) (p : Fin 5000) (h : 5000 * t.val + p.val < 100000) :
    rowOf (iblk0 V c 0 t : Arr2 5000 2) p = rowOf (V c main_arg0 : Arr2 100000 2) ⟨5000 * t.val + p.val, h⟩ := by
  obtain ⟨e0, e1, -⟩ := block_index0 t
  funext k
  show V c main_arg0 (((cfg0.win 0).blk t).view.emb (ix2 p k)) = V c main_arg0 (ix2 ⟨5000 * t.val + p.val, h⟩ k)
  refine congrArg _ (funext fun a => Fin.ext ?_)
  match a with
  | ⟨0, _⟩ => show win0_0.index t (0 : Fin 2) * 5000 + 1 * p.val = 5000 * t.val + p.val; omega
  | ⟨1, _⟩ => show win0_0.index t (1 : Fin 2) * 2 + 1 * k.val = k.val; omega

/-- The first layer's weight block is the whole weight array at every point. -/
theorem weight1_block0 (c : Dev nD) (t : Fin cfg0.N) : (iblk0 V c 1 t : Arr2 2 64) = (V c main_arg2 : Arr2 2 64) := by
  obtain ⟨-, -, e0, e1, -⟩ := block_index0 t
  funext j
  show V c main_arg2 (((cfg0.win 1).blk t).view.emb j) = V c main_arg2 j
  refine congrArg _ (funext fun a => Fin.ext ?_)
  match a with
  | ⟨0, _⟩ => show win0_1.index t (0 : Fin 2) * 2 + 1 * (j 0).val = (j 0).val; omega
  | ⟨1, _⟩ => show win0_1.index t (1 : Fin 2) * 64 + 1 * (j 1).val = (j 1).val; omega

/-- The first layer's bias block is the whole one-row bias array at every point. -/
theorem bias1_block0 (c : Dev nD) (t : Fin cfg0.N) : (iblk0 V c 2 t : Arr2 1 64) = (V c main_v4 : Arr2 1 64) := by
  obtain ⟨-, -, -, -, e0, e1, -⟩ := block_index0 t
  funext j
  show V c main_v4 (((cfg0.win 2).blk t).view.emb j) = V c main_v4 j
  refine congrArg _ (funext fun a => Fin.ext ?_)
  match a with
  | ⟨0, _⟩ => show win0_2.index t (0 : Fin 2) * 1 + 1 * (j 0).val = (j 0).val; omega
  | ⟨1, _⟩ => show win0_2.index t (1 : Fin 2) * 64 + 1 * (j 1).val = (j 1).val; omega

/-- The second layer's weight block is the whole weight array at every point. -/
theorem weight2_block0 (c : Dev nD) (t : Fin cfg0.N) : (iblk0 V c 3 t : Arr2 64 64) = (V c main_arg4 : Arr2 64 64) := by
  obtain ⟨-, -, -, -, -, -, e0, e1, -⟩ := block_index0 t
  funext j
  show V c main_arg4 (((cfg0.win 3).blk t).view.emb j) = V c main_arg4 j
  refine congrArg _ (funext fun a => Fin.ext ?_)
  match a with
  | ⟨0, _⟩ => show win0_3.index t (0 : Fin 2) * 64 + 1 * (j 0).val = (j 0).val; omega
  | ⟨1, _⟩ => show win0_3.index t (1 : Fin 2) * 64 + 1 * (j 1).val = (j 1).val; omega

/-- The second layer's bias block is the whole one-row bias array at every point. -/
theorem bias2_block0 (c : Dev nD) (t : Fin cfg0.N) : (iblk0 V c 4 t : Arr2 1 64) = (V c main_v5 : Arr2 1 64) := by
  obtain ⟨-, -, -, -, -, -, -, -, e0, e1, -⟩ := block_index0 t
  funext j
  show V c main_v5 (((cfg0.win 4).blk t).view.emb j) = V c main_v5 j
  refine congrArg _ (funext fun a => Fin.ext ?_)
  match a with
  | ⟨0, _⟩ => show win0_4.index t (0 : Fin 2) * 1 + 1 * (j 0).val = (j 0).val; omega
  | ⟨1, _⟩ => show win0_4.index t (1 : Fin 2) * 64 + 1 * (j 1).val = (j 1).val; omega

/-- Entry `(p, q)` of the output block at point `t` sits at `(5000 t + p, q)` of the output array. -/
theorem out_index0 (t : Fin cfg0.N) (p : Fin 5000) (q : Fin 64) (h : 5000 * t.val + p.val < 100000) :
    (((cfg0.win 5).blk t).view.emb (ix2 p q) : S100000x64.Idx) = ix2 ⟨5000 * t.val + p.val, h⟩ q := by
  obtain ⟨-, -, -, -, -, -, -, -, -, -, e0, e1⟩ := block_index0 t
  refine funext fun a => Fin.ext ?_
  match a with
  | ⟨0, _⟩ => show win0_5.index t (0 : Fin 2) * 5000 + 1 * p.val = 5000 * t.val + p.val; omega
  | ⟨1, _⟩ => show win0_5.index t (1 : Fin 2) * 64 + 1 * q.val = q.val; omega

/-- What point `t` writes back is block `t` of the node encoder of the arrays as the region finds them. -/
theorem flushed0 (c : Dev nD) (t : Fin cfg0.N) :
    (dat0 V c).flushed 5 t = ((cfg0.win 5).blk t).view.read (Elt Ideal) (nodeEnc V c) := by
  show (cfg0.win 5).cut (grid0.coords t) ((dat0 V c).after 5 t) = _
  rw [after0_5]
  unfold out0_5
  rw [View.canon_unit_zero origin2]
  simp only [View.ld_unit_zero (S := S5000x2) origin2, View.ld_unit_zero (S := S2x64) origin2,
    View.ld_unit_zero (S := S1x64) origin2, View.ld_unit_zero (S := S64x64) origin2]
  funext j
  obtain ⟨p, q, rfl⟩ : ∃ (p : Fin 5000) (q : Fin 64), j = ix2 p q := ⟨j 0, j 1, eq_ix2 j⟩
  refine (Pay.pay0_apply _ _ _ _ _ p q).trans ?_
  have ht : t.val < 20 := lt_of_lt_of_eq t.isLt (N_0 : cfg0.N = 20)
  have h : 5000 * t.val + p.val < 100000 := by have := p.isLt; omega
  rw [View.read_apply, out_index0 t p q h]
  show mlpRow (rowOf (iblk0 V c 0 t : Arr2 5000 2) p) (iblk0 V c 1 t : Arr2 2 64) (row0 (iblk0 V c 2 t : Arr2 1 64))
      (iblk0 V c 3 t : Arr2 64 64) (row0 (iblk0 V c 4 t : Arr2 1 64)) q
    = mlpRow (rowOf (V c main_arg0 : Arr2 100000 2) ⟨5000 * t.val + p.val, h⟩) (V c main_arg2 : Arr2 2 64)
      (row0 (V c main_v4 : Arr2 1 64)) (V c main_arg4 : Arr2 64 64) (row0 (V c main_v5 : Arr2 1 64)) q
  rw [feature_row0 V c t p h, weight1_block0 V c t, bias1_block0 V c t, weight2_block0 V c t, bias2_block0 V c t]

/-- An index of the output array is in point `t`'s block iff each coordinate is in the block's range on its axis. -/
theorem mem_block0 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v6).slice (win0_5.rect t)).set ↔ _
  rw [View.set_slice_whole, Rect.mem_set_unit]
  exact Iff.rfl

/-- The twenty blocks cover the output array: row `r` lies in the block of point `r / 5000`. -/
theorem cover0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  let t : Fin cfg0.N := ⟨(i 0).val / 5000, by omega⟩
  have htv : t.val = (i 0).val / 5000 := rfl
  obtain ⟨-, -, -, -, -, -, -, -, -, -, e0, e1⟩ := block_index0 t
  refine ⟨t, flush0_5 t, ?_⟩
  rw [mem_block0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

end R0

/-- The node encoder's output array after the region, from the entry contents of its five input arrays. -/
theorem arr0 (c : Dev nD) :
    (dat0 V c).arrAt 5 cfg0.N
      = (mlpArr (V c main_arg0 : Arr2 100000 2) (V c main_arg2 : Arr2 2 64) (row0 (V c main_v4 : Arr2 1 64))
          (V c main_arg4 : Arr2 64 64) (row0 (V c main_v5 : Arr2 1 64)) : Arr2 100000 64) := by
  exact (dat0 V c).arrAt_eq_of_cover 5 (R0.nodeEnc V c) (fun t _ => R0.flushed0 V c t) R0.cover0

end Cert.KernelIdeal.Arr

end
-- ==== Proof.KArr1.lean ====
/-
  Region 1 (the edge encoder) as one function of whole arrays: whatever the core's buffers hold when the region is
  entered, after its hundred grid points the output array holds, row by row, the perceptron of LibRows of the edge
  feature array's rows.  Point `t` handles rows `5000 t … 5000 t + 4999`; a block's row `p` is the array's row
  `5000 t + p`, and the blocks of the hundred points cover the array.
-/
import proofs.«406922_j70815420776874_1_alg».proof.Proof.Gen.KernelIdeal.Frame
import proofs.«406922_j70815420776874_1_alg».proof.Proof.KPay01

-- membership in a rectangle of full-size extents recurses once per coordinate of the long axis
set_option maxRecDepth 16384

noncomputable section

namespace Cert.KernelIdeal.Arr

open Idealize.ShloMosaic Idealize.ShloMosaic.ValueIdx Idealize.ShloMosaic.TcCoe Idealize.SL.Sem
open Cert.KernelIdeal Cert.KernelIdeal.Gen Cert.Rows
open Idealize.ShloMosaic.Pipeline (Dat Cfg Window)

variable (V : (c : Dev nD) → (b : Ref sig .tc) → Buf (Elt Ideal) ((c : Thread nD τ).loc b))

namespace R1

/-- A block that starts at the origin of its staging buffer. -/
theorem origin2 : (![0, 0] : Fin 2 → Nat) = fun _ => 0 := funext fun a => by fin_cases a <;> rfl

/-- The edge encoder on whole arrays: the perceptron of every row of the edge features. -/
abbrev edgeEnc (c : Dev nD) : Arr2 500000 64 :=
  mlpArr (V c main_arg1 : Arr2 500000 3) (V c main_arg6 : Arr2 3 64) (row0 (V c main_v7 : Arr2 1 64))
    (V c main_arg8 : Arr2 64 64) (row0 (V c main_v8 : Arr2 1 64))

/-- The block indices over the grid: the row windows (features in, encodings out) sit at block `t` of the rows and
    block 0 of the columns; the weights and biases are one block each. -/
theorem block_index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the feature block at point `t` is row `5000 t + p` of the feature array. -/
theorem feature_row1 (c : Dev nD) (t : Fin cfg1.N) (p : Fin 5000) (h : 5000 * t.val + p.val < 500000) :
    rowOf (iblk1 V c 0 t : Arr2 5000 3) p = rowOf (V c main_arg1 : Arr2 500000 3) ⟨5000 * t.val + p.val, h⟩ := by
  obtain ⟨e0, e1, -⟩ := block_index1 t
  funext k
  show V c main_arg1 (((cfg1.win 0).blk t).view.emb (ix2 p k)) = V c main_arg1 (ix2 ⟨5000 * t.val + p.val, h⟩ k)
  refine congrArg _ (funext fun a => Fin.ext ?_)
  match a with
  | ⟨0, _⟩ => show win1_0.index t (0 : Fin 2) * 5000 + 1 * p.val = 5000 * t.val + p.val; omega
  | ⟨1, _⟩ => show win1_0.index t (1 : Fin 2) * 3 + 1 * k.val = k.val; omega

/-- The first layer's weight block is the whole weight array at every point. -/
theorem weight1_block1 (c : Dev nD) (t : Fin cfg1.N) : (iblk1 V c 1 t : Arr2 3 64) = (V c main_arg6 : Arr2 3 64) := by
  obtain ⟨-, -, e0, e1, -⟩ := block_index1 t
  funext j
  show V c main_arg6 (((cfg1.win 1).blk t).view.emb j) = V c main_arg6 j
  refine congrArg _ (funext fun a => Fin.ext ?_)
  match a with
  | ⟨0, _⟩ => show win1_1.index t (0 : Fin 2) * 3 + 1 * (j 0).val = (j 0).val; omega
  | ⟨1, _⟩ => show win1_1.index t (1 : Fin 2) * 64 + 1 * (j 1).val = (j 1).val; omega

/-- The first layer's bias block is the whole one-row bias array at every point. -/
theorem bias1_block1 (c : Dev nD) (t : Fin cfg1.N) : (iblk1 V c 2 t : Arr2 1 64) = (V c main_v7 : Arr2 1 64) := by
  obtain ⟨-, -, -, -, e0, e1, -⟩ := block_index1 t
  funext j
  show V c main_v7 (((cfg1.win 2).blk t).view.emb j) = V c main_v7 j
  refine congrArg _ (funext fun a => Fin.ext ?_)
  match a with
  | ⟨0, _⟩ => show win1_2.index t (0 : Fin 2) * 1 + 1 * (j 0).val = (j 0).val; omega
  | ⟨1, _⟩ => show win1_2.index t (1 : Fin 2) * 64 + 1 * (j 1).val = (j 1).val; omega

/-- The second layer's weight block is the whole weight array at every point. -/
theorem weight2_block1 (c : Dev nD) (t : Fin cfg1.N) : (iblk1 V c 3 t : Arr2 64 64) = (V c main_arg8 : Arr2 64 64) := by
  obtain ⟨-, -, -, -, -, -, e0, e1, -⟩ := block_index1 t
  funext j
  show V c main_arg8 (((cfg1.win 3).blk t).view.emb j) = V c main_arg8 j
  refine congrArg _ (funext fun a => Fin.ext ?_)
  match a with
  | ⟨0, _⟩ => show win1_3.index t (0 : Fin 2) * 64 + 1 * (j 0).val = (j 0).val; omega
  | ⟨1, _⟩ => show win1_3.index t (1 : Fin 2) * 64 + 1 * (j 1).val = (j 1).val; omega

/-- The second layer's bias block is the whole one-row bias array at every point. -/
theorem bias2_block1 (c : Dev nD) (t : Fin cfg1.N) : (iblk1 V c 4 t : Arr2 1 64) = (V c main_v8 : Arr2 1 64) := by
  obtain ⟨-, -, -, -, -, -, -, -, e0, e1, -⟩ := block_index1 t
  funext j
  show V c main_v8 (((cfg1.win 4).blk t).view.emb j) = V c main_v8 j
  refine congrArg _ (funext fun a => Fin.ext ?_)
  match a with
  | ⟨0, _⟩ => show win1_4.index t (0 : Fin 2) * 1 + 1 * (j 0).val = (j 0).val; omega
  | ⟨1, _⟩ => show win1_4.index t (1 : Fin 2) * 64 + 1 * (j 1).val = (j 1).val; omega

/-- Entry `(p, q)` of the output block at point `t` sits at `(5000 t + p, q)` of the output array. -/
theorem out_index1 (t : Fin cfg1.N) (p : Fin 5000) (q : Fin 64) (h : 5000 * t.val + p.val < 500000) :
    (((cfg1.win 5).blk t).view.emb (ix2 p q) : S500000x64.Idx) = ix2 ⟨5000 * t.val + p.val, h⟩ q := by
  obtain ⟨-, -, -, -, -, -, -, -, -, -, e0, e1⟩ := block_index1 t
  refine funext fun a => Fin.ext ?_
  match a with
  | ⟨0, _⟩ => show win1_5.index t (0 : Fin 2) * 5000 + 1 * p.val = 5000 * t.val + p.val; omega
  | ⟨1, _⟩ => show win1_5.index t (1 : Fin 2) * 64 + 1 * q.val = q.val; omega

/-- What point `t` writes back is block `t` of the edge encoder of the arrays as the region finds them. -/
theorem flushed1 (c : Dev nD) (t : Fin cfg1.N) :
    (dat1 V c).flushed 5 t = ((cfg1.win 5).blk t).view.read (Elt Ideal) (edgeEnc V c) := by
  show (cfg1.win 5).cut (grid1.coords t) ((dat1 V c).after 5 t) = _
  rw [after1_5]
  unfold out1_5
  rw [View.canon_unit_zero origin2]
  simp only [View.ld_unit_zero (S := S5000x3) origin2, View.ld_unit_zero (S := S3x64) origin2,
    View.ld_unit_zero (S := S1x64) origin2, View.ld_unit_zero (S := S64x64) origin2]
  funext j
  obtain ⟨p, q, rfl⟩ : ∃ (p : Fin 5000) (q : Fin 64), j = ix2 p q := ⟨j 0, j 1, eq_ix2 j⟩
  refine (Pay.pay1_apply _ _ _ _ _ p q).trans ?_
  have ht : t.val < 100 := lt_of_lt_of_eq t.isLt (N_1 : cfg1.N = 100)
  have h : 5000 * t.val + p.val < 500000 := by have := p.isLt; omega
  rw [View.read_apply, out_index1 t p q h]
  show mlpRow (rowOf (iblk1 V c 0 t : Arr2 5000 3) p) (iblk1 V c 1 t : Arr2 3 64) (row0 (iblk1 V c 2 t : Arr2 1 64))
      (iblk1 V c 3 t : Arr2 64 64) (row0 (iblk1 V c 4 t : Arr2 1 64)) q
    = mlpRow (rowOf (V c main_arg1 : Arr2 500000 3) ⟨5000 * t.val + p.val, h⟩) (V c main_arg6 : Arr2 3 64)
      (row0 (V c main_v7 : Arr2 1 64)) (V c main_arg8 : Arr2 64 64) (row0 (V c main_v8 : Arr2 1 64)) q
  rw [feature_row1 V c t p h, weight1_block1 V c t, bias1_block1 V c t, weight2_block1 V c t, bias2_block1 V c t]

/-- An index of the output array is in point `t`'s block iff each coordinate is in the block's range on its axis. -/
theorem mem_block1 (t : Fin cfg1.N) (i : S500000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v9).slice (win1_5.rect t)).set ↔ _
  rw [View.set_slice_whole, Rect.mem_set_unit]
  exact Iff.rfl

/-- The hundred blocks cover the output array: row `r` lies in the block of point `r / 5000`. -/
theorem cover1 (i : S500000x64.Idx) :
    ∃ t : Fin cfg1.N, (cfg1.win 5).flush t = true ∧ i ∈ ((cfg1.win 5).blk t).view.set := by
  have hi0 : (i 0).val < 500000 := (i 0).isLt
  have hi1 : (i 1).val < 64 := (i 1).isLt
  have hN : cfg1.N = 100 := N_1
  let t : Fin cfg1.N := ⟨(i 0).val / 5000, by omega⟩
  have htv : t.val = (i 0).val / 5000 := rfl
  obtain ⟨-, -, -, -, -, -, -, -, -, -, e0, e1⟩ := block_index1 t
  refine ⟨t, flush1_5 t, ?_⟩
  rw [mem_block1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

end R1

/-- The edge encoder's output array after the region, from the entry contents of its five input arrays. -/
theorem arr1 (c : Dev nD) : (dat1 V c).arrAt 5 cfg1.N = (mlpArr (V c main_arg1 : Arr2 500000 3) (V c main_arg6 : Arr2 3 64) (row0 (V c main_v7 : Arr2 1 64)) (V c main_arg8 : Arr2 64 64) (row0 (V c main_v8 : Arr2 1 64)) : Arr2 500000 64) := by
  exact (dat1 V c).arrAt_eq_of_cover 5 (R1.edgeEnc V c) (fun t _ => R1.flushed1 V c t) R1.cover1

end Cert.KernelIdeal.Arr

end
-- ==== Proof.KKeep.lean ====
/-
What a part of the program that does not write a buffer leaves in it.

The core's buffer contents are followed through @main from boundary to boundary. A stretch of host operations
rewrites exactly the result buffer of each of its operations. A kernel region rewrites exactly its output array: its
other arrays are inputs, which the pipeline hands back as it found them, and a buffer that is none of its arrays is
not touched at all. Hence a buffer that a stretch of host operations, or a kernel region, does not write holds after
it what it held before.

The lemmas say this for every single region (`keepR…`) and every single stretch (`keepH…`), at an arbitrary buffer
`b` that is none of the written ones. The written buffers of a stretch are given as an explicit list, so that for a
concrete `b` the hypothesis is settled by comparing names. The block lemmas (`keepB…`) chain them over the five
blocks in which the program repeats: stretches, a region, a stretch, a region.
-/
import proofs.«406922_j70815420776874_1_alg».proof.Proof.Gen.KernelIdeal.Frame

noncomputable section

namespace Cert.KernelIdeal.Keep

open Idealize.ShloMosaic Idealize.ShloMosaic.TcCoe Idealize.SL.Sem Cert.KernelIdeal Cert.KernelIdeal.Gen

variable {F : FTy → Type} [FloatOps F] (m : (ℓ : Loc nD τ sig) → Buf (Elt F) ℓ) (ρ : Dev nD → PrngReg)

/-! ## Kernel regions

A buffer `b` either is one of the region's arrays or is not. If it is array `w`, then `w` is not the output window
(that one is the excluded buffer), so it is an input window: at the region's exit it holds the contents the proof
data record for it at every step, which are the entry contents. If it is no array of the region, the exit contents
agree with the entry contents by definition. -/

theorem keepR0 (c : Dev nD) (b : Ref sig .tc) (hb : b ≠ main_v6) :
    W2 m ρ c (Proc.devRef .tc b) = W1 m ρ c (Proc.devRef .tc b) := by
  by_cases h : ∃ w, Pipeline.arrRef spec0 w = b
  · obtain ⟨w, rfl⟩ := h
    have hin : (cfg0.win w).isOut = false := by revert hb; revert w; decide
    exact (W2_arr m ρ c w).trans (((dat0 (V1 m ρ) c).arrAt_in w hin _).trans (A_eq0 (V1 m ρ) c w))
  · exact W2_of_ne m ρ c b fun w e => h ⟨w, e⟩

theorem keepR1 (c : Dev nD) (b : Ref sig .tc) (hb : b ≠ main_v9) :
    W4 m ρ c (Proc.devRef .tc b) = W3 m ρ c (Proc.devRef .tc b) := by
  by_cases h : ∃ w, Pipeline.arrRef spec1 w = b
  · obtain ⟨w, rfl⟩ := h
    have hin : (cfg1.win w).isOut = false := by revert hb; revert w; decide
    exact (W4_arr m ρ c w).trans (((dat1 (V3 m ρ) c).arrAt_in w hin _).trans (A_eq1 (V3 m ρ) c w))
  · exact W4_of_ne m ρ c b fun w e => h ⟨w, e⟩

theorem keepR2 (c : Dev nD) (b : Ref sig .tc) (hb : b ≠ main_v27) :
    W9 m ρ c (Proc.devRef .tc b) = W8 m ρ c (Proc.devRef .tc b) := by
  by_cases h : ∃ w, Pipeline.arrRef spec2 w = b
  · obtain ⟨w, rfl⟩ := h
    have hin : (cfg2.win w).isOut = false := by revert hb; revert w; decide
    exact (W9_arr m ρ c w).trans (((dat2 (V8 m ρ) c).arrAt_in w hin _).trans (A_eq2 (V8 m ρ) c w))
  · exact W9_of_ne m ρ c b fun w e => h ⟨w, e⟩

theorem keepR3 (c : Dev nD) (b : Ref sig .tc) (hb : b ≠ main_v38) :
    W11 m ρ c (Proc.devRef .tc b) = W10 m ρ c (Proc.devRef .tc b) := by
  by_cases h : ∃ w, Pipeline.arrRef spec3 w = b
  · obtain ⟨w, rfl⟩ := h
    have hin : (cfg3.win w).isOut = false := by revert hb; revert w; decide
    exact (W11_arr m ρ c w).trans (((dat3 (V10 m ρ) c).arrAt_in w hin _).trans (A_eq3 (V10 m ρ) c w))
  · exact W11_of_ne m ρ c b fun w e => h ⟨w, e⟩

theorem keepR4 (c : Dev nD) (b : Ref sig .tc) (hb : b ≠ main_v56) :
    W16 m ρ c (Proc.devRef .tc b) = W15 m ρ c (Proc.devRef .tc b) := by
  by_cases h : ∃ w, Pipeline.arrRef spec4 w = b
  · obtain ⟨w, rfl⟩ := h
    have hin : (cfg4.win w).isOut = false := by revert hb; revert w; decide
    exact (W16_arr m ρ c w).trans (((dat4 (V15 m ρ) c).arrAt_in w hin _).trans (A_eq4 (V15 m ρ) c w))
  · exact W16_of_ne m ρ c b fun w e => h ⟨w, e⟩

theorem keepR5 (c : Dev nD) (b : Ref sig .tc) (hb : b ≠ main_v67) :
    W18 m ρ c (Proc.devRef .tc b) = W17 m ρ c (Proc.devRef .tc b) := by
  by_cases h : ∃ w, Pipeline.arrRef spec5 w = b
  · obtain ⟨w, rfl⟩ := h
    have hin : (cfg5.win w).isOut = false := by revert hb; revert w; decide
    exact (W18_arr m ρ c w).trans (((dat5 (V17 m ρ) c).arrAt_in w hin _).trans (A_eq5 (V17 m ρ) c w))
  · exact W18_of_ne m ρ c b fun w e => h ⟨w, e⟩

theorem keepR6 (c : Dev nD) (b : Ref sig .tc) (hb : b ≠ main_v85) :
    W23 m ρ c (Proc.devRef .tc b) = W22 m ρ c (Proc.devRef .tc b) := by
  by_cases h : ∃ w, Pipeline.arrRef spec6 w = b
  · obtain ⟨w, rfl⟩ := h
    have hin : (cfg6.win w).isOut = false := by revert hb; revert w; decide
    exact (W23_arr m ρ c w).trans (((dat6 (V22 m ρ) c).arrAt_in w hin _).trans (A_eq6 (V22 m ρ) c w))
  · exact W23_of_ne m ρ c b fun w e => h ⟨w, e⟩

theorem keepR7 (c : Dev nD) (b : Ref sig .tc) (hb : b ≠ main_v96) :
    W25 m ρ c (Proc.devRef .tc b) = W24 m ρ c (Proc.devRef .tc b) := by
  by_cases h : ∃ w, Pipeline.arrRef spec7 w = b
  · obtain ⟨w, rfl⟩ := h
    have hin : (cfg7.win w).isOut = false := by revert hb; revert w; decide
    exact (W25_arr m ρ c w).trans (((dat7 (V24 m ρ) c).arrAt_in w hin _).trans (A_eq7 (V24 m ρ) c w))
  · exact W25_of_ne m ρ c b fun w e => h ⟨w, e⟩

theorem keepR8 (c : Dev nD) (b : Ref sig .tc) (hb : b ≠ main_v99) :
    W27 m ρ c (Proc.devRef .tc b) = W26 m ρ c (Proc.devRef .tc b) := by
  by_cases h : ∃ w, Pipeline.arrRef spec8 w = b
  · obtain ⟨w, rfl⟩ := h
    have hin : (cfg8.win w).isOut = false := by revert hb; revert w; decide
    exact (W27_arr m ρ c w).trans (((dat8 (V26 m ρ) c).arrAt_in w hin _).trans (A_eq8 (V26 m ρ) c w))
  · exact W27_of_ne m ρ c b fun w e => h ⟨w, e⟩

/-! ## Stretches of host operations

Each operation of a stretch writes one buffer, its result. The lists name, stretch by stretch and in program order,
the result buffer of every operation. -/

/-- The results of the 6 operations before region 0. -/
noncomputable def wr0 : List (Ref sig .tc) := [main_v0, main_v1, main_v2, main_v3, main_v4, main_v5]
/-- The results of the 2 operations before region 1. -/
noncomputable def wr1 : List (Ref sig .tc) := [main_v7, main_v8]
/-- The results of the 2 operations after region 1. -/
noncomputable def wr2 : List (Ref sig .tc) := [main_v10, main_v11]
/-- The results of the 23 operations of the first inlined call (a gather by index) between regions 1 and 2. -/
noncomputable def wr2_1 : List (Ref sig .tc) :=
  [main_call0_c, main_call0_v0, main_call0_v1, main_call0_c_0, main_call0_v2, main_call0_v3, main_call0_v4,
   main_call0_v5, main_call0_c_1, main_call0_c_2, main_call0_v6, main_call0_v7, main_call0_v8, main_call0_v9,
   main_call0_v10, main_call0_v11, main_call0_c_3, main_call0_v12, main_call0_v13, main_call0_v14, main_call0_cst,
   main_call0_v15, main_v12]
/-- The results of the 23 operations of the second inlined call between regions 1 and 2. -/
noncomputable def wr2_2 : List (Ref sig .tc) :=
  [main_call1_c, main_call1_v0, main_call1_v1, main_call1_c_0, main_call1_v2, main_call1_v3, main_call1_v4,
   main_call1_v5, main_call1_c_1, main_call1_c_2, main_call1_v6, main_call1_v7, main_call1_v8, main_call1_v9,
   main_call1_v10, main_call1_v11, main_call1_c_3, main_call1_v12, main_call1_v13, main_call1_v14, main_call1_cst,
   main_call1_v15, main_v13]
/-- The results of the 14 operations up to region 2. -/
noncomputable def wr2_3 : List (Ref sig .tc) :=
  [main_cst, main_v14, main_v15, main_v16, main_v17, main_v18, main_v19, main_v20, main_v21, main_v22, main_v23,
   main_v24, main_v25, main_v26]
/-- The results of the 10 operations before region 3. -/
noncomputable def wr3 : List (Ref sig .tc) :=
  [main_v28, main_v29, main_v30, main_v31, main_v32, main_v33, main_v34, main_v35, main_v36, main_v37]
/-- The results of the 2 operations after region 3. -/
noncomputable def wr4 : List (Ref sig .tc) := [main_v39, main_v40]
/-- The results of the 23 operations of the first inlined call between regions 3 and 4. -/
noncomputable def wr4_1 : List (Ref sig .tc) :=
  [main_call2_c, main_call2_v0, main_call2_v1, main_call2_c_0, main_call2_v2, main_call2_v3, main_call2_v4,
   main_call2_v5, main_call2_c_1, main_call2_c_2, main_call2_v6, main_call2_v7, main_call2_v8, main_call2_v9,
   main_call2_v10, main_call2_v11, main_call2_c_3, main_call2_v12, main_call2_v13, main_call2_v14, main_call2_cst,
   main_call2_v15, main_v41]
/-- The results of the 23 operations of the second inlined call between regions 3 and 4. -/
noncomputable def wr4_2 : List (Ref sig .tc) :=
  [main_call3_c, main_call3_v0, main_call3_v1, main_call3_c_0, main_call3_v2, main_call3_v3, main_call3_v4,
   main_call3_v5, main_call3_c_1, main_call3_c_2, main_call3_v6, main_call3_v7, main_call3_v8, main_call3_v9,
   main_call3_v10, main_call3_v11, main_call3_c_3, main_call3_v12, main_call3_v13, main_call3_v14, main_call3_cst,
   main_call3_v15, main_v42]
/-- The results of the 14 operations up to region 4. -/
noncomputable def wr4_3 : List (Ref sig .tc) :=
  [main_cst_0, main_v43, main_v44, main_v45, main_v46, main_v47, main_v48, main_v49, main_v50, main_v51, main_v52,
   main_v53, main_v54, main_v55]
/-- The results of the 10 operations before region 5. -/
noncomputable def wr5 : List (Ref sig .tc) :=
  [main_v57, main_v58, main_v59, main_v60, main_v61, main_v62, main_v63, main_v64, main_v65, main_v66]
/-- The results of the 2 operations after region 5. -/
noncomputable def wr6 : List (Ref sig .tc) := [main_v68, main_v69]
/-- The results of the 23 operations of the first inlined call between regions 5 and 6. -/
noncomputable def wr6_1 : List (Ref sig .tc) :=
  [main_call4_c, main_call4_v0, main_call4_v1, main_call4_c_0, main_call4_v2, main_call4_v3, main_call4_v4,
   main_call4_v5, main_call4_c_1, main_call4_c_2, main_call4_v6, main_call4_v7, main_call4_v8, main_call4_v9,
   main_call4_v10, main_call4_v11, main_call4_c_3, main_call4_v12, main_call4_v13, main_call4_v14, main_call4_cst,
   main_call4_v15, main_v70]
/-- The results of the 23 operations of the second inlined call between regions 5 and 6. -/
noncomputable def wr6_2 : List (Ref sig .tc) :=
  [main_call5_c, main_call5_v0, main_call5_v1, main_call5_c_0, main_call5_v2, main_call5_v3, main_call5_v4,
   main_call5_v5, main_call5_c_1, main_call5_c_2, main_call5_v6, main_call5_v7, main_call5_v8, main_call5_v9,
   main_call5_v10, main_call5_v11, main_call5_c_3, main_call5_v12, main_call5_v13, main_call5_v14, main_call5_cst,
   main_call5_v15, main_v71]
/-- The results of the 14 operations up to region 6. -/
noncomputable def wr6_3 : List (Ref sig .tc) :=
  [main_cst_1, main_v72, main_v73, main_v74, main_v75, main_v76, main_v77, main_v78, main_v79, main_v80, main_v81,
   main_v82, main_v83, main_v84]
/-- The results of the 10 operations before region 7. -/
noncomputable def wr7 : List (Ref sig .tc) :=
  [main_v86, main_v87, main_v88, main_v89, main_v90, main_v91, main_v92, main_v93, main_v94, main_v95]
/-- The results of the 2 operations before region 8. -/
noncomputable def wr8 : List (Ref sig .tc) := [main_v97, main_v98]

/-- One stretch: a buffer keeps its contents through a list of operations none of which writes it. Spelling the
    stretch out turns that into one conjunct per operation, "the buffer is not this operation's result", and each
    conjunct is the hypothesis at that result, a member of the stretch's list. -/
local macro "host_keep " ops:ident wr:ident hb:ident : tactic =>
  `(tactic| (
    refine StableHlo.after_of_forall_not_mem _ _ (List.forall_iff_forall_mem.mp ?_)
    simp only [$ops:ident, List.Forall, StableHlo.nullary_writes, StableHlo.unary_writes, StableHlo.binary_writes,
      StableHlo.ternary_writes, StableHlo.reshape_writes, Finset.mem_singleton]
    repeat' apply And.intro
    all_goals exact StableHlo.devRef_ne_of_ne ($hb _ (by simp [$wr:ident]))))

theorem keepH0 (c : Dev nD) (b : Ref sig .tc) (hb : ∀ o ∈ wr0, b ≠ o) :
    W1 m ρ c (Proc.devRef .tc b) = W0 m ρ c (Proc.devRef .tc b) := by host_keep hostOps0 wr0 hb
theorem keepH1 (c : Dev nD) (b : Ref sig .tc) (hb : ∀ o ∈ wr1, b ≠ o) :
    W3 m ρ c (Proc.devRef .tc b) = W2 m ρ c (Proc.devRef .tc b) := by host_keep hostOps1 wr1 hb
theorem keepH2 (c : Dev nD) (b : Ref sig .tc) (hb : ∀ o ∈ wr2, b ≠ o) :
    W5 m ρ c (Proc.devRef .tc b) = W4 m ρ c (Proc.devRef .tc b) := by host_keep hostOps2 wr2 hb
theorem keepH2_1 (c : Dev nD) (b : Ref sig .tc) (hb : ∀ o ∈ wr2_1, b ≠ o) :
    W6 m ρ c (Proc.devRef .tc b) = W5 m ρ c (Proc.devRef .tc b) := by host_keep hostOps2_1 wr2_1 hb
theorem keepH2_2 (c : Dev nD) (b : Ref sig .tc) (hb : ∀ o ∈ wr2_2, b ≠ o) :
    W7 m ρ c (Proc.devRef .tc b) = W6 m ρ c (Proc.devRef .tc b) := by host_keep hostOps2_2 wr2_2 hb
theorem keepH2_3 (c : Dev nD) (b : Ref sig .tc) (hb : ∀ o ∈ wr2_3, b ≠ o) :
    W8 m ρ c (Proc.devRef .tc b) = W7 m ρ c (Proc.devRef .tc b) := by host_keep hostOps2_3 wr2_3 hb
theorem keepH3 (c : Dev nD) (b : Ref sig .tc) (hb : ∀ o ∈ wr3, b ≠ o) :
    W10 m ρ c (Proc.devRef .tc b) = W9 m ρ c (Proc.devRef .tc b) := by host_keep hostOps3 wr3 hb
theorem keepH4 (c : Dev nD) (b : Ref sig .tc) (hb : ∀ o ∈ wr4, b ≠ o) :
    W12 m ρ c (Proc.devRef .tc b) = W11 m ρ c (Proc.devRef .tc b) := by host_keep hostOps4 wr4 hb
theorem keepH4_1 (c : Dev nD) (b : Ref sig .tc) (hb : ∀ o ∈ wr4_1, b ≠ o) :
    W13 m ρ c (Proc.devRef .tc b) = W12 m ρ c (Proc.devRef .tc b) := by host_keep hostOps4_1 wr4_1 hb
theorem keepH4_2 (c : Dev nD) (b : Ref sig .tc) (hb : ∀ o ∈ wr4_2, b ≠ o) :
    W14 m ρ c (Proc.devRef .tc b) = W13 m ρ c (Proc.devRef .tc b) := by host_keep hostOps4_2 wr4_2 hb
theorem keepH4_3 (c : Dev nD) (b : Ref sig .tc) (hb : ∀ o ∈ wr4_3, b ≠ o) :
    W15 m ρ c (Proc.devRef .tc b) = W14 m ρ c (Proc.devRef .tc b) := by host_keep hostOps4_3 wr4_3 hb
theorem keepH5 (c : Dev nD) (b : Ref sig .tc) (hb : ∀ o ∈ wr5, b ≠ o) :
    W17 m ρ c (Proc.devRef .tc b) = W16 m ρ c (Proc.devRef .tc b) := by host_keep hostOps5 wr5 hb
theorem keepH6 (c : Dev nD) (b : Ref sig .tc) (hb : ∀ o ∈ wr6, b ≠ o) :
    W19 m ρ c (Proc.devRef .tc b) = W18 m ρ c (Proc.devRef .tc b) := by host_keep hostOps6 wr6 hb
theorem keepH6_1 (c : Dev nD) (b : Ref sig .tc) (hb : ∀ o ∈ wr6_1, b ≠ o) :
    W20 m ρ c (Proc.devRef .tc b) = W19 m ρ c (Proc.devRef .tc b) := by host_keep hostOps6_1 wr6_1 hb
theorem keepH6_2 (c : Dev nD) (b : Ref sig .tc) (hb : ∀ o ∈ wr6_2, b ≠ o) :
    W21 m ρ c (Proc.devRef .tc b) = W20 m ρ c (Proc.devRef .tc b) := by host_keep hostOps6_2 wr6_2 hb
theorem keepH6_3 (c : Dev nD) (b : Ref sig .tc) (hb : ∀ o ∈ wr6_3, b ≠ o) :
    W22 m ρ c (Proc.devRef .tc b) = W21 m ρ c (Proc.devRef .tc b) := by host_keep hostOps6_3 wr6_3 hb
theorem keepH7 (c : Dev nD) (b : Ref sig .tc) (hb : ∀ o ∈ wr7, b ≠ o) :
    W24 m ρ c (Proc.devRef .tc b) = W23 m ρ c (Proc.devRef .tc b) := by host_keep hostOps7 wr7 hb
theorem keepH8 (c : Dev nD) (b : Ref sig .tc) (hb : ∀ o ∈ wr8, b ≠ o) :
    W26 m ρ c (Proc.devRef .tc b) = W25 m ρ c (Proc.devRef .tc b) := by host_keep hostOps8 wr8 hb

/-! ## Blocks

The program is five blocks: from the launch to region 1's exit; three times "host stretches, a region, a host
stretch, a region"; and the last stretch with region 8. What a block writes is the concatenation of what its parts
write, each region contributing its output array. A hypothesis over a concatenation splits into one hypothesis per
part, and the parts' lemmas chain from the block's end back to its start. -/

/-- Everything written from the launch to region 1's exit. -/
noncomputable def wrB0 : List (Ref sig .tc) := wr0 ++ [main_v6] ++ wr1 ++ [main_v9]
/-- Everything the host stretches between region 1's exit and region 2's entry write. -/
noncomputable def wrB1' : List (Ref sig .tc) := wr2 ++ wr2_1 ++ wr2_2 ++ wr2_3
/-- Everything written from region 1's exit to region 3's exit. -/
noncomputable def wrB1 : List (Ref sig .tc) := wrB1' ++ [main_v27] ++ wr3 ++ [main_v38]
/-- Everything the host stretches between region 3's exit and region 4's entry write. -/
noncomputable def wrB2' : List (Ref sig .tc) := wr4 ++ wr4_1 ++ wr4_2 ++ wr4_3
/-- Everything written from region 3's exit to region 5's exit. -/
noncomputable def wrB2 : List (Ref sig .tc) := wrB2' ++ [main_v56] ++ wr5 ++ [main_v67]
/-- Everything the host stretches between region 5's exit and region 6's entry write. -/
noncomputable def wrB3' : List (Ref sig .tc) := wr6 ++ wr6_1 ++ wr6_2 ++ wr6_3
/-- Everything written from region 5's exit to region 7's exit. -/
noncomputable def wrB3 : List (Ref sig .tc) := wrB3' ++ [main_v85] ++ wr7 ++ [main_v96]
/-- Everything written from region 7's exit to region 8's exit. -/
noncomputable def wrB4 : List (Ref sig .tc) := wr8 ++ [main_v99]

theorem keepB0 (c : Dev nD) (b : Ref sig .tc) (hb : ∀ o ∈ wrB0, b ≠ o) :
    W4 m ρ c (Proc.devRef .tc b) = W0 m ρ c (Proc.devRef .tc b) := by
  simp only [wrB0, List.forall_mem_append, List.forall_mem_singleton] at hb
  obtain ⟨⟨⟨h0, hv6⟩, h1⟩, hv9⟩ := hb
  exact (keepR1 m ρ c b hv9).trans ((keepH1 m ρ c b h1).trans ((keepR0 m ρ c b hv6).trans (keepH0 m ρ c b h0)))

theorem keepB1' (c : Dev nD) (b : Ref sig .tc) (hb : ∀ o ∈ wrB1', b ≠ o) :
    W8 m ρ c (Proc.devRef .tc b) = W4 m ρ c (Proc.devRef .tc b) := by
  simp only [wrB1', List.forall_mem_append] at hb
  obtain ⟨⟨⟨h2, h21⟩, h22⟩, h23⟩ := hb
  exact (keepH2_3 m ρ c b h23).trans ((keepH2_2 m ρ c b h22).trans ((keepH2_1 m ρ c b h21).trans (keepH2 m ρ c b h2)))

theorem keepB1 (c : Dev nD) (b : Ref sig .tc) (hb : ∀ o ∈ wrB1, b ≠ o) :
    W11 m ρ c (Proc.devRef .tc b) = W4 m ρ c (Proc.devRef .tc b) := by
  simp only [wrB1, List.forall_mem_append, List.forall_mem_singleton] at hb
  obtain ⟨⟨⟨h', hv27⟩, h3⟩, hv38⟩ := hb
  exact (keepR3 m ρ c b hv38).trans ((keepH3 m ρ c b h3).trans ((keepR2 m ρ c b hv27).trans (keepB1' m ρ c b h')))

theorem keepB2' (c : Dev nD) (b : Ref sig .tc) (hb : ∀ o ∈ wrB2', b ≠ o) :
    W15 m ρ c (Proc.devRef .tc b) = W11 m ρ c (Proc.devRef .tc b) := by
  simp only [wrB2', List.forall_mem_append] at hb
  obtain ⟨⟨⟨h4, h41⟩, h42⟩, h43⟩ := hb
  exact (keepH4_3 m ρ c b h43).trans ((keepH4_2 m ρ c b h42).trans ((keepH4_1 m ρ c b h41).trans (keepH4 m ρ c b h4)))

theorem keepB2 (c : Dev nD) (b : Ref sig .tc) (hb : ∀ o ∈ wrB2, b ≠ o) :
    W18 m ρ c (Proc.devRef .tc b) = W11 m ρ c (Proc.devRef .tc b) := by
  simp only [wrB2, List.forall_mem_append, List.forall_mem_singleton] at hb
  obtain ⟨⟨⟨h', hv56⟩, h5⟩, hv67⟩ := hb
  exact (keepR5 m ρ c b hv67).trans ((keepH5 m ρ c b h5).trans ((keepR4 m ρ c b hv56).trans (keepB2' m ρ c b h')))

theorem keepB3' (c : Dev nD) (b : Ref sig .tc) (hb : ∀ o ∈ wrB3', b ≠ o) :
    W22 m ρ c (Proc.devRef .tc b) = W18 m ρ c (Proc.devRef .tc b) := by
  simp only [wrB3', List.forall_mem_append] at hb
  obtain ⟨⟨⟨h6, h61⟩, h62⟩, h63⟩ := hb
  exact (keepH6_3 m ρ c b h63).trans ((keepH6_2 m ρ c b h62).trans ((keepH6_1 m ρ c b h61).trans (keepH6 m ρ c b h6)))

theorem keepB3 (c : Dev nD) (b : Ref sig .tc) (hb : ∀ o ∈ wrB3, b ≠ o) :
    W25 m ρ c (Proc.devRef .tc b) = W18 m ρ c (Proc.devRef .tc b) := by
  simp only [wrB3, List.forall_mem_append, List.forall_mem_singleton] at hb
  obtain ⟨⟨⟨h', hv85⟩, h7⟩, hv96⟩ := hb
  exact (keepR7 m ρ c b hv96).trans ((keepH7 m ρ c b h7).trans ((keepR6 m ρ c b hv85).trans (keepB3' m ρ c b h')))

theorem keepB4 (c : Dev nD) (b : Ref sig .tc) (hb : ∀ o ∈ wrB4, b ≠ o) :
    W27 m ρ c (Proc.devRef .tc b) = W25 m ρ c (Proc.devRef .tc b) := by
  simp only [wrB4, List.forall_mem_append, List.forall_mem_singleton] at hb
  obtain ⟨h8, hv99⟩ := hb
  exact (keepR8 m ρ c b hv99).trans (keepH8 m ρ c b h8)

/-! ## Telling buffers apart by number

Every buffer is numbered within its memory space, and two buffers with different numbers are different buffers. So
"`b` is none of the buffers of the list" follows from "`b`'s number is none of the list's numbers", a statement about
natural numbers: for a concrete `b` it is settled by comparing numerals, one pass over the list. -/

/-- A buffer's number within its memory space. -/
def key (r : Ref sig .tc) : Nat := r.idx.val

/-- Buffers with different numbers are different. -/
theorem ne_of_key_ne {b o : Ref sig .tc} (h : key b ≠ key o) : b ≠ o := fun e => h (e ▸ rfl)

/-- A buffer whose number is not among a list's numbers is none of the list's buffers. -/
theorem apart {b : Ref sig .tc} {l : List (Ref sig .tc)} (h : key b ∉ l.map key) : ∀ o ∈ l, b ≠ o :=
  fun o ho => ne_of_key_ne fun e => h (e ▸ List.mem_map_of_mem ho)

end Cert.KernelIdeal.Keep
-- ==== Proof.PreIdx.lean ====
/-
  The printed input precondition ends with two whole-array tests on the edge-index array: "every entry is at least
  zero" and "every entry is below 100000", each an AND-reduction of a one-bit comparison array over all axes, and the
  precondition is the AND of all its tests. If the precondition holds (its one-bit result is 1), every conjunct is 1;
  an AND-reduction over all axes that is 1 had a 1 at every entry; and the compared array at an entry is the comparison
  of that entry with the broadcast constant. So every entry of the edge-index array, read as a signed 32-bit word, lies
  in [0, 100000).
-/
import proofs.«406922_j70815420776874_1_alg».proof.Pre_finite_inputs
import Idealize.ShloMosaic.Lib.ReduceAll
import Idealize.ShloMosaic.Lib.StableHlo.Predicate
import Idealize.ShloMosaic.Lib.ValueIdx

noncomputable section

namespace Cert.PreIdx

open Idealize.ShloMosaic Cert.Pre_finite_inputs

/-- Every entry of the edge-index array is a signed word in [0, 100000). -/
def InRange (a : IVec Cert.Pre_finite_inputs.S2x500000 32) : Prop :=
  ∀ i, IntOp.cmpi .sge (a i) 0#32 = 1#1 ∧ IntOp.cmpi .slt (a i) 100000#32 = 1#1

/-- The scalar shape has one index. -/
instance : Subsingleton Cert.Pre_finite_inputs.S_.Idx := ⟨fun a b => funext fun d => d.elim0⟩

/-- The precondition's last two conjuncts, read back entry by entry. -/
theorem inRange_of_pre [Cert.Pre_finite_inputs.Facts] (a0 : FVec Ideal S100000x2 .f32) (a1 : FVec Ideal S500000x3 .f32) (a2 : FVec Ideal S2x64 .f32) (a3 : FVec Ideal S64 .f32) (a4 : FVec Ideal S64x64 .f32) (a5 : FVec Ideal S64 .f32) (a6 : FVec Ideal S3x64 .f32) (a7 : FVec Ideal S64 .f32) (a8 : FVec Ideal S64x64 .f32) (a9 : FVec Ideal S64 .f32) (a10 : FVec Ideal S3x384x64 .f32) (a11 : FVec Ideal S3x64 .f32) (a12 : FVec Ideal S3x64x64 .f32) (a13 : FVec Ideal S3x64 .f32) (a14 : FVec Ideal S3x256x64 .f32) (a15 : FVec Ideal S3x64 .f32) (a16 : FVec Ideal S3x64x64 .f32) (a17 : FVec Ideal S3x64 .f32) (a18 : FVec Ideal S64x64 .f32) (a19 : FVec Ideal S64 .f32) (a20 : FVec Ideal S64x1 .f32) (a21 : FVec Ideal S1 .f32) (a22 : IVec S2x500000 32)
    (h : Cert.Pre_finite_inputs.fn (F := Ideal) a0 a1 a2 a3 a4 a5 a6 a7 a8 a9 a10 a11 a12 a13 a14 a15 a16 a17 a18 a19 a20 a21 a22 = fun _ => 1#1) : InRange a22 := by
  have h0 := congrFun h ValueIdx.ix0
  dsimp only [Cert.Pre_finite_inputs.fn, fn_part1, fn_part2, fn_part3, fn_part4, fn_part5, fn_part6] at h0
  -- the result is (… ∧ all(a22 ≥ 0)) ∧ all(a22 < 100000)
  obtain ⟨h1, hlt⟩ := IntOp.andi_eq_one.1 h0
  obtain ⟨_, hge⟩ := IntOp.andi_eq_one.1 h1
  intro i
  have e1 := Host.reduce_andi_all _ _ _ _ _ hge i
  have e2 := Host.reduce_andi_all _ _ _ _ _ hlt i
  exact ⟨e1, e2⟩

end Cert.PreIdx
-- ==== Proof.KTake.lean ====
/-
  Row lookup by index, in its default mode, as the program prints it: a negative index has the row count 100000 added
  (the sign test selects between "index + 100000" and the index), the normalised indices are laid out as a one-column
  array, the rows of the operand at those indices are gathered, and a row whose normalised index falls outside
  [0, 99999] is replaced by the not-a-number constant. For an index that already lies in [0, 100000) the sign test
  fails, so the normalised index is the index itself; both range tests then hold at every entry of the one-column
  array, the AND over the single column is one, and the final selection keeps the gathered row. Hence the lookup is
  the plain gather at the normalised indices. The source and destination index rows are rows 0 and 1 of the 2 x 500000
  edge-index array, so the range fact for the whole array gives the range fact for each row.
-/
import proofs.«406922_j70815420776874_1_alg».proof.KernelIdeal
import proofs.«406922_j70815420776874_1_alg».proof.Proof.PreIdx
import Idealize.ShloMosaic.Lib.ReduceAll
import Idealize.ShloMosaic.Lib.ValueIdx
import Idealize.ShloMosaic.Lib.Pipeline.Value

noncomputable section

namespace Cert.KernelIdeal.Take

open Idealize.ShloMosaic Cert.KernelIdeal
open Cert.KernelIdeal.Facts₀ Cert.KernelIdeal.Facts

variable [Cert.KernelIdeal.Facts]

/-- The normalised index column: a negative index has 100000 added, then the row becomes a one-column array. -/
def normIdx (idx : IVec S500000 32) : IVec S500000x1 32 :=
  broadcastInDim S500000x1 ![0] bcast_S500000_S500000x1_0
    (select (cmpi .slt idx (broadcastInDim S500000 ![] bcast_S_S500000 (constantI S_ 32 0#32)))
      (addi idx (broadcastInDim S500000 ![] bcast_S_S500000 (constantI S_ 32 100000#32)))
      idx)

/-- The row mask: both range tests on the normalised index, ANDed over the single column. -/
def rowMask (idx : IVec S500000 32) : IVec S500000 1 :=
  Host.reduce IntOp.andi
    (andi (cmpi .sge (normIdx idx) (broadcastInDim S500000x1 ![] bcast_S_S500000x1 (constantI S_ 32 0#32)))
      (cmpi .sle (normIdx idx)
        (broadcastInDim S500000x1 ![0, 1] bcast_S1x1_S500000x1_0_1
          (broadcastInDim S1x1 ![1] bcast_S1_S1x1_1 (constantI S1 32 99999#32)))))
    (constantI S_ 1 1#1) reducesTo_S500000x1_S500000_d1 h_S_

/-- The lookup: the gathered rows where the mask is one, the not-a-number constant elsewhere. -/
def takeFn (x : FVec Ideal S100000x128 .f32) (idx : IVec S500000 32) : FVec Ideal S500000x128 .f32 :=
  select
    (broadcastInDim S500000x128 ![0] bcast_S500000_S500000x128_0 (rowMask idx))
    (Host.gather gather_S100000x128_S500000x1_S500000x128_1_0_n_n_0_1_1128 x (normIdx idx))
    (broadcastInDim S500000x128 ![] bcast_S_S500000x128 (constant (F := Ideal) S_ .f32 0x7FC00000#32))

/-- Every entry of the index row is a signed word in [0, 100000). -/
def RowInRange (idx : IVec S500000 32) : Prop :=
  ∀ e, IntOp.cmpi .sge (idx e) 0#32 = 1#1 ∧ IntOp.cmpi .slt (idx e) 100000#32 = 1#1

/-! ## Word facts -/

/-- For a signed word in [0, 100000): the sign test fails, and the word is at most 99999. -/
theorem word_facts (v : BitVec 32) (h : IntOp.cmpi .sge v 0#32 = 1#1 ∧ IntOp.cmpi .slt v 100000#32 = 1#1) :
    ¬ IntOp.cmpi .slt v 0#32 = 1#1 ∧ IntOp.cmpi .sle v 99999#32 = 1#1 := by
  obtain ⟨h1, h2⟩ := h
  rw [IntOp.cmpi_sge] at h1
  rw [IntOp.cmpi_slt] at h2
  rw [IntOp.cmpi_slt, IntOp.cmpi_sle]
  have e0 : (0#32 : BitVec 32).toInt = 0 := by decide
  have e1 : (100000#32 : BitVec 32).toInt = 100000 := by decide
  have e2 : (99999#32 : BitVec 32).toInt = 99999 := by decide
  rw [e0] at h1
  rw [e1] at h2
  rw [e0, e2]
  omega

/-- A left fold by AND from 1 over words that are all 1 is 1. -/
theorem foldl_andi_ones {ι : Type} (f : ι → BitVec 1) (hf : ∀ n, f n = 1#1) :
    ∀ (l : List ι) (init : BitVec 1), init = 1#1 → l.foldl (fun r n => IntOp.andi r (f n)) init = 1#1
  | [], _, hi => hi
  | a :: l, init, hi => by
    rw [List.foldl_cons]
    exact foldl_andi_ones f hf l _ (IntOp.andi_eq_one.2 ⟨hi, hf a⟩)

/-- A selection whose condition is one at an index reads its first branch there. -/
theorem select_of_one {α : Type} {s : Shape} (c : IVec s 1) (a b : s.Idx → α) (j : s.Idx) (hc : c j = 1#1) :
    select c a b j = a j := by
  refine (ValueIdx.select_apply c a b j).trans ?_
  rw [hc]
  exact ValueIdx.select_one _ _

/-! ## The lookup at an in-range index row -/

/-- For an in-range index row the normalised index at (e, 0) is the index at e. -/
theorem normIdx_apply (idx : IVec S500000 32) (h : RowInRange idx) (j : S500000x1.Idx) :
    normIdx idx j = idx (ValueIdx.ix1 (j 0)) := by
  unfold normIdx
  refine (broadcastInDim_apply _ _ _ j (ValueIdx.ix1 (j 0)) (fun a => match a with | ⟨0, _⟩ => rfl)).trans ?_
  refine (ValueIdx.select_apply _ _ _ _).trans ?_
  exact if_neg (word_facts _ (h _)).1

/-- For an in-range index row the row mask is one everywhere. -/
theorem rowMask_apply (idx : IVec S500000 32) (h : RowInRange idx) (e : S500000.Idx) : rowMask idx e = 1#1 := by
  unfold rowMask
  rw [Host.reduce_eq_foldl]
  refine foldl_andi_ones _ (fun i => ?_) _ _ rfl
  show IntOp.andi (IntOp.cmpi .sge (normIdx idx i) 0#32) (IntOp.cmpi .sle (normIdx idx i) 99999#32) = 1#1
  rw [normIdx_apply idx h i]
  exact IntOp.andi_eq_one.2 ⟨(h _).1, (word_facts _ (h _)).2⟩

/-- For an in-range index row the lookup is the plain gather at the normalised indices. -/
theorem takeFn_eq (x : FVec Ideal S100000x128 .f32) (idx : IVec S500000 32) (h : RowInRange idx) :
    takeFn x idx = Host.gather gather_S100000x128_S500000x1_S500000x128_1_0_n_n_0_1_1128 x (normIdx idx) := by
  funext j
  unfold takeFn
  have hm : broadcastInDim S500000x128 ![0] bcast_S500000_S500000x128_0 (rowMask idx) j = 1#1 :=
    (broadcastInDim_apply _ _ _ j (ValueIdx.ix1 (j 0)) (fun a => match a with | ⟨0, _⟩ => rfl)).trans
      (rowMask_apply idx h _)
  exact select_of_one _ _ _ j hm

/-! ## The two index rows of the edge-index array -/

/-- Row 0 of the edge-index array, as a vector. -/
def srcOf (a22 : IVec S2x500000 32) : IVec S500000 32 :=
  shapeCast S500000 (extractStridedSlice S1x500000 ![0, 0] a22 slices_S2x500000_S1x500000_0_0) shapeCasts_S1x500000_S500000

/-- Row 1 of the edge-index array, as a vector. -/
def dstOf (a22 : IVec S2x500000 32) : IVec S500000 32 :=
  shapeCast S500000 (extractStridedSlice S1x500000 ![1, 0] a22 slices_S2x500000_S1x500000_1_0) shapeCasts_S1x500000_S500000

/-- Entry e of row 0 is entry (0, e) of the array. -/
theorem srcOf_apply (a22 : IVec S2x500000 32) (e : S500000.Idx) :
    srcOf a22 e = a22 (ValueIdx.ix2 (0 : Fin 2) (e 0)) := by
  unfold srcOf
  refine (shapeCast_apply _ _ e (ValueIdx.ix2 (0 : Fin 1) (e 0)) ?_).trans ?_
  · rw [Shape.rowMajor_val_two, Shape.rowMajor_val_one]
    show 0 * 500000 + (e 0).val = (e 0).val
    omega
  · exact extractStridedSlice_apply _ _ _ _ _ (fun a => match a with
      | ⟨0, _⟩ => rfl
      | ⟨1, _⟩ => by show (e 0).val = 0 + (e 0).val; omega)

/-- Entry e of row 1 is entry (1, e) of the array. -/
theorem dstOf_apply (a22 : IVec S2x500000 32) (e : S500000.Idx) :
    dstOf a22 e = a22 (ValueIdx.ix2 (1 : Fin 2) (e 0)) := by
  unfold dstOf
  refine (shapeCast_apply _ _ e (ValueIdx.ix2 (0 : Fin 1) (e 0)) ?_).trans ?_
  · rw [Shape.rowMajor_val_two, Shape.rowMajor_val_one]
    show 0 * 500000 + (e 0).val = (e 0).val
    omega
  · exact extractStridedSlice_apply _ _ _ _ _ (fun a => match a with
      | ⟨0, _⟩ => rfl
      | ⟨1, _⟩ => by show (e 0).val = 0 + (e 0).val; omega)

theorem src_inRange (a22 : IVec S2x500000 32) (h : Cert.PreIdx.InRange a22) : RowInRange (srcOf a22) := by
  intro e
  rw [srcOf_apply]
  exact h _

theorem dst_inRange (a22 : IVec S2x500000 32) (h : Cert.PreIdx.InRange a22) : RowInRange (dstOf a22) := by
  intro e
  rw [dstOf_apply]
  exact h _

end Cert.KernelIdeal.Take
-- ==== Proof.RStageA.lean ====
/-
  The reference's three perceptron stages, each as one function of whole arrays.

  The reference computes its node encoder, its edge encoder and its decoder as a chain of whole-array operations:
  a matrix product, a bias vector laid along the rows, a maximum with zero, and the same once more (the decoder
  without the last maximum).  Entry `(r, q)` of a matrix product `X · W` is `∑ c, X (r, c) * W (c, q)`: it reads row
  `r` of `X` and nothing else of it.  The bias adds entry `q` of the vector whatever the row, and the maximum with zero
  acts entry by entry.  So row `r` of a stage's result is a function of row `r` of the stage's input alone, and that
  function is the row perceptron: `relu (relu (x · W1 + b1) · W2 + b2)` for the two encoders,
  `relu (x · W1 + b1) · W2 + b2` for the decoder.  This file proves exactly that: first for arrays of any size, then
  for the program's three stages, whose operations are those of the general statement at particular sizes (the
  dimension numbers the program prints for its products are those of the plain `M×K` by `K×N` product).
  Nothing is evaluated: the zero the maximum compares with stays the value of the zero word.
-/
import proofs.«406922_j70815420776874_1_alg».proof.Proof.RefRead
import proofs.«406922_j70815420776874_1_alg».proof.Proof.LibRows

noncomputable section

namespace Cert.ReferenceIdeal.Stage

open Idealize.ShloMosaic Idealize.ShloMosaic.ValueIdx Cert.ReferenceIdeal Cert.ReferenceIdeal.ReadP Cert.Rows
open Cert.ReferenceIdeal.Gen
open scoped BigOperators

/-! ## The host's spelling of the pieces, on whole arrays -/

/-- A dense layer as the host writes it: the plain product, plus the bias vector laid along the rows in two steps. -/
abbrev hostDense {R K C : Nat} (prec : Option ContractPrecision)
    (X : FVec Ideal ⟨2, ![R, K]⟩ .f32) (W : FVec Ideal ⟨2, ![K, C]⟩ .f32) (b : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![R, C]⟩ ![0, 1]) : FVec Ideal ⟨2, ![R, C]⟩ .f32 :=
  addf (Host.dotGeneral (DotDims.plain R K C) prec X W)
    (broadcastInDim ⟨2, ![R, C]⟩ ![0, 1] h2 (broadcastInDim ⟨2, ![1, C]⟩ ![1] h1 b))

/-- The rectifier as the host writes it: the maximum with the scalar zero constant broadcast to the array's shape. -/
abbrev hostRelu {R C : Nat} (Y : FVec Ideal ⟨2, ![R, C]⟩ .f32)
    (hz : (⟨0, ![]⟩ : Shape).BroadcastsInDim ⟨2, ![R, C]⟩ ![]) : FVec Ideal ⟨2, ![R, C]⟩ .f32 :=
  maximumf Y (broadcastInDim ⟨2, ![R, C]⟩ ![] hz (constant (F := Ideal) ⟨0, ![]⟩ .f32 0x00000000#32))

/-- One dense layer of the host, read at row `r`, column `q`: the dense layer of LibRows on row `r`, at `q`. -/
theorem hostDense_apply {R K C : Nat} (prec : Option ContractPrecision)
    (X : FVec Ideal ⟨2, ![R, K]⟩ .f32) (W : FVec Ideal ⟨2, ![K, C]⟩ .f32) (b : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![R, C]⟩ ![0, 1]) (r : Fin R) (q : Fin C) :
    hostDense prec X W b h1 h2 (ix2 r q)
      = denseRow (rowOf (X : Arr2 R K) r) (W : Arr2 K C) (vecOf (b : Arr1 C)) q := by
  refine (addf_apply _ _ _).trans ?_
  rw [Rows.dotGeneral_plain_apply, Rows.host_bias_apply]
  rfl

/-- A rectified dense layer of the host, read at row `r`, column `q`. -/
theorem hostRelu_hostDense_apply {R K C : Nat} (prec : Option ContractPrecision)
    (X : FVec Ideal ⟨2, ![R, K]⟩ .f32) (W : FVec Ideal ⟨2, ![K, C]⟩ .f32) (b : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![R, C]⟩ ![0, 1])
    (hz : (⟨0, ![]⟩ : Shape).BroadcastsInDim ⟨2, ![R, C]⟩ ![]) (r : Fin R) (q : Fin C) :
    hostRelu (hostDense prec X W b h1 h2) hz (ix2 r q)
      = reluRow (denseRow (rowOf (X : Arr2 R K) r) (W : Arr2 K C) (vecOf (b : Arr1 C))) q := by
  refine (Rows.host_relu_apply _ hz _).trans ?_
  exact congrArg (fun v => max v z32) (hostDense_apply prec X W b h1 h2 r q)

/-- A row of a rectified dense layer of the host is the rectified dense layer of that row. -/
theorem rowOf_hostRelu_hostDense {R K C : Nat} (prec : Option ContractPrecision)
    (X : FVec Ideal ⟨2, ![R, K]⟩ .f32) (W : FVec Ideal ⟨2, ![K, C]⟩ .f32) (b : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![R, C]⟩ ![0, 1])
    (hz : (⟨0, ![]⟩ : Shape).BroadcastsInDim ⟨2, ![R, C]⟩ ![]) (r : Fin R) :
    rowOf (hostRelu (hostDense prec X W b h1 h2) hz : Arr2 R C) r
      = reluRow (denseRow (rowOf (X : Arr2 R K) r) (W : Arr2 K C) (vecOf (b : Arr1 C))) :=
  funext fun q => hostRelu_hostDense_apply prec X W b h1 h2 hz r q

/-- Two rectified dense layers of the host, on whole arrays, are the perceptron of LibRows applied to every row. -/
theorem host_mlp_eq {R K H C : Nat} (p1 p2 : Option ContractPrecision)
    (X : FVec Ideal ⟨2, ![R, K]⟩ .f32) (W1 : FVec Ideal ⟨2, ![K, H]⟩ .f32) (b1 : FVec Ideal ⟨1, ![H]⟩ .f32)
    (W2 : FVec Ideal ⟨2, ![H, C]⟩ .f32) (b2 : FVec Ideal ⟨1, ![C]⟩ .f32)
    (g1 : (⟨1, ![H]⟩ : Shape).BroadcastsInDim ⟨2, ![1, H]⟩ ![1])
    (g2 : (⟨2, ![1, H]⟩ : Shape).BroadcastsInDim ⟨2, ![R, H]⟩ ![0, 1])
    (gz : (⟨0, ![]⟩ : Shape).BroadcastsInDim ⟨2, ![R, H]⟩ ![])
    (h1 : (⟨1, ![C]⟩ : Shape).BroadcastsInDim ⟨2, ![1, C]⟩ ![1])
    (h2 : (⟨2, ![1, C]⟩ : Shape).BroadcastsInDim ⟨2, ![R, C]⟩ ![0, 1])
    (hz : (⟨0, ![]⟩ : Shape).BroadcastsInDim ⟨2, ![R, C]⟩ ![]) :
    hostRelu (hostDense p2 (hostRelu (hostDense p1 X W1 b1 g1 g2) gz) W2 b2 h1 h2) hz
      = mlpArr (X : Arr2 R K) (W1 : Arr2 K H) (vecOf (b1 : Arr1 H)) (W2 : Arr2 H C) (vecOf (b2 : Arr1 C)) := by
  funext i
  obtain ⟨r, q, rfl⟩ : ∃ (r : Fin R) (q : Fin C), i = ix2 r q := ⟨i 0, i 1, eq_ix2 i⟩
  refine (hostRelu_hostDense_apply p2 _ W2 b2 h1 h2 hz r q).trans ?_
  rw [rowOf_hostRelu_hostDense p1 X W1 b1 g1 g2 gz r]
  rfl

/-- A rectified dense layer followed by a bare dense layer, on whole arrays, is the decoder of LibRows applied to
    every row. -/
theorem host_dec_eq {R K H C : Nat} (p1 p2 : Option ContractPrecision)
    (X : FVec Ideal ⟨2, ![R, K]⟩ .f32) (W1 : FVec Ideal ⟨2, ![K, H]⟩ .f32) (b1 : FVec Ideal ⟨1, ![H]⟩ .f32)
    (W2 : FVec Ideal ⟨2, ![H, C]⟩ .f32) (b2 : FVec Ideal ⟨1, ![C]⟩ .f32)
    (g1 : (⟨1, ![H]⟩ : Shape).BroadcastsInDim ⟨2, ![1, H]⟩ ![1])
    (g2 : (⟨2, ![1, H]⟩ : Shape).BroadcastsInDim ⟨2, ![R, H]⟩ ![0, 1])
    (gz : (⟨0, ![]⟩ : Shape).BroadcastsInDim ⟨2, ![R, H]⟩ ![])
    (h1 : (⟨1, ![C]⟩ : Shape).BroadcastsInDim ⟨2, ![1, C]⟩ ![1])
    (h2 : (⟨2, ![1, C]⟩ : Shape).BroadcastsInDim ⟨2, ![R, C]⟩ ![0, 1]) :
    hostDense p2 (hostRelu (hostDense p1 X W1 b1 g1 g2) gz) W2 b2 h1 h2
      = decArr (X : Arr2 R K) (W1 : Arr2 K H) (vecOf (b1 : Arr1 H)) (W2 : Arr2 H C) (vecOf (b2 : Arr1 C)) := by
  funext i
  obtain ⟨r, q, rfl⟩ : ∃ (r : Fin R) (q : Fin C), i = ix2 r q := ⟨i 0, i 1, eq_ix2 i⟩
  refine (hostDense_apply p2 _ W2 b2 h1 h2 r q).trans ?_
  rw [rowOf_hostRelu_hostDense p1 X W1 b1 g1 g2 gz r]
  rfl

/-! ## The program's three stages

Each stage's value is, by definition, the chain of host operations above at the stage's sizes, so the general
statements apply as they stand. -/

/-- The node encoder (operations %4 to %13): the perceptron of every row of the node features. -/
theorem r_v13 (x0 : (⟨S100000x2, .f32⟩ : BufTy).Contents (Elt Ideal)) (x2 : (⟨S2x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) :
    val_main_v13 (F := Ideal) x0 x2 x3 x4 x5
      = (mlpArr (x0 : Arr2 100000 2) (x2 : Arr2 2 64) (vecOf (x3 : Arr1 64)) (x4 : Arr2 64 64) (vecOf (x5 : Arr1 64))
          : Arr2 100000 64) :=
  host_mlp_eq none none x0 x2 x3 x4 x5 bcast_S64_S1x64_1 bcast_S1x64_S100000x64_0_1 bcast_S_S100000x64
    bcast_S64_S1x64_1 bcast_S1x64_S100000x64_0_1 bcast_S_S100000x64

/-- The edge encoder (operations %14 to %23): the perceptron of every row of the edge features. -/
theorem r_v23 (x1 : (⟨S500000x3, .f32⟩ : BufTy).Contents (Elt Ideal)) (x6 : (⟨S3x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) :
    val_main_v23 (F := Ideal) x1 x6 x7 x8 x9
      = (mlpArr (x1 : Arr2 500000 3) (x6 : Arr2 3 64) (vecOf (x7 : Arr1 64)) (x8 : Arr2 64 64) (vecOf (x9 : Arr1 64))
          : Arr2 500000 64) :=
  host_mlp_eq none none x1 x6 x7 x8 x9 bcast_S64_S1x64_1 bcast_S1x64_S500000x64_0_1 bcast_S_S500000x64
    bcast_S64_S1x64_1 bcast_S1x64_S500000x64_0_1 bcast_S_S500000x64

/-- The decoder (operations %195 to %203): a rectified dense layer and then a bare one, on every row of the last
    node state; one output column. -/
theorem r_v203 (x0 : (⟨S100000x2, .f32⟩ : BufTy).Contents (Elt Ideal)) (x1 : (⟨S500000x3, .f32⟩ : BufTy).Contents (Elt Ideal)) (x2 : (⟨S2x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S3x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S3x384x64, .f32⟩ : BufTy).Contents (Elt Ideal)) (x11 : (⟨S3x64, .f32⟩ : BufTy).Contents (Elt Ideal)) (x12 : (⟨S3x64x64, .f32⟩ : BufTy).Contents (Elt Ideal)) (x13 : (⟨S3x64, .f32⟩ : BufTy).Contents (Elt Ideal)) (x14 : (⟨S3x256x64, .f32⟩ : BufTy).Contents (Elt Ideal)) (x15 : (⟨S3x64, .f32⟩ : BufTy).Contents (Elt Ideal)) (x16 : (⟨S3x64x64, .f32⟩ : BufTy).Contents (Elt Ideal)) (x17 : (⟨S3x64, .f32⟩ : BufTy).Contents (Elt Ideal)) (x18 : (⟨S64x64, .f32⟩ : BufTy).Contents (Elt Ideal)) (x19 : (⟨S64, .f32⟩ : BufTy).Contents (Elt Ideal)) (x20 : (⟨S64x1, .f32⟩ : BufTy).Contents (Elt Ideal)) (x21 : (⟨S1, .f32⟩ : BufTy).Contents (Elt Ideal)) (x22 : (⟨S2x500000, .i32⟩ : BufTy).Contents (Elt Ideal)) :
    val_main_v203 (F := Ideal) x0 x1 x2 x3 x4 x5 x6 x7 x8 x9 x10 x11 x12 x13 x14 x15 x16 x17 x18 x19 x20 x21 x22
      = (decArr (val_main_v176 (F := Ideal) x0 x1 x2 x3 x4 x5 x6 x7 x8 x9 x10 x11 x12 x13 x14 x15 x16 x17 x22 : Arr2 100000 64) (x18 : Arr2 64 64)
          (vecOf (x19 : Arr1 64)) (x20 : Arr2 64 1) (vecOf (x21 : Arr1 1)) : Arr2 100000 1) :=
  host_dec_eq none none (val_main_v176 (F := Ideal) x0 x1 x2 x3 x4 x5 x6 x7 x8 x9 x10 x11 x12 x13 x14 x15 x16 x17 x22) x18 x19 x20 x21
    bcast_S64_S1x64_1 bcast_S1x64_S100000x64_0_1 bcast_S_S100000x64 bcast_S1_S1x1_1 bcast_S1x1_S100000x1_0_1

end Cert.ReferenceIdeal.Stage

end
-- ==== Proof.KFold0.lean ====
/-
  The first two kernel regions, read as whole arrays.  Before the first region the host only reshapes two bias
  vectors to one-row matrices and cuts the edge list into its source and target rows; the node encoder then leaves in
  its output array the row-wise perceptron of the node features, and the edge encoder the same of the edge features.
  A one-row reshape of a vector has the vector's entries in its row, so these are the reference's encoder stages on
  the same arguments.  Nothing later writes these four arrays, so they are still there when the first layer starts.
-/
import proofs.«406922_j70815420776874_1_alg».proof.Proof.Gen.KernelIdeal.Frame
import proofs.«406922_j70815420776874_1_alg».proof.Proof.KArr0
import proofs.«406922_j70815420776874_1_alg».proof.Proof.KArr1
import proofs.«406922_j70815420776874_1_alg».proof.Proof.KKeep
import proofs.«406922_j70815420776874_1_alg».proof.Proof.KTake
import proofs.«406922_j70815420776874_1_alg».proof.Proof.RStageA
import Idealize.ShloMosaic.Lib.StableHlo.Run

set_option maxRecDepth 16384

noncomputable section

namespace Cert.KernelIdeal.Fold

open Idealize.ShloMosaic Idealize.ShloMosaic.ValueIdx Idealize.ShloMosaic.TcCoe Idealize.SL.Sem Idealize.ShloMosaic.StableHlo
open Cert.KernelIdeal Cert.KernelIdeal.Gen Cert.Rows
open Cert.ReferenceIdeal.ReadP (val_main_v13 val_main_v23)

variable (m : (ℓ : Loc nD τ sig) → Buf (Elt Ideal) ℓ) (ρ : Dev nD → PrngReg)

/-- A vector reshaped to a one-row matrix has the vector's entries in its row. -/
theorem row0_reshape {C : Nat} (b : Arr1 C) (h : (⟨1, ![C]⟩ : Shape).ShapeCasts ⟨2, ![1, C]⟩) :
    row0 (shapeCast ⟨2, ![1, C]⟩ b h : Arr2 1 C) = vecOf b := by
  funext q
  unfold row0 vecOf
  refine (shapeCast_addUnit_apply ![C] b h (ix2 0 q)).trans (congrArg b ?_)
  funext a
  match a with
  | ⟨0, _⟩ => rfl

/-! ## What the host prepared before region 0 -/

/-- An argument array is as launched when region 0 starts. -/
theorem W1_arg (c : Dev nD) (b : Ref sig .tc) (h0 : Keep.key b ∉ Keep.wr0.map Keep.key) :
    W1 m ρ c (Proc.devRef .tc b) = m ((c : Thread nD τ).loc b) := Keep.keepH0 m ρ c b (Keep.apart h0)

theorem W1_v4 (c : Dev nD) : W1 m ρ c (Proc.devRef .tc main_v4) = shapeCast S1x64 (m ((c : Thread nD τ).loc main_arg3)) shapeCasts_S64_S1x64 := by
  show StableHlo.after hostOps0 (W0 m ρ c) (Proc.devRef .tc main_v4) = _
  after_results_simp
  rfl

theorem W1_v5 (c : Dev nD) : W1 m ρ c (Proc.devRef .tc main_v5) = shapeCast S1x64 (m ((c : Thread nD τ).loc main_arg5)) shapeCasts_S64_S1x64 := by
  show StableHlo.after hostOps0 (W0 m ρ c) (Proc.devRef .tc main_v5) = _
  after_results_simp
  rfl

/-- The edge list's first row: the source node of every edge. -/
theorem W1_v1 (c : Dev nD) : W1 m ρ c (Proc.devRef .tc main_v1) = Take.srcOf (m ((c : Thread nD τ).loc main_arg22)) := by
  show StableHlo.after hostOps0 (W0 m ρ c) (Proc.devRef .tc main_v1) = _
  after_results_simp
  rfl

/-- The edge list's second row: the target node of every edge. -/
theorem W1_v3 (c : Dev nD) : W1 m ρ c (Proc.devRef .tc main_v3) = Take.dstOf (m ((c : Thread nD τ).loc main_arg22)) := by
  show StableHlo.after hostOps0 (W0 m ρ c) (Proc.devRef .tc main_v3) = _
  after_results_simp
  rfl

/-! ## Region 0: the node encoder -/

theorem W2_v6 (c : Dev nD) :
    W2 m ρ c (Proc.devRef .tc main_v6)
      = val_main_v13 (F := Ideal) (m ((c : Thread nD τ).loc main_arg0)) (m ((c : Thread nD τ).loc main_arg2))
          (m ((c : Thread nD τ).loc main_arg3)) (m ((c : Thread nD τ).loc main_arg4)) (m ((c : Thread nD τ).loc main_arg5)) := by
  refine ((W2_arr m ρ c 5).trans (Arr.arr0 (V1 m ρ) c)).trans ?_
  show mlpArr (W1 m ρ c (Proc.devRef .tc main_arg0)) (W1 m ρ c (Proc.devRef .tc main_arg2)) (row0 (W1 m ρ c (Proc.devRef .tc main_v4)))
      (W1 m ρ c (Proc.devRef .tc main_arg4)) (row0 (W1 m ρ c (Proc.devRef .tc main_v5))) = _
  rw [W1_arg m ρ c main_arg0 (by decide), W1_arg m ρ c main_arg2 (by decide), W1_arg m ρ c main_arg4 (by decide), W1_v4, W1_v5]
  rw [row0_reshape, row0_reshape]
  exact (Cert.ReferenceIdeal.Stage.r_v13 _ _ _ _ _).symm

/-- An argument array is as launched when region 0 is over. -/
theorem W2_arg (c : Dev nD) (b : Ref sig .tc) (h6 : Keep.key b ≠ Keep.key main_v6) (h0 : Keep.key b ∉ Keep.wr0.map Keep.key) :
    W2 m ρ c (Proc.devRef .tc b) = m ((c : Thread nD τ).loc b) :=
  (Keep.keepR0 m ρ c b (Keep.ne_of_key_ne h6)).trans (W1_arg m ρ c b h0)

/-! ## Region 1: the edge encoder -/

theorem W3_arg (c : Dev nD) (b : Ref sig .tc) (h6 : Keep.key b ≠ Keep.key main_v6) (h0 : Keep.key b ∉ Keep.wr0.map Keep.key)
    (h1 : Keep.key b ∉ Keep.wr1.map Keep.key) : W3 m ρ c (Proc.devRef .tc b) = m ((c : Thread nD τ).loc b) :=
  (Keep.keepH1 m ρ c b (Keep.apart h1)).trans (W2_arg m ρ c b h6 h0)

theorem W3_v7 (c : Dev nD) : W3 m ρ c (Proc.devRef .tc main_v7) = shapeCast S1x64 (m ((c : Thread nD τ).loc main_arg7)) shapeCasts_S64_S1x64 := by
  show StableHlo.after hostOps1 (W2 m ρ c) (Proc.devRef .tc main_v7) = _
  after_results_simp
  rw [W2_arg m ρ c main_arg7 (by decide) (by decide)]
  rfl

theorem W3_v8 (c : Dev nD) : W3 m ρ c (Proc.devRef .tc main_v8) = shapeCast S1x64 (m ((c : Thread nD τ).loc main_arg9)) shapeCasts_S64_S1x64 := by
  show StableHlo.after hostOps1 (W2 m ρ c) (Proc.devRef .tc main_v8) = _
  after_results_simp
  rw [W2_arg m ρ c main_arg9 (by decide) (by decide)]
  rfl

theorem W4_v9 (c : Dev nD) :
    W4 m ρ c (Proc.devRef .tc main_v9)
      = val_main_v23 (F := Ideal) (m ((c : Thread nD τ).loc main_arg1)) (m ((c : Thread nD τ).loc main_arg6))
          (m ((c : Thread nD τ).loc main_arg7)) (m ((c : Thread nD τ).loc main_arg8)) (m ((c : Thread nD τ).loc main_arg9)) := by
  refine ((W4_arr m ρ c 5).trans (Arr.arr1 (V3 m ρ) c)).trans ?_
  show mlpArr (W3 m ρ c (Proc.devRef .tc main_arg1)) (W3 m ρ c (Proc.devRef .tc main_arg6)) (row0 (W3 m ρ c (Proc.devRef .tc main_v7)))
      (W3 m ρ c (Proc.devRef .tc main_arg8)) (row0 (W3 m ρ c (Proc.devRef .tc main_v8))) = _
  rw [W3_arg m ρ c main_arg1 (by decide) (by decide) (by decide), W3_arg m ρ c main_arg6 (by decide) (by decide) (by decide),
    W3_arg m ρ c main_arg8 (by decide) (by decide) (by decide), W3_v7, W3_v8]
  rw [row0_reshape, row0_reshape]
  exact (Cert.ReferenceIdeal.Stage.r_v23 _ _ _ _ _).symm

/-! ## What the first layer starts from -/

theorem W4_v6 (c : Dev nD) :
    W4 m ρ c (Proc.devRef .tc main_v6)
      = val_main_v13 (F := Ideal) (m ((c : Thread nD τ).loc main_arg0)) (m ((c : Thread nD τ).loc main_arg2))
          (m ((c : Thread nD τ).loc main_arg3)) (m ((c : Thread nD τ).loc main_arg4)) (m ((c : Thread nD τ).loc main_arg5)) :=
  ((Keep.keepR1 m ρ c main_v6 (Keep.ne_of_key_ne (by decide))).trans (Keep.keepH1 m ρ c main_v6 (Keep.apart (by decide)))).trans (W2_v6 m ρ c)

theorem W4_v1 (c : Dev nD) : W4 m ρ c (Proc.devRef .tc main_v1) = Take.srcOf (m ((c : Thread nD τ).loc main_arg22)) :=
  (((Keep.keepR1 m ρ c main_v1 (Keep.ne_of_key_ne (by decide))).trans (Keep.keepH1 m ρ c main_v1 (Keep.apart (by decide)))).trans
    (Keep.keepR0 m ρ c main_v1 (Keep.ne_of_key_ne (by decide)))).trans (W1_v1 m ρ c)

theorem W4_v3 (c : Dev nD) : W4 m ρ c (Proc.devRef .tc main_v3) = Take.dstOf (m ((c : Thread nD τ).loc main_arg22)) :=
  (((Keep.keepR1 m ρ c main_v3 (Keep.ne_of_key_ne (by decide))).trans (Keep.keepH1 m ρ c main_v3 (Keep.apart (by decide)))).trans
    (Keep.keepR0 m ρ c main_v3 (Keep.ne_of_key_ne (by decide)))).trans (W1_v3 m ρ c)

/-- An argument array is as launched when the first layer starts. -/
theorem W4_arg (c : Dev nD) (b : Ref sig .tc) (h : Keep.key b ∉ Keep.wrB0.map Keep.key) :
    W4 m ρ c (Proc.devRef .tc b) = m ((c : Thread nD τ).loc b) := Keep.keepB0 m ρ c b (Keep.apart h)

end Cert.KernelIdeal.Fold

end
-- ==== Proof.KPay2.lean ====
/-
  What the body of the edge-update kernel leaves at an entry of its output block, at the ideal values: three input
  blocks are joined along the lanes, so row `p` of the joined block is the three rows laid end to end, and the rest is
  the two-layer perceptron of LibRows on that row.  The three launches of this kernel print the same body.
-/
import proofs.«406922_j70815420776874_1_alg».proof.Proof.Gen.KernelIdeal.Skeleton
import proofs.«406922_j70815420776874_1_alg».proof.Proof.LibRows

noncomputable section

namespace Cert.KernelIdeal.Pay

open Idealize.ShloMosaic Idealize.ShloMosaic.ValueIdx Cert.KernelIdeal Cert.KernelIdeal.Gen Cert.Rows

/-- Edge update: entry `(p, q)` of the block is the perceptron of `[a | b | c]`'s row `p`. -/
theorem pay2_apply (a b c : Vec Ideal S5000x128 .f32) (w1 : Vec Ideal S384x64 .f32) (b1 : Vec Ideal S1x64 .f32)
    (w2 : Vec Ideal S64x64 .f32) (b2 : Vec Ideal S1x64 .f32) (p : Fin 5000) (q : Fin 64) :
    k2_pay1 (F := Ideal) a b c w1 b1 w2 b2 (ix2 p q)
      = mlpRow (cat3Row (A := 128) (B := 128) (C := 128) (N := 384) rfl (rowOf a p) (rowOf b p) (rowOf c p)) w1 (row0 b1) w2 (row0 b2) q := by
  -- the first layer, read at an entry of row `p`
  have hin : ∀ k : Fin 64,
      (maximumf
        (addf
          (matmul dot_S5000x384_S384x64_S5000x64_1_0_0_1_n_n none
            (truncf FTy.bf16
              (concatenate S5000x384 1
                [⟨S5000x128, shapeCast S5000x128 a shapeCasts_S5000x128_S5000x128⟩,
                  ⟨S5000x128, shapeCast S5000x128 b shapeCasts_S5000x128_S5000x128⟩,
                  ⟨S5000x128, shapeCast S5000x128 c shapeCasts_S5000x128_S5000x128⟩]
                concatenates_S5000x128_S5000x128_S5000x128_S5000x384_d1)
              bitsLt_bf16_f32)
            (truncf FTy.bf16 (shapeCast S384x64 w1 shapeCasts_S384x64_S384x64) bitsLt_bf16_f32)
            (constant S5000x64 FTy.f32 0x00000000#32))
          (broadcastTo S5000x64 (shapeCast S1x64 b1 shapeCasts_S1x64_S1x64) broadcasts_S1x64_S5000x64))
        (broadcast S5000x64 (Scalar.ofBits (F := Ideal) .f32 0x00000000#32)) : FVec Ideal S5000x64 .f32) (ix2 p k)
      = reluRow (denseRow (cat3Row (A := 128) (B := 128) (C := 128) (N := 384) rfl (rowOf a p) (rowOf b p) (rowOf c p))
          w1 (row0 b1)) k := by
    intro k
    refine (kernel_relu_apply _ _).trans ?_
    show max _ z32 = max _ z32
    refine congrArg (fun t => max t z32) ?_
    show _ + _ = _ + _
    refine congrArg₂ (· + ·) ?_ (bias_rows_apply b1 _ _ p k)
    refine (matmul_plain_zero_apply none _ _ p k).trans ?_
    refine Finset.sum_congr rfl fun j _ => ?_
    refine congrArg₂ (· * ·) ?_ ?_
    · -- the joined block's row
      have hrow := rowOf_concat3 (A := 128) (B := 128) (D := 128) (N := 384) rfl
        (shapeCast S5000x128 a shapeCasts_S5000x128_S5000x128)
        (shapeCast S5000x128 b shapeCasts_S5000x128_S5000x128)
        (shapeCast S5000x128 c shapeCasts_S5000x128_S5000x128)
        concatenates_S5000x128_S5000x128_S5000x128_S5000x384_d1 p
      refine (congrFun hrow j).trans ?_
      rw [shapeCast_self a, shapeCast_self b, shapeCast_self c]
    · exact congrFun (shapeCast_self w1 _) (ix2 j k)
  unfold k2_pay1
  unfold mlpRow
  refine (kernel_relu_apply _ _).trans ?_
  show max _ z32 = max _ z32
  refine congrArg (fun t => max t z32) ?_
  show _ + _ = _ + _
  refine congrArg₂ (· + ·) ?_ (bias_rows_apply b2 _ _ p q)
  refine (matmul_plain_zero_apply none _ _ p q).trans ?_
  refine Finset.sum_congr rfl fun j _ => ?_
  refine congrArg₂ (· * ·) (hin j) ?_
  exact congrFun (shapeCast_self w2 _) (ix2 j q)

/-- The second and third launches run the same body. -/
theorem k4_eq_k2 : @k4_pay1 Ideal _ = @k2_pay1 Ideal _ := rfl
theorem k6_eq_k2 : @k6_pay1 Ideal _ = @k2_pay1 Ideal _ := rfl

end Cert.KernelIdeal.Pay

end
-- ==== Proof.KArr2.lean ====
/-
  Region 2 (the first edge update) as one function of whole arrays: whatever the core's buffers hold when the region
  is entered, after its hundred grid points the output array holds, row by row, the perceptron of LibRows of the
  three input arrays' rows laid end to end.  Point `t` handles rows `5000 t … 5000 t + 4999`: row `p` of a row window's
  block is row `5000 t + p` of its array, the weight and bias windows' one block is their whole array at every point,
  and the blocks of the hundred points cover the output array (row `r` lies in the block of point `r / 5000`).
-/
import proofs.«406922_j70815420776874_1_alg».proof.Proof.Gen.KernelIdeal.Frame
import proofs.«406922_j70815420776874_1_alg».proof.Proof.KPay2

set_option maxRecDepth 16384

noncomputable section

namespace Cert.KernelIdeal.Arr

open Idealize.ShloMosaic Idealize.ShloMosaic.ValueIdx Idealize.ShloMosaic.TcCoe Idealize.SL.Sem
open Cert.KernelIdeal Cert.KernelIdeal.Gen Cert.Rows Cert.KernelIdeal.Pay
open Idealize.ShloMosaic.Pipeline (Dat Cfg Window)

variable (V : (c : Dev nD) → (b : Ref sig .tc) → Buf (Elt Ideal) ((c : Thread nD τ).loc b))

/-! ## Generic pieces -/

/-- The offset of a whole-block access, as the constant zero function. -/
theorem origin2 : (![0, 0] : Fin 2 → Nat) = fun _ => 0 := funext fun a => by fin_cases a <;> rfl

/-- The perceptron of three rows laid end to end depends only on the rows, the weights and the lane. -/
theorem mlp3_congr2 {a a' b b' d d' : Fin 128 → EReal} {w1 w1' : Arr2 384 64} {b1 b1' : Fin 64 → EReal}
    {w2 w2' : Arr2 64 64} {b2 b2' : Fin 64 → EReal} (q : Fin 64)
    (ha : a = a') (hb : b = b') (hd : d = d') (hw1 : w1 = w1') (hb1 : b1 = b1') (hw2 : w2 = w2') (hb2 : b2 = b2') :
    mlpRow (cat3Row (A := 128) (B := 128) (C := 128) (N := 384) rfl a b d) w1 b1 w2 b2 q
      = mlpRow (cat3Row (A := 128) (B := 128) (C := 128) (N := 384) rfl a' b' d') w1' b1' w2' b2' q := by
  subst ha hb hd hw1 hb1 hw2 hb2; rfl

/-! ## The index maps over the grid -/

/-- A grid point's number is below one hundred. -/
theorem point_lt2 (t : Fin cfg2.N) : t.val < 100 := Nat.lt_of_lt_of_eq t.isLt N_2

/-- The printed index maps, decided over the hundred points: the three row windows and the output window sit at block
    `(t, 0)`, the weight and bias windows at block `(0, 0)`. -/
theorem index_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-! ## The row windows' blocks -/

/-- Row `p` of the first row window's block at point `t` is row `5000 t + p` of its array. -/
theorem rowBlock2_0 (c : Dev nD) (t : Fin cfg2.N) (p : Fin 5000) (r : Fin 500000) (hr : r.val = 5000 * t.val + p.val) :
    rowOf (R := 5000) (K := 128) (iblk2 V c 0 t) p = rowOf (V c main_v11 : Arr2 500000 128) r := by
  obtain ⟨e0, e1, -⟩ := index_facts2 t
  funext k
  show V c main_v11 (((cfg2.win 0).blk t).view.emb (ix2 p k)) = V c main_v11 (ix2 r k)
  refine congrArg (V c main_v11) ?_
  funext a
  apply Fin.ext
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- The same for the second row window. -/
theorem rowBlock2_1 (c : Dev nD) (t : Fin cfg2.N) (p : Fin 5000) (r : Fin 500000) (hr : r.val = 5000 * t.val + p.val) :
    rowOf (R := 5000) (K := 128) (iblk2 V c 1 t) p = rowOf (V c main_v12 : Arr2 500000 128) r := by
  obtain ⟨-, -, e0, e1, -⟩ := index_facts2 t
  funext k
  show V c main_v12 (((cfg2.win 1).blk t).view.emb (ix2 p k)) = V c main_v12 (ix2 r k)
  refine congrArg (V c main_v12) ?_
  funext a
  apply Fin.ext
  match a with
  | ⟨0, _⟩ => show win2_1.index t (0 : Fin 2) * 5000 + 1 * p.val = r.val; rw [e0, hr]; omega
  | ⟨1, _⟩ => show win2_1.index t (1 : Fin 2) * 128 + 1 * k.val = k.val; rw [e1]; omega

/-- The same for the third row window. -/
theorem rowBlock2_2 (c : Dev nD) (t : Fin cfg2.N) (p : Fin 5000) (r : Fin 500000) (hr : r.val = 5000 * t.val + p.val) :
    rowOf (R := 5000) (K := 128) (iblk2 V c 2 t) p = rowOf (V c main_v13 : Arr2 500000 128) r := by
  obtain ⟨-, -, -, -, e0, e1, -⟩ := index_facts2 t
  funext k
  show V c main_v13 (((cfg2.win 2).blk t).view.emb (ix2 p k)) = V c main_v13 (ix2 r k)
  refine congrArg (V c main_v13) ?_
  funext a
  apply Fin.ext
  match a with
  | ⟨0, _⟩ => show win2_2.index t (0 : Fin 2) * 5000 + 1 * p.val = r.val; rw [e0, hr]; omega
  | ⟨1, _⟩ => show win2_2.index t (1 : Fin 2) * 128 + 1 * k.val = k.val; rw [e1]; omega

/-! ## The weight and bias windows' blocks -/

/-- The first layer's weight window has one block, the whole array, at every point. -/
theorem wholeBlock2_3 (c : Dev nD) (t : Fin cfg2.N) :
    (iblk2 V c 3 t : Arr2 384 64) = (V c main_v18 : Arr2 384 64) := by
  obtain ⟨-, -, -, -, -, -, e0, e1, -⟩ := index_facts2 t
  funext j
  obtain ⟨x, y, rfl⟩ : ∃ (x : Fin 384) (y : Fin 64), j = ix2 x y := ⟨j 0, j 1, eq_ix2 j⟩
  show V c main_v18 (((cfg2.win 3).blk t).view.emb (ix2 x y)) = V c main_v18 (ix2 x y)
  refine congrArg (V c main_v18) ?_
  funext a
  apply Fin.ext
  match a with
  | ⟨0, _⟩ => show win2_3.index t (0 : Fin 2) * 384 + 1 * x.val = x.val; rw [e0]; omega
  | ⟨1, _⟩ => show win2_3.index t (1 : Fin 2) * 64 + 1 * y.val = y.val; rw [e1]; omega

/-- So has the first layer's bias window. -/
theorem wholeBlock2_4 (c : Dev nD) (t : Fin cfg2.N) :
    (iblk2 V c 4 t : Arr2 1 64) = (V c main_v25 : Arr2 1 64) := by
  obtain ⟨-, -, -, -, -, -, -, -, e0, e1, -⟩ := index_facts2 t
  funext j
  obtain ⟨x, y, rfl⟩ : ∃ (x : Fin 1) (y : Fin 64), j = ix2 x y := ⟨j 0, j 1, eq_ix2 j⟩
  show V c main_v25 (((cfg2.win 4).blk t).view.emb (ix2 x y)) = V c main_v25 (ix2 x y)
  refine congrArg (V c main_v25) ?_
  funext a
  apply Fin.ext
  match a with
  | ⟨0, _⟩ => show win2_4.index t (0 : Fin 2) * 1 + 1 * x.val = x.val; rw [e0]; omega
  | ⟨1, _⟩ => show win2_4.index t (1 : Fin 2) * 64 + 1 * y.val = y.val; rw [e1]; omega

/-- So has the second layer's weight window. -/
theorem wholeBlock2_5 (c : Dev nD) (t : Fin cfg2.N) :
    (iblk2 V c 5 t : Arr2 64 64) = (V c main_v22 : Arr2 64 64) := by
  obtain ⟨-, -, -, -, -, -, -, -, -, -, e0, e1, -⟩ := index_facts2 t
  funext j
  obtain ⟨x, y, rfl⟩ : ∃ (x : Fin 64) (y : Fin 64), j = ix2 x y := ⟨j 0, j 1, eq_ix2 j⟩
  show V c main_v22 (((cfg2.win 5).blk t).view.emb (ix2 x y)) = V c main_v22 (ix2 x y)
  refine congrArg (V c main_v22) ?_
  funext a
  apply Fin.ext
  match a with
  | ⟨0, _⟩ => show win2_5.index t (0 : Fin 2) * 64 + 1 * x.val = x.val; rw [e0]; omega
  | ⟨1, _⟩ => show win2_5.index t (1 : Fin 2) * 64 + 1 * y.val = y.val; rw [e1]; omega

/-- And the second layer's bias window. -/
theorem wholeBlock2_6 (c : Dev nD) (t : Fin cfg2.N) :
    (iblk2 V c 6 t : Arr2 1 64) = (V c main_v26 : Arr2 1 64) := by
  obtain ⟨-, -, -, -, -, -, -, -, -, -, -, -, e0, e1, -⟩ := index_facts2 t
  funext j
  obtain ⟨x, y, rfl⟩ : ∃ (x : Fin 1) (y : Fin 64), j = ix2 x y := ⟨j 0, j 1, eq_ix2 j⟩
  show V c main_v26 (((cfg2.win 6).blk t).view.emb (ix2 x y)) = V c main_v26 (ix2 x y)
  refine congrArg (V c main_v26) ?_
  funext a
  apply Fin.ext
  match a with
  | ⟨0, _⟩ => show win2_6.index t (0 : Fin 2) * 1 + 1 * x.val = x.val; rw [e0]; omega
  | ⟨1, _⟩ => show win2_6.index t (1 : Fin 2) * 64 + 1 * y.val = y.val; rw [e1]; omega

/-! ## The output window's blocks -/

/-- Entry `(p, q)` of the output block at point `t` is entry `(5000 t + p, q)` of the output array. -/
theorem outEntry2 (t : Fin cfg2.N) (p : Fin 5000) (q : Fin 64) :
    (((cfg2.win 7).blk t).view.emb (ix2 p q) : (⟨2, ![500000, 64]⟩ : Shape).Idx)
      = ix2 ⟨5000 * t.val + p.val, by have := point_lt2 t; have := p.isLt; omega⟩ q := by
  obtain ⟨-, -, -, -, -, -, -, -, -, -, -, -, -, -, e0, e1⟩ := index_facts2 t
  funext a
  apply Fin.ext
  match a with
  | ⟨0, _⟩ => show win2_7.index t (0 : Fin 2) * 5000 + 1 * p.val = 5000 * t.val + p.val; rw [e0]; omega
  | ⟨1, _⟩ => show win2_7.index t (1 : Fin 2) * 64 + 1 * q.val = q.val; rw [e1]; omega

/-! ## From the blocks to the array -/

/-- The whole-array function: the perceptron of every row of the three input arrays laid end to end. -/
abbrev edgeArr2 (c : Dev nD) : Arr2 500000 64 :=
  mlpArr3 (A := 128) (B := 128) (D := 128) (K := 384) rfl (V c main_v11 : Arr2 500000 128) (V c main_v12 : Arr2 500000 128)
    (V c main_v13 : Arr2 500000 128) (V c main_v18 : Arr2 384 64) (row0 (V c main_v25 : Arr2 1 64)) (V c main_v22 : Arr2 64 64)
    (row0 (V c main_v26 : Arr2 1 64))

/-- What point `t` writes back is block `t` of the whole-array function: entry `(p, q)` of the body's result is the
    perceptron of row `p` of the three row blocks, which are rows `5000 t + p` of the arrays, under the whole weight
    and bias arrays. -/
theorem flushed2_eq (c : Dev nD) (t : Fin cfg2.N) :
    (dat2 V c).flushed 7 t = ((cfg2.win 7).blk t).view.read (Elt Ideal) (edgeArr2 V c) := by
  show (cfg2.win 7).cut (grid2.coords t) ((dat2 V c).after 7 t) = _
  rw [after2_7]
  unfold out2_7
  rw [View.canon_unit_zero origin2]
  simp only [View.ld_unit_zero (S := S5000x128) origin2, View.ld_unit_zero (S := S384x64) origin2,
    View.ld_unit_zero (S := S1x64) origin2, View.ld_unit_zero (S := S64x64) origin2]
  funext j
  obtain ⟨p, q, rfl⟩ : ∃ (p : Fin 5000) (q : Fin 64), j = ix2 p q := ⟨j 0, j 1, eq_ix2 j⟩
  refine (pay2_apply _ _ _ _ _ _ _ p q).trans ?_
  refine Eq.trans ?_ (congrArg (edgeArr2 V c) (outEntry2 t p q)).symm
  exact mlp3_congr2 q (rowBlock2_0 V c t p _ rfl) (rowBlock2_1 V c t p _ rfl) (rowBlock2_2 V c t p _ rfl)
    (wholeBlock2_3 V c t) (congrArg row0 (wholeBlock2_4 V c t)) (wholeBlock2_5 V c t) (congrArg row0 (wholeBlock2_6 V c t))

/-- An index of the output array is in point `t`'s block iff each coordinate is in the block's range on its axis. -/
theorem mem_block2 (t : Fin cfg2.N) (i : (⟨2, ![500000, 64]⟩ : Shape).Idx) :
    i ∈ ((cfg2.win 7).blk t).view.set ↔ ∀ a : Fin 2, win2_7.index t a * S5000x64.size a ≤ (i a).val
      ∧ (i a).val < win2_7.index t a * S5000x64.size a + S5000x64.size a := by
  show i ∈ ((View.whole main_v27).slice (win2_7.rect t)).set ↔ _
  rw [View.set_slice_whole, Rect.mem_set_unit]
  exact Iff.rfl

/-- Every index of the output array is in a written-back block: row `r` is in the block of point `r / 5000`. -/
theorem cover2 (i : (⟨2, ![500000, 64]⟩ : Shape).Idx) :
    ∃ t : Fin cfg2.N, (cfg2.win 7).flush t = true ∧ i ∈ ((cfg2.win 7).blk t).view.set := by
  have hi0 : (i 0).val < 500000 := (i 0).isLt
  have hi1 : (i 1).val < 64 := (i 1).isLt
  obtain ⟨t, ht⟩ : ∃ t : Fin cfg2.N, t.val = (i 0).val / 5000 :=
    ⟨⟨(i 0).val / 5000, Nat.lt_of_lt_of_eq (by omega : (i 0).val / 5000 < 100) N_2.symm⟩, rfl⟩
  obtain ⟨-, -, -, -, -, -, -, -, -, -, -, -, -, -, e0, e1⟩ := index_facts2 t
  refine ⟨t, flush2_7 t, ?_⟩
  rw [mem_block2]
  intro a
  match a with
  | ⟨0, _⟩ =>
    show win2_7.index t (0 : Fin 2) * 5000 ≤ (i 0).val ∧ (i 0).val < win2_7.index t (0 : Fin 2) * 5000 + 5000
    rw [e0, ht]; omega
  | ⟨1, _⟩ =>
    show win2_7.index t (1 : Fin 2) * 64 ≤ (i 1).val ∧ (i 1).val < win2_7.index t (1 : Fin 2) * 64 + 64
    rw [e1]; omega

/-- The edge update's output array after the region, from the entry contents of its seven input arrays. -/
theorem arr2 (c : Dev nD) :
    (dat2 V c).arrAt 7 cfg2.N
      = (mlpArr3 (A := 128) (B := 128) (D := 128) (K := 384) rfl (V c main_v11 : Arr2 500000 128) (V c main_v12 : Arr2 500000 128)
          (V c main_v13 : Arr2 500000 128) (V c main_v18 : Arr2 384 64) (row0 (V c main_v25 : Arr2 1 64)) (V c main_v22 : Arr2 64 64)
          (row0 (V c main_v26 : Arr2 1 64)) : Arr2 500000 64) :=
  (dat2 V c).arrAt_eq_of_cover 7 (edgeArr2 V c) (fun t _ => flushed2_eq V c t) cover2

end Cert.KernelIdeal.Arr

end
-- ==== Proof.KPay3.lean ====
/-
  What the body of the node-update kernel leaves at an entry of its output block, at the ideal values: two input
  blocks are joined along the lanes, so row `p` of the joined block is the two rows laid end to end, and the rest is
  the two-layer perceptron of LibRows on that row.  The three launches of this kernel print the same body.
-/
import proofs.«406922_j70815420776874_1_alg».proof.Proof.Gen.KernelIdeal.Skeleton
import proofs.«406922_j70815420776874_1_alg».proof.Proof.LibRows

noncomputable section

namespace Cert.KernelIdeal.Pay

open Idealize.ShloMosaic Idealize.ShloMosaic.ValueIdx Cert.KernelIdeal Cert.KernelIdeal.Gen Cert.Rows

/-- The joined block read at `(p, k)`: identity casts change nothing, and a row of the lane concatenation is the two
    rows laid end to end. -/
theorem pay3_joined_apply (a b : Vec Ideal S5000x128 .f32) (p : Fin 5000) (k : Fin 256) :
    (concatenate S5000x256 1
        [⟨S5000x128, shapeCast S5000x128 a shapeCasts_S5000x128_S5000x128⟩,
         ⟨S5000x128, shapeCast S5000x128 b shapeCasts_S5000x128_S5000x128⟩]
        concatenates_S5000x128_S5000x128_S5000x256_d1 : FVec Ideal S5000x256 .f32) (ix2 p k)
      = cat2Row (A := 128) (B := 128) (N := 256) rfl (rowOf a p) (rowOf b p) k := by
  rw [shapeCast_self a shapeCasts_S5000x128_S5000x128, shapeCast_self b shapeCasts_S5000x128_S5000x128]
  exact congrFun (rowOf_concat2 (R := 5000) (A := 128) (B := 128) (N := 256) rfl a b
    concatenates_S5000x128_S5000x128_S5000x256_d1 p) k

/-- The hidden layer read at `(p, c)`: the first dense layer on the joined row, then the rectifier. -/
theorem pay3_hidden_apply (a b : Vec Ideal S5000x128 .f32) (w1 : Vec Ideal S256x64 .f32) (b1 : Vec Ideal S1x64 .f32)
    (p : Fin 5000) (c : Fin 64) :
    (maximumf
        (addf
          (matmul dot_S5000x256_S256x64_S5000x64_1_0_0_1_n_n none
            (truncf .bf16
              (concatenate S5000x256 1
                [⟨S5000x128, shapeCast S5000x128 a shapeCasts_S5000x128_S5000x128⟩,
                 ⟨S5000x128, shapeCast S5000x128 b shapeCasts_S5000x128_S5000x128⟩]
                concatenates_S5000x128_S5000x128_S5000x256_d1 : FVec Ideal S5000x256 .f32) bitsLt_bf16_f32)
            (truncf .bf16 (shapeCast S256x64 w1 shapeCasts_S256x64_S256x64) bitsLt_bf16_f32)
            (constant S5000x64 .f32 0x00000000#32))
          (broadcastTo S5000x64 (shapeCast S1x64 b1 shapeCasts_S1x64_S1x64) broadcasts_S1x64_S5000x64))
        (broadcast S5000x64 (Scalar.ofBits (F := Ideal) .f32 0x00000000#32)) : FVec Ideal S5000x64 .f32) (ix2 p c)
      = reluRow (denseRow (cat2Row (A := 128) (B := 128) (N := 256) rfl (rowOf a p) (rowOf b p)) w1 (row0 b1)) c := by
  refine (kernel_relu_apply _ (ix2 p c)).trans ?_
  refine congrArg (fun t => max t z32) ?_
  refine (addf_apply _ _ (ix2 p c)).trans ?_
  refine congrArg₂ (fun s t : EReal => s + t) ?_ ?_
  · refine (matmul_plain_zero_apply none _ _ p c).trans ?_
    refine Finset.sum_congr rfl fun k _ => ?_
    refine congrArg₂ (fun s t : EReal => s * t) ?_ ?_
    · exact pay3_joined_apply a b p k
    · exact congrFun (shapeCast_self w1 shapeCasts_S256x64_S256x64) (ix2 k c)
  · exact bias_rows_apply b1 shapeCasts_S1x64_S1x64 broadcasts_S1x64_S5000x64 p c

/-- Node update: entry `(p, q)` of the block is the perceptron of `[a | b]`'s row `p`. -/
theorem pay3_apply (a b : Vec Ideal S5000x128 .f32) (w1 : Vec Ideal S256x64 .f32) (b1 : Vec Ideal S1x64 .f32)
    (w2 : Vec Ideal S64x64 .f32) (b2 : Vec Ideal S1x64 .f32) (p : Fin 5000) (q : Fin 64) :
    k3_pay1 (F := Ideal) a b w1 b1 w2 b2 (ix2 p q)
      = mlpRow (cat2Row (A := 128) (B := 128) (N := 256) rfl (rowOf a p) (rowOf b p)) w1 (row0 b1) w2 (row0 b2) q := by
  unfold k3_pay1 mlpRow
  refine (kernel_relu_apply _ (ix2 p q)).trans ?_
  refine congrArg (fun t => max t z32) ?_
  refine (addf_apply _ _ (ix2 p q)).trans ?_
  refine congrArg₂ (fun s t : EReal => s + t) ?_ ?_
  · refine (matmul_plain_zero_apply none _ _ p q).trans ?_
    refine Finset.sum_congr rfl fun c _ => ?_
    refine congrArg₂ (fun s t : EReal => s * t) ?_ ?_
    · exact pay3_hidden_apply a b w1 b1 p c
    · exact congrFun (shapeCast_self w2 shapeCasts_S64x64_S64x64) (ix2 c q)
  · exact bias_rows_apply b2 shapeCasts_S1x64_S1x64 broadcasts_S1x64_S5000x64 p q

/-- The second and third launches run the same body. -/
theorem k5_eq_k3 : @k5_pay1 Ideal _ = @k3_pay1 Ideal _ := rfl
theorem k7_eq_k3 : @k7_pay1 Ideal _ = @k3_pay1 Ideal _ := rfl

end Cert.KernelIdeal.Pay

end
-- ==== Proof.KArr3.lean ====
/-
  Region 3 (the first node update) as one function of whole arrays.  The region reads two arrays of 100000 rows
  and 128 lanes side by side, twenty row blocks of 5000 rows each, and holds the two weight matrices and the two
  bias rows whole at every grid point.  Point `t` handles rows `5000 t … 5000 t + 4999`: row `p` of a row block
  is row `5000 t + p` of its array, so what point `t` writes back is block `t` of the matrix whose every row is
  the perceptron of LibRows of the two input rows laid end to end.  The twenty blocks tile the output array (row
  `r` lies in block `r / 5000`), so after the region the output array is that matrix.
-/
import proofs.«406922_j70815420776874_1_alg».proof.Proof.Gen.KernelIdeal.Frame
import proofs.«406922_j70815420776874_1_alg».proof.Proof.KPay3

set_option maxRecDepth 16384

noncomputable section

namespace Cert.KernelIdeal.Arr

open Idealize.ShloMosaic Idealize.ShloMosaic.ValueIdx Idealize.ShloMosaic.TcCoe Idealize.SL.Sem
open Cert.KernelIdeal Cert.KernelIdeal.Gen Cert.Rows
open Idealize.ShloMosaic.Pipeline (Dat Cfg Window)

variable (V : (c : Dev nD) → (b : Ref sig .tc) → Buf (Elt Ideal) ((c : Thread nD τ).loc b))

namespace R3

/-- The zero offset pair, in the spelling of a constant function. -/
theorem origin : (![0, 0] : Fin 2 → Nat) = fun _ => 0 := funext fun a => by fin_cases a <;> rfl

/-- The block indices over the grid: the two row windows and the output window sit at row block `t`, lane block
    `0`; the weight and bias windows sit at block `(0, 0)` at every point. -/
theorem block_index : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = t.val ∧ win3_6.index t (1 : Fin 2) = 0) :=
  (by decide +kernel : ∀ t : Fin grid3.N, _)

/-- The grid has twenty points. -/
theorem point_lt (t : Fin cfg3.N) : t.val < 20 := by
  have h : cfg3.N = 20 := N_3
  have := t.isLt
  omega

/-- Row `p` of the first row window's block at point `t` is row `5000 t + p` of its array. -/
theorem row_left (c : Dev nD) (t : Fin cfg3.N) (p : Fin 5000) (h : 5000 * t.val + p.val < 100000) :
    rowOf (iblk3 V c 0 t : Arr2 5000 128) p = rowOf (V c main_v10 : Arr2 100000 128) ⟨5000 * t.val + p.val, h⟩ := by
  obtain ⟨⟨e0, e1⟩, -⟩ := block_index t
  funext k
  show V c main_v10 (((cfg3.win 0).blk t).view.emb (ix2 p k)) = V c main_v10 (ix2 ⟨5000 * t.val + p.val, h⟩ k)
  congr 1
  funext a
  apply Fin.ext
  match a with
  | ⟨0, _⟩ => show win3_0.index t (0 : Fin 2) * 5000 + 1 * p.val = 5000 * t.val + p.val; rw [e0]; omega
  | ⟨1, _⟩ => show win3_0.index t (1 : Fin 2) * 128 + 1 * k.val = k.val; rw [e1]; omega

/-- The same for the second row window. -/
theorem row_right (c : Dev nD) (t : Fin cfg3.N) (p : Fin 5000) (h : 5000 * t.val + p.val < 100000) :
    rowOf (iblk3 V c 1 t : Arr2 5000 128) p = rowOf (V c main_v16 : Arr2 100000 128) ⟨5000 * t.val + p.val, h⟩ := by
  obtain ⟨-, ⟨e0, e1⟩, -⟩ := block_index t
  funext k
  show V c main_v16 (((cfg3.win 1).blk t).view.emb (ix2 p k)) = V c main_v16 (ix2 ⟨5000 * t.val + p.val, h⟩ k)
  congr 1
  funext a
  apply Fin.ext
  match a with
  | ⟨0, _⟩ => show win3_1.index t (0 : Fin 2) * 5000 + 1 * p.val = 5000 * t.val + p.val; rw [e0]; omega
  | ⟨1, _⟩ => show win3_1.index t (1 : Fin 2) * 128 + 1 * k.val = k.val; rw [e1]; omega

/-- The first weight window's block is its whole array at every point. -/
theorem whole_w1 (c : Dev nD) (t : Fin cfg3.N) : (iblk3 V c 2 t : Arr2 256 64) = (V c main_v29 : Arr2 256 64) := by
  obtain ⟨-, -, ⟨e0, e1⟩, -⟩ := block_index t
  funext j
  show V c main_v29 (((cfg3.win 2).blk t).view.emb j) = V c main_v29 j
  congr 1
  funext a
  apply Fin.ext
  match a with
  | ⟨0, _⟩ => show win3_2.index t (0 : Fin 2) * 256 + 1 * (j 0).val = (j 0).val; rw [e0]; omega
  | ⟨1, _⟩ => show win3_2.index t (1 : Fin 2) * 64 + 1 * (j 1).val = (j 1).val; rw [e1]; omega

/-- The first bias window's block is its whole one-row array. -/
theorem whole_b1 (c : Dev nD) (t : Fin cfg3.N) : (iblk3 V c 3 t : Arr2 1 64) = (V c main_v36 : Arr2 1 64) := by
  obtain ⟨-, -, -, ⟨e0, e1⟩, -⟩ := block_index t
  funext j
  show V c main_v36 (((cfg3.win 3).blk t).view.emb j) = V c main_v36 j
  congr 1
  funext a
  apply Fin.ext
  match a with
  | ⟨0, _⟩ => show win3_3.index t (0 : Fin 2) * 1 + 1 * (j 0).val = (j 0).val; rw [e0]; omega
  | ⟨1, _⟩ => show win3_3.index t (1 : Fin 2) * 64 + 1 * (j 1).val = (j 1).val; rw [e1]; omega

/-- The second weight window's block is its whole array. -/
theorem whole_w2 (c : Dev nD) (t : Fin cfg3.N) : (iblk3 V c 4 t : Arr2 64 64) = (V c main_v33 : Arr2 64 64) := by
  obtain ⟨-, -, -, -, ⟨e0, e1⟩, -⟩ := block_index t
  funext j
  show V c main_v33 (((cfg3.win 4).blk t).view.emb j) = V c main_v33 j
  congr 1
  funext a
  apply Fin.ext
  match a with
  | ⟨0, _⟩ => show win3_4.index t (0 : Fin 2) * 64 + 1 * (j 0).val = (j 0).val; rw [e0]; omega
  | ⟨1, _⟩ => show win3_4.index t (1 : Fin 2) * 64 + 1 * (j 1).val = (j 1).val; rw [e1]; omega

/-- The second bias window's block is its whole one-row array. -/
theorem whole_b2 (c : Dev nD) (t : Fin cfg3.N) : (iblk3 V c 5 t : Arr2 1 64) = (V c main_v37 : Arr2 1 64) := by
  obtain ⟨-, -, -, -, -, ⟨e0, e1⟩, -⟩ := block_index t
  funext j
  show V c main_v37 (((cfg3.win 5).blk t).view.emb j) = V c main_v37 j
  congr 1
  funext a
  apply Fin.ext
  match a with
  | ⟨0, _⟩ => show win3_5.index t (0 : Fin 2) * 1 + 1 * (j 0).val = (j 0).val; rw [e0]; omega
  | ⟨1, _⟩ => show win3_5.index t (1 : Fin 2) * 64 + 1 * (j 1).val = (j 1).val; rw [e1]; omega

/-- The matrix the region computes: every row is the perceptron of the two input rows laid end to end. -/
abbrev target (c : Dev nD) : Arr2 100000 64 :=
  mlpArr2 (A := 128) (B := 128) (K := 256) rfl (V c main_v10 : Arr2 100000 128) (V c main_v16 : Arr2 100000 128)
    (V c main_v29 : Arr2 256 64) (row0 (V c main_v36 : Arr2 1 64)) (V c main_v33 : Arr2 64 64)
    (row0 (V c main_v37 : Arr2 1 64))

/-- What point `t` writes back is block `t` of that matrix. -/
theorem flushed_eq (c : Dev nD) (t : Fin cfg3.N) :
    (dat3 V c).flushed 6 t = ((cfg3.win 6).blk t).view.read (Elt Ideal) (target V c) := by
  show (cfg3.win 6).cut (grid3.coords t) ((dat3 V c).after 6 t) = _
  rw [after3_6]
  unfold out3_6
  rw [View.canon_unit_zero origin]
  simp only [View.ld_unit_zero (S := S5000x128) origin, View.ld_unit_zero (S := S256x64) origin,
    View.ld_unit_zero (S := S1x64) origin, View.ld_unit_zero (S := S64x64) origin]
  funext j
  obtain ⟨p, q, rfl⟩ : ∃ (p : Fin 5000) (q : Fin 64), j = ix2 p q := ⟨j 0, j 1, eq_ix2 j⟩
  refine (Pay.pay3_apply _ _ _ _ _ _ p q).trans ?_
  have hp : 5000 * t.val + p.val < 100000 := by have := point_lt t; have := p.isLt; omega
  obtain ⟨-, -, -, -, -, -, e0, e1⟩ := block_index t
  have hemb : ((cfg3.win 6).blk t).view.emb (ix2 p q)
      = (ix2 ⟨5000 * t.val + p.val, hp⟩ q : (⟨2, ![100000, 64]⟩ : Shape).Idx) := by
    funext a
    apply Fin.ext
    match a with
    | ⟨0, _⟩ => show win3_6.index t (0 : Fin 2) * 5000 + 1 * p.val = 5000 * t.val + p.val; rw [e0]; omega
    | ⟨1, _⟩ => show win3_6.index t (1 : Fin 2) * 64 + 1 * q.val = q.val; rw [e1]; omega
  show _ = target V c (((cfg3.win 6).blk t).view.emb (ix2 p q))
  rw [hemb, row_left V c t p hp, row_right V c t p hp, whole_w1 V c t, whole_b1 V c t, whole_w2 V c t, whole_b2 V c t]
  rfl

/-- An index of the output array is in point `t`'s block iff each coordinate is in the block's range on its axis. -/
theorem mem_block (t : Fin cfg3.N) (i : S100000x64.Idx) :
    i ∈ ((cfg3.win 6).blk t).view.set
      ↔ ∀ a : Fin 2, win3_6.index t a * S5000x64.size a ≤ (i a).val
          ∧ (i a).val < win3_6.index t a * S5000x64.size a + S5000x64.size a := by
  show i ∈ ((View.whole main_v38).slice (win3_6.rect t)).set ↔ _
  rw [View.set_slice_whole, Rect.mem_set_unit]
  exact Iff.rfl

/-- Every index of the output array lies in some point's block: row `r` in the block of point `r / 5000`. -/
theorem covered (i : S100000x64.Idx) :
    ∃ t : Fin cfg3.N, (cfg3.win 6).flush t = true ∧ i ∈ ((cfg3.win 6).blk t).view.set := by
  have hN : cfg3.N = 20 := N_3
  have hi0 : (i 0).val < 100000 := (i 0).isLt
  have hi1 : (i 1).val < 64 := (i 1).isLt
  let t : Fin cfg3.N := ⟨(i 0).val / 5000, by omega⟩
  have ht : t.val = (i 0).val / 5000 := rfl
  obtain ⟨-, -, -, -, -, -, e0, e1⟩ := block_index t
  refine ⟨t, flush3_6 t, ?_⟩
  rw [mem_block]
  intro a
  match a with
  | ⟨0, _⟩ =>
    show win3_6.index t (0 : Fin 2) * 5000 ≤ (i 0).val ∧ (i 0).val < win3_6.index t (0 : Fin 2) * 5000 + 5000
    rw [e0, ht]; omega
  | ⟨1, _⟩ =>
    show win3_6.index t (1 : Fin 2) * 64 ≤ (i 1).val ∧ (i 1).val < win3_6.index t (1 : Fin 2) * 64 + 64
    rw [e1]; omega

end R3

/-- The node update's output array after the region, from the entry contents of its six input arrays. -/
theorem arr3 (c : Dev nD) :
    (dat3 V c).arrAt 6 cfg3.N
      = (mlpArr2 (A := 128) (B := 128) (K := 256) rfl (V c main_v10 : Arr2 100000 128) (V c main_v16 : Arr2 100000 128)
          (V c main_v29 : Arr2 256 64) (row0 (V c main_v36 : Arr2 1 64)) (V c main_v33 : Arr2 64 64)
          (row0 (V c main_v37 : Arr2 1 64)) : Arr2 100000 64) :=
  (dat3 V c).arrAt_eq_of_cover 6 (R3.target V c) (fun t _ => R3.flushed_eq V c t) R3.covered

end Cert.KernelIdeal.Arr

end
-- ==== Proof.RStageB.lean ====
/-
  The three node updates of the reference, each read as one row-wise perceptron.

  A node update takes two matrices with the same number of rows, lays them side by side, and sends the result
  through two dense layers, each followed by the rectifier: `relu (relu ([X | Y] · W1 + b1) · W2 + b2)`.  Every
  operation in that chain acts on each row by itself: entry `(r, q)` of a product is a sum over row `r` of the left
  factor; a bias laid along the rows adds entry `q` of the vector whatever the row; the rectifier acts entry by entry;
  row `r` of `[X | Y]` is row `r` of `X` followed by row `r` of `Y`.  So entry `(r, q)` of the update is the row
  perceptron of that concatenated row, read at `q`.  This is proved once for arbitrary sizes, from the outermost
  operation inward, and then the three updates of the program (which differ only in which earlier values they read)
  are instances of it.  No float is evaluated: the zero the rectifier compares with stays the value of its word.
-/
import proofs.«406922_j70815420776874_1_alg».proof.Proof.RefRead
import proofs.«406922_j70815420776874_1_alg».proof.Proof.LibRows

noncomputable section

namespace Cert.ReferenceIdeal.Stage

open Idealize.ShloMosaic Idealize.ShloMosaic.ValueIdx Cert.ReferenceIdeal Cert.ReferenceIdeal.Gen Cert.ReferenceIdeal.ReadP Cert.Rows
open scoped BigOperators

/-- The host's spelling of the two-layer perceptron on the lane concatenation `[X | Y]`: a product with the first
    weight, the first bias laid along the rows, the rectifier, a product with the second weight, the second bias, the
    rectifier.  Entry `(r, q)` of the result depends on row `r` of `X` and of `Y` only, and is the row perceptron
    of that concatenated row at `q`. -/
theorem host_mlp2_eq {R A B K H C : Nat} (hK : A + B = K)
    (X : Arr2 R A) (Y : Arr2 R B) (W1 : Arr2 K H) (b1 : Arr1 H) (W2 : Arr2 H C) (b2 : Arr1 C)
    (hc : Shape.Concatenates [(⟨2, ![R, A]⟩ : Shape), ⟨2, ![R, B]⟩] ⟨2, ![R, K]⟩ 1)
    (h11 : (⟨1, ![H]⟩ : Shape).BroadcastsInDim ⟨2, ![1, H]⟩ ![1])
    (h12 : (⟨2, ![1, H]⟩ : Shape).BroadcastsInDim ⟨2, ![R, H]⟩ ![0, 1])
    (h21 : (⟨1, ![C]⟩ : Shape).BroadcastsInDim ⟨2, ![1, C]⟩ ![1])
    (h22 : (⟨2, ![1, C]⟩ : Shape).BroadcastsInDim ⟨2, ![R, C]⟩ ![0, 1])
    (hz1 : (⟨0, ![]⟩ : Shape).BroadcastsInDim ⟨2, ![R, H]⟩ ![])
    (hz2 : (⟨0, ![]⟩ : Shape).BroadcastsInDim ⟨2, ![R, C]⟩ ![]) :
    (maximumf (F := Ideal) (s := ⟨2, ![R, C]⟩) (φ := .f32)
      (addf (F := Ideal) (s := ⟨2, ![R, C]⟩) (φ := .f32)
        (Host.dotGeneral (F := Ideal) (φ₁ := .f32) (φ₂ := .f32) (DotDims.plain R H C) none
          (maximumf (F := Ideal) (s := ⟨2, ![R, H]⟩) (φ := .f32)
            (addf (F := Ideal) (s := ⟨2, ![R, H]⟩) (φ := .f32)
              (Host.dotGeneral (F := Ideal) (φ₁ := .f32) (φ₂ := .f32) (DotDims.plain R K H) none
                (concatenate (α := Ideal .f32) ⟨2, ![R, K]⟩ 1 [⟨⟨2, ![R, A]⟩, X⟩, ⟨⟨2, ![R, B]⟩, Y⟩] hc) W1)
              (broadcastInDim ⟨2, ![R, H]⟩ ![0, 1] h12 (broadcastInDim ⟨2, ![1, H]⟩ ![1] h11 b1)))
            (broadcastInDim ⟨2, ![R, H]⟩ ![] hz1 (constant (F := Ideal) ⟨0, ![]⟩ .f32 0x00000000#32)))
          W2)
        (broadcastInDim ⟨2, ![R, C]⟩ ![0, 1] h22 (broadcastInDim ⟨2, ![1, C]⟩ ![1] h21 b2)))
      (broadcastInDim ⟨2, ![R, C]⟩ ![] hz2 (constant (F := Ideal) ⟨0, ![]⟩ .f32 0x00000000#32)) : Arr2 R C)
      = mlpArr2 hK X Y W1 (vecOf b1) W2 (vecOf b2) := by
  funext i
  obtain ⟨r, q, rfl⟩ : ∃ (r : Fin R) (q : Fin C), i = ix2 r q := ⟨i 0, i 1, eq_ix2 i⟩
  -- the outer rectifier
  refine (host_relu_apply _ hz2 (ix2 r q)).trans ?_
  show max _ z32
      = max ((∑ c : Fin H, max ((∑ k : Fin K, cat2Row hK (rowOf X r) (rowOf Y r) k * W1 (ix2 k c)) + b1 (ix1 c)) z32
          * W2 (ix2 c q)) + b2 (ix1 q)) z32
  refine congrArg (fun t => max t z32) ?_
  -- the second layer: product plus bias
  refine (addf_apply _ _ (ix2 r q)).trans ?_
  refine congrArg₂ (fun s t => s + t) ?_ (host_bias_apply b2 h21 h22 r q)
  refine (dotGeneral_plain_apply none _ W2 r q).trans ?_
  refine Finset.sum_congr rfl fun c _ => ?_
  refine congrArg (fun t => t * W2 (ix2 c q)) ?_
  -- the inner rectifier
  refine (host_relu_apply _ hz1 (ix2 r c)).trans ?_
  refine congrArg (fun t => max t z32) ?_
  -- the first layer: product of the concatenated row with the first weight, plus bias
  refine (addf_apply _ _ (ix2 r c)).trans ?_
  refine congrArg₂ (fun s t => s + t) ?_ (host_bias_apply b1 h11 h12 r c)
  refine (dotGeneral_plain_apply none _ W1 r c).trans ?_
  refine Finset.sum_congr rfl fun k _ => ?_
  refine congrArg (fun t => t * W1 (ix2 k c)) ?_
  exact congrFun (rowOf_concat2 hK X Y hc r) k

/-- The first node update (operations %44 and %53 to %62): the perceptron of the rows of `[%24 | %43]`. -/
theorem r_v62 (x0 : (⟨S100000x2, .f32⟩ : BufTy).Contents (Elt Ideal)) (x1 : (⟨S500000x3, .f32⟩ : BufTy).Contents (Elt Ideal)) (x2 : (⟨S2x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S3x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x14 : (⟨S3x256x64, .f32⟩ : BufTy).Contents (Elt Ideal)) (x15 : (⟨S3x64, .f32⟩ : BufTy).Contents (Elt Ideal)) (x16 : (⟨S3x64x64, .f32⟩ : BufTy).Contents (Elt Ideal)) (x17 : (⟨S3x64, .f32⟩ : BufTy).Contents (Elt Ideal)) (x22 : (⟨S2x500000, .i32⟩ : BufTy).Contents (Elt Ideal)) :
    val_main_v62 (F := Ideal) x0 x1 x2 x3 x4 x5 x6 x7 x8 x9 x14 x15 x16 x17 x22
      = mlpArr2 (A := 128) (B := 128) (K := 256) rfl (val_main_v24 (F := Ideal) x0 x2 x3 x4 x5) (val_main_v43 (F := Ideal) x1 x6 x7 x8 x9 x22)
          (val_main_v46 (F := Ideal) x14) (vecOf (val_main_v48 (F := Ideal) x15)) (val_main_v50 (F := Ideal) x16) (vecOf (val_main_v52 (F := Ideal) x17)) := by
  unfold val_main_v62 val_main_call5_v0 val_main_call5_cst val_main_v61 val_main_v60 val_main_v59 val_main_v58 val_main_v57 val_main_call4_v0 val_main_call4_cst val_main_v56 val_main_v55 val_main_v54 val_main_v53 val_main_v44
  exact host_mlp2_eq (R := 100000) (A := 128) (B := 128) (K := 256) (H := 64) (C := 64) rfl _ _ _ _ _ _
    concatenates_S100000x128_S100000x128_S100000x256_d1
    bcast_S64_S1x64_1 bcast_S1x64_S100000x64_0_1 bcast_S64_S1x64_1 bcast_S1x64_S100000x64_0_1
    bcast_S_S100000x64 bcast_S_S100000x64

/-- The second node update (operations %101 and %110 to %119): the perceptron of the rows of `[%81 | %100]`. -/
theorem r_v119 (x0 : (⟨S100000x2, .f32⟩ : BufTy).Contents (Elt Ideal)) (x1 : (⟨S500000x3, .f32⟩ : BufTy).Contents (Elt Ideal)) (x2 : (⟨S2x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S3x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S3x384x64, .f32⟩ : BufTy).Contents (Elt Ideal)) (x11 : (⟨S3x64, .f32⟩ : BufTy).Contents (Elt Ideal)) (x12 : (⟨S3x64x64, .f32⟩ : BufTy).Contents (Elt Ideal)) (x13 : (⟨S3x64, .f32⟩ : BufTy).Contents (Elt Ideal)) (x14 : (⟨S3x256x64, .f32⟩ : BufTy).Contents (Elt Ideal)) (x15 : (⟨S3x64, .f32⟩ : BufTy).Contents (Elt Ideal)) (x16 : (⟨S3x64x64, .f32⟩ : BufTy).Contents (Elt Ideal)) (x17 : (⟨S3x64, .f32⟩ : BufTy).Contents (Elt Ideal)) (x22 : (⟨S2x500000, .i32⟩ : BufTy).Contents (Elt Ideal)) :
    val_main_v119 (F := Ideal) x0 x1 x2 x3 x4 x5 x6 x7 x8 x9 x10 x11 x12 x13 x14 x15 x16 x17 x22
      = mlpArr2 (A := 128) (B := 128) (K := 256) rfl (val_main_v81 (F := Ideal) x0 x1 x2 x3 x4 x5 x6 x7 x8 x9 x14 x15 x16 x17 x22) (val_main_v100 (F := Ideal) x0 x1 x2 x3 x4 x5 x6 x7 x8 x9 x10 x11 x12 x13 x22)
          (val_main_v103 (F := Ideal) x14) (vecOf (val_main_v105 (F := Ideal) x15)) (val_main_v107 (F := Ideal) x16) (vecOf (val_main_v109 (F := Ideal) x17)) := by
  unfold val_main_v119 val_main_call9_v0 val_main_call9_cst val_main_v118 val_main_v117 val_main_v116 val_main_v115 val_main_v114 val_main_call8_v0 val_main_call8_cst val_main_v113 val_main_v112 val_main_v111 val_main_v110 val_main_v101
  exact host_mlp2_eq (R := 100000) (A := 128) (B := 128) (K := 256) (H := 64) (C := 64) rfl _ _ _ _ _ _
    concatenates_S100000x128_S100000x128_S100000x256_d1
    bcast_S64_S1x64_1 bcast_S1x64_S100000x64_0_1 bcast_S64_S1x64_1 bcast_S1x64_S100000x64_0_1
    bcast_S_S100000x64 bcast_S_S100000x64

/-- The third node update (operations %158 and %167 to %176): the perceptron of the rows of `[%138 | %157]`. -/
theorem r_v176 (x0 : (⟨S100000x2, .f32⟩ : BufTy).Contents (Elt Ideal)) (x1 : (⟨S500000x3, .f32⟩ : BufTy).Contents (Elt Ideal)) (x2 : (⟨S2x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S3x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S3x384x64, .f32⟩ : BufTy).Contents (Elt Ideal)) (x11 : (⟨S3x64, .f32⟩ : BufTy).Contents (Elt Ideal)) (x12 : (⟨S3x64x64, .f32⟩ : BufTy).Contents (Elt Ideal)) (x13 : (⟨S3x64, .f32⟩ : BufTy).Contents (Elt Ideal)) (x14 : (⟨S3x256x64, .f32⟩ : BufTy).Contents (Elt Ideal)) (x15 : (⟨S3x64, .f32⟩ : BufTy).Contents (Elt Ideal)) (x16 : (⟨S3x64x64, .f32⟩ : BufTy).Contents (Elt Ideal)) (x17 : (⟨S3x64, .f32⟩ : BufTy).Contents (Elt Ideal)) (x22 : (⟨S2x500000, .i32⟩ : BufTy).Contents (Elt Ideal)) :
    val_main_v176 (F := Ideal) x0 x1 x2 x3 x4 x5 x6 x7 x8 x9 x10 x11 x12 x13 x14 x15 x16 x17 x22
      = mlpArr2 (A := 128) (B := 128) (K := 256) rfl (val_main_v138 (F := Ideal) x0 x1 x2 x3 x4 x5 x6 x7 x8 x9 x10 x11 x12 x13 x14 x15 x16 x17 x22) (val_main_v157 (F := Ideal) x0 x1 x2 x3 x4 x5 x6 x7 x8 x9 x10 x11 x12 x13 x14 x15 x16 x17 x22)
          (val_main_v160 (F := Ideal) x14) (vecOf (val_main_v162 (F := Ideal) x15)) (val_main_v164 (F := Ideal) x16) (vecOf (val_main_v166 (F := Ideal) x17)) := by
  unfold val_main_v176 val_main_call13_v0 val_main_call13_cst val_main_v175 val_main_v174 val_main_v173 val_main_v172 val_main_v171 val_main_call12_v0 val_main_call12_cst val_main_v170 val_main_v169 val_main_v168 val_main_v167 val_main_v158
  exact host_mlp2_eq (R := 100000) (A := 128) (B := 128) (K := 256) (H := 64) (C := 64) rfl _ _ _ _ _ _
    concatenates_S100000x128_S100000x128_S100000x256_d1
    bcast_S64_S1x64_1 bcast_S1x64_S100000x64_0_1 bcast_S64_S1x64_1 bcast_S1x64_S100000x64_0_1
    bcast_S_S100000x64 bcast_S_S100000x64

end Cert.ReferenceIdeal.Stage

end
-- ==== Proof.RStageC.lean ====
/-
  The two edge updates of the reference program that reach its result, each as one row-wise perceptron.

  An edge update takes, for every edge, three rows of 128 numbers — the edge's own features and the features of the
  two nodes it joins —, lays them end to end into one row of 384, and applies two dense layers to that row, each
  followed by the rectifier: `max (max (x · W₁ + b₁) 0 · W₂ + b₂) 0`.  The host program spells this out one array
  operation at a time: a lane concatenation, a matrix product, a bias vector laid along the rows in two broadcasts,
  an addition, and a maximum with a broadcast scalar zero; then the second layer likewise.  Read at an entry
  `(r, q)`, each of those operations looks only at row `r` of its operand; so the whole stage, read at `(r, q)`,
  is the perceptron of row `r` of the concatenation, at `q`.  The first part proves that for any sizes; the second
  part reads the two stages of this program off it.
-/
import proofs.«406922_j70815420776874_1_alg».proof.Proof.RefRead
import proofs.«406922_j70815420776874_1_alg».proof.Proof.LibRows

noncomputable section

namespace Cert.ReferenceIdeal.Stage

open Idealize.ShloMosaic Idealize.ShloMosaic.ValueIdx Cert.ReferenceIdeal Cert.ReferenceIdeal.ReadP Cert.Rows
open scoped BigOperators

/-! ## One host layer, and the host's perceptron on a three-way lane concatenation, generic in the sizes -/

namespace EdgeStage

/-- One layer as the host spells it — a plain product, plus a vector laid along the rows in two steps, compared with a
    broadcast of the scalar zero — read at `(r, q)`: the rectified dense layer of row `r`, at `q`. -/
theorem layer_apply {R K C : Nat} (X : FVec Ideal ⟨2, ![R, K]⟩ .f32) (W : FVec Ideal ⟨2, ![K, C]⟩ .f32) (b : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![R, C]⟩ ![0, 1])
    (h0 : (⟨0, ![]⟩ : Shape).BroadcastsInDim ⟨2, ![R, C]⟩ ![])
    (r : Fin R) (q : Fin C) :
    maximumf (F := Ideal) (φ := .f32)
        (addf (Host.dotGeneral (DotDims.plain R K C) none X W)
          (broadcastInDim ⟨2, ![R, C]⟩ ![0, 1] h2 (broadcastInDim ⟨2, ![1, C]⟩ ![1] h1 b)))
        (broadcastInDim ⟨2, ![R, C]⟩ ![] h0 (constant (F := Ideal) ⟨0, ![]⟩ .f32 0x00000000#32)) (ix2 r q)
      = reluRow (denseRow (rowOf X r) W (vecOf b)) q := by
  refine (host_relu_apply _ h0 (ix2 r q)).trans ?_
  unfold reluRow denseRow rowOf vecOf
  refine congrArg (fun t => max t z32) ?_
  refine (addf_apply _ _ (ix2 r q)).trans ?_
  exact congrArg₂ (· + ·) (dotGeneral_plain_apply none X W r q) (host_bias_apply b h1 h2 r q)

/-- The same, for a whole row. -/
theorem layer_row {R K C : Nat} (X : FVec Ideal ⟨2, ![R, K]⟩ .f32) (W : FVec Ideal ⟨2, ![K, C]⟩ .f32) (b : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![R, C]⟩ ![0, 1])
    (h0 : (⟨0, ![]⟩ : Shape).BroadcastsInDim ⟨2, ![R, C]⟩ ![])
    (r : Fin R) :
    rowOf (maximumf (F := Ideal) (φ := .f32)
        (addf (Host.dotGeneral (DotDims.plain R K C) none X W)
          (broadcastInDim ⟨2, ![R, C]⟩ ![0, 1] h2 (broadcastInDim ⟨2, ![1, C]⟩ ![1] h1 b)))
        (broadcastInDim ⟨2, ![R, C]⟩ ![] h0 (constant (F := Ideal) ⟨0, ![]⟩ .f32 0x00000000#32))) r
      = reluRow (denseRow (rowOf X r) W (vecOf b)) :=
  funext fun q => layer_apply X W b h1 h2 h0 r q

/-- Two host layers on the lane concatenation `[X | Y | Z]`: the perceptron of every row of the concatenation. -/
theorem mlp3 {R A B D K H C : Nat} (hK : A + B + D = K) (X : FVec Ideal ⟨2, ![R, A]⟩ .f32) (Y : FVec Ideal ⟨2, ![R, B]⟩ .f32)
    (Z : FVec Ideal ⟨2, ![R, D]⟩ .f32) (W1 : FVec Ideal ⟨2, ![K, H]⟩ .f32) (b1 : FVec Ideal ⟨1, ![H]⟩ .f32)
    (W2 : FVec Ideal ⟨2, ![H, C]⟩ .f32) (b2 : FVec Ideal ⟨1, ![C]⟩ .f32)
    (hc : Shape.Concatenates [(⟨2, ![R, A]⟩ : Shape), ⟨2, ![R, B]⟩, ⟨2, ![R, D]⟩] ⟨2, ![R, K]⟩ 1)
    (h1 : (⟨1, ![H]⟩ : Shape).BroadcastsInDim ⟨2, ![1, H]⟩ ![1])
    (h2 : (⟨2, ![1, H]⟩ : Shape).BroadcastsInDim ⟨2, ![R, H]⟩ ![0, 1])
    (h0 : (⟨0, ![]⟩ : Shape).BroadcastsInDim ⟨2, ![R, H]⟩ ![])
    (g1 : (⟨1, ![C]⟩ : Shape).BroadcastsInDim ⟨2, ![1, C]⟩ ![1])
    (g2 : (⟨2, ![1, C]⟩ : Shape).BroadcastsInDim ⟨2, ![R, C]⟩ ![0, 1])
    (g0 : (⟨0, ![]⟩ : Shape).BroadcastsInDim ⟨2, ![R, C]⟩ ![]) :
    maximumf (F := Ideal) (φ := .f32)
        (addf (Host.dotGeneral (DotDims.plain R H C) none
            (maximumf (F := Ideal) (φ := .f32)
              (addf (Host.dotGeneral (DotDims.plain R K H) none
                  (concatenate ⟨2, ![R, K]⟩ 1 [⟨⟨2, ![R, A]⟩, X⟩, ⟨⟨2, ![R, B]⟩, Y⟩, ⟨⟨2, ![R, D]⟩, Z⟩] hc
                    : FVec Ideal ⟨2, ![R, K]⟩ .f32) W1)
                (broadcastInDim ⟨2, ![R, H]⟩ ![0, 1] h2 (broadcastInDim ⟨2, ![1, H]⟩ ![1] h1 b1)))
              (broadcastInDim ⟨2, ![R, H]⟩ ![] h0 (constant (F := Ideal) ⟨0, ![]⟩ .f32 0x00000000#32)))
            W2)
          (broadcastInDim ⟨2, ![R, C]⟩ ![0, 1] g2 (broadcastInDim ⟨2, ![1, C]⟩ ![1] g1 b2)))
        (broadcastInDim ⟨2, ![R, C]⟩ ![] g0 (constant (F := Ideal) ⟨0, ![]⟩ .f32 0x00000000#32))
      = mlpArr3 hK X Y Z W1 (vecOf b1) W2 (vecOf b2) := by
  funext i
  obtain ⟨r, q, rfl⟩ : ∃ (r : Fin R) (q : Fin C), i = ix2 r q := ⟨i 0, i 1, eq_ix2 i⟩
  refine (layer_apply _ W2 b2 g1 g2 g0 r q).trans ?_
  unfold mlpArr3 mlpRow
  show reluRow (denseRow _ W2 (vecOf b2)) q = reluRow (denseRow (reluRow (denseRow (cat3Row hK (rowOf X r) (rowOf Y r) (rowOf Z r)) W1 (vecOf b1))) W2 (vecOf b2)) q
  refine congrArg (fun v => reluRow (denseRow v W2 (vecOf b2)) q) ?_
  refine (layer_row _ W1 b1 h1 h2 h0 r).trans ?_
  exact congrArg (fun v => reluRow (denseRow v W1 (vecOf b1))) (rowOf_concat3 hK X Y Z hc r)

end EdgeStage

/-! ## The two stages of this program -/

/-- Operations %40 and %71 … %80: the first edge update is the perceptron of every row of
    `[%25 | %32 | %39]` with the first slices of the stacked weights. -/
theorem r_v80
    (x0 : (⟨S100000x2, .f32⟩ : BufTy).Contents (Elt Ideal)) (x1 : (⟨S500000x3, .f32⟩ : BufTy).Contents (Elt Ideal))
    (x2 : (⟨S2x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S3x64, .f32⟩ : BufTy).Contents (Elt Ideal)) (x7 : (⟨S64, .f32⟩ : BufTy).Contents (Elt Ideal))
    (x8 : (⟨S64x64, .f32⟩ : BufTy).Contents (Elt Ideal)) (x9 : (⟨S64, .f32⟩ : BufTy).Contents (Elt Ideal))
    (x10 : (⟨S3x384x64, .f32⟩ : BufTy).Contents (Elt Ideal)) (x11 : (⟨S3x64, .f32⟩ : BufTy).Contents (Elt Ideal))
    (x12 : (⟨S3x64x64, .f32⟩ : BufTy).Contents (Elt Ideal)) (x13 : (⟨S3x64, .f32⟩ : BufTy).Contents (Elt Ideal))
    (x22 : (⟨S2x500000, .i32⟩ : BufTy).Contents (Elt Ideal)) :
    val_main_v80 (F := Ideal) x0 x1 x2 x3 x4 x5 x6 x7 x8 x9 x10 x11 x12 x13 x22
      = mlpArr3 (A := 128) (B := 128) (D := 128) (K := 384) rfl
          (val_main_v25 (F := Ideal) x1 x6 x7 x8 x9)
          (val_main_v32 (F := Ideal) x0 x2 x3 x4 x5 x22)
          (val_main_v39 (F := Ideal) x0 x2 x3 x4 x5 x22)
          (val_main_v64 (F := Ideal) x10) (vecOf (val_main_v66 (F := Ideal) x11))
          (val_main_v68 (F := Ideal) x12) (vecOf (val_main_v70 (F := Ideal) x13)) := by
  unfold val_main_v80 val_main_v79 val_main_v78 val_main_v77 val_main_v76 val_main_call7_v0 val_main_call7_cst
    val_main_v75 val_main_v74 val_main_v73 val_main_v72 val_main_v71 val_main_call6_v0 val_main_call6_cst val_main_v40
  exact EdgeStage.mlp3 (R := 500000) (A := 128) (B := 128) (D := 128) (K := 384) (H := 64) (C := 64) rfl
    (val_main_v25 (F := Ideal) x1 x6 x7 x8 x9) (val_main_v32 (F := Ideal) x0 x2 x3 x4 x5 x22)
    (val_main_v39 (F := Ideal) x0 x2 x3 x4 x5 x22)
    (val_main_v64 (F := Ideal) x10) (val_main_v66 (F := Ideal) x11)
    (val_main_v68 (F := Ideal) x12) (val_main_v70 (F := Ideal) x13)
    Gen.concatenates_S500000x128_S500000x128_S500000x128_S500000x384_d1
    Gen.bcast_S64_S1x64_1 Gen.bcast_S1x64_S500000x64_0_1 Gen.bcast_S_S500000x64
    Gen.bcast_S64_S1x64_1 Gen.bcast_S1x64_S500000x64_0_1 Gen.bcast_S_S500000x64

/-- Operations %97 and %128 … %137: the second edge update is the perceptron of every row of
    `[%82 | %89 | %96]` with the second slices of the stacked weights. -/
theorem r_v137
    (x0 : (⟨S100000x2, .f32⟩ : BufTy).Contents (Elt Ideal)) (x1 : (⟨S500000x3, .f32⟩ : BufTy).Contents (Elt Ideal))
    (x2 : (⟨S2x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S3x64, .f32⟩ : BufTy).Contents (Elt Ideal)) (x7 : (⟨S64, .f32⟩ : BufTy).Contents (Elt Ideal))
    (x8 : (⟨S64x64, .f32⟩ : BufTy).Contents (Elt Ideal)) (x9 : (⟨S64, .f32⟩ : BufTy).Contents (Elt Ideal))
    (x10 : (⟨S3x384x64, .f32⟩ : BufTy).Contents (Elt Ideal)) (x11 : (⟨S3x64, .f32⟩ : BufTy).Contents (Elt Ideal))
    (x12 : (⟨S3x64x64, .f32⟩ : BufTy).Contents (Elt Ideal)) (x13 : (⟨S3x64, .f32⟩ : BufTy).Contents (Elt Ideal))
    (x14 : (⟨S3x256x64, .f32⟩ : BufTy).Contents (Elt Ideal)) (x15 : (⟨S3x64, .f32⟩ : BufTy).Contents (Elt Ideal))
    (x16 : (⟨S3x64x64, .f32⟩ : BufTy).Contents (Elt Ideal)) (x17 : (⟨S3x64, .f32⟩ : BufTy).Contents (Elt Ideal))
    (x22 : (⟨S2x500000, .i32⟩ : BufTy).Contents (Elt Ideal)) :
    val_main_v137 (F := Ideal) x0 x1 x2 x3 x4 x5 x6 x7 x8 x9 x10 x11 x12 x13 x14 x15 x16 x17 x22
      = mlpArr3 (A := 128) (B := 128) (D := 128) (K := 384) rfl
          (val_main_v82 (F := Ideal) x0 x1 x2 x3 x4 x5 x6 x7 x8 x9 x10 x11 x12 x13 x22)
          (val_main_v89 (F := Ideal) x0 x1 x2 x3 x4 x5 x6 x7 x8 x9 x14 x15 x16 x17 x22)
          (val_main_v96 (F := Ideal) x0 x1 x2 x3 x4 x5 x6 x7 x8 x9 x14 x15 x16 x17 x22)
          (val_main_v121 (F := Ideal) x10) (vecOf (val_main_v123 (F := Ideal) x11))
          (val_main_v125 (F := Ideal) x12) (vecOf (val_main_v127 (F := Ideal) x13)) := by
  unfold val_main_v137 val_main_v136 val_main_v135 val_main_v134 val_main_v133 val_main_call11_v0 val_main_call11_cst
    val_main_v132 val_main_v131 val_main_v130 val_main_v129 val_main_v128 val_main_call10_v0 val_main_call10_cst val_main_v97
  exact EdgeStage.mlp3 (R := 500000) (A := 128) (B := 128) (D := 128) (K := 384) (H := 64) (C := 64) rfl
    (val_main_v82 (F := Ideal) x0 x1 x2 x3 x4 x5 x6 x7 x8 x9 x10 x11 x12 x13 x22)
    (val_main_v89 (F := Ideal) x0 x1 x2 x3 x4 x5 x6 x7 x8 x9 x14 x15 x16 x17 x22)
    (val_main_v96 (F := Ideal) x0 x1 x2 x3 x4 x5 x6 x7 x8 x9 x14 x15 x16 x17 x22)
    (val_main_v121 (F := Ideal) x10) (val_main_v123 (F := Ideal) x11)
    (val_main_v125 (F := Ideal) x12) (val_main_v127 (F := Ideal) x13)
    Gen.concatenates_S500000x128_S500000x128_S500000x128_S500000x384_d1
    Gen.bcast_S64_S1x64_1 Gen.bcast_S1x64_S500000x64_0_1 Gen.bcast_S_S500000x64
    Gen.bcast_S64_S1x64_1 Gen.bcast_S1x64_S500000x64_0_1 Gen.bcast_S_S500000x64

end Cert.ReferenceIdeal.Stage

end
-- ==== Proof.KFold1.lean ====
/-
  The first message-passing layer, read as whole arrays.

  After the two encoders the host doubles the node state and the edge state along the feature axis (every row written
  twice, side by side). For every edge it looks up the doubled node row at the edge's source and the one at its
  target, and for every node it adds up, starting from zero, the doubled edge rows of the edges that point at the
  node. A row lookup by index in its default mode is the plain gather once every index lies in [0, 100000); the
  hypothesis on the edge list gives that for both of its rows, and the normalised index column of the lookup is the
  one the reference builds. So the two lookups are the reference's gathers and the sums are its scatter-add, on the
  same arguments. The layer's weight matrices and bias vectors are the first slices of the stacked ones, reshaped;
  a bias is reshaped once more into a one-row matrix, whose row holds the vector's entries.

  The edge update leaves in its output array the row-wise two-layer perceptron of [edge | source | target] and the
  node update that of [node | sum]: with the inputs identified as above these are the reference's first edge update
  and first node update. The node update reads the sums of the edge state as the encoder left it, not the updated
  one, and so does the reference. Between the edge update and the node update nothing writes the doubled node state
  or the sums, and the node update does not write the new edge state; nothing in the whole layer writes the
  encoders' outputs, the two index rows or an argument array, so all of these are still there when the second layer
  starts.
-/
import proofs.«406922_j70815420776874_1_alg».proof.Proof.KFold0
import proofs.«406922_j70815420776874_1_alg».proof.Proof.KArr2
import proofs.«406922_j70815420776874_1_alg».proof.Proof.KArr3
import proofs.«406922_j70815420776874_1_alg».proof.Proof.RStageB
import proofs.«406922_j70815420776874_1_alg».proof.Proof.RStageC
import Idealize.ShloMosaic.Lib.StableHlo.Run

set_option maxRecDepth 16384

noncomputable section

namespace Cert.KernelIdeal.Fold

open Idealize.ShloMosaic Idealize.ShloMosaic.ValueIdx Idealize.ShloMosaic.TcCoe Idealize.SL.Sem Idealize.ShloMosaic.StableHlo
open Cert.KernelIdeal Cert.KernelIdeal.Gen Cert.Rows
open Cert.ReferenceIdeal.ReadP

variable (m : (ℓ : Loc nD τ sig) → Buf (Elt Ideal) ℓ) (ρ : Dev nD → PrngReg)

/-! ## What the host prepares between the edge encoder and the edge update -/

/-- The node state doubled along the feature axis. -/
theorem W8_v10 (c : Dev nD) :
    W8 m ρ c (Proc.devRef .tc main_v10) = val_main_v24 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  have h : W8 m ρ c (Proc.devRef .tc main_v10)
      = (concatenate S100000x128 1 [⟨S100000x64, W4 m ρ c (Proc.devRef .tc main_v6)⟩, ⟨S100000x64, W4 m ρ c (Proc.devRef .tc main_v6)⟩] concatenates_S100000x64_S100000x64_S100000x128_d1) := by
    show StableHlo.after hostOps2_3 (StableHlo.after hostOps2_2 (StableHlo.after hostOps2_1 (StableHlo.after hostOps2 (W4 m ρ c)))) (Proc.devRef .tc main_v10) = _
    after_results_simp <;> rfl
  rw [h, W4_v6]
  rfl

/-- The edge state doubled along the feature axis. -/
theorem W8_v11 (c : Dev nD) :
    W8 m ρ c (Proc.devRef .tc main_v11) = val_main_v25 (F := Ideal) (m ((c : Thread nD τ).loc main_arg1)) (m ((c : Thread nD τ).loc main_arg6)) (m ((c : Thread nD τ).loc main_arg7)) (m ((c : Thread nD τ).loc main_arg8)) (m ((c : Thread nD τ).loc main_arg9)) := by
  have h : W8 m ρ c (Proc.devRef .tc main_v11)
      = (concatenate S500000x128 1 [⟨S500000x64, W4 m ρ c (Proc.devRef .tc main_v9)⟩, ⟨S500000x64, W4 m ρ c (Proc.devRef .tc main_v9)⟩] concatenates_S500000x64_S500000x64_S500000x128_d1) := by
    show StableHlo.after hostOps2_3 (StableHlo.after hostOps2_2 (StableHlo.after hostOps2_1 (StableHlo.after hostOps2 (W4 m ρ c)))) (Proc.devRef .tc main_v11) = _
    after_results_simp <;> rfl
  rw [h, W4_v9]
  rfl

/-- The doubled node state's rows at the source node of every edge. -/
theorem W8_v12 (c : Dev nD) (hr : Cert.PreIdx.InRange (m ((c : Thread nD τ).loc main_arg22))) :
    W8 m ρ c (Proc.devRef .tc main_v12) = val_main_v32 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg22)) := by
  have h : W8 m ρ c (Proc.devRef .tc main_v12)
      = Take.takeFn (concatenate S100000x128 1 [⟨S100000x64, W4 m ρ c (Proc.devRef .tc main_v6)⟩, ⟨S100000x64, W4 m ρ c (Proc.devRef .tc main_v6)⟩] concatenates_S100000x64_S100000x64_S100000x128_d1) (W4 m ρ c (Proc.devRef .tc main_v1)) := by
    show StableHlo.after hostOps2_3 (StableHlo.after hostOps2_2 (StableHlo.after hostOps2_1 (StableHlo.after hostOps2 (W4 m ρ c)))) (Proc.devRef .tc main_v12) = _
    after_results_simp <;> (try simp only [TRef.ofBuf, TRef.toBuf, cast_eq]) <;> rfl
  rw [h, W4_v6, W4_v1, Take.takeFn_eq _ _ (Take.src_inRange _ hr)]
  rfl

/-- The doubled node state's rows at the target node of every edge. -/
theorem W8_v13 (c : Dev nD) (hr : Cert.PreIdx.InRange (m ((c : Thread nD τ).loc main_arg22))) :
    W8 m ρ c (Proc.devRef .tc main_v13) = val_main_v39 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg22)) := by
  have h : W8 m ρ c (Proc.devRef .tc main_v13)
      = Take.takeFn (concatenate S100000x128 1 [⟨S100000x64, W4 m ρ c (Proc.devRef .tc main_v6)⟩, ⟨S100000x64, W4 m ρ c (Proc.devRef .tc main_v6)⟩] concatenates_S100000x64_S100000x64_S100000x128_d1) (W4 m ρ c (Proc.devRef .tc main_v3)) := by
    show StableHlo.after hostOps2_3 (StableHlo.after hostOps2_2 (StableHlo.after hostOps2_1 (StableHlo.after hostOps2 (W4 m ρ c)))) (Proc.devRef .tc main_v13) = _
    after_results_simp <;> (try simp only [TRef.ofBuf, TRef.toBuf, cast_eq]) <;> rfl
  rw [h, W4_v6, W4_v3, Take.takeFn_eq _ _ (Take.dst_inRange _ hr)]
  rfl

/-- The doubled edge state summed, per node, over the edges that point at the node. -/
theorem W8_v16 (c : Dev nD) :
    W8 m ρ c (Proc.devRef .tc main_v16) = val_main_v43 (F := Ideal) (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg22)) := by
  have h : W8 m ρ c (Proc.devRef .tc main_v16)
      = Host.scatterAdd scatter_S100000x128_S500000x1_S500000x128_1_0_0_1
          (broadcastInDim S100000x128 ![] bcast_S_S100000x128 (constant (F := Ideal) S_ .f32 0x00000000#32))
          (broadcastInDim S500000x1 ![0] bcast_S500000_S500000x1_0 (W4 m ρ c (Proc.devRef .tc main_v3)))
          (concatenate S500000x128 1 [⟨S500000x64, W4 m ρ c (Proc.devRef .tc main_v9)⟩, ⟨S500000x64, W4 m ρ c (Proc.devRef .tc main_v9)⟩] concatenates_S500000x64_S500000x64_S500000x128_d1) := by
    show StableHlo.after hostOps2_3 (StableHlo.after hostOps2_2 (StableHlo.after hostOps2_1 (StableHlo.after hostOps2 (W4 m ρ c)))) (Proc.devRef .tc main_v16) = _
    after_results_simp <;> rfl
  rw [h, W4_v9, W4_v3]
  rfl

/-- The edge update's first weight matrix: the first slice of the stacked ones. -/
theorem W8_v18 (c : Dev nD) :
    W8 m ρ c (Proc.devRef .tc main_v18) = val_main_v64 (F := Ideal) (m ((c : Thread nD τ).loc main_arg10)) := by
  have h : W8 m ρ c (Proc.devRef .tc main_v18)
      = shapeCast S384x64 (extractStridedSlice S1x384x64 ![0, 0, 0] (W4 m ρ c (Proc.devRef .tc main_arg10)) slices_S3x384x64_S1x384x64_0_0_0) shapeCasts_S1x384x64_S384x64 := by
    show StableHlo.after hostOps2_3 (StableHlo.after hostOps2_2 (StableHlo.after hostOps2_1 (StableHlo.after hostOps2 (W4 m ρ c)))) (Proc.devRef .tc main_v18) = _
    after_results_simp <;> rfl
  rw [h, W4_arg m ρ c main_arg10 (by decide)]
  rfl

/-- The edge update's first bias, as a one-row matrix. -/
theorem W8_v25 (c : Dev nD) :
    W8 m ρ c (Proc.devRef .tc main_v25) = shapeCast S1x64 (val_main_v66 (F := Ideal) (m ((c : Thread nD τ).loc main_arg11))) shapeCasts_S64_S1x64 := by
  have h : W8 m ρ c (Proc.devRef .tc main_v25)
      = shapeCast S1x64 (shapeCast S64 (extractStridedSlice S1x64 ![0, 0] (W4 m ρ c (Proc.devRef .tc main_arg11)) slices_S3x64_S1x64_0_0) shapeCasts_S1x64_S64) shapeCasts_S64_S1x64 := by
    show StableHlo.after hostOps2_3 (StableHlo.after hostOps2_2 (StableHlo.after hostOps2_1 (StableHlo.after hostOps2 (W4 m ρ c)))) (Proc.devRef .tc main_v25) = _
    after_results_simp <;> rfl
  rw [h, W4_arg m ρ c main_arg11 (by decide)]
  rfl

/-- The edge update's second weight matrix. -/
theorem W8_v22 (c : Dev nD) :
    W8 m ρ c (Proc.devRef .tc main_v22) = val_main_v68 (F := Ideal) (m ((c : Thread nD τ).loc main_arg12)) := by
  have h : W8 m ρ c (Proc.devRef .tc main_v22)
      = shapeCast S64x64 (extractStridedSlice S1x64x64 ![0, 0, 0] (W4 m ρ c (Proc.devRef .tc main_arg12)) slices_S3x64x64_S1x64x64_0_0_0) shapeCasts_S1x64x64_S64x64 := by
    show StableHlo.after hostOps2_3 (StableHlo.after hostOps2_2 (StableHlo.after hostOps2_1 (StableHlo.after hostOps2 (W4 m ρ c)))) (Proc.devRef .tc main_v22) = _
    after_results_simp <;> rfl
  rw [h, W4_arg m ρ c main_arg12 (by decide)]
  rfl

/-- The edge update's second bias, as a one-row matrix. -/
theorem W8_v26 (c : Dev nD) :
    W8 m ρ c (Proc.devRef .tc main_v26) = shapeCast S1x64 (val_main_v70 (F := Ideal) (m ((c : Thread nD τ).loc main_arg13))) shapeCasts_S64_S1x64 := by
  have h : W8 m ρ c (Proc.devRef .tc main_v26)
      = shapeCast S1x64 (shapeCast S64 (extractStridedSlice S1x64 ![0, 0] (W4 m ρ c (Proc.devRef .tc main_arg13)) slices_S3x64_S1x64_0_0) shapeCasts_S1x64_S64) shapeCasts_S64_S1x64 := by
    show StableHlo.after hostOps2_3 (StableHlo.after hostOps2_2 (StableHlo.after hostOps2_1 (StableHlo.after hostOps2 (W4 m ρ c)))) (Proc.devRef .tc main_v26) = _
    after_results_simp <;> rfl
  rw [h, W4_arg m ρ c main_arg13 (by decide)]
  rfl

/-! ## Region 2: the edge update -/

theorem W9_v27 (c : Dev nD) (hr : Cert.PreIdx.InRange (m ((c : Thread nD τ).loc main_arg22))) :
    W9 m ρ c (Proc.devRef .tc main_v27) = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg22)) := by
  refine ((W9_arr m ρ c 7).trans (Arr.arr2 (V8 m ρ) c)).trans ?_
  show mlpArr3 (A := 128) (B := 128) (D := 128) (K := 384) rfl (W8 m ρ c (Proc.devRef .tc main_v11)) (W8 m ρ c (Proc.devRef .tc main_v12))
      (W8 m ρ c (Proc.devRef .tc main_v13)) (W8 m ρ c (Proc.devRef .tc main_v18)) (row0 (W8 m ρ c (Proc.devRef .tc main_v25)))
      (W8 m ρ c (Proc.devRef .tc main_v22)) (row0 (W8 m ρ c (Proc.devRef .tc main_v26))) = _
  rw [W8_v11, W8_v12 m ρ c hr, W8_v13 m ρ c hr, W8_v18, W8_v25, W8_v22, W8_v26]
  rw [row0_reshape, row0_reshape]
  exact (Cert.ReferenceIdeal.Stage.r_v80 _ _ _ _ _ _ _ _ _ _ _ _ _ _ _).symm

/-- An argument array is as launched when region 2 is over. -/
theorem W9_arg (c : Dev nD) (b : Ref sig .tc) (h27 : Keep.key b ≠ Keep.key main_v27) (h1 : Keep.key b ∉ Keep.wrB1'.map Keep.key)
    (h0 : Keep.key b ∉ Keep.wrB0.map Keep.key) : W9 m ρ c (Proc.devRef .tc b) = m ((c : Thread nD τ).loc b) :=
  (Keep.keepR2 m ρ c b (Keep.ne_of_key_ne h27)).trans ((Keep.keepB1' m ρ c b (Keep.apart h1)).trans (W4_arg m ρ c b h0))

/-! ## What the host prepares before the node update -/

/-- The node update's first weight matrix: the first slice of the stacked ones. -/
theorem W10_v29 (c : Dev nD) :
    W10 m ρ c (Proc.devRef .tc main_v29) = val_main_v46 (F := Ideal) (m ((c : Thread nD τ).loc main_arg14)) := by
  have h : W10 m ρ c (Proc.devRef .tc main_v29)
      = shapeCast S256x64 (extractStridedSlice S1x256x64 ![0, 0, 0] (W9 m ρ c (Proc.devRef .tc main_arg14)) slices_S3x256x64_S1x256x64_0_0_0) shapeCasts_S1x256x64_S256x64 := by
    show StableHlo.after hostOps3 (W9 m ρ c) (Proc.devRef .tc main_v29) = _
    after_results_simp <;> rfl
  rw [h, W9_arg m ρ c main_arg14 (by decide) (by decide) (by decide)]
  rfl

/-- The node update's first bias, as a one-row matrix. -/
theorem W10_v36 (c : Dev nD) :
    W10 m ρ c (Proc.devRef .tc main_v36) = shapeCast S1x64 (val_main_v48 (F := Ideal) (m ((c : Thread nD τ).loc main_arg15))) shapeCasts_S64_S1x64 := by
  have h : W10 m ρ c (Proc.devRef .tc main_v36)
      = shapeCast S1x64 (shapeCast S64 (extractStridedSlice S1x64 ![0, 0] (W9 m ρ c (Proc.devRef .tc main_arg15)) slices_S3x64_S1x64_0_0) shapeCasts_S1x64_S64) shapeCasts_S64_S1x64 := by
    show StableHlo.after hostOps3 (W9 m ρ c) (Proc.devRef .tc main_v36) = _
    after_results_simp <;> rfl
  rw [h, W9_arg m ρ c main_arg15 (by decide) (by decide) (by decide)]
  rfl

/-- The node update's second weight matrix. -/
theorem W10_v33 (c : Dev nD) :
    W10 m ρ c (Proc.devRef .tc main_v33) = val_main_v50 (F := Ideal) (m ((c : Thread nD τ).loc main_arg16)) := by
  have h : W10 m ρ c (Proc.devRef .tc main_v33)
      = shapeCast S64x64 (extractStridedSlice S1x64x64 ![0, 0, 0] (W9 m ρ c (Proc.devRef .tc main_arg16)) slices_S3x64x64_S1x64x64_0_0_0) shapeCasts_S1x64x64_S64x64 := by
    show StableHlo.after hostOps3 (W9 m ρ c) (Proc.devRef .tc main_v33) = _
    after_results_simp <;> rfl
  rw [h, W9_arg m ρ c main_arg16 (by decide) (by decide) (by decide)]
  rfl

/-- The node update's second bias, as a one-row matrix. -/
theorem W10_v37 (c : Dev nD) :
    W10 m ρ c (Proc.devRef .tc main_v37) = shapeCast S1x64 (val_main_v52 (F := Ideal) (m ((c : Thread nD τ).loc main_arg17))) shapeCasts_S64_S1x64 := by
  have h : W10 m ρ c (Proc.devRef .tc main_v37)
      = shapeCast S1x64 (shapeCast S64 (extractStridedSlice S1x64 ![0, 0] (W9 m ρ c (Proc.devRef .tc main_arg17)) slices_S3x64_S1x64_0_0) shapeCasts_S1x64_S64) shapeCasts_S64_S1x64 := by
    show StableHlo.after hostOps3 (W9 m ρ c) (Proc.devRef .tc main_v37) = _
    after_results_simp <;> rfl
  rw [h, W9_arg m ρ c main_arg17 (by decide) (by decide) (by decide)]
  rfl

/-- The doubled node state is still there when the node update starts. -/
theorem W10_v10 (c : Dev nD) :
    W10 m ρ c (Proc.devRef .tc main_v10) = val_main_v24 (F := Ideal) (m ((c : Thread nD τ).loc main_arg0)) (m ((c : Thread nD τ).loc main_arg2)) (m ((c : Thread nD τ).loc main_arg3)) (m ((c : Thread nD τ).loc main_arg4)) (m ((c : Thread nD τ).loc main_arg5)) :=
  ((Keep.keepH3 m ρ c main_v10 (Keep.apart (by decide))).trans (Keep.keepR2 m ρ c main_v10 (Keep.ne_of_key_ne (by decide)))).trans (W8_v10 m ρ c)

/-- So are the per-node sums of the doubled edge state. -/
theorem W10_v16 (c : Dev nD) :
    W10 m ρ c (Proc.devRef .tc main_v16) = val_main_v43 (F := Ideal) (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg22)) :=
  ((Keep.keepH3 m ρ c main_v16 (Keep.apart (by decide))).trans (Keep.keepR2 m ρ c main_v16 (Keep.ne_of_key_ne (by decide)))).trans (W8_v16 m ρ c)

/-! ## Region 3: the node update, and what the second layer starts from -/

/-- After the first layer the node state is the reference's first node update. -/
theorem W11_v38 (c : Dev nD) (hr : Cert.PreIdx.InRange (m ((c : Thread nD τ).loc main_arg22))) :
    W11 m ρ c (Proc.devRef .tc main_v38) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg14)) (m ((c : Thread nD τ).loc main_arg15)) (m ((c : Thread nD τ).loc main_arg16)) (m ((c : Thread nD τ).loc main_arg17)) (m ((c : Thread nD τ).loc main_arg22)) := by
  refine ((W11_arr m ρ c 6).trans (Arr.arr3 (V10 m ρ) c)).trans ?_
  show mlpArr2 (A := 128) (B := 128) (K := 256) rfl (W10 m ρ c (Proc.devRef .tc main_v10)) (W10 m ρ c (Proc.devRef .tc main_v16))
      (W10 m ρ c (Proc.devRef .tc main_v29)) (row0 (W10 m ρ c (Proc.devRef .tc main_v36))) (W10 m ρ c (Proc.devRef .tc main_v33))
      (row0 (W10 m ρ c (Proc.devRef .tc main_v37))) = _
  rw [W10_v10, W10_v16, W10_v29, W10_v36, W10_v33, W10_v37]
  rw [row0_reshape, row0_reshape]
  exact (Cert.ReferenceIdeal.Stage.r_v62 _ _ _ _ _ _ _ _ _ _ _ _ _ _ _).symm

/-- After the first layer the edge state is the reference's first edge update. -/
theorem W11_v27 (c : Dev nD) (hr : Cert.PreIdx.InRange (m ((c : Thread nD τ).loc main_arg22))) :
    W11 m ρ c (Proc.devRef .tc main_v27) = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg22)) :=
  ((Keep.keepR3 m ρ c main_v27 (Keep.ne_of_key_ne (by decide))).trans (Keep.keepH3 m ρ c main_v27 (Keep.apart (by decide)))).trans (W9_v27 m ρ c hr)

theorem W11_v6 (c : Dev nD) : W11 m ρ c (Proc.devRef .tc main_v6) = val_main_v13 (F := Ideal) (m ((c : Thread nD τ).loc main_arg0)) (m ((c : Thread nD τ).loc main_arg2)) (m ((c : Thread nD τ).loc main_arg3)) (m ((c : Thread nD τ).loc main_arg4)) (m ((c : Thread nD τ).loc main_arg5)) :=
  (Keep.keepB1 m ρ c main_v6 (Keep.apart (by decide))).trans (W4_v6 m ρ c)

theorem W11_v9 (c : Dev nD) : W11 m ρ c (Proc.devRef .tc main_v9) = val_main_v23 (F := Ideal) (m ((c : Thread nD τ).loc main_arg1)) (m ((c : Thread nD τ).loc main_arg6)) (m ((c : Thread nD τ).loc main_arg7)) (m ((c : Thread nD τ).loc main_arg8)) (m ((c : Thread nD τ).loc main_arg9)) :=
  (Keep.keepB1 m ρ c main_v9 (Keep.apart (by decide))).trans (W4_v9 m ρ c)

theorem W11_v1 (c : Dev nD) : W11 m ρ c (Proc.devRef .tc main_v1) = Take.srcOf (m ((c : Thread nD τ).loc main_arg22)) :=
  (Keep.keepB1 m ρ c main_v1 (Keep.apart (by decide))).trans (W4_v1 m ρ c)

theorem W11_v3 (c : Dev nD) : W11 m ρ c (Proc.devRef .tc main_v3) = Take.dstOf (m ((c : Thread nD τ).loc main_arg22)) :=
  (Keep.keepB1 m ρ c main_v3 (Keep.apart (by decide))).trans (W4_v3 m ρ c)

/-- An argument array is as launched when the second layer starts. -/
theorem W11_arg (c : Dev nD) (b : Ref sig .tc) (h1 : Keep.key b ∉ Keep.wrB1.map Keep.key) (h0 : Keep.key b ∉ Keep.wrB0.map Keep.key) :
    W11 m ρ c (Proc.devRef .tc b) = m ((c : Thread nD τ).loc b) :=
  (Keep.keepB1 m ρ c b (Keep.apart h1)).trans (W4_arg m ρ c b h0)

end Cert.KernelIdeal.Fold

end
-- ==== Proof.KArr4.lean ====
/-
  Region 4 (the second edge update) as one function of whole arrays: whatever the core's buffers hold when the region
  is entered, after its hundred grid points the output array holds, in every row, the perceptron of LibRows of that row
  of the three input arrays, the three rows joined along the lanes.  The grid has one axis; its point `t` owns the
  five thousand rows from `5000 t` on.  So a row window's block at `t` shows rows `5000 t + p` of its array at its
  rows `p`; the two weight matrices and the two bias rows are fetched whole, the same block at every point; and since
  row `r` of the output belongs to point `r / 5000`, the hundred written-back blocks leave no row of the array out.
-/
import proofs.«406922_j70815420776874_1_alg».proof.Proof.Gen.KernelIdeal.Frame
import proofs.«406922_j70815420776874_1_alg».proof.Proof.KPay2

set_option maxRecDepth 16384

noncomputable section

namespace Cert.KernelIdeal.Arr

open Idealize.ShloMosaic Idealize.ShloMosaic.ValueIdx Idealize.ShloMosaic.TcCoe Idealize.SL.Sem
open Cert.KernelIdeal Cert.KernelIdeal.Gen Cert.Rows Cert.KernelIdeal.Pay
open Idealize.ShloMosaic.Pipeline (Dat Cfg Window)

variable (V : (c : Dev nD) → (b : Ref sig .tc) → Buf (Elt Ideal) ((c : Thread nD τ).loc b))

/-! ## Generic pieces -/

/-- A whole-block access starts at the origin: its offsets are the constant zero function. -/
theorem origin4 : (![0, 0] : Fin 2 → Nat) = fun _ => 0 := funext fun a => by fin_cases a <;> rfl

/-- Equal rows, equal weights and equal biases give the same perceptron value in every lane. -/
theorem mlp3_congr4 {a a' b b' d d' : Fin 128 → EReal} {w1 w1' : Arr2 384 64} {b1 b1' : Fin 64 → EReal}
    {w2 w2' : Arr2 64 64} {b2 b2' : Fin 64 → EReal} (q : Fin 64)
    (ha : a = a') (hb : b = b') (hd : d = d') (hw1 : w1 = w1') (hb1 : b1 = b1') (hw2 : w2 = w2') (hb2 : b2 = b2') :
    mlpRow (cat3Row (A := 128) (B := 128) (C := 128) (N := 384) rfl a b d) w1 b1 w2 b2 q
      = mlpRow (cat3Row (A := 128) (B := 128) (C := 128) (N := 384) rfl a' b' d') w1' b1' w2' b2' q := by
  subst ha hb hd hw1 hb1 hw2 hb2; rfl

/-! ## The index maps over the grid -/

/-- The grid has a hundred points. -/
theorem point_lt4 (t : Fin cfg4.N) : t.val < 100 := Nat.lt_of_lt_of_eq t.isLt N_4

/-- Where each window's block sits at point `t`, decided point by point: block `(t, 0)` for the three row windows and
    for the output window, block `(0, 0)` for the two weight and the two bias windows. -/
theorem index_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-! ## The row windows' blocks -/

/-- The first row window: its block at point `t` has in row `p` the array's row `5000 t + p`. -/
theorem rowBlock4_0 (c : Dev nD) (t : Fin cfg4.N) (p : Fin 5000) (r : Fin 500000) (hr : r.val = 5000 * t.val + p.val) :
    rowOf (R := 5000) (K := 128) (iblk4 V c 0 t) p = rowOf (V c main_v40 : Arr2 500000 128) r := by
  obtain ⟨e0, e1, -⟩ := index_facts4 t
  funext k
  show V c main_v40 (((cfg4.win 0).blk t).view.emb (ix2 p k)) = V c main_v40 (ix2 r k)
  refine congrArg (V c main_v40) ?_
  funext a
  apply Fin.ext
  match a with
  | ⟨0, _⟩ => show win4_0.index t (0 : Fin 2) * 5000 + 1 * p.val = r.val; rw [e0, hr]; omega
  | ⟨1, _⟩ => show win4_0.index t (1 : Fin 2) * 128 + 1 * k.val = k.val; rw [e1]; omega

/-- The second row window likewise. -/
theorem rowBlock4_1 (c : Dev nD) (t : Fin cfg4.N) (p : Fin 5000) (r : Fin 500000) (hr : r.val = 5000 * t.val + p.val) :
    rowOf (R := 5000) (K := 128) (iblk4 V c 1 t) p = rowOf (V c main_v41 : Arr2 500000 128) r := by
  obtain ⟨-, -, e0, e1, -⟩ := index_facts4 t
  funext k
  show V c main_v41 (((cfg4.win 1).blk t).view.emb (ix2 p k)) = V c main_v41 (ix2 r k)
  refine congrArg (V c main_v41) ?_
  funext a
  apply Fin.ext
  match a with
  | ⟨0, _⟩ => show win4_1.index t (0 : Fin 2) * 5000 + 1 * p.val = r.val; rw [e0, hr]; omega
  | ⟨1, _⟩ => show win4_1.index t (1 : Fin 2) * 128 + 1 * k.val = k.val; rw [e1]; omega

/-- The third row window likewise. -/
theorem rowBlock4_2 (c : Dev nD) (t : Fin cfg4.N) (p : Fin 5000) (r : Fin 500000) (hr : r.val = 5000 * t.val + p.val) :
    rowOf (R := 5000) (K := 128) (iblk4 V c 2 t) p = rowOf (V c main_v42 : Arr2 500000 128) r := by
  obtain ⟨-, -, -, -, e0, e1, -⟩ := index_facts4 t
  funext k
  show V c main_v42 (((cfg4.win 2).blk t).view.emb (ix2 p k)) = V c main_v42 (ix2 r k)
  refine congrArg (V c main_v42) ?_
  funext a
  apply Fin.ext
  match a with
  | ⟨0, _⟩ => show win4_2.index t (0 : Fin 2) * 5000 + 1 * p.val = r.val; rw [e0, hr]; omega
  | ⟨1, _⟩ => show win4_2.index t (1 : Fin 2) * 128 + 1 * k.val = k.val; rw [e1]; omega

/-! ## The weight and bias windows' blocks -/

/-- The first layer's weights are fetched whole: the window's block at any point is its array. -/
theorem wholeBlock4_3 (c : Dev nD) (t : Fin cfg4.N) :
    (iblk4 V c 3 t : Arr2 384 64) = (V c main_v47 : Arr2 384 64) := by
  obtain ⟨-, -, -, -, -, -, e0, e1, -⟩ := index_facts4 t
  funext j
  obtain ⟨x, y, rfl⟩ : ∃ (x : Fin 384) (y : Fin 64), j = ix2 x y := ⟨j 0, j 1, eq_ix2 j⟩
  show V c main_v47 (((cfg4.win 3).blk t).view.emb (ix2 x y)) = V c main_v47 (ix2 x y)
  refine congrArg (V c main_v47) ?_
  funext a
  apply Fin.ext
  match a with
  | ⟨0, _⟩ => show win4_3.index t (0 : Fin 2) * 384 + 1 * x.val = x.val; rw [e0]; omega
  | ⟨1, _⟩ => show win4_3.index t (1 : Fin 2) * 64 + 1 * y.val = y.val; rw [e1]; omega

/-- The first layer's bias row is fetched whole. -/
theorem wholeBlock4_4 (c : Dev nD) (t : Fin cfg4.N) :
    (iblk4 V c 4 t : Arr2 1 64) = (V c main_v54 : Arr2 1 64) := by
  obtain ⟨-, -, -, -, -, -, -, -, e0, e1, -⟩ := index_facts4 t
  funext j
  obtain ⟨x, y, rfl⟩ : ∃ (x : Fin 1) (y : Fin 64), j = ix2 x y := ⟨j 0, j 1, eq_ix2 j⟩
  show V c main_v54 (((cfg4.win 4).blk t).view.emb (ix2 x y)) = V c main_v54 (ix2 x y)
  refine congrArg (V c main_v54) ?_
  funext a
  apply Fin.ext
  match a with
  | ⟨0, _⟩ => show win4_4.index t (0 : Fin 2) * 1 + 1 * x.val = x.val; rw [e0]; omega
  | ⟨1, _⟩ => show win4_4.index t (1 : Fin 2) * 64 + 1 * y.val = y.val; rw [e1]; omega

/-- The second layer's weights are fetched whole. -/
theorem wholeBlock4_5 (c : Dev nD) (t : Fin cfg4.N) :
    (iblk4 V c 5 t : Arr2 64 64) = (V c main_v51 : Arr2 64 64) := by
  obtain ⟨-, -, -, -, -, -, -, -, -, -, e0, e1, -⟩ := index_facts4 t
  funext j
  obtain ⟨x, y, rfl⟩ : ∃ (x : Fin 64) (y : Fin 64), j = ix2 x y := ⟨j 0, j 1, eq_ix2 j⟩
  show V c main_v51 (((cfg4.win 5).blk t).view.emb (ix2 x y)) = V c main_v51 (ix2 x y)
  refine congrArg (V c main_v51) ?_
  funext a
  apply Fin.ext
  match a with
  | ⟨0, _⟩ => show win4_5.index t (0 : Fin 2) * 64 + 1 * x.val = x.val; rw [e0]; omega
  | ⟨1, _⟩ => show win4_5.index t (1 : Fin 2) * 64 + 1 * y.val = y.val; rw [e1]; omega

/-- The second layer's bias row is fetched whole. -/
theorem wholeBlock4_6 (c : Dev nD) (t : Fin cfg4.N) :
    (iblk4 V c 6 t : Arr2 1 64) = (V c main_v55 : Arr2 1 64) := by
  obtain ⟨-, -, -, -, -, -, -, -, -, -, -, -, e0, e1, -⟩ := index_facts4 t
  funext j
  obtain ⟨x, y, rfl⟩ : ∃ (x : Fin 1) (y : Fin 64), j = ix2 x y := ⟨j 0, j 1, eq_ix2 j⟩
  show V c main_v55 (((cfg4.win 6).blk t).view.emb (ix2 x y)) = V c main_v55 (ix2 x y)
  refine congrArg (V c main_v55) ?_
  funext a
  apply Fin.ext
  match a with
  | ⟨0, _⟩ => show win4_6.index t (0 : Fin 2) * 1 + 1 * x.val = x.val; rw [e0]; omega
  | ⟨1, _⟩ => show win4_6.index t (1 : Fin 2) * 64 + 1 * y.val = y.val; rw [e1]; omega

/-! ## The output window's blocks -/

/-- The output block at point `t` lies over rows `5000 t …` of the output array: its entry `(p, q)` is the array's entry
    `(5000 t + p, q)`. -/
theorem outEntry4 (t : Fin cfg4.N) (p : Fin 5000) (q : Fin 64) :
    (((cfg4.win 7).blk t).view.emb (ix2 p q) : (⟨2, ![500000, 64]⟩ : Shape).Idx)
      = ix2 ⟨5000 * t.val + p.val, by have := point_lt4 t; have := p.isLt; omega⟩ q := by
  obtain ⟨-, -, -, -, -, -, -, -, -, -, -, -, -, -, e0, e1⟩ := index_facts4 t
  funext a
  apply Fin.ext
  match a with
  | ⟨0, _⟩ => show win4_7.index t (0 : Fin 2) * 5000 + 1 * p.val = 5000 * t.val + p.val; rw [e0]; omega
  | ⟨1, _⟩ => show win4_7.index t (1 : Fin 2) * 64 + 1 * q.val = q.val; rw [e1]; omega

/-! ## From the blocks to the array -/

/-- The function the output array ends at: in each row the perceptron of the three input arrays' rows joined. -/
abbrev edgeArr4 (c : Dev nD) : Arr2 500000 64 :=
  mlpArr3 (A := 128) (B := 128) (D := 128) (K := 384) rfl (V c main_v40 : Arr2 500000 128) (V c main_v41 : Arr2 500000 128)
    (V c main_v42 : Arr2 500000 128) (V c main_v47 : Arr2 384 64) (row0 (V c main_v54 : Arr2 1 64)) (V c main_v51 : Arr2 64 64)
    (row0 (V c main_v55 : Arr2 1 64))

/-- Point `t` writes back block `t` of that function.  The body is the first edge update's; its entry `(p, q)` is the
    perceptron's lane `q` on the row blocks' rows `p` joined, and those are the arrays' rows `5000 t + p`, the weights and
    biases being the whole arrays. -/
theorem flushed4_eq (c : Dev nD) (t : Fin cfg4.N) :
    (dat4 V c).flushed 7 t = ((cfg4.win 7).blk t).view.read (Elt Ideal) (edgeArr4 V c) := by
  show (cfg4.win 7).cut (grid4.coords t) ((dat4 V c).after 7 t) = _
  rw [after4_7]
  unfold out4_7
  rw [k4_eq_k2]
  rw [View.canon_unit_zero origin4]
  simp only [View.ld_unit_zero (S := S5000x128) origin4, View.ld_unit_zero (S := S384x64) origin4,
    View.ld_unit_zero (S := S1x64) origin4, View.ld_unit_zero (S := S64x64) origin4]
  funext j
  obtain ⟨p, q, rfl⟩ : ∃ (p : Fin 5000) (q : Fin 64), j = ix2 p q := ⟨j 0, j 1, eq_ix2 j⟩
  refine (pay2_apply _ _ _ _ _ _ _ p q).trans ?_
  refine Eq.trans ?_ (congrArg (edgeArr4 V c) (outEntry4 t p q)).symm
  exact mlp3_congr4 q (rowBlock4_0 V c t p _ rfl) (rowBlock4_1 V c t p _ rfl) (rowBlock4_2 V c t p _ rfl)
    (wholeBlock4_3 V c t) (congrArg row0 (wholeBlock4_4 V c t)) (wholeBlock4_5 V c t) (congrArg row0 (wholeBlock4_6 V c t))

/-- Membership in point `t`'s output block, axis by axis: a coordinate lies from the block's start up to its size. -/
theorem mem_block4 (t : Fin cfg4.N) (i : (⟨2, ![500000, 64]⟩ : Shape).Idx) :
    i ∈ ((cfg4.win 7).blk t).view.set ↔ ∀ a : Fin 2, win4_7.index t a * S5000x64.size a ≤ (i a).val
      ∧ (i a).val < win4_7.index t a * S5000x64.size a + S5000x64.size a := by
  show i ∈ ((View.whole main_v56).slice (win4_7.rect t)).set ↔ _
  rw [View.set_slice_whole, Rect.mem_set_unit]
  exact Iff.rfl

/-- No index of the output array is left out: the one in row `r` is in the block written back at point `r / 5000`. -/
theorem cover4 (i : (⟨2, ![500000, 64]⟩ : Shape).Idx) :
    ∃ t : Fin cfg4.N, (cfg4.win 7).flush t = true ∧ i ∈ ((cfg4.win 7).blk t).view.set := by
  have hi0 : (i 0).val < 500000 := (i 0).isLt
  have hi1 : (i 1).val < 64 := (i 1).isLt
  obtain ⟨t, ht⟩ : ∃ t : Fin cfg4.N, t.val = (i 0).val / 5000 :=
    ⟨⟨(i 0).val / 5000, Nat.lt_of_lt_of_eq (by omega : (i 0).val / 5000 < 100) N_4.symm⟩, rfl⟩
  obtain ⟨-, -, -, -, -, -, -, -, -, -, -, -, -, -, e0, e1⟩ := index_facts4 t
  refine ⟨t, flush4_7 t, ?_⟩
  rw [mem_block4]
  intro a
  match a with
  | ⟨0, _⟩ =>
    show win4_7.index t (0 : Fin 2) * 5000 ≤ (i 0).val ∧ (i 0).val < win4_7.index t (0 : Fin 2) * 5000 + 5000
    rw [e0, ht]; omega
  | ⟨1, _⟩ =>
    show win4_7.index t (1 : Fin 2) * 64 ≤ (i 1).val ∧ (i 1).val < win4_7.index t (1 : Fin 2) * 64 + 64
    rw [e1]; omega

/-- The second edge update's output array after the region, from the entry contents of its seven input arrays. -/
theorem arr4 (c : Dev nD) :
    (dat4 V c).arrAt 7 cfg4.N
      = (mlpArr3 (A := 128) (B := 128) (D := 128) (K := 384) rfl (V c main_v40 : Arr2 500000 128) (V c main_v41 : Arr2 500000 128)
          (V c main_v42 : Arr2 500000 128) (V c main_v47 : Arr2 384 64) (row0 (V c main_v54 : Arr2 1 64)) (V c main_v51 : Arr2 64 64)
          (row0 (V c main_v55 : Arr2 1 64)) : Arr2 500000 64) :=
  (dat4 V c).arrAt_eq_of_cover 7 (edgeArr4 V c) (fun t _ => flushed4_eq V c t) cover4

end Cert.KernelIdeal.Arr

end
-- ==== Proof.KArr5.lean ====
/-
  Region 5 (the second node update) as one function of whole arrays.  It runs the body of the first node update
  on its own six arrays: two arrays of 100000 rows and 128 lanes, read twenty row blocks of 5000 rows at a time,
  and two weight matrices and two bias rows that every grid point holds whole.  Point `t` handles rows
  `5000 t … 5000 t + 4999`; row `p` of a row block is row `5000 t + p` of its array.  So point `t` writes back
  block `t` of the matrix whose every row is the perceptron of LibRows of the two input rows laid end to end, and
  since row `r` of the output lies in block `r / 5000`, the twenty blocks fill the output array with that matrix.
-/
import proofs.«406922_j70815420776874_1_alg».proof.Proof.Gen.KernelIdeal.Frame
import proofs.«406922_j70815420776874_1_alg».proof.Proof.KPay3

set_option maxRecDepth 16384

noncomputable section

namespace Cert.KernelIdeal.Arr

open Idealize.ShloMosaic Idealize.ShloMosaic.ValueIdx Idealize.ShloMosaic.TcCoe Idealize.SL.Sem
open Cert.KernelIdeal Cert.KernelIdeal.Gen Cert.Rows
open Idealize.ShloMosaic.Pipeline (Dat Cfg Window)

variable (V : (c : Dev nD) → (b : Ref sig .tc) → Buf (Elt Ideal) ((c : Thread nD τ).loc b))

namespace R5

/-- The zero offset pair, in the spelling of a constant function. -/
theorem origin : (![0, 0] : Fin 2 → Nat) = fun _ => 0 := funext fun a => by fin_cases a <;> rfl

/-- The block indices over the grid: the two row windows and the output window sit at row block `t`, lane block
    `0`; the weight and bias windows sit at block `(0, 0)` at every point. -/
theorem block_index : ∀ t : Fin cfg5.N,
    (win5_0.index t (0 : Fin 2) = t.val ∧ win5_0.index t (1 : Fin 2) = 0)
    ∧ (win5_1.index t (0 : Fin 2) = t.val ∧ win5_1.index t (1 : Fin 2) = 0)
    ∧ (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = 0 ∧ win5_5.index t (1 : Fin 2) = 0)
    ∧ (win5_6.index t (0 : Fin 2) = t.val ∧ win5_6.index t (1 : Fin 2) = 0) :=
  (by decide +kernel : ∀ t : Fin grid5.N, _)

/-- The grid has twenty points. -/
theorem point_lt (t : Fin cfg5.N) : t.val < 20 := by
  have h : cfg5.N = 20 := N_5
  have := t.isLt
  omega

/-- Row `p` of the first row window's block at point `t` is row `5000 t + p` of its array. -/
theorem row_left (c : Dev nD) (t : Fin cfg5.N) (p : Fin 5000) (h : 5000 * t.val + p.val < 100000) :
    rowOf (iblk5 V c 0 t : Arr2 5000 128) p = rowOf (V c main_v39 : Arr2 100000 128) ⟨5000 * t.val + p.val, h⟩ := by
  obtain ⟨⟨e0, e1⟩, -⟩ := block_index t
  funext k
  show V c main_v39 (((cfg5.win 0).blk t).view.emb (ix2 p k)) = V c main_v39 (ix2 ⟨5000 * t.val + p.val, h⟩ k)
  congr 1
  funext a
  apply Fin.ext
  match a with
  | ⟨0, _⟩ => show win5_0.index t (0 : Fin 2) * 5000 + 1 * p.val = 5000 * t.val + p.val; rw [e0]; omega
  | ⟨1, _⟩ => show win5_0.index t (1 : Fin 2) * 128 + 1 * k.val = k.val; rw [e1]; omega

/-- The same for the second row window. -/
theorem row_right (c : Dev nD) (t : Fin cfg5.N) (p : Fin 5000) (h : 5000 * t.val + p.val < 100000) :
    rowOf (iblk5 V c 1 t : Arr2 5000 128) p = rowOf (V c main_v45 : Arr2 100000 128) ⟨5000 * t.val + p.val, h⟩ := by
  obtain ⟨-, ⟨e0, e1⟩, -⟩ := block_index t
  funext k
  show V c main_v45 (((cfg5.win 1).blk t).view.emb (ix2 p k)) = V c main_v45 (ix2 ⟨5000 * t.val + p.val, h⟩ k)
  congr 1
  funext a
  apply Fin.ext
  match a with
  | ⟨0, _⟩ => show win5_1.index t (0 : Fin 2) * 5000 + 1 * p.val = 5000 * t.val + p.val; rw [e0]; omega
  | ⟨1, _⟩ => show win5_1.index t (1 : Fin 2) * 128 + 1 * k.val = k.val; rw [e1]; omega

/-- The first weight window's block is its whole array at every point. -/
theorem whole_w1 (c : Dev nD) (t : Fin cfg5.N) : (iblk5 V c 2 t : Arr2 256 64) = (V c main_v58 : Arr2 256 64) := by
  obtain ⟨-, -, ⟨e0, e1⟩, -⟩ := block_index t
  funext j
  show V c main_v58 (((cfg5.win 2).blk t).view.emb j) = V c main_v58 j
  congr 1
  funext a
  apply Fin.ext
  match a with
  | ⟨0, _⟩ => show win5_2.index t (0 : Fin 2) * 256 + 1 * (j 0).val = (j 0).val; rw [e0]; omega
  | ⟨1, _⟩ => show win5_2.index t (1 : Fin 2) * 64 + 1 * (j 1).val = (j 1).val; rw [e1]; omega

/-- The first bias window's block is its whole one-row array. -/
theorem whole_b1 (c : Dev nD) (t : Fin cfg5.N) : (iblk5 V c 3 t : Arr2 1 64) = (V c main_v65 : Arr2 1 64) := by
  obtain ⟨-, -, -, ⟨e0, e1⟩, -⟩ := block_index t
  funext j
  show V c main_v65 (((cfg5.win 3).blk t).view.emb j) = V c main_v65 j
  congr 1
  funext a
  apply Fin.ext
  match a with
  | ⟨0, _⟩ => show win5_3.index t (0 : Fin 2) * 1 + 1 * (j 0).val = (j 0).val; rw [e0]; omega
  | ⟨1, _⟩ => show win5_3.index t (1 : Fin 2) * 64 + 1 * (j 1).val = (j 1).val; rw [e1]; omega

/-- The second weight window's block is its whole array. -/
theorem whole_w2 (c : Dev nD) (t : Fin cfg5.N) : (iblk5 V c 4 t : Arr2 64 64) = (V c main_v62 : Arr2 64 64) := by
  obtain ⟨-, -, -, -, ⟨e0, e1⟩, -⟩ := block_index t
  funext j
  show V c main_v62 (((cfg5.win 4).blk t).view.emb j) = V c main_v62 j
  congr 1
  funext a
  apply Fin.ext
  match a with
  | ⟨0, _⟩ => show win5_4.index t (0 : Fin 2) * 64 + 1 * (j 0).val = (j 0).val; rw [e0]; omega
  | ⟨1, _⟩ => show win5_4.index t (1 : Fin 2) * 64 + 1 * (j 1).val = (j 1).val; rw [e1]; omega

/-- The second bias window's block is its whole one-row array. -/
theorem whole_b2 (c : Dev nD) (t : Fin cfg5.N) : (iblk5 V c 5 t : Arr2 1 64) = (V c main_v66 : Arr2 1 64) := by
  obtain ⟨-, -, -, -, -, ⟨e0, e1⟩, -⟩ := block_index t
  funext j
  show V c main_v66 (((cfg5.win 5).blk t).view.emb j) = V c main_v66 j
  congr 1
  funext a
  apply Fin.ext
  match a with
  | ⟨0, _⟩ => show win5_5.index t (0 : Fin 2) * 1 + 1 * (j 0).val = (j 0).val; rw [e0]; omega
  | ⟨1, _⟩ => show win5_5.index t (1 : Fin 2) * 64 + 1 * (j 1).val = (j 1).val; rw [e1]; omega

/-- The matrix the region computes: every row is the perceptron of the two input rows laid end to end. -/
abbrev target (c : Dev nD) : Arr2 100000 64 :=
  mlpArr2 (A := 128) (B := 128) (K := 256) rfl (V c main_v39 : Arr2 100000 128) (V c main_v45 : Arr2 100000 128)
    (V c main_v58 : Arr2 256 64) (row0 (V c main_v65 : Arr2 1 64)) (V c main_v62 : Arr2 64 64)
    (row0 (V c main_v66 : Arr2 1 64))

/-- What point `t` writes back is block `t` of that matrix.  The body is the first node update's, so its entry
    `(p, q)` is the perceptron of the joined row `p` of the two row blocks. -/
theorem flushed_eq (c : Dev nD) (t : Fin cfg5.N) :
    (dat5 V c).flushed 6 t = ((cfg5.win 6).blk t).view.read (Elt Ideal) (target V c) := by
  show (cfg5.win 6).cut (grid5.coords t) ((dat5 V c).after 6 t) = _
  rw [after5_6]
  unfold out5_6
  rw [View.canon_unit_zero origin]
  simp only [View.ld_unit_zero (S := S5000x128) origin, View.ld_unit_zero (S := S256x64) origin,
    View.ld_unit_zero (S := S1x64) origin, View.ld_unit_zero (S := S64x64) origin]
  rw [Pay.k5_eq_k3]
  funext j
  obtain ⟨p, q, rfl⟩ : ∃ (p : Fin 5000) (q : Fin 64), j = ix2 p q := ⟨j 0, j 1, eq_ix2 j⟩
  refine (Pay.pay3_apply _ _ _ _ _ _ p q).trans ?_
  have hp : 5000 * t.val + p.val < 100000 := by have := point_lt t; have := p.isLt; omega
  obtain ⟨-, -, -, -, -, -, e0, e1⟩ := block_index t
  have hemb : ((cfg5.win 6).blk t).view.emb (ix2 p q)
      = (ix2 ⟨5000 * t.val + p.val, hp⟩ q : (⟨2, ![100000, 64]⟩ : Shape).Idx) := by
    funext a
    apply Fin.ext
    match a with
    | ⟨0, _⟩ => show win5_6.index t (0 : Fin 2) * 5000 + 1 * p.val = 5000 * t.val + p.val; rw [e0]; omega
    | ⟨1, _⟩ => show win5_6.index t (1 : Fin 2) * 64 + 1 * q.val = q.val; rw [e1]; omega
  show _ = target V c (((cfg5.win 6).blk t).view.emb (ix2 p q))
  rw [hemb, row_left V c t p hp, row_right V c t p hp, whole_w1 V c t, whole_b1 V c t, whole_w2 V c t, whole_b2 V c t]
  rfl

/-- An index of the output array is in point `t`'s block iff each coordinate is in the block's range on its axis. -/
theorem mem_block (t : Fin cfg5.N) (i : S100000x64.Idx) :
    i ∈ ((cfg5.win 6).blk t).view.set
      ↔ ∀ a : Fin 2, win5_6.index t a * S5000x64.size a ≤ (i a).val
          ∧ (i a).val < win5_6.index t a * S5000x64.size a + S5000x64.size a := by
  show i ∈ ((View.whole main_v67).slice (win5_6.rect t)).set ↔ _
  rw [View.set_slice_whole, Rect.mem_set_unit]
  exact Iff.rfl

/-- Every index of the output array lies in some point's block: row `r` in the block of point `r / 5000`. -/
theorem covered (i : S100000x64.Idx) :
    ∃ t : Fin cfg5.N, (cfg5.win 6).flush t = true ∧ i ∈ ((cfg5.win 6).blk t).view.set := by
  have hN : cfg5.N = 20 := N_5
  have hi0 : (i 0).val < 100000 := (i 0).isLt
  have hi1 : (i 1).val < 64 := (i 1).isLt
  let t : Fin cfg5.N := ⟨(i 0).val / 5000, by omega⟩
  have ht : t.val = (i 0).val / 5000 := rfl
  obtain ⟨-, -, -, -, -, -, e0, e1⟩ := block_index t
  refine ⟨t, flush5_6 t, ?_⟩
  rw [mem_block]
  intro a
  match a with
  | ⟨0, _⟩ =>
    show win5_6.index t (0 : Fin 2) * 5000 ≤ (i 0).val ∧ (i 0).val < win5_6.index t (0 : Fin 2) * 5000 + 5000
    rw [e0, ht]; omega
  | ⟨1, _⟩ =>
    show win5_6.index t (1 : Fin 2) * 64 ≤ (i 1).val ∧ (i 1).val < win5_6.index t (1 : Fin 2) * 64 + 64
    rw [e1]; omega

end R5

/-- The second node update's output array after the region, from the entry contents of its six input arrays. -/
theorem arr5 (c : Dev nD) :
    (dat5 V c).arrAt 6 cfg5.N
      = (mlpArr2 (A := 128) (B := 128) (K := 256) rfl (V c main_v39 : Arr2 100000 128) (V c main_v45 : Arr2 100000 128)
          (V c main_v58 : Arr2 256 64) (row0 (V c main_v65 : Arr2 1 64)) (V c main_v62 : Arr2 64 64)
          (row0 (V c main_v66 : Arr2 1 64)) : Arr2 100000 64) :=
  (dat5 V c).arrAt_eq_of_cover 6 (R5.target V c) (fun t _ => R5.flushed_eq V c t) R5.covered

end Cert.KernelIdeal.Arr

end
-- ==== Proof.KFold2.lean ====
/-
  The second message-passing layer, read as whole arrays.

  When it starts the core holds the first layer's node state and edge state and, untouched since the encoders, the
  encoded node features, the encoded edge features and the two index rows of the edge list (source and target node of
  every edge). The host then
    * sets the node state beside the encoded node features, one 128-column row per node, and the edge state beside the
      encoded edge features, one 128-column row per edge;
    * looks the node array up at every edge's source, and at every edge's target;
    * starting from zero, adds every edge's row into the row of its target node;
    * cuts slab 1 out of each stacked weight array, a bias vector becoming a one-row matrix.
  The edge-update region leaves in its output the row-wise perceptron of [edge row | source row | target row]; the host
  cuts the node weights the same way; the node-update region leaves the row-wise perceptron of
  [node row | summed edge rows].

  Each host step is the library function that the reference applies at the same stage, on the same operands, so once
  the operands are the reference's values the result is the reference's value by unfolding the reference's stage. The
  lookup alone is printed differently: the program adds the row count to a negative index, gathers, and replaces a row
  whose index is out of range by the not-a-number constant, where the reference only normalises and gathers. Every
  entry of the edge list lies in [0, 100000), so no row is replaced and the lookup is the plain gather at the
  normalised index column; that column is the reference's column, both being the same operations on the same index
  row. Inside the lookup a value is carried to its buffer's type and back, and an operand is read at its buffer's
  type; these carryings are along an equation between a type and itself, so they are identities. A one-row reshape of
  a bias vector has the vector's entries in its row. Hence, region by region, the operands are the reference's, and the
  two outputs are the reference's second edge update and second node update.

  Nothing in this layer writes the encoders' outputs or the target index row, so they are in place for the third layer.
-/
import proofs.«406922_j70815420776874_1_alg».proof.Proof.KFold1
import proofs.«406922_j70815420776874_1_alg».proof.Proof.KArr4
import proofs.«406922_j70815420776874_1_alg».proof.Proof.KArr5
import Idealize.ShloMosaic.Lib.StableHlo.Run

set_option maxRecDepth 16384

noncomputable section

namespace Cert.KernelIdeal.Fold

open Idealize.ShloMosaic Idealize.ShloMosaic.ValueIdx Idealize.ShloMosaic.TcCoe Idealize.SL.Sem Idealize.ShloMosaic.StableHlo
open Cert.KernelIdeal Cert.KernelIdeal.Gen Cert.Rows
open Cert.ReferenceIdeal.ReadP

variable (m : (ℓ : Loc nD τ sig) → Buf (Elt Ideal) ℓ) (ρ : Dev nD → PrngReg)

/-- Contents carried to a buffer's own type and back are the contents. -/
theorem k2_ofBuf_toBuf {T : BufTy} (x : StableHlo.TRef sig T) (v : T.Contents (Elt Ideal)) :
    x.ofBuf (x.toBuf v) = v := by
  obtain ⟨r, h, h1, h2⟩ := x
  subst h
  rfl

/-- A buffer whose own type is the value's type: carrying contents to the value's type changes nothing. -/
theorem k2_leaf_v1 (p1 : (main_v1 : Ref sig .tc).ty = ⟨S500000, .i32⟩) (p2 p3) (v : (main_v1 : Ref sig .tc).ty.Contents (Elt Ideal)) :
    (StableHlo.TRef.of main_v1 p1 p2 p3 : StableHlo.TRef sig ⟨S500000, .i32⟩).ofBuf v = v := rfl

theorem k2_leaf_v3 (p1 : (main_v3 : Ref sig .tc).ty = ⟨S500000, .i32⟩) (p2 p3) (v : (main_v3 : Ref sig .tc).ty.Contents (Elt Ideal)) :
    (StableHlo.TRef.of main_v3 p1 p2 p3 : StableHlo.TRef sig ⟨S500000, .i32⟩).ofBuf v = v := rfl

theorem k2_leaf_v39 (p1 : (main_v39 : Ref sig .tc).ty = ⟨S100000x128, .f32⟩) (p2 p3) (v : (main_v39 : Ref sig .tc).ty.Contents (Elt Ideal)) :
    (StableHlo.TRef.of main_v39 p1 p2 p3 : StableHlo.TRef sig ⟨S100000x128, .f32⟩).ofBuf v = v := rfl

theorem k2_out_v41 (p1 : (main_v41 : Ref sig .tc).ty = ⟨S500000x128, .f32⟩) (p2 p3) (v : (⟨S500000x128, .f32⟩ : BufTy).Contents (Elt Ideal)) :
    (StableHlo.TRef.of main_v41 p1 p2 p3 : StableHlo.TRef sig ⟨S500000x128, .f32⟩).toBuf v = v := rfl

theorem k2_out_v42 (p1 : (main_v42 : Ref sig .tc).ty = ⟨S500000x128, .f32⟩) (p2 p3) (v : (⟨S500000x128, .f32⟩ : BufTy).Contents (Elt Ideal)) :
    (StableHlo.TRef.of main_v42 p1 p2 p3 : StableHlo.TRef sig ⟨S500000x128, .f32⟩).toBuf v = v := rfl

/-! ## The index columns of the reference are those of the row lookup -/

theorem k2_src_norm (x22 : (⟨S2x500000, .i32⟩ : BufTy).Contents (Elt Ideal)) :
    val_main_v88 (F := Ideal) x22 = Take.normIdx (Take.srcOf x22) := rfl

theorem k2_dst_norm (x22 : (⟨S2x500000, .i32⟩ : BufTy).Contents (Elt Ideal)) :
    val_main_v95 (F := Ideal) x22 = Take.normIdx (Take.dstOf x22) := rfl

theorem k2_dst_col (x22 : (⟨S2x500000, .i32⟩ : BufTy).Contents (Elt Ideal)) :
    val_main_v99 (F := Ideal) x22 = broadcastInDim S500000x1 ![0] bcast_S500000_S500000x1_0 (Take.dstOf x22) := rfl

/-! ## What the host prepares for the edge update -/

theorem k2_W15_v39_raw (c : Dev nD) :
    W15 m ρ c (Proc.devRef .tc main_v39) = (concatenate S100000x128 1 [⟨S100000x64, W11 m ρ c (Proc.devRef .tc main_v38)⟩, ⟨S100000x64, W11 m ρ c (Proc.devRef .tc main_v6)⟩]
          concatenates_S100000x64_S100000x64_S100000x128_d1) := by
  show StableHlo.after hostOps4_3 (StableHlo.after hostOps4_2 (StableHlo.after hostOps4_1 (StableHlo.after hostOps4 (W11 m ρ c)))) (Proc.devRef .tc main_v39) = _
  after_results_simp

theorem k2_W15_v40_raw (c : Dev nD) :
    W15 m ρ c (Proc.devRef .tc main_v40) = (concatenate S500000x128 1 [⟨S500000x64, W11 m ρ c (Proc.devRef .tc main_v27)⟩, ⟨S500000x64, W11 m ρ c (Proc.devRef .tc main_v9)⟩]
          concatenates_S500000x64_S500000x64_S500000x128_d1) := by
  show StableHlo.after hostOps4_3 (StableHlo.after hostOps4_2 (StableHlo.after hostOps4_1 (StableHlo.after hostOps4 (W11 m ρ c)))) (Proc.devRef .tc main_v40) = _
  after_results_simp
  rfl

theorem k2_W15_v41_raw (c : Dev nD) :
    W15 m ρ c (Proc.devRef .tc main_v41) = Take.takeFn (concatenate S100000x128 1 [⟨S100000x64, W11 m ρ c (Proc.devRef .tc main_v38)⟩, ⟨S100000x64, W11 m ρ c (Proc.devRef .tc main_v6)⟩]
          concatenates_S100000x64_S100000x64_S100000x128_d1) (W11 m ρ c (Proc.devRef .tc main_v1)) := by
  show StableHlo.after hostOps4_3 (StableHlo.after hostOps4_2 (StableHlo.after hostOps4_1 (StableHlo.after hostOps4 (W11 m ρ c)))) (Proc.devRef .tc main_v41) = _
  after_results_simp
  simp only [k2_ofBuf_toBuf, k2_leaf_v1, k2_leaf_v39, k2_out_v41]
  rfl

theorem k2_W15_v42_raw (c : Dev nD) :
    W15 m ρ c (Proc.devRef .tc main_v42) = Take.takeFn (concatenate S100000x128 1 [⟨S100000x64, W11 m ρ c (Proc.devRef .tc main_v38)⟩, ⟨S100000x64, W11 m ρ c (Proc.devRef .tc main_v6)⟩]
          concatenates_S100000x64_S100000x64_S100000x128_d1) (W11 m ρ c (Proc.devRef .tc main_v3)) := by
  show StableHlo.after hostOps4_3 (StableHlo.after hostOps4_2 (StableHlo.after hostOps4_1 (StableHlo.after hostOps4 (W11 m ρ c)))) (Proc.devRef .tc main_v42) = _
  after_results_simp
  simp only [k2_ofBuf_toBuf, k2_leaf_v3, k2_leaf_v39, k2_out_v42]
  rfl

theorem k2_W15_v45_raw (c : Dev nD) :
    W15 m ρ c (Proc.devRef .tc main_v45)
      = Host.scatterAdd scatter_S100000x128_S500000x1_S500000x128_1_0_0_1
          (broadcastInDim S100000x128 ![] bcast_S_S100000x128 (constant (F := Ideal) S_ .f32 0x00000000#32))
          (broadcastInDim S500000x1 ![0] bcast_S500000_S500000x1_0 (W11 m ρ c (Proc.devRef .tc main_v3)))
          (concatenate S500000x128 1 [⟨S500000x64, W11 m ρ c (Proc.devRef .tc main_v27)⟩, ⟨S500000x64, W11 m ρ c (Proc.devRef .tc main_v9)⟩]
          concatenates_S500000x64_S500000x64_S500000x128_d1) := by
  show StableHlo.after hostOps4_3 (StableHlo.after hostOps4_2 (StableHlo.after hostOps4_1 (StableHlo.after hostOps4 (W11 m ρ c)))) (Proc.devRef .tc main_v45) = _
  after_results_simp
  rfl

/-- The node state beside the encoded node features. -/
theorem k2_W15_v39 (c : Dev nD) (hr : Cert.PreIdx.InRange (m ((c : Thread nD τ).loc main_arg22))) :
    W15 m ρ c (Proc.devRef .tc main_v39) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg14)) (m ((c : Thread nD τ).loc main_arg15)) (m ((c : Thread nD τ).loc main_arg16)) (m ((c : Thread nD τ).loc main_arg17)) (m ((c : Thread nD τ).loc main_arg22)) := by
  rw [k2_W15_v39_raw, W11_v38 m ρ c hr, W11_v6 m ρ c]
  rfl

/-- The edge state beside the encoded edge features. -/
theorem k2_W15_v40 (c : Dev nD) (hr : Cert.PreIdx.InRange (m ((c : Thread nD τ).loc main_arg22))) :
    W15 m ρ c (Proc.devRef .tc main_v40) = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg22)) := by
  rw [k2_W15_v40_raw, W11_v27 m ρ c hr, W11_v9 m ρ c]
  rfl

/-- The node rows at the edges' sources. -/
theorem k2_W15_v41 (c : Dev nD) (hr : Cert.PreIdx.InRange (m ((c : Thread nD τ).loc main_arg22))) :
    W15 m ρ c (Proc.devRef .tc main_v41) = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg14)) (m ((c : Thread nD τ).loc main_arg15)) (m ((c : Thread nD τ).loc main_arg16)) (m ((c : Thread nD τ).loc main_arg17)) (m ((c : Thread nD τ).loc main_arg22)) := by
  rw [k2_W15_v41_raw, W11_v38 m ρ c hr, W11_v6 m ρ c, W11_v1 m ρ c]
  refine (Take.takeFn_eq _ _ (Take.src_inRange _ hr)).trans ?_
  unfold val_main_v89
  rw [k2_src_norm]
  rfl

/-- The node rows at the edges' targets. -/
theorem k2_W15_v42 (c : Dev nD) (hr : Cert.PreIdx.InRange (m ((c : Thread nD τ).loc main_arg22))) :
    W15 m ρ c (Proc.devRef .tc main_v42) = val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg14)) (m ((c : Thread nD τ).loc main_arg15)) (m ((c : Thread nD τ).loc main_arg16)) (m ((c : Thread nD τ).loc main_arg17)) (m ((c : Thread nD τ).loc main_arg22)) := by
  rw [k2_W15_v42_raw, W11_v38 m ρ c hr, W11_v6 m ρ c, W11_v3 m ρ c]
  refine (Take.takeFn_eq _ _ (Take.dst_inRange _ hr)).trans ?_
  unfold val_main_v96
  rw [k2_dst_norm]
  rfl

/-- The edge rows summed into their target nodes. -/
theorem k2_W15_v45 (c : Dev nD) (hr : Cert.PreIdx.InRange (m ((c : Thread nD τ).loc main_arg22))) :
    W15 m ρ c (Proc.devRef .tc main_v45) = val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg22)) := by
  rw [k2_W15_v45_raw, W11_v27 m ρ c hr, W11_v9 m ρ c, W11_v3 m ρ c]
  unfold val_main_v100
  rw [k2_dst_col]
  rfl

/-! ## The second layer's edge weights -/

theorem k2_W15_v47 (c : Dev nD) :
    W15 m ρ c (Proc.devRef .tc main_v47) = val_main_v121 (F := Ideal) (m ((c : Thread nD τ).loc main_arg10)) := by
  have h : W15 m ρ c (Proc.devRef .tc main_v47)
      = shapeCast S384x64 (extractStridedSlice S1x384x64 ![1, 0, 0] (W11 m ρ c (Proc.devRef .tc main_arg10)) slices_S3x384x64_S1x384x64_1_0_0)
          shapeCasts_S1x384x64_S384x64 := by
    show StableHlo.after hostOps4_3 (StableHlo.after hostOps4_2 (StableHlo.after hostOps4_1 (StableHlo.after hostOps4 (W11 m ρ c)))) (Proc.devRef .tc main_v47) = _
    after_results_simp
    rfl
  rw [h, W11_arg m ρ c main_arg10 (by decide) (by decide)]
  rfl

theorem k2_W15_v54 (c : Dev nD) :
    row0 (W15 m ρ c (Proc.devRef .tc main_v54) : Arr2 1 64) = vecOf (val_main_v123 (F := Ideal) (m ((c : Thread nD τ).loc main_arg11))) := by
  have h : W15 m ρ c (Proc.devRef .tc main_v54)
      = shapeCast S1x64 (shapeCast S64 (extractStridedSlice S1x64 ![1, 0] (W11 m ρ c (Proc.devRef .tc main_arg11)) slices_S3x64_S1x64_1_0)
          shapeCasts_S1x64_S64) shapeCasts_S64_S1x64 := by
    show StableHlo.after hostOps4_3 (StableHlo.after hostOps4_2 (StableHlo.after hostOps4_1 (StableHlo.after hostOps4 (W11 m ρ c)))) (Proc.devRef .tc main_v54) = _
    after_results_simp
    rfl
  rw [h, W11_arg m ρ c main_arg11 (by decide) (by decide)]
  exact row0_reshape _ _

theorem k2_W15_v51 (c : Dev nD) :
    W15 m ρ c (Proc.devRef .tc main_v51) = val_main_v125 (F := Ideal) (m ((c : Thread nD τ).loc main_arg12)) := by
  have h : W15 m ρ c (Proc.devRef .tc main_v51)
      = shapeCast S64x64 (extractStridedSlice S1x64x64 ![1, 0, 0] (W11 m ρ c (Proc.devRef .tc main_arg12)) slices_S3x64x64_S1x64x64_1_0_0)
          shapeCasts_S1x64x64_S64x64 := by
    show StableHlo.after hostOps4_3 (StableHlo.after hostOps4_2 (StableHlo.after hostOps4_1 (StableHlo.after hostOps4 (W11 m ρ c)))) (Proc.devRef .tc main_v51) = _
    after_results_simp
    rfl
  rw [h, W11_arg m ρ c main_arg12 (by decide) (by decide)]
  rfl

theorem k2_W15_v55 (c : Dev nD) :
    row0 (W15 m ρ c (Proc.devRef .tc main_v55) : Arr2 1 64) = vecOf (val_main_v127 (F := Ideal) (m ((c : Thread nD τ).loc main_arg13))) := by
  have h : W15 m ρ c (Proc.devRef .tc main_v55)
      = shapeCast S1x64 (shapeCast S64 (extractStridedSlice S1x64 ![1, 0] (W11 m ρ c (Proc.devRef .tc main_arg13)) slices_S3x64_S1x64_1_0)
          shapeCasts_S1x64_S64) shapeCasts_S64_S1x64 := by
    show StableHlo.after hostOps4_3 (StableHlo.after hostOps4_2 (StableHlo.after hostOps4_1 (StableHlo.after hostOps4 (W11 m ρ c)))) (Proc.devRef .tc main_v55) = _
    after_results_simp
    rfl
  rw [h, W11_arg m ρ c main_arg13 (by decide) (by decide)]
  exact row0_reshape _ _

/-! ## Region 4: the edge update -/

theorem k2_W16_v56 (c : Dev nD) (hr : Cert.PreIdx.InRange (m ((c : Thread nD τ).loc main_arg22))) :
    W16 m ρ c (Proc.devRef .tc main_v56) = val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg22)) := by
  refine ((W16_arr m ρ c 7).trans (Arr.arr4 (V15 m ρ) c)).trans ?_
  show mlpArr3 (A := 128) (B := 128) (D := 128) (K := 384) rfl (W15 m ρ c (Proc.devRef .tc main_v40)) (W15 m ρ c (Proc.devRef .tc main_v41))
      (W15 m ρ c (Proc.devRef .tc main_v42)) (W15 m ρ c (Proc.devRef .tc main_v47)) (row0 (W15 m ρ c (Proc.devRef .tc main_v54)))
      (W15 m ρ c (Proc.devRef .tc main_v51)) (row0 (W15 m ρ c (Proc.devRef .tc main_v55))) = _
  rw [k2_W15_v40 m ρ c hr, k2_W15_v41 m ρ c hr, k2_W15_v42 m ρ c hr, k2_W15_v47 m ρ c, k2_W15_v54 m ρ c, k2_W15_v51 m ρ c, k2_W15_v55 m ρ c]
  exact (Cert.ReferenceIdeal.Stage.r_v137 _ _ _ _ _ _ _ _ _ _ _ _ _ _ _ _ _ _ _).symm

/-! ## What the host prepares for the node update -/

/-- An argument array is as launched when region 4 is over. -/
theorem k2_W16_arg (c : Dev nD) (b : Ref sig .tc) (h56 : Keep.key b ≠ Keep.key main_v56) (h2 : Keep.key b ∉ Keep.wrB2'.map Keep.key)
    (h1 : Keep.key b ∉ Keep.wrB1.map Keep.key) (h0 : Keep.key b ∉ Keep.wrB0.map Keep.key) :
    W16 m ρ c (Proc.devRef .tc b) = m ((c : Thread nD τ).loc b) :=
  (Keep.keepR4 m ρ c b (Keep.ne_of_key_ne h56)).trans ((Keep.keepB2' m ρ c b (Keep.apart h2)).trans (W11_arg m ρ c b h1 h0))

/-- What region 4 and the stretch after it do not write is, at region 5's entry, what it was at region 4's entry. -/
theorem k2_W17_of_W15 (c : Dev nD) (b : Ref sig .tc) (h5 : Keep.key b ∉ Keep.wr5.map Keep.key) (h56 : Keep.key b ≠ Keep.key main_v56) :
    W17 m ρ c (Proc.devRef .tc b) = W15 m ρ c (Proc.devRef .tc b) :=
  (Keep.keepH5 m ρ c b (Keep.apart h5)).trans (Keep.keepR4 m ρ c b (Keep.ne_of_key_ne h56))

theorem k2_W17_v58 (c : Dev nD) :
    W17 m ρ c (Proc.devRef .tc main_v58) = val_main_v103 (F := Ideal) (m ((c : Thread nD τ).loc main_arg14)) := by
  have h : W17 m ρ c (Proc.devRef .tc main_v58)
      = shapeCast S256x64 (extractStridedSlice S1x256x64 ![1, 0, 0] (W16 m ρ c (Proc.devRef .tc main_arg14)) slices_S3x256x64_S1x256x64_1_0_0)
          shapeCasts_S1x256x64_S256x64 := by
    show StableHlo.after hostOps5 (W16 m ρ c) (Proc.devRef .tc main_v58) = _
    after_results_simp
    rfl
  rw [h, k2_W16_arg m ρ c main_arg14 (by decide) (by decide) (by decide) (by decide)]
  rfl

theorem k2_W17_v65 (c : Dev nD) :
    row0 (W17 m ρ c (Proc.devRef .tc main_v65) : Arr2 1 64) = vecOf (val_main_v105 (F := Ideal) (m ((c : Thread nD τ).loc main_arg15))) := by
  have h : W17 m ρ c (Proc.devRef .tc main_v65)
      = shapeCast S1x64 (shapeCast S64 (extractStridedSlice S1x64 ![1, 0] (W16 m ρ c (Proc.devRef .tc main_arg15)) slices_S3x64_S1x64_1_0)
          shapeCasts_S1x64_S64) shapeCasts_S64_S1x64 := by
    show StableHlo.after hostOps5 (W16 m ρ c) (Proc.devRef .tc main_v65) = _
    after_results_simp
    rfl
  rw [h, k2_W16_arg m ρ c main_arg15 (by decide) (by decide) (by decide) (by decide)]
  exact row0_reshape _ _

theorem k2_W17_v62 (c : Dev nD) :
    W17 m ρ c (Proc.devRef .tc main_v62) = val_main_v107 (F := Ideal) (m ((c : Thread nD τ).loc main_arg16)) := by
  have h : W17 m ρ c (Proc.devRef .tc main_v62)
      = shapeCast S64x64 (extractStridedSlice S1x64x64 ![1, 0, 0] (W16 m ρ c (Proc.devRef .tc main_arg16)) slices_S3x64x64_S1x64x64_1_0_0)
          shapeCasts_S1x64x64_S64x64 := by
    show StableHlo.after hostOps5 (W16 m ρ c) (Proc.devRef .tc main_v62) = _
    after_results_simp
    rfl
  rw [h, k2_W16_arg m ρ c main_arg16 (by decide) (by decide) (by decide) (by decide)]
  rfl

theorem k2_W17_v66 (c : Dev nD) :
    row0 (W17 m ρ c (Proc.devRef .tc main_v66) : Arr2 1 64) = vecOf (val_main_v109 (F := Ideal) (m ((c : Thread nD τ).loc main_arg17))) := by
  have h : W17 m ρ c (Proc.devRef .tc main_v66)
      = shapeCast S1x64 (shapeCast S64 (extractStridedSlice S1x64 ![1, 0] (W16 m ρ c (Proc.devRef .tc main_arg17)) slices_S3x64_S1x64_1_0)
          shapeCasts_S1x64_S64) shapeCasts_S64_S1x64 := by
    show StableHlo.after hostOps5 (W16 m ρ c) (Proc.devRef .tc main_v66) = _
    after_results_simp
    rfl
  rw [h, k2_W16_arg m ρ c main_arg17 (by decide) (by decide) (by decide) (by decide)]
  exact row0_reshape _ _

/-! ## Region 5: the node update -/

/-- After the second layer the node state is the reference's second node update. -/
theorem W18_v67 (c : Dev nD) (hr : Cert.PreIdx.InRange (m ((c : Thread nD τ).loc main_arg22))) :
    W18 m ρ c (Proc.devRef .tc main_v67) = val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg22)) := by
  refine ((W18_arr m ρ c 6).trans (Arr.arr5 (V17 m ρ) c)).trans ?_
  show mlpArr2 (A := 128) (B := 128) (K := 256) rfl (W17 m ρ c (Proc.devRef .tc main_v39)) (W17 m ρ c (Proc.devRef .tc main_v45))
      (W17 m ρ c (Proc.devRef .tc main_v58)) (row0 (W17 m ρ c (Proc.devRef .tc main_v65))) (W17 m ρ c (Proc.devRef .tc main_v62))
      (row0 (W17 m ρ c (Proc.devRef .tc main_v66))) = _
  rw [k2_W17_of_W15 m ρ c main_v39 (by decide) (by decide), k2_W17_of_W15 m ρ c main_v45 (by decide) (by decide),
    k2_W15_v39 m ρ c hr, k2_W15_v45 m ρ c hr, k2_W17_v58 m ρ c, k2_W17_v65 m ρ c, k2_W17_v62 m ρ c, k2_W17_v66 m ρ c]
  exact (Cert.ReferenceIdeal.Stage.r_v119 _ _ _ _ _ _ _ _ _ _ _ _ _ _ _ _ _ _ _).symm

/-- After the second layer the edge state is the reference's second edge update. -/
theorem W18_v56 (c : Dev nD) (hr : Cert.PreIdx.InRange (m ((c : Thread nD τ).loc main_arg22))) :
    W18 m ρ c (Proc.devRef .tc main_v56) = val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg22)) :=
  ((Keep.keepR5 m ρ c main_v56 (Keep.ne_of_key_ne (by decide))).trans (Keep.keepH5 m ρ c main_v56 (Keep.apart (by decide)))).trans
    (k2_W16_v56 m ρ c hr)

theorem W18_v6 (c : Dev nD) : W18 m ρ c (Proc.devRef .tc main_v6) = val_main_v13 (F := Ideal) (m ((c : Thread nD τ).loc main_arg0)) (m ((c : Thread nD τ).loc main_arg2)) (m ((c : Thread nD τ).loc main_arg3)) (m ((c : Thread nD τ).loc main_arg4)) (m ((c : Thread nD τ).loc main_arg5)) :=
  (Keep.keepB2 m ρ c main_v6 (Keep.apart (by decide))).trans (W11_v6 m ρ c)

theorem W18_v9 (c : Dev nD) : W18 m ρ c (Proc.devRef .tc main_v9) = val_main_v23 (F := Ideal) (m ((c : Thread nD τ).loc main_arg1)) (m ((c : Thread nD τ).loc main_arg6)) (m ((c : Thread nD τ).loc main_arg7)) (m ((c : Thread nD τ).loc main_arg8)) (m ((c : Thread nD τ).loc main_arg9)) :=
  (Keep.keepB2 m ρ c main_v9 (Keep.apart (by decide))).trans (W11_v9 m ρ c)

theorem W18_v3 (c : Dev nD) : W18 m ρ c (Proc.devRef .tc main_v3) = Take.dstOf (m ((c : Thread nD τ).loc main_arg22)) :=
  (Keep.keepB2 m ρ c main_v3 (Keep.apart (by decide))).trans (W11_v3 m ρ c)

/-- An argument array is as launched when the third layer starts. -/
theorem W18_arg (c : Dev nD) (b : Ref sig .tc) (h2 : Keep.key b ∉ Keep.wrB2.map Keep.key) (h1 : Keep.key b ∉ Keep.wrB1.map Keep.key)
    (h0 : Keep.key b ∉ Keep.wrB0.map Keep.key) : W18 m ρ c (Proc.devRef .tc b) = m ((c : Thread nD τ).loc b) :=
  (Keep.keepB2 m ρ c b (Keep.apart h2)).trans (W11_arg m ρ c b h1 h0)

end Cert.KernelIdeal.Fold

end
-- ==== Proof.KArr7.lean ====
/-
  Region 7 (the third node update) as one function of whole arrays.  Once more the body of the first node update,
  now on the last round's arrays: two arrays of 100000 rows and 128 lanes taken in twenty row blocks of 5000
  rows, with both weight matrices and both bias rows present whole at every grid point.  Point `t` handles rows
  `5000 t … 5000 t + 4999`, and row `p` of a row block is row `5000 t + p` of its array; hence what point `t`
  writes back is block `t` of the matrix whose rows are the perceptron of LibRows of the two input rows laid
  end to end.  Row `r` of the output belongs to block `r / 5000`, so the twenty write-backs leave the output
  array equal to that matrix.
-/
import proofs.«406922_j70815420776874_1_alg».proof.Proof.Gen.KernelIdeal.Frame
import proofs.«406922_j70815420776874_1_alg».proof.Proof.KPay3

set_option maxRecDepth 16384

noncomputable section

namespace Cert.KernelIdeal.Arr

open Idealize.ShloMosaic Idealize.ShloMosaic.ValueIdx Idealize.ShloMosaic.TcCoe Idealize.SL.Sem
open Cert.KernelIdeal Cert.KernelIdeal.Gen Cert.Rows
open Idealize.ShloMosaic.Pipeline (Dat Cfg Window)

variable (V : (c : Dev nD) → (b : Ref sig .tc) → Buf (Elt Ideal) ((c : Thread nD τ).loc b))

namespace R7

/-- The zero offset pair, in the spelling of a constant function. -/
theorem origin : (![0, 0] : Fin 2 → Nat) = fun _ => 0 := funext fun a => by fin_cases a <;> rfl

/-- The block indices over the grid: the two row windows and the output window sit at row block `t`, lane block
    `0`; the weight and bias windows sit at block `(0, 0)` at every point. -/
theorem block_index : ∀ t : Fin cfg7.N,
    (win7_0.index t (0 : Fin 2) = t.val ∧ win7_0.index t (1 : Fin 2) = 0)
    ∧ (win7_1.index t (0 : Fin 2) = t.val ∧ win7_1.index t (1 : Fin 2) = 0)
    ∧ (win7_2.index t (0 : Fin 2) = 0 ∧ win7_2.index t (1 : Fin 2) = 0)
    ∧ (win7_3.index t (0 : Fin 2) = 0 ∧ win7_3.index t (1 : Fin 2) = 0)
    ∧ (win7_4.index t (0 : Fin 2) = 0 ∧ win7_4.index t (1 : Fin 2) = 0)
    ∧ (win7_5.index t (0 : Fin 2) = 0 ∧ win7_5.index t (1 : Fin 2) = 0)
    ∧ (win7_6.index t (0 : Fin 2) = t.val ∧ win7_6.index t (1 : Fin 2) = 0) :=
  (by decide +kernel : ∀ t : Fin grid7.N, _)

/-- The grid has twenty points. -/
theorem point_lt (t : Fin cfg7.N) : t.val < 20 := by
  have h : cfg7.N = 20 := N_7
  have := t.isLt
  omega

/-- Row `p` of the first row window's block at point `t` is row `5000 t + p` of its array. -/
theorem row_left (c : Dev nD) (t : Fin cfg7.N) (p : Fin 5000) (h : 5000 * t.val + p.val < 100000) :
    rowOf (iblk7 V c 0 t : Arr2 5000 128) p = rowOf (V c main_v68 : Arr2 100000 128) ⟨5000 * t.val + p.val, h⟩ := by
  obtain ⟨⟨e0, e1⟩, -⟩ := block_index t
  funext k
  show V c main_v68 (((cfg7.win 0).blk t).view.emb (ix2 p k)) = V c main_v68 (ix2 ⟨5000 * t.val + p.val, h⟩ k)
  congr 1
  funext a
  apply Fin.ext
  match a with
  | ⟨0, _⟩ => show win7_0.index t (0 : Fin 2) * 5000 + 1 * p.val = 5000 * t.val + p.val; rw [e0]; omega
  | ⟨1, _⟩ => show win7_0.index t (1 : Fin 2) * 128 + 1 * k.val = k.val; rw [e1]; omega

/-- The same for the second row window. -/
theorem row_right (c : Dev nD) (t : Fin cfg7.N) (p : Fin 5000) (h : 5000 * t.val + p.val < 100000) :
    rowOf (iblk7 V c 1 t : Arr2 5000 128) p = rowOf (V c main_v74 : Arr2 100000 128) ⟨5000 * t.val + p.val, h⟩ := by
  obtain ⟨-, ⟨e0, e1⟩, -⟩ := block_index t
  funext k
  show V c main_v74 (((cfg7.win 1).blk t).view.emb (ix2 p k)) = V c main_v74 (ix2 ⟨5000 * t.val + p.val, h⟩ k)
  congr 1
  funext a
  apply Fin.ext
  match a with
  | ⟨0, _⟩ => show win7_1.index t (0 : Fin 2) * 5000 + 1 * p.val = 5000 * t.val + p.val; rw [e0]; omega
  | ⟨1, _⟩ => show win7_1.index t (1 : Fin 2) * 128 + 1 * k.val = k.val; rw [e1]; omega

/-- The first weight window's block is its whole array at every point. -/
theorem whole_w1 (c : Dev nD) (t : Fin cfg7.N) : (iblk7 V c 2 t : Arr2 256 64) = (V c main_v87 : Arr2 256 64) := by
  obtain ⟨-, -, ⟨e0, e1⟩, -⟩ := block_index t
  funext j
  show V c main_v87 (((cfg7.win 2).blk t).view.emb j) = V c main_v87 j
  congr 1
  funext a
  apply Fin.ext
  match a with
  | ⟨0, _⟩ => show win7_2.index t (0 : Fin 2) * 256 + 1 * (j 0).val = (j 0).val; rw [e0]; omega
  | ⟨1, _⟩ => show win7_2.index t (1 : Fin 2) * 64 + 1 * (j 1).val = (j 1).val; rw [e1]; omega

/-- The first bias window's block is its whole one-row array. -/
theorem whole_b1 (c : Dev nD) (t : Fin cfg7.N) : (iblk7 V c 3 t : Arr2 1 64) = (V c main_v94 : Arr2 1 64) := by
  obtain ⟨-, -, -, ⟨e0, e1⟩, -⟩ := block_index t
  funext j
  show V c main_v94 (((cfg7.win 3).blk t).view.emb j) = V c main_v94 j
  congr 1
  funext a
  apply Fin.ext
  match a with
  | ⟨0, _⟩ => show win7_3.index t (0 : Fin 2) * 1 + 1 * (j 0).val = (j 0).val; rw [e0]; omega
  | ⟨1, _⟩ => show win7_3.index t (1 : Fin 2) * 64 + 1 * (j 1).val = (j 1).val; rw [e1]; omega

/-- The second weight window's block is its whole array. -/
theorem whole_w2 (c : Dev nD) (t : Fin cfg7.N) : (iblk7 V c 4 t : Arr2 64 64) = (V c main_v91 : Arr2 64 64) := by
  obtain ⟨-, -, -, -, ⟨e0, e1⟩, -⟩ := block_index t
  funext j
  show V c main_v91 (((cfg7.win 4).blk t).view.emb j) = V c main_v91 j
  congr 1
  funext a
  apply Fin.ext
  match a with
  | ⟨0, _⟩ => show win7_4.index t (0 : Fin 2) * 64 + 1 * (j 0).val = (j 0).val; rw [e0]; omega
  | ⟨1, _⟩ => show win7_4.index t (1 : Fin 2) * 64 + 1 * (j 1).val = (j 1).val; rw [e1]; omega

/-- The second bias window's block is its whole one-row array. -/
theorem whole_b2 (c : Dev nD) (t : Fin cfg7.N) : (iblk7 V c 5 t : Arr2 1 64) = (V c main_v95 : Arr2 1 64) := by
  obtain ⟨-, -, -, -, -, ⟨e0, e1⟩, -⟩ := block_index t
  funext j
  show V c main_v95 (((cfg7.win 5).blk t).view.emb j) = V c main_v95 j
  congr 1
  funext a
  apply Fin.ext
  match a with
  | ⟨0, _⟩ => show win7_5.index t (0 : Fin 2) * 1 + 1 * (j 0).val = (j 0).val; rw [e0]; omega
  | ⟨1, _⟩ => show win7_5.index t (1 : Fin 2) * 64 + 1 * (j 1).val = (j 1).val; rw [e1]; omega

/-- The matrix the region computes: every row is the perceptron of the two input rows laid end to end. -/
abbrev target (c : Dev nD) : Arr2 100000 64 :=
  mlpArr2 (A := 128) (B := 128) (K := 256) rfl (V c main_v68 : Arr2 100000 128) (V c main_v74 : Arr2 100000 128)
    (V c main_v87 : Arr2 256 64) (row0 (V c main_v94 : Arr2 1 64)) (V c main_v91 : Arr2 64 64)
    (row0 (V c main_v95 : Arr2 1 64))

/-- What point `t` writes back is block `t` of that matrix.  The body is the first node update's, so its entry
    `(p, q)` is the perceptron of the joined row `p` of the two row blocks. -/
theorem flushed_eq (c : Dev nD) (t : Fin cfg7.N) :
    (dat7 V c).flushed 6 t = ((cfg7.win 6).blk t).view.read (Elt Ideal) (target V c) := by
  show (cfg7.win 6).cut (grid7.coords t) ((dat7 V c).after 6 t) = _
  rw [after7_6]
  unfold out7_6
  rw [View.canon_unit_zero origin]
  simp only [View.ld_unit_zero (S := S5000x128) origin, View.ld_unit_zero (S := S256x64) origin,
    View.ld_unit_zero (S := S1x64) origin, View.ld_unit_zero (S := S64x64) origin]
  rw [Pay.k7_eq_k3]
  funext j
  obtain ⟨p, q, rfl⟩ : ∃ (p : Fin 5000) (q : Fin 64), j = ix2 p q := ⟨j 0, j 1, eq_ix2 j⟩
  refine (Pay.pay3_apply _ _ _ _ _ _ p q).trans ?_
  have hp : 5000 * t.val + p.val < 100000 := by have := point_lt t; have := p.isLt; omega
  obtain ⟨-, -, -, -, -, -, e0, e1⟩ := block_index t
  have hemb : ((cfg7.win 6).blk t).view.emb (ix2 p q)
      = (ix2 ⟨5000 * t.val + p.val, hp⟩ q : (⟨2, ![100000, 64]⟩ : Shape).Idx) := by
    funext a
    apply Fin.ext
    match a with
    | ⟨0, _⟩ => show win7_6.index t (0 : Fin 2) * 5000 + 1 * p.val = 5000 * t.val + p.val; rw [e0]; omega
    | ⟨1, _⟩ => show win7_6.index t (1 : Fin 2) * 64 + 1 * q.val = q.val; rw [e1]; omega
  show _ = target V c (((cfg7.win 6).blk t).view.emb (ix2 p q))
  rw [hemb, row_left V c t p hp, row_right V c t p hp, whole_w1 V c t, whole_b1 V c t, whole_w2 V c t, whole_b2 V c t]
  rfl

/-- An index of the output array is in point `t`'s block iff each coordinate is in the block's range on its axis. -/
theorem mem_block (t : Fin cfg7.N) (i : S100000x64.Idx) :
    i ∈ ((cfg7.win 6).blk t).view.set
      ↔ ∀ a : Fin 2, win7_6.index t a * S5000x64.size a ≤ (i a).val
          ∧ (i a).val < win7_6.index t a * S5000x64.size a + S5000x64.size a := by
  show i ∈ ((View.whole main_v96).slice (win7_6.rect t)).set ↔ _
  rw [View.set_slice_whole, Rect.mem_set_unit]
  exact Iff.rfl

/-- Every index of the output array lies in some point's block: row `r` in the block of point `r / 5000`. -/
theorem covered (i : S100000x64.Idx) :
    ∃ t : Fin cfg7.N, (cfg7.win 6).flush t = true ∧ i ∈ ((cfg7.win 6).blk t).view.set := by
  have hN : cfg7.N = 20 := N_7
  have hi0 : (i 0).val < 100000 := (i 0).isLt
  have hi1 : (i 1).val < 64 := (i 1).isLt
  let t : Fin cfg7.N := ⟨(i 0).val / 5000, by omega⟩
  have ht : t.val = (i 0).val / 5000 := rfl
  obtain ⟨-, -, -, -, -, -, e0, e1⟩ := block_index t
  refine ⟨t, flush7_6 t, ?_⟩
  rw [mem_block]
  intro a
  match a with
  | ⟨0, _⟩ =>
    show win7_6.index t (0 : Fin 2) * 5000 ≤ (i 0).val ∧ (i 0).val < win7_6.index t (0 : Fin 2) * 5000 + 5000
    rw [e0, ht]; omega
  | ⟨1, _⟩ =>
    show win7_6.index t (1 : Fin 2) * 64 ≤ (i 1).val ∧ (i 1).val < win7_6.index t (1 : Fin 2) * 64 + 64
    rw [e1]; omega

end R7

/-- The third node update's output array after the region, from the entry contents of its six input arrays. -/
theorem arr7 (c : Dev nD) :
    (dat7 V c).arrAt 6 cfg7.N
      = (mlpArr2 (A := 128) (B := 128) (K := 256) rfl (V c main_v68 : Arr2 100000 128) (V c main_v74 : Arr2 100000 128)
          (V c main_v87 : Arr2 256 64) (row0 (V c main_v94 : Arr2 1 64)) (V c main_v91 : Arr2 64 64)
          (row0 (V c main_v95 : Arr2 1 64)) : Arr2 100000 64) :=
  (dat7 V c).arrAt_eq_of_cover 6 (R7.target V c) (fun t _ => R7.flushed_eq V c t) R7.covered

end Cert.KernelIdeal.Arr

end
-- ==== Proof.KArr8.lean ====
/-
  Region 8 (the decoder) as one function of whole arrays: whatever the core's buffers hold when the region is
  entered, after its twenty grid points the one-column output array holds, row by row, the two dense layers of
  LibRows (a rectifier between them, none after) of the latent array's rows.  Point `t` handles rows
  `5000 t … 5000 t + 4999`; a block's row `p` is the array's row `5000 t + p`, and the blocks of the twenty
  points cover the array.
-/
import proofs.«406922_j70815420776874_1_alg».proof.Proof.Gen.KernelIdeal.Frame
import proofs.«406922_j70815420776874_1_alg».proof.Proof.KPay01

-- membership in a rectangle of full-size extents recurses once per coordinate of the long axis
set_option maxRecDepth 16384

noncomputable section

namespace Cert.KernelIdeal.Arr

open Idealize.ShloMosaic Idealize.ShloMosaic.ValueIdx Idealize.ShloMosaic.TcCoe Idealize.SL.Sem
open Cert.KernelIdeal Cert.KernelIdeal.Gen Cert.Rows
open Idealize.ShloMosaic.Pipeline (Dat Cfg Window)

variable (V : (c : Dev nD) → (b : Ref sig .tc) → Buf (Elt Ideal) ((c : Thread nD τ).loc b))

namespace R8

/-- A block that starts at the origin of its staging buffer. -/
theorem origin2 : (![0, 0] : Fin 2 → Nat) = fun _ => 0 := funext fun a => by fin_cases a <;> rfl

/-- The decoder on whole arrays: two dense layers, a rectifier between them, on every row of the latent array. -/
abbrev decoder (c : Dev nD) : Arr2 100000 1 :=
  decArr (V c main_v96 : Arr2 100000 64) (V c main_arg18 : Arr2 64 64) (row0 (V c main_v97 : Arr2 1 64))
    (V c main_arg20 : Arr2 64 1) (row0 (V c main_v98 : Arr2 1 1))

/-- The block indices over the grid: the row windows (latent rows in, decoded column out) sit at block `t` of the
    rows and block 0 of the columns; the weights and biases are one block each. -/
theorem block_index8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- Row `p` of the latent block at point `t` is row `5000 t + p` of the latent array. -/
theorem latent_row8 (c : Dev nD) (t : Fin cfg8.N) (p : Fin 5000) (h : 5000 * t.val + p.val < 100000) :
    rowOf (iblk8 V c 0 t : Arr2 5000 64) p = rowOf (V c main_v96 : Arr2 100000 64) ⟨5000 * t.val + p.val, h⟩ := by
  obtain ⟨e0, e1, -⟩ := block_index8 t
  funext k
  show V c main_v96 (((cfg8.win 0).blk t).view.emb (ix2 p k)) = V c main_v96 (ix2 ⟨5000 * t.val + p.val, h⟩ k)
  refine congrArg _ (funext fun a => Fin.ext ?_)
  match a with
  | ⟨0, _⟩ => show win8_0.index t (0 : Fin 2) * 5000 + 1 * p.val = 5000 * t.val + p.val; omega
  | ⟨1, _⟩ => show win8_0.index t (1 : Fin 2) * 64 + 1 * k.val = k.val; omega

/-- The first layer's weight block is the whole weight array at every point. -/
theorem weight1_block8 (c : Dev nD) (t : Fin cfg8.N) : (iblk8 V c 1 t : Arr2 64 64) = (V c main_arg18 : Arr2 64 64) := by
  obtain ⟨-, -, e0, e1, -⟩ := block_index8 t
  funext j
  show V c main_arg18 (((cfg8.win 1).blk t).view.emb j) = V c main_arg18 j
  refine congrArg _ (funext fun a => Fin.ext ?_)
  match a with
  | ⟨0, _⟩ => show win8_1.index t (0 : Fin 2) * 64 + 1 * (j 0).val = (j 0).val; omega
  | ⟨1, _⟩ => show win8_1.index t (1 : Fin 2) * 64 + 1 * (j 1).val = (j 1).val; omega

/-- The first layer's bias block is the whole one-row bias array at every point. -/
theorem bias1_block8 (c : Dev nD) (t : Fin cfg8.N) : (iblk8 V c 2 t : Arr2 1 64) = (V c main_v97 : Arr2 1 64) := by
  obtain ⟨-, -, -, -, e0, e1, -⟩ := block_index8 t
  funext j
  show V c main_v97 (((cfg8.win 2).blk t).view.emb j) = V c main_v97 j
  refine congrArg _ (funext fun a => Fin.ext ?_)
  match a with
  | ⟨0, _⟩ => show win8_2.index t (0 : Fin 2) * 1 + 1 * (j 0).val = (j 0).val; omega
  | ⟨1, _⟩ => show win8_2.index t (1 : Fin 2) * 64 + 1 * (j 1).val = (j 1).val; omega

/-- The second layer's one-column weight block is the whole weight array at every point. -/
theorem weight2_block8 (c : Dev nD) (t : Fin cfg8.N) : (iblk8 V c 3 t : Arr2 64 1) = (V c main_arg20 : Arr2 64 1) := by
  obtain ⟨-, -, -, -, -, -, e0, e1, -⟩ := block_index8 t
  funext j
  show V c main_arg20 (((cfg8.win 3).blk t).view.emb j) = V c main_arg20 j
  refine congrArg _ (funext fun a => Fin.ext ?_)
  match a with
  | ⟨0, _⟩ => show win8_3.index t (0 : Fin 2) * 64 + 1 * (j 0).val = (j 0).val; omega
  | ⟨1, _⟩ => show win8_3.index t (1 : Fin 2) * 1 + 1 * (j 1).val = (j 1).val; omega

/-- The second layer's one-entry bias block is the whole bias array at every point. -/
theorem bias2_block8 (c : Dev nD) (t : Fin cfg8.N) : (iblk8 V c 4 t : Arr2 1 1) = (V c main_v98 : Arr2 1 1) := by
  obtain ⟨-, -, -, -, -, -, -, -, e0, e1, -⟩ := block_index8 t
  funext j
  show V c main_v98 (((cfg8.win 4).blk t).view.emb j) = V c main_v98 j
  refine congrArg _ (funext fun a => Fin.ext ?_)
  match a with
  | ⟨0, _⟩ => show win8_4.index t (0 : Fin 2) * 1 + 1 * (j 0).val = (j 0).val; omega
  | ⟨1, _⟩ => show win8_4.index t (1 : Fin 2) * 1 + 1 * (j 1).val = (j 1).val; omega

/-- Entry `(p, q)` of the output block at point `t` sits at `(5000 t + p, q)` of the output array. -/
theorem out_index8 (t : Fin cfg8.N) (p : Fin 5000) (q : Fin 1) (h : 5000 * t.val + p.val < 100000) :
    (((cfg8.win 5).blk t).view.emb (ix2 p q) : S100000x1.Idx) = ix2 ⟨5000 * t.val + p.val, h⟩ q := by
  obtain ⟨-, -, -, -, -, -, -, -, -, -, e0, e1⟩ := block_index8 t
  refine funext fun a => Fin.ext ?_
  match a with
  | ⟨0, _⟩ => show win8_5.index t (0 : Fin 2) * 5000 + 1 * p.val = 5000 * t.val + p.val; omega
  | ⟨1, _⟩ => show win8_5.index t (1 : Fin 2) * 1 + 1 * q.val = q.val; omega

/-- What point `t` writes back is block `t` of the decoder of the arrays as the region finds them. -/
theorem flushed8 (c : Dev nD) (t : Fin cfg8.N) :
    (dat8 V c).flushed 5 t = ((cfg8.win 5).blk t).view.read (Elt Ideal) (decoder V c) := by
  show (cfg8.win 5).cut (grid8.coords t) ((dat8 V c).after 5 t) = _
  rw [after8_5]
  unfold out8_5
  rw [View.canon_unit_zero origin2]
  simp only [View.ld_unit_zero (S := S5000x64) origin2, View.ld_unit_zero (S := S64x64) origin2,
    View.ld_unit_zero (S := S1x64) origin2, View.ld_unit_zero (S := S64x1) origin2, View.ld_unit_zero (S := S1x1) origin2]
  funext j
  obtain ⟨p, q, rfl⟩ : ∃ (p : Fin 5000) (q : Fin 1), j = ix2 p q := ⟨j 0, j 1, eq_ix2 j⟩
  refine (Pay.pay8_apply _ _ _ _ _ p q).trans ?_
  have ht : t.val < 20 := lt_of_lt_of_eq t.isLt (N_8 : cfg8.N = 20)
  have h : 5000 * t.val + p.val < 100000 := by have := p.isLt; omega
  rw [View.read_apply, out_index8 t p q h]
  show decRow (rowOf (iblk8 V c 0 t : Arr2 5000 64) p) (iblk8 V c 1 t : Arr2 64 64) (row0 (iblk8 V c 2 t : Arr2 1 64))
      (iblk8 V c 3 t : Arr2 64 1) (row0 (iblk8 V c 4 t : Arr2 1 1)) q
    = decRow (rowOf (V c main_v96 : Arr2 100000 64) ⟨5000 * t.val + p.val, h⟩) (V c main_arg18 : Arr2 64 64)
      (row0 (V c main_v97 : Arr2 1 64)) (V c main_arg20 : Arr2 64 1) (row0 (V c main_v98 : Arr2 1 1)) q
  rw [latent_row8 V c t p h, weight1_block8 V c t, bias1_block8 V c t, weight2_block8 V c t, bias2_block8 V c t]

/-- An index of the output array is in point `t`'s block iff each coordinate is in the block's range on its axis. -/
theorem mem_block8 (t : Fin cfg8.N) (i : S100000x1.Idx) :
    i ∈ ((cfg8.win 5).blk t).view.set ↔ ∀ a : Fin 2, win8_5.index t a * S5000x1.size a ≤ (i a).val ∧ (i a).val < win8_5.index t a * S5000x1.size a + S5000x1.size a := by
  show i ∈ ((View.whole main_v99).slice (win8_5.rect t)).set ↔ _
  rw [View.set_slice_whole, Rect.mem_set_unit]
  exact Iff.rfl

/-- The twenty blocks cover the output array: row `r` lies in the block of point `r / 5000`. -/
theorem cover8 (i : S100000x1.Idx) :
    ∃ t : Fin cfg8.N, (cfg8.win 5).flush t = true ∧ i ∈ ((cfg8.win 5).blk t).view.set := by
  have hi0 : (i 0).val < 100000 := (i 0).isLt
  have hi1 : (i 1).val < 1 := (i 1).isLt
  have hN : cfg8.N = 20 := N_8
  let t : Fin cfg8.N := ⟨(i 0).val / 5000, by omega⟩
  have htv : t.val = (i 0).val / 5000 := rfl
  obtain ⟨-, -, -, -, -, -, -, -, -, -, e0, e1⟩ := block_index8 t
  refine ⟨t, flush8_5 t, ?_⟩
  rw [mem_block8]
  intro a
  match a with
  | ⟨0, _⟩ => show win8_5.index t (0 : Fin 2) * 5000 ≤ (i 0).val ∧ (i 0).val < win8_5.index t (0 : Fin 2) * 5000 + 5000; omega
  | ⟨1, _⟩ => show win8_5.index t (1 : Fin 2) * 1 ≤ (i 1).val ∧ (i 1).val < win8_5.index t (1 : Fin 2) * 1 + 1; omega

end R8

/-- The decoder's output array after the region, from the entry contents of its five input arrays. -/
theorem arr8 (c : Dev nD) : (dat8 V c).arrAt 5 cfg8.N = (decArr (V c main_v96 : Arr2 100000 64) (V c main_arg18 : Arr2 64 64) (row0 (V c main_v97 : Arr2 1 64)) (V c main_arg20 : Arr2 64 1) (row0 (V c main_v98 : Arr2 1 1)) : Arr2 100000 1) := by
  exact (dat8 V c).arrAt_eq_of_cover 5 (R8.decoder V c) (fun t _ => R8.flushed8 V c t) R8.cover8

end Cert.KernelIdeal.Arr

end
-- ==== Proof.KFold3.lean ====
/-
  The third message-passing layer's node update and the decoder, read as whole arrays.

  When the second layer is over, the node state and the edge state are the reference's second node and edge updates,
  and the two encoder outputs and the edges' target row are still where the encoders and the first cut left them.
  Before the third round the host joins the node state lane-wise with the encoded node features, joins the edge state
  with the encoded edge features, and adds every joined edge row into the row of the edge's target node, starting from
  zero.  These are the same three array operations, on the same operands, that the reference applies at this point,
  so the joined node array and the summed array are the reference's.

  The third edge update writes a new edge state that nothing reads any more: the network ends with a node update and
  a decoder on nodes.  It is therefore stepped over; its inputs are handed back unchanged and all other arrays are not
  touched.  The host then cuts the third slice out of each of the four stacked node-update weights and turns the two
  bias slices into one-row matrices; a one-row reshape of a vector has the vector's entries in its row.  The third
  node update leaves in its output array the row-wise perceptron of the rows "joined node state next to summed
  messages", which is the reference's third node update on the same arguments.

  Finally the decoder's two bias vectors are reshaped to one-row matrices, the decoder leaves the row-wise
  two-layer map without a final threshold of the node state, and that is the reference's result.
-/
import proofs.«406922_j70815420776874_1_alg».proof.Proof.KFold2
import proofs.«406922_j70815420776874_1_alg».proof.Proof.KArr7
import proofs.«406922_j70815420776874_1_alg».proof.Proof.KArr8
import Idealize.ShloMosaic.Lib.StableHlo.Run

set_option maxRecDepth 16384

noncomputable section

namespace Cert.KernelIdeal.Fold

open Idealize.ShloMosaic Idealize.ShloMosaic.ValueIdx Idealize.ShloMosaic.TcCoe Idealize.SL.Sem Idealize.ShloMosaic.StableHlo
open Cert.KernelIdeal Cert.KernelIdeal.Gen Cert.Rows
open Cert.ReferenceIdeal.ReadP

variable (m : (ℓ : Loc nD τ sig) → Buf (Elt Ideal) ℓ) (ρ : Dev nD → PrngReg)

/-! ## Between the second layer and the third node update -/

/-- An argument array is as launched when the third node update's weights are cut out. -/
theorem W23_arg (c : Dev nD) (b : Ref sig .tc) (h85 : Keep.key b ≠ Keep.key main_v85) (h3 : Keep.key b ∉ Keep.wrB3'.map Keep.key)
    (h2 : Keep.key b ∉ Keep.wrB2.map Keep.key) (h1 : Keep.key b ∉ Keep.wrB1.map Keep.key) (h0 : Keep.key b ∉ Keep.wrB0.map Keep.key) :
    W23 m ρ c (Proc.devRef .tc b) = m ((c : Thread nD τ).loc b) :=
  (Keep.keepR6 m ρ c b (Keep.ne_of_key_ne h85)).trans ((Keep.keepB3' m ρ c b (Keep.apart h3)).trans (W18_arg m ρ c b h2 h1 h0))

/-- The node state after two layers, joined lane-wise with the encoded node features. -/
theorem W22_v68 (c : Dev nD) (hr : Cert.PreIdx.InRange (m ((c : Thread nD τ).loc main_arg22))) :
    W22 m ρ c (Proc.devRef .tc main_v68) = val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg22)) := by
  have h : W22 m ρ c (Proc.devRef .tc main_v68)
      = concatenate S100000x128 1 [⟨S100000x64, W18 m ρ c (Proc.devRef .tc main_v67)⟩, ⟨S100000x64, W18 m ρ c (Proc.devRef .tc main_v6)⟩] concatenates_S100000x64_S100000x64_S100000x128_d1 := by
    show StableHlo.after hostOps6_3 (StableHlo.after hostOps6_2 (StableHlo.after hostOps6_1 (StableHlo.after hostOps6 (W18 m ρ c)))) (Proc.devRef .tc main_v68) = _
    after_results_simp
  rw [h, W18_v67 m ρ c hr, W18_v6 m ρ c]
  rfl

/-- The edge state after two layers joined with the encoded edge features, summed into the rows of the edges' target nodes. -/
theorem W22_v74 (c : Dev nD) (hr : Cert.PreIdx.InRange (m ((c : Thread nD τ).loc main_arg22))) :
    W22 m ρ c (Proc.devRef .tc main_v74) = val_main_v157 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg22)) := by
  have h : W22 m ρ c (Proc.devRef .tc main_v74)
      = Host.scatterAdd scatter_S100000x128_S500000x1_S500000x128_1_0_0_1
          (broadcastInDim S100000x128 ![] bcast_S_S100000x128 (constant (F := Ideal) S_ .f32 0x00000000#32))
          (broadcastInDim S500000x1 ![0] bcast_S500000_S500000x1_0 (W18 m ρ c (Proc.devRef .tc main_v3)))
          (concatenate S500000x128 1 [⟨S500000x64, W18 m ρ c (Proc.devRef .tc main_v56)⟩, ⟨S500000x64, W18 m ρ c (Proc.devRef .tc main_v9)⟩] concatenates_S500000x64_S500000x64_S500000x128_d1) := by
    show StableHlo.after hostOps6_3 (StableHlo.after hostOps6_2 (StableHlo.after hostOps6_1 (StableHlo.after hostOps6 (W18 m ρ c)))) (Proc.devRef .tc main_v74) = _
    after_results_simp
    rfl
  rw [h, W18_v56 m ρ c hr, W18_v9 m ρ c, W18_v3 m ρ c]
  rfl

/-! ## The third node update's weights -/

/-- The third first-layer weight matrix of the node update. -/
theorem W24_v87 (c : Dev nD) : W24 m ρ c (Proc.devRef .tc main_v87) = val_main_v160 (F := Ideal) (m ((c : Thread nD τ).loc main_arg14)) := by
  have h : W24 m ρ c (Proc.devRef .tc main_v87)
      = shapeCast S256x64 (extractStridedSlice S1x256x64 ![2, 0, 0] (W23 m ρ c (Proc.devRef .tc main_arg14)) slices_S3x256x64_S1x256x64_2_0_0) shapeCasts_S1x256x64_S256x64 := by
    show StableHlo.after hostOps7 (W23 m ρ c) (Proc.devRef .tc main_v87) = _
    after_results_simp
    rfl
  rw [h, W23_arg m ρ c main_arg14 (by decide) (by decide) (by decide) (by decide) (by decide)]
  rfl

/-- The third first-layer bias of the node update, as a one-row matrix. -/
theorem W24_v94 (c : Dev nD) :
    W24 m ρ c (Proc.devRef .tc main_v94) = shapeCast S1x64 (val_main_v162 (F := Ideal) (m ((c : Thread nD τ).loc main_arg15))) shapeCasts_S64_S1x64 := by
  have h : W24 m ρ c (Proc.devRef .tc main_v94)
      = shapeCast S1x64 (shapeCast S64 (extractStridedSlice S1x64 ![2, 0] (W23 m ρ c (Proc.devRef .tc main_arg15)) slices_S3x64_S1x64_2_0) shapeCasts_S1x64_S64) shapeCasts_S64_S1x64 := by
    show StableHlo.after hostOps7 (W23 m ρ c) (Proc.devRef .tc main_v94) = _
    after_results_simp
    rfl
  rw [h, W23_arg m ρ c main_arg15 (by decide) (by decide) (by decide) (by decide) (by decide)]
  rfl

/-- The third second-layer weight matrix of the node update. -/
theorem W24_v91 (c : Dev nD) : W24 m ρ c (Proc.devRef .tc main_v91) = val_main_v164 (F := Ideal) (m ((c : Thread nD τ).loc main_arg16)) := by
  have h : W24 m ρ c (Proc.devRef .tc main_v91)
      = shapeCast S64x64 (extractStridedSlice S1x64x64 ![2, 0, 0] (W23 m ρ c (Proc.devRef .tc main_arg16)) slices_S3x64x64_S1x64x64_2_0_0) shapeCasts_S1x64x64_S64x64 := by
    show StableHlo.after hostOps7 (W23 m ρ c) (Proc.devRef .tc main_v91) = _
    after_results_simp
    rfl
  rw [h, W23_arg m ρ c main_arg16 (by decide) (by decide) (by decide) (by decide) (by decide)]
  rfl

/-- The third second-layer bias of the node update, as a one-row matrix. -/
theorem W24_v95 (c : Dev nD) :
    W24 m ρ c (Proc.devRef .tc main_v95) = shapeCast S1x64 (val_main_v166 (F := Ideal) (m ((c : Thread nD τ).loc main_arg17))) shapeCasts_S64_S1x64 := by
  have h : W24 m ρ c (Proc.devRef .tc main_v95)
      = shapeCast S1x64 (shapeCast S64 (extractStridedSlice S1x64 ![2, 0] (W23 m ρ c (Proc.devRef .tc main_arg17)) slices_S3x64_S1x64_2_0) shapeCasts_S1x64_S64) shapeCasts_S64_S1x64 := by
    show StableHlo.after hostOps7 (W23 m ρ c) (Proc.devRef .tc main_v95) = _
    after_results_simp
    rfl
  rw [h, W23_arg m ρ c main_arg17 (by decide) (by decide) (by decide) (by decide) (by decide)]
  rfl

/-! ## Region 7: the third node update

The third edge update writes an array that nothing reads afterwards, and cutting out the weights writes only the
weights' own arrays; so the two data arrays are, when region 7 starts, what the host left before region 6. -/

theorem W24_v68 (c : Dev nD) (hr : Cert.PreIdx.InRange (m ((c : Thread nD τ).loc main_arg22))) :
    W24 m ρ c (Proc.devRef .tc main_v68) = val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg22)) :=
  ((Keep.keepH7 m ρ c main_v68 (Keep.apart (by decide))).trans (Keep.keepR6 m ρ c main_v68 (Keep.ne_of_key_ne (by decide)))).trans (W22_v68 m ρ c hr)

theorem W24_v74 (c : Dev nD) (hr : Cert.PreIdx.InRange (m ((c : Thread nD τ).loc main_arg22))) :
    W24 m ρ c (Proc.devRef .tc main_v74) = val_main_v157 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg22)) :=
  ((Keep.keepH7 m ρ c main_v74 (Keep.apart (by decide))).trans (Keep.keepR6 m ρ c main_v74 (Keep.ne_of_key_ne (by decide)))).trans (W22_v74 m ρ c hr)

/-- After the third layer the node state is the reference's third node update (the third edge update feeds nothing). -/
theorem W25_v96 (c : Dev nD) (hr : Cert.PreIdx.InRange (m ((c : Thread nD τ).loc main_arg22))) :
    W25 m ρ c (Proc.devRef .tc main_v96) = val_main_v176 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg22)) := by
  refine ((W25_arr m ρ c 6).trans (Arr.arr7 (V24 m ρ) c)).trans ?_
  show mlpArr2 (A := 128) (B := 128) (K := 256) rfl (W24 m ρ c (Proc.devRef .tc main_v68)) (W24 m ρ c (Proc.devRef .tc main_v74))
      (W24 m ρ c (Proc.devRef .tc main_v87)) (row0 (W24 m ρ c (Proc.devRef .tc main_v94))) (W24 m ρ c (Proc.devRef .tc main_v91))
      (row0 (W24 m ρ c (Proc.devRef .tc main_v95))) = _
  rw [W24_v68 m ρ c hr, W24_v74 m ρ c hr, W24_v87, W24_v94, W24_v91, W24_v95]
  rw [row0_reshape, row0_reshape]
  exact (Cert.ReferenceIdeal.Stage.r_v176 _ _ _ _ _ _ _ _ _ _ _ _ _ _ _ _ _ _ _).symm

/-! ## Region 8: the decoder -/

/-- An argument array is as launched when the third layer is over. -/
theorem W25_arg (c : Dev nD) (b : Ref sig .tc) (h3 : Keep.key b ∉ Keep.wrB3.map Keep.key)
    (h2 : Keep.key b ∉ Keep.wrB2.map Keep.key) (h1 : Keep.key b ∉ Keep.wrB1.map Keep.key) (h0 : Keep.key b ∉ Keep.wrB0.map Keep.key) :
    W25 m ρ c (Proc.devRef .tc b) = m ((c : Thread nD τ).loc b) :=
  (Keep.keepB3 m ρ c b (Keep.apart h3)).trans (W18_arg m ρ c b h2 h1 h0)

/-- An argument array is as launched when the decoder starts. -/
theorem W26_arg (c : Dev nD) (b : Ref sig .tc) (h8 : Keep.key b ∉ Keep.wr8.map Keep.key) (h3 : Keep.key b ∉ Keep.wrB3.map Keep.key)
    (h2 : Keep.key b ∉ Keep.wrB2.map Keep.key) (h1 : Keep.key b ∉ Keep.wrB1.map Keep.key) (h0 : Keep.key b ∉ Keep.wrB0.map Keep.key) :
    W26 m ρ c (Proc.devRef .tc b) = m ((c : Thread nD τ).loc b) :=
  (Keep.keepH8 m ρ c b (Keep.apart h8)).trans (W25_arg m ρ c b h3 h2 h1 h0)

/-- The decoder's first bias, as a one-row matrix. -/
theorem W26_v97 (c : Dev nD) : W26 m ρ c (Proc.devRef .tc main_v97) = shapeCast S1x64 (m ((c : Thread nD τ).loc main_arg19)) shapeCasts_S64_S1x64 := by
  show StableHlo.after hostOps8 (W25 m ρ c) (Proc.devRef .tc main_v97) = _
  after_results_simp
  rw [W25_arg m ρ c main_arg19 (by decide) (by decide) (by decide) (by decide)]
  rfl

/-- The decoder's second bias, as a one-row matrix of one entry. -/
theorem W26_v98 (c : Dev nD) : W26 m ρ c (Proc.devRef .tc main_v98) = shapeCast S1x1 (m ((c : Thread nD τ).loc main_arg21)) shapeCasts_S1_S1x1 := by
  show StableHlo.after hostOps8 (W25 m ρ c) (Proc.devRef .tc main_v98) = _
  after_results_simp
  rw [W25_arg m ρ c main_arg21 (by decide) (by decide) (by decide) (by decide)]
  rfl

theorem W26_v96 (c : Dev nD) (hr : Cert.PreIdx.InRange (m ((c : Thread nD τ).loc main_arg22))) :
    W26 m ρ c (Proc.devRef .tc main_v96) = val_main_v176 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg22)) :=
  (Keep.keepH8 m ρ c main_v96 (Keep.apart (by decide))).trans (W25_v96 m ρ c hr)

/-- The result buffer ends at the reference's result. -/
theorem W27_v99 (c : Dev nD) (hr : Cert.PreIdx.InRange (m ((c : Thread nD τ).loc main_arg22))) :
    W27 m ρ c (Proc.devRef .tc main_v99) = val_main_v203 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  refine ((W27_arr m ρ c 5).trans (Arr.arr8 (V26 m ρ) c)).trans ?_
  show decArr (W26 m ρ c (Proc.devRef .tc main_v96)) (W26 m ρ c (Proc.devRef .tc main_arg18)) (row0 (W26 m ρ c (Proc.devRef .tc main_v97)))
      (W26 m ρ c (Proc.devRef .tc main_arg20)) (row0 (W26 m ρ c (Proc.devRef .tc main_v98))) = _
  rw [W26_v96 m ρ c hr, W26_arg m ρ c main_arg18 (by decide) (by decide) (by decide) (by decide) (by decide), W26_arg m ρ c main_arg20 (by decide) (by decide) (by decide) (by decide) (by decide), W26_v97, W26_v98]
  rw [row0_reshape, row0_reshape]
  exact (Cert.ReferenceIdeal.Stage.r_v203 _ _ _ _ _ _ _ _ _ _ _ _ _ _ _ _ _ _ _ _ _ _ _).symm

end Cert.KernelIdeal.Fold

end
-- ==== Proof.RRes0.lean ====
/-
  The reference's line of host operations, cut into twelve consecutive stretches, one per stage of the network: the two
  encoders; per layer the stretch that joins, gathers and scatter-adds, then the node update, then the edge update; the
  decoder.  Running the whole line is running the stretches one after the other, so the contents after the line are
  reached through eleven intermediate valuations, and a buffer that a stretch does not write keeps its contents.
-/
import proofs.«406922_j70815420776874_1_alg».proof.Proof.RefRunP
import Idealize.ShloMosaic.Lib.Pipeline.Frame

set_option maxRecDepth 8192

noncomputable section

namespace Cert.ReferenceIdeal.Result

open Cert.ReferenceIdeal Cert.ReferenceIdeal.Gen Idealize.ShloMosaic Idealize.ShloMosaic.TcCoe Idealize.SL.Sem Idealize.ShloMosaic.StableHlo
open Cert.ReferenceIdeal.RunP

variable {F : FTy → Type} [FloatOps F]

/-- Operations `a … b - 1` of the line. -/
def stretch (a b : Nat) : List (HloOp τ sig (Elt F)) := ((ops (F := F)).drop a).take (b - a)

abbrev c1 : List (HloOp τ sig (Elt F)) := stretch 0 18
abbrev c2 : List (HloOp τ sig (Elt F)) := stretch 18 32
abbrev c3 : List (HloOp τ sig (Elt F)) := stretch 32 58
abbrev c4 : List (HloOp τ sig (Elt F)) := stretch 58 80
abbrev c5 : List (HloOp τ sig (Elt F)) := stretch 80 102
abbrev c6 : List (HloOp τ sig (Elt F)) := stretch 102 128
abbrev c7 : List (HloOp τ sig (Elt F)) := stretch 128 150
abbrev c8 : List (HloOp τ sig (Elt F)) := stretch 150 172
abbrev c9 : List (HloOp τ sig (Elt F)) := stretch 172 198
abbrev c10 : List (HloOp τ sig (Elt F)) := stretch 198 220
abbrev c11 : List (HloOp τ sig (Elt F)) := stretch 220 242
abbrev c12 : List (HloOp τ sig (Elt F)) := stretch 242 253

set_option maxHeartbeats 4000000 in
/-- The line is its twelve stretches laid end to end. -/
theorem ops_split : (ops (F := F)) = c1 ++ c2 ++ c3 ++ c4 ++ c5 ++ c6 ++ c7 ++ c8 ++ c9 ++ c10 ++ c11 ++ c12 := by
  rfl

variable (W : Valuation τ sig (Elt F))

/-- The contents after the first `k` stretches. -/
def U1 : Valuation τ sig (Elt F) := after c1 W
def U2 : Valuation τ sig (Elt F) := after c2 (U1 W)
def U3 : Valuation τ sig (Elt F) := after c3 (U2 W)
def U4 : Valuation τ sig (Elt F) := after c4 (U3 W)
def U5 : Valuation τ sig (Elt F) := after c5 (U4 W)
def U6 : Valuation τ sig (Elt F) := after c6 (U5 W)
def U7 : Valuation τ sig (Elt F) := after c7 (U6 W)
def U8 : Valuation τ sig (Elt F) := after c8 (U7 W)
def U9 : Valuation τ sig (Elt F) := after c9 (U8 W)
def U10 : Valuation τ sig (Elt F) := after c10 (U9 W)
def U11 : Valuation τ sig (Elt F) := after c11 (U10 W)
def U12 : Valuation τ sig (Elt F) := after c12 (U11 W)

/-- Running the line is running the stretches in turn. -/
theorem after_ops : after (ops (F := F)) W = U12 W := by
  rw [ops_split]
  simp only [StableHlo.after_append]
  rfl

/-! ## No operation of the line writes an argument buffer -/

/-- A buffer's position in its memory space: the arguments come first. -/
def key (r : Ref sig .tc) : Nat := r.idx.val

theorem ne_of_key_lt {b o : Ref sig .tc} {n : Nat} (hb : key b < n) (ho : n ≤ key o) : b ≠ o :=
  fun e => absurd (e ▸ hb : key o < n) (Nat.not_lt.mpr ho)

set_option maxHeartbeats 4000000 in
/-- Every operation writes a buffer that comes after the 23 arguments. -/
theorem ops_keep (b : Ref sig .tc) (hb : key b < 23) : ∀ op ∈ (ops (F := F)), Proc.devRef .tc b ∉ op.writes :=
  List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (ne_of_key_lt hb (by decide)))

/-- A stretch of the line leaves an argument buffer alone. -/
theorem stretch_keep (a b' : Nat) (b : Ref sig .tc) (hb : key b < 23) :
    after (stretch (F := F) a b') W (Proc.devRef .tc b) = W (Proc.devRef .tc b) :=
  after_of_forall_not_mem _ _ (fun op hop => ops_keep b hb op (List.mem_of_mem_drop (List.mem_of_mem_take hop)))

theorem U1_arg (b : Ref sig .tc) (hb : key b < 23) : U1 W (Proc.devRef .tc b) = W (Proc.devRef .tc b) := stretch_keep W _ _ b hb
theorem U2_arg (b : Ref sig .tc) (hb : key b < 23) : U2 W (Proc.devRef .tc b) = W (Proc.devRef .tc b) :=
  (stretch_keep (U1 W) _ _ b hb).trans (U1_arg W b hb)
theorem U3_arg (b : Ref sig .tc) (hb : key b < 23) : U3 W (Proc.devRef .tc b) = W (Proc.devRef .tc b) :=
  (stretch_keep (U2 W) _ _ b hb).trans (U2_arg W b hb)
theorem U4_arg (b : Ref sig .tc) (hb : key b < 23) : U4 W (Proc.devRef .tc b) = W (Proc.devRef .tc b) :=
  (stretch_keep (U3 W) _ _ b hb).trans (U3_arg W b hb)
theorem U5_arg (b : Ref sig .tc) (hb : key b < 23) : U5 W (Proc.devRef .tc b) = W (Proc.devRef .tc b) :=
  (stretch_keep (U4 W) _ _ b hb).trans (U4_arg W b hb)
theorem U6_arg (b : Ref sig .tc) (hb : key b < 23) : U6 W (Proc.devRef .tc b) = W (Proc.devRef .tc b) :=
  (stretch_keep (U5 W) _ _ b hb).trans (U5_arg W b hb)
theorem U7_arg (b : Ref sig .tc) (hb : key b < 23) : U7 W (Proc.devRef .tc b) = W (Proc.devRef .tc b) :=
  (stretch_keep (U6 W) _ _ b hb).trans (U6_arg W b hb)
theorem U8_arg (b : Ref sig .tc) (hb : key b < 23) : U8 W (Proc.devRef .tc b) = W (Proc.devRef .tc b) :=
  (stretch_keep (U7 W) _ _ b hb).trans (U7_arg W b hb)
theorem U9_arg (b : Ref sig .tc) (hb : key b < 23) : U9 W (Proc.devRef .tc b) = W (Proc.devRef .tc b) :=
  (stretch_keep (U8 W) _ _ b hb).trans (U8_arg W b hb)
theorem U10_arg (b : Ref sig .tc) (hb : key b < 23) : U10 W (Proc.devRef .tc b) = W (Proc.devRef .tc b) :=
  (stretch_keep (U9 W) _ _ b hb).trans (U9_arg W b hb)
theorem U11_arg (b : Ref sig .tc) (hb : key b < 23) : U11 W (Proc.devRef .tc b) = W (Proc.devRef .tc b) :=
  (stretch_keep (U10 W) _ _ b hb).trans (U10_arg W b hb)
theorem U12_arg (b : Ref sig .tc) (hb : key b < 23) : U12 W (Proc.devRef .tc b) = W (Proc.devRef .tc b) :=
  (stretch_keep (U11 W) _ _ b hb).trans (U11_arg W b hb)

end Cert.ReferenceIdeal.Result

end
-- ==== Proof.RRes1.lean ====
/-
  The reference's stages, stretch by stretch (first half).

  The reference is one straight line of operations; the line is cut into consecutive stretches, one per stage of the
  network, and the contents after the first k stretches are the valuation U_k.  Every operation writes exactly one
  buffer, as a function of the contents of the buffers it reads, so the contents of a stage's output buffer after its
  stretch are that stage's function applied to the contents, BEFORE the stretch, of the buffers the stretch reads from
  earlier stages; and a buffer that a stretch does not write keeps its contents across it.  The facts below walk the
  first six boundaries in this way.  At each boundary the buffers that a later stretch still reads are identified with
  their values as functions of the program's arguments: the two rows of the edge list (%1, %3) and the encoded nodes
  (%13) after stretch 1; the encoded edges (%23) after stretch 2; the edge-side join (%40: edge features beside the
  gathered source and target node rows) and the node-side join (%44: node features beside the scatter-added incoming
  edge features) after stretch 3; the updated nodes (%62) after stretch 4; the updated edges (%80) after stretch 5;
  and the second layer's two joins (%97, %101) after stretch 6.  An earlier stage enters a later one only as a whole,
  as its value, never opened: each step is then the composition of a handful of operations.
-/
import proofs.«406922_j70815420776874_1_alg».proof.Proof.RRes0
import proofs.«406922_j70815420776874_1_alg».proof.Proof.RefRead

set_option maxRecDepth 8192

noncomputable section

namespace Cert.ReferenceIdeal.Result

open Cert.ReferenceIdeal Cert.ReferenceIdeal.Gen Idealize.ShloMosaic Idealize.ShloMosaic.TcCoe Idealize.SL.Sem Idealize.ShloMosaic.StableHlo
open Cert.ReferenceIdeal.RunP Cert.ReferenceIdeal.ReadP

variable {F : FTy → Type} [FloatOps F] (m : (ℓ : Loc nD τ sig) → Buf (Elt F) ℓ) (c : Dev nD)

/-- An operation's result at its own buffer is its function of the contents it reads, and at any other buffer what was
    there before it: applied one operation at a time, from the last operation of a stretch down to the first.  (Used for
    the operands of a join, which stand paired with their shapes.) -/
local macro "peel_results" : tactic =>
  `(tactic| repeat (first
      | rw [nullary_result] | rw [unary_result] | rw [binary_result] | rw [ternary_result]
      | (rw [nullary_result_ne]; rotate_left; decide)
      | (rw [unary_result_ne]; rotate_left; decide)
      | (rw [binary_result_ne]; rotate_left; decide)
      | (rw [ternary_result_ne]; rotate_left; decide)
      | (rw [nary_result_ne]; rotate_left; decide)))

/-! ## After stretch 1: the two rows of the edge list and the encoded nodes -/

set_option maxHeartbeats 4000000 in
theorem U1_v1 : U1 (launchContents m c) (Proc.devRef .tc main_v1)
    = val_main_v1 (F := F) (m ((c.tc : Thread nD τ).loc main_arg22)) := by
  show after c1 (launchContents m c) (Proc.devRef .tc main_v1) = _
  simp only [c1, stretch, ops, List.drop_zero, Nat.sub_zero, List.take_succ_cons, List.take_zero]
  after_results_simp <;> (try simp only [TRef.ofBuf, TRef.toBuf, cast_eq]) <;> rfl

set_option maxHeartbeats 4000000 in
theorem U1_v3 : U1 (launchContents m c) (Proc.devRef .tc main_v3)
    = val_main_v3 (F := F) (m ((c.tc : Thread nD τ).loc main_arg22)) := by
  show after c1 (launchContents m c) (Proc.devRef .tc main_v3) = _
  simp only [c1, stretch, ops, List.drop_zero, Nat.sub_zero, List.take_succ_cons, List.take_zero]
  after_results_simp <;> (try simp only [TRef.ofBuf, TRef.toBuf, cast_eq]) <;> rfl

set_option maxHeartbeats 4000000 in
theorem U1_v13 : U1 (launchContents m c) (Proc.devRef .tc main_v13)
    = val_main_v13 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) := by
  show after c1 (launchContents m c) (Proc.devRef .tc main_v13) = _
  simp only [c1, stretch, ops, List.drop_zero, Nat.sub_zero, List.take_succ_cons, List.take_zero]
  after_results_simp <;> (try simp only [TRef.ofBuf, TRef.toBuf, cast_eq]) <;> rfl

/-! ## After stretch 2: the encoded edges; stretch 2 writes none of the buffers of stretch 1 -/

set_option maxHeartbeats 4000000 in
theorem U2_v23 : U2 (launchContents m c) (Proc.devRef .tc main_v23)
    = val_main_v23 (F := F) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) := by
  show after c2 (U1 (launchContents m c)) (Proc.devRef .tc main_v23) = _
  simp only [c2, stretch, ops, List.drop_succ_cons, List.drop_zero, Nat.reduceSub, List.take_succ_cons, List.take_zero]
  after_results_simp <;> (try simp only [TRef.ofBuf, TRef.toBuf, cast_eq])
  simp only [U1_arg _ main_arg1 (by decide), U1_arg _ main_arg6 (by decide), U1_arg _ main_arg7 (by decide), U1_arg _ main_arg8 (by decide), U1_arg _ main_arg9 (by decide)]
  rfl

set_option maxHeartbeats 4000000 in
theorem U2_v13 : U2 (launchContents m c) (Proc.devRef .tc main_v13)
    = val_main_v13 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) := by
  show after c2 (U1 (launchContents m c)) (Proc.devRef .tc main_v13) = _
  simp only [c2, stretch, ops, List.drop_succ_cons, List.drop_zero, Nat.reduceSub, List.take_succ_cons, List.take_zero]
  after_results_simp <;> (try simp only [TRef.ofBuf, TRef.toBuf, cast_eq])
  exact U1_v13 m c

set_option maxHeartbeats 4000000 in
theorem U2_v1 : U2 (launchContents m c) (Proc.devRef .tc main_v1)
    = val_main_v1 (F := F) (m ((c.tc : Thread nD τ).loc main_arg22)) := by
  show after c2 (U1 (launchContents m c)) (Proc.devRef .tc main_v1) = _
  simp only [c2, stretch, ops, List.drop_succ_cons, List.drop_zero, Nat.reduceSub, List.take_succ_cons, List.take_zero]
  after_results_simp <;> (try simp only [TRef.ofBuf, TRef.toBuf, cast_eq])
  exact U1_v1 m c

set_option maxHeartbeats 4000000 in
theorem U2_v3 : U2 (launchContents m c) (Proc.devRef .tc main_v3)
    = val_main_v3 (F := F) (m ((c.tc : Thread nD τ).loc main_arg22)) := by
  show after c2 (U1 (launchContents m c)) (Proc.devRef .tc main_v3) = _
  simp only [c2, stretch, ops, List.drop_succ_cons, List.drop_zero, Nat.reduceSub, List.take_succ_cons, List.take_zero]
  after_results_simp <;> (try simp only [TRef.ofBuf, TRef.toBuf, cast_eq])
  exact U1_v3 m c

/-! ## After stretch 3: the first layer's two joins (each operand of a join is itself a composition inside the stretch) -/

set_option maxHeartbeats 4000000 in
theorem U3_v40 : U3 (launchContents m c) (Proc.devRef .tc main_v40)
    = val_main_v40 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg22)) := by
  show after c3 (U2 (launchContents m c)) (Proc.devRef .tc main_v40) = _
  simp only [c3, stretch, ops, List.drop_succ_cons, List.drop_zero, Nat.reduceSub, List.take_succ_cons, List.take_zero]
  after_results_simp
  (try simp only [Matrix.cons_val])
  peel_results
  rw [U2_v13 m c, U2_v23 m c, U2_v1 m c, U2_v3 m c]
  rfl

set_option maxHeartbeats 4000000 in
theorem U3_v44 : U3 (launchContents m c) (Proc.devRef .tc main_v44)
    = val_main_v44 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg22)) := by
  show after c3 (U2 (launchContents m c)) (Proc.devRef .tc main_v44) = _
  simp only [c3, stretch, ops, List.drop_succ_cons, List.drop_zero, Nat.reduceSub, List.take_succ_cons, List.take_zero]
  after_results_simp
  (try simp only [Matrix.cons_val])
  peel_results
  rw [U2_v13 m c, U2_v23 m c, U2_v3 m c]
  rfl

set_option maxHeartbeats 4000000 in
theorem U3_v13 : U3 (launchContents m c) (Proc.devRef .tc main_v13)
    = val_main_v13 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) := by
  show after c3 (U2 (launchContents m c)) (Proc.devRef .tc main_v13) = _
  simp only [c3, stretch, ops, List.drop_succ_cons, List.drop_zero, Nat.reduceSub, List.take_succ_cons, List.take_zero]
  after_results_simp <;> (try simp only [TRef.ofBuf, TRef.toBuf, cast_eq])
  exact U2_v13 m c

set_option maxHeartbeats 4000000 in
theorem U3_v23 : U3 (launchContents m c) (Proc.devRef .tc main_v23)
    = val_main_v23 (F := F) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) := by
  show after c3 (U2 (launchContents m c)) (Proc.devRef .tc main_v23) = _
  simp only [c3, stretch, ops, List.drop_succ_cons, List.drop_zero, Nat.reduceSub, List.take_succ_cons, List.take_zero]
  after_results_simp <;> (try simp only [TRef.ofBuf, TRef.toBuf, cast_eq])
  exact U2_v23 m c

set_option maxHeartbeats 4000000 in
theorem U3_v1 : U3 (launchContents m c) (Proc.devRef .tc main_v1)
    = val_main_v1 (F := F) (m ((c.tc : Thread nD τ).loc main_arg22)) := by
  show after c3 (U2 (launchContents m c)) (Proc.devRef .tc main_v1) = _
  simp only [c3, stretch, ops, List.drop_succ_cons, List.drop_zero, Nat.reduceSub, List.take_succ_cons, List.take_zero]
  after_results_simp <;> (try simp only [TRef.ofBuf, TRef.toBuf, cast_eq])
  exact U2_v1 m c

set_option maxHeartbeats 4000000 in
theorem U3_v3 : U3 (launchContents m c) (Proc.devRef .tc main_v3)
    = val_main_v3 (F := F) (m ((c.tc : Thread nD τ).loc main_arg22)) := by
  show after c3 (U2 (launchContents m c)) (Proc.devRef .tc main_v3) = _
  simp only [c3, stretch, ops, List.drop_succ_cons, List.drop_zero, Nat.reduceSub, List.take_succ_cons, List.take_zero]
  after_results_simp <;> (try simp only [TRef.ofBuf, TRef.toBuf, cast_eq])
  exact U2_v3 m c

/-! ## After stretch 4: the first node update, a function of the node-side join and of the first slices of its weights -/

set_option maxHeartbeats 4000000 in
theorem U4_v62 : U4 (launchContents m c) (Proc.devRef .tc main_v62)
    = val_main_v62 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg22)) := by
  show after c4 (U3 (launchContents m c)) (Proc.devRef .tc main_v62) = _
  simp only [c4, stretch, ops, List.drop_succ_cons, List.drop_zero, Nat.reduceSub, List.take_succ_cons, List.take_zero]
  after_results_simp <;> (try simp only [TRef.ofBuf, TRef.toBuf, cast_eq])
  simp only [U3_v44 m c, U3_arg _ main_arg14 (by decide), U3_arg _ main_arg15 (by decide), U3_arg _ main_arg16 (by decide), U3_arg _ main_arg17 (by decide)]
  rfl

set_option maxHeartbeats 4000000 in
theorem U4_v40 : U4 (launchContents m c) (Proc.devRef .tc main_v40)
    = val_main_v40 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg22)) := by
  show after c4 (U3 (launchContents m c)) (Proc.devRef .tc main_v40) = _
  simp only [c4, stretch, ops, List.drop_succ_cons, List.drop_zero, Nat.reduceSub, List.take_succ_cons, List.take_zero]
  after_results_simp <;> (try simp only [TRef.ofBuf, TRef.toBuf, cast_eq])
  exact U3_v40 m c

set_option maxHeartbeats 4000000 in
theorem U4_v13 : U4 (launchContents m c) (Proc.devRef .tc main_v13)
    = val_main_v13 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) := by
  show after c4 (U3 (launchContents m c)) (Proc.devRef .tc main_v13) = _
  simp only [c4, stretch, ops, List.drop_succ_cons, List.drop_zero, Nat.reduceSub, List.take_succ_cons, List.take_zero]
  after_results_simp <;> (try simp only [TRef.ofBuf, TRef.toBuf, cast_eq])
  exact U3_v13 m c

set_option maxHeartbeats 4000000 in
theorem U4_v23 : U4 (launchContents m c) (Proc.devRef .tc main_v23)
    = val_main_v23 (F := F) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) := by
  show after c4 (U3 (launchContents m c)) (Proc.devRef .tc main_v23) = _
  simp only [c4, stretch, ops, List.drop_succ_cons, List.drop_zero, Nat.reduceSub, List.take_succ_cons, List.take_zero]
  after_results_simp <;> (try simp only [TRef.ofBuf, TRef.toBuf, cast_eq])
  exact U3_v23 m c

set_option maxHeartbeats 4000000 in
theorem U4_v1 : U4 (launchContents m c) (Proc.devRef .tc main_v1)
    = val_main_v1 (F := F) (m ((c.tc : Thread nD τ).loc main_arg22)) := by
  show after c4 (U3 (launchContents m c)) (Proc.devRef .tc main_v1) = _
  simp only [c4, stretch, ops, List.drop_succ_cons, List.drop_zero, Nat.reduceSub, List.take_succ_cons, List.take_zero]
  after_results_simp <;> (try simp only [TRef.ofBuf, TRef.toBuf, cast_eq])
  exact U3_v1 m c

set_option maxHeartbeats 4000000 in
theorem U4_v3 : U4 (launchContents m c) (Proc.devRef .tc main_v3)
    = val_main_v3 (F := F) (m ((c.tc : Thread nD τ).loc main_arg22)) := by
  show after c4 (U3 (launchContents m c)) (Proc.devRef .tc main_v3) = _
  simp only [c4, stretch, ops, List.drop_succ_cons, List.drop_zero, Nat.reduceSub, List.take_succ_cons, List.take_zero]
  after_results_simp <;> (try simp only [TRef.ofBuf, TRef.toBuf, cast_eq])
  exact U3_v3 m c

/-! ## After stretch 5: the first edge update, a function of the edge-side join and of the first slices of its weights -/

set_option maxHeartbeats 4000000 in
theorem U5_v80 : U5 (launchContents m c) (Proc.devRef .tc main_v80)
    = val_main_v80 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg22)) := by
  show after c5 (U4 (launchContents m c)) (Proc.devRef .tc main_v80) = _
  simp only [c5, stretch, ops, List.drop_succ_cons, List.drop_zero, Nat.reduceSub, List.take_succ_cons, List.take_zero]
  after_results_simp <;> (try simp only [TRef.ofBuf, TRef.toBuf, cast_eq])
  simp only [U4_v40 m c, U4_arg _ main_arg10 (by decide), U4_arg _ main_arg11 (by decide), U4_arg _ main_arg12 (by decide), U4_arg _ main_arg13 (by decide)]
  rfl

set_option maxHeartbeats 4000000 in
theorem U5_v62 : U5 (launchContents m c) (Proc.devRef .tc main_v62)
    = val_main_v62 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg22)) := by
  show after c5 (U4 (launchContents m c)) (Proc.devRef .tc main_v62) = _
  simp only [c5, stretch, ops, List.drop_succ_cons, List.drop_zero, Nat.reduceSub, List.take_succ_cons, List.take_zero]
  after_results_simp <;> (try simp only [TRef.ofBuf, TRef.toBuf, cast_eq])
  exact U4_v62 m c

set_option maxHeartbeats 4000000 in
theorem U5_v13 : U5 (launchContents m c) (Proc.devRef .tc main_v13)
    = val_main_v13 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) := by
  show after c5 (U4 (launchContents m c)) (Proc.devRef .tc main_v13) = _
  simp only [c5, stretch, ops, List.drop_succ_cons, List.drop_zero, Nat.reduceSub, List.take_succ_cons, List.take_zero]
  after_results_simp <;> (try simp only [TRef.ofBuf, TRef.toBuf, cast_eq])
  exact U4_v13 m c

set_option maxHeartbeats 4000000 in
theorem U5_v23 : U5 (launchContents m c) (Proc.devRef .tc main_v23)
    = val_main_v23 (F := F) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) := by
  show after c5 (U4 (launchContents m c)) (Proc.devRef .tc main_v23) = _
  simp only [c5, stretch, ops, List.drop_succ_cons, List.drop_zero, Nat.reduceSub, List.take_succ_cons, List.take_zero]
  after_results_simp <;> (try simp only [TRef.ofBuf, TRef.toBuf, cast_eq])
  exact U4_v23 m c

set_option maxHeartbeats 4000000 in
theorem U5_v1 : U5 (launchContents m c) (Proc.devRef .tc main_v1)
    = val_main_v1 (F := F) (m ((c.tc : Thread nD τ).loc main_arg22)) := by
  show after c5 (U4 (launchContents m c)) (Proc.devRef .tc main_v1) = _
  simp only [c5, stretch, ops, List.drop_succ_cons, List.drop_zero, Nat.reduceSub, List.take_succ_cons, List.take_zero]
  after_results_simp <;> (try simp only [TRef.ofBuf, TRef.toBuf, cast_eq])
  exact U4_v1 m c

set_option maxHeartbeats 4000000 in
theorem U5_v3 : U5 (launchContents m c) (Proc.devRef .tc main_v3)
    = val_main_v3 (F := F) (m ((c.tc : Thread nD τ).loc main_arg22)) := by
  show after c5 (U4 (launchContents m c)) (Proc.devRef .tc main_v3) = _
  simp only [c5, stretch, ops, List.drop_succ_cons, List.drop_zero, Nat.reduceSub, List.take_succ_cons, List.take_zero]
  after_results_simp <;> (try simp only [TRef.ofBuf, TRef.toBuf, cast_eq])
  exact U4_v3 m c

/-! ## After stretch 6: the second layer's two joins, of the updated and the encoded features -/

set_option maxHeartbeats 4000000 in
theorem U6_v97 : U6 (launchContents m c) (Proc.devRef .tc main_v97)
    = val_main_v97 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg22)) := by
  show after c6 (U5 (launchContents m c)) (Proc.devRef .tc main_v97) = _
  simp only [c6, stretch, ops, List.drop_succ_cons, List.drop_zero, Nat.reduceSub, List.take_succ_cons, List.take_zero]
  after_results_simp
  (try simp only [Matrix.cons_val])
  peel_results
  rw [U5_v80 m c, U5_v23 m c, U5_v62 m c, U5_v13 m c, U5_v1 m c, U5_v3 m c]
  rfl

set_option maxHeartbeats 4000000 in
theorem U6_v101 : U6 (launchContents m c) (Proc.devRef .tc main_v101)
    = val_main_v101 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg22)) := by
  show after c6 (U5 (launchContents m c)) (Proc.devRef .tc main_v101) = _
  simp only [c6, stretch, ops, List.drop_succ_cons, List.drop_zero, Nat.reduceSub, List.take_succ_cons, List.take_zero]
  after_results_simp
  (try simp only [Matrix.cons_val])
  peel_results
  rw [U5_v62 m c, U5_v13 m c, U5_v3 m c, U5_v80 m c, U5_v23 m c]
  rfl

set_option maxHeartbeats 4000000 in
theorem U6_v13 : U6 (launchContents m c) (Proc.devRef .tc main_v13)
    = val_main_v13 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) := by
  show after c6 (U5 (launchContents m c)) (Proc.devRef .tc main_v13) = _
  simp only [c6, stretch, ops, List.drop_succ_cons, List.drop_zero, Nat.reduceSub, List.take_succ_cons, List.take_zero]
  after_results_simp <;> (try simp only [TRef.ofBuf, TRef.toBuf, cast_eq])
  exact U5_v13 m c

set_option maxHeartbeats 4000000 in
theorem U6_v23 : U6 (launchContents m c) (Proc.devRef .tc main_v23)
    = val_main_v23 (F := F) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) := by
  show after c6 (U5 (launchContents m c)) (Proc.devRef .tc main_v23) = _
  simp only [c6, stretch, ops, List.drop_succ_cons, List.drop_zero, Nat.reduceSub, List.take_succ_cons, List.take_zero]
  after_results_simp <;> (try simp only [TRef.ofBuf, TRef.toBuf, cast_eq])
  exact U5_v23 m c

set_option maxHeartbeats 4000000 in
theorem U6_v3 : U6 (launchContents m c) (Proc.devRef .tc main_v3)
    = val_main_v3 (F := F) (m ((c.tc : Thread nD τ).loc main_arg22)) := by
  show after c6 (U5 (launchContents m c)) (Proc.devRef .tc main_v3) = _
  simp only [c6, stretch, ops, List.drop_succ_cons, List.drop_zero, Nat.reduceSub, List.take_succ_cons, List.take_zero]
  after_results_simp <;> (try simp only [TRef.ofBuf, TRef.toBuf, cast_eq])
  exact U5_v3 m c

end Cert.ReferenceIdeal.Result

end
-- ==== Proof.RRes2.lean ====
/-
  The reference's stages, stretch by stretch (second half).

  After the sixth stretch of the line the buffers that are still read hold, as functions of the program's arguments,
  the second layer's two joins (%97 on the edge side, %101 on the node side), the encoded nodes (%13), the encoded
  edges (%23) and the target row of the edge list (%3).  The facts below walk the remaining six boundaries.

  * Stretch 7 is the second node update: layer 1 is sliced out of the four stacked node-update parameters, and %101
    goes through linear map, bias, maximum with zero, linear map, bias, maximum with zero; the outcome is %119.
  * Stretch 8 is the same two-layer perceptron on the edge side, with the stacked edge-update parameters, from %97
    to %137.
  * Stretch 9 prepares the third layer's node input: %138 is the updated nodes beside the encoded nodes, %139 the
    updated edges beside the encoded edges, %157 the sum of the rows of %139 over the edges that arrive at each node
    (the rows added, at the row index %3, into an array of zeros), and %158 is %138 beside %157.  The stretch also
    normalises the two index rows, gathers the source and target node rows and joins them to the edge rows; those
    operations feed the third edge update alone and %158 does not depend on them.
  * Stretch 10 is the third node update, from %158 to %176.
  * Stretch 11 is the third edge update.  Nothing after it reads its outcome, so all that is said of it is that it
    leaves %176 alone.
  * Stretch 12 is the decoder: linear map, bias, maximum with zero, linear map, bias, from %176 to the result %203.

  Every operation writes one buffer, as a function of the contents of the buffers it reads.  Hence the contents of a
  stage's output buffer after its stretch are the stage's operations composed, applied to the contents BEFORE the
  stretch of the buffers the stretch reads from earlier stages and of the argument buffers, which no operation writes.
  The former are the previous boundary's facts, the latter the launch contents; and the stage's value, as the
  read-back defines it, unfolds to that same composition over the same inputs.  An earlier stage enters only as a whole,
  as its value, never opened.  A buffer that a stretch does not write keeps its contents across it.
-/
import proofs.«406922_j70815420776874_1_alg».proof.Proof.RRes1

set_option maxRecDepth 8192

noncomputable section

namespace Cert.ReferenceIdeal.Result

open Cert.ReferenceIdeal Cert.ReferenceIdeal.Gen Idealize.ShloMosaic Idealize.ShloMosaic.TcCoe Idealize.SL.Sem Idealize.ShloMosaic.StableHlo
open Cert.ReferenceIdeal.RunP Cert.ReferenceIdeal.ReadP

variable {F : FTy → Type} [FloatOps F] (m : (ℓ : Loc nD τ sig) → Buf (Elt F) ℓ) (c : Dev nD)

set_option quotPrecheck false in
/-- The launch contents of an argument buffer. -/
local notation "𝔞(" b ")" => m ((c.tc : Thread nD τ).loc b)

set_option quotPrecheck false in
/-- A stage's value at the nineteen arguments that the three layers depend on: the node and edge features, the two
    encoders' parameters, the stacked update parameters and the edge list. -/
local notation "⟪" f "⟫" => f 𝔞(main_arg0) 𝔞(main_arg1) 𝔞(main_arg2) 𝔞(main_arg3) 𝔞(main_arg4) 𝔞(main_arg5) 𝔞(main_arg6) 𝔞(main_arg7) 𝔞(main_arg8) 𝔞(main_arg9) 𝔞(main_arg10) 𝔞(main_arg11) 𝔞(main_arg12) 𝔞(main_arg13) 𝔞(main_arg14) 𝔞(main_arg15) 𝔞(main_arg16) 𝔞(main_arg17) 𝔞(main_arg22)

/-- Lay a stretch of the line out as the literal list of its operations and read one buffer back through it: what remains
    is the written operation's function applied to the contents, before the stretch, of the buffers it reads. -/
local macro "read_stretch" : tactic => `(tactic| (
  simp only [stretch, ops, List.drop_zero, List.drop_succ_cons, Nat.reduceSub, List.take_succ_cons, List.take_zero]
  after_results_simp <;> (try simp only [TRef.ofBuf, TRef.toBuf, cast_eq])))

/-! ## Boundary 7: the second node update -/

set_option maxHeartbeats 4000000 in
theorem U7_v119 : U7 (launchContents m c) (Proc.devRef .tc main_v119) = ⟪val_main_v119 (F := F)⟫ := by
  show after (stretch 128 150) (U6 (launchContents m c)) (Proc.devRef .tc main_v119) = _
  read_stretch
  rw [U6_v101 m c, U6_arg _ main_arg14 (by decide), U6_arg _ main_arg15 (by decide), U6_arg _ main_arg16 (by decide), U6_arg _ main_arg17 (by decide)]
  rfl

set_option maxHeartbeats 4000000 in
theorem U7_v97 : U7 (launchContents m c) (Proc.devRef .tc main_v97) = ⟪val_main_v97 (F := F)⟫ := by
  show after (stretch 128 150) (U6 (launchContents m c)) (Proc.devRef .tc main_v97) = _
  read_stretch
  exact U6_v97 m c

set_option maxHeartbeats 4000000 in
theorem U7_v13 : U7 (launchContents m c) (Proc.devRef .tc main_v13) = val_main_v13 (F := F) 𝔞(main_arg0) 𝔞(main_arg2) 𝔞(main_arg3) 𝔞(main_arg4) 𝔞(main_arg5) := by
  show after (stretch 128 150) (U6 (launchContents m c)) (Proc.devRef .tc main_v13) = _
  read_stretch
  exact U6_v13 m c

set_option maxHeartbeats 4000000 in
theorem U7_v23 : U7 (launchContents m c) (Proc.devRef .tc main_v23) = val_main_v23 (F := F) 𝔞(main_arg1) 𝔞(main_arg6) 𝔞(main_arg7) 𝔞(main_arg8) 𝔞(main_arg9) := by
  show after (stretch 128 150) (U6 (launchContents m c)) (Proc.devRef .tc main_v23) = _
  read_stretch
  exact U6_v23 m c

set_option maxHeartbeats 4000000 in
theorem U7_v3 : U7 (launchContents m c) (Proc.devRef .tc main_v3) = val_main_v3 (F := F) 𝔞(main_arg22) := by
  show after (stretch 128 150) (U6 (launchContents m c)) (Proc.devRef .tc main_v3) = _
  read_stretch
  exact U6_v3 m c

/-! ## Boundary 8: the second edge update -/

set_option maxHeartbeats 4000000 in
theorem U8_v137 : U8 (launchContents m c) (Proc.devRef .tc main_v137) = ⟪val_main_v137 (F := F)⟫ := by
  show after (stretch 150 172) (U7 (launchContents m c)) (Proc.devRef .tc main_v137) = _
  read_stretch
  rw [U7_v97 m c, U7_arg _ main_arg10 (by decide), U7_arg _ main_arg11 (by decide), U7_arg _ main_arg12 (by decide), U7_arg _ main_arg13 (by decide)]
  rfl

set_option maxHeartbeats 4000000 in
theorem U8_v119 : U8 (launchContents m c) (Proc.devRef .tc main_v119) = ⟪val_main_v119 (F := F)⟫ := by
  show after (stretch 150 172) (U7 (launchContents m c)) (Proc.devRef .tc main_v119) = _
  read_stretch
  exact U7_v119 m c

set_option maxHeartbeats 4000000 in
theorem U8_v13 : U8 (launchContents m c) (Proc.devRef .tc main_v13) = val_main_v13 (F := F) 𝔞(main_arg0) 𝔞(main_arg2) 𝔞(main_arg3) 𝔞(main_arg4) 𝔞(main_arg5) := by
  show after (stretch 150 172) (U7 (launchContents m c)) (Proc.devRef .tc main_v13) = _
  read_stretch
  exact U7_v13 m c

set_option maxHeartbeats 4000000 in
theorem U8_v23 : U8 (launchContents m c) (Proc.devRef .tc main_v23) = val_main_v23 (F := F) 𝔞(main_arg1) 𝔞(main_arg6) 𝔞(main_arg7) 𝔞(main_arg8) 𝔞(main_arg9) := by
  show after (stretch 150 172) (U7 (launchContents m c)) (Proc.devRef .tc main_v23) = _
  read_stretch
  exact U7_v23 m c

set_option maxHeartbeats 4000000 in
theorem U8_v3 : U8 (launchContents m c) (Proc.devRef .tc main_v3) = val_main_v3 (F := F) 𝔞(main_arg22) := by
  show after (stretch 150 172) (U7 (launchContents m c)) (Proc.devRef .tc main_v3) = _
  read_stretch
  exact U7_v3 m c

/-! ## Boundary 9: the third layer's joined node rows, joined edge rows, their sum over incoming edges, and the node
    update's input -/

set_option maxHeartbeats 4000000 in
/-- The stretch holds, between the two joins and the sum, the operations that prepare the third edge update (index
    normalisation, two row gathers, a three-way join): the buffer read back here is written after them and reads none of
    their outcomes, so they are stepped over one by one. -/
theorem U9_v158 : U9 (launchContents m c) (Proc.devRef .tc main_v158) = ⟪val_main_v158 (F := F)⟫ := by
  show after (stretch 172 198) (U8 (launchContents m c)) (Proc.devRef .tc main_v158) = _
  simp only [stretch, ops, List.drop_zero, List.drop_succ_cons, Nat.reduceSub, List.take_succ_cons, List.take_zero]
  after_results
  rw [U8_v119 m c, U8_v13 m c, U8_v3 m c, U8_v137 m c, U8_v23 m c]
  rfl

/-! ## Boundary 10: the third node update -/

set_option maxHeartbeats 4000000 in
theorem U10_v176 : U10 (launchContents m c) (Proc.devRef .tc main_v176) = ⟪val_main_v176 (F := F)⟫ := by
  show after (stretch 198 220) (U9 (launchContents m c)) (Proc.devRef .tc main_v176) = _
  read_stretch
  rw [U9_v158 m c, U9_arg _ main_arg14 (by decide), U9_arg _ main_arg15 (by decide), U9_arg _ main_arg16 (by decide), U9_arg _ main_arg17 (by decide)]
  rfl

/-! ## Boundary 11: the third edge update writes nothing that is read afterwards -/

set_option maxHeartbeats 4000000 in
theorem U11_v176 : U11 (launchContents m c) (Proc.devRef .tc main_v176) = ⟪val_main_v176 (F := F)⟫ := by
  show after (stretch 220 242) (U10 (launchContents m c)) (Proc.devRef .tc main_v176) = _
  read_stretch
  exact U10_v176 m c

/-! ## Boundary 12: the decoder -/

set_option maxHeartbeats 4000000 in
theorem U12_v203 : U12 (launchContents m c) (Proc.devRef .tc main_v203) = val_main_v203 (F := F) 𝔞(main_arg0) 𝔞(main_arg1) 𝔞(main_arg2) 𝔞(main_arg3) 𝔞(main_arg4) 𝔞(main_arg5) 𝔞(main_arg6) 𝔞(main_arg7) 𝔞(main_arg8) 𝔞(main_arg9) 𝔞(main_arg10) 𝔞(main_arg11) 𝔞(main_arg12) 𝔞(main_arg13) 𝔞(main_arg14) 𝔞(main_arg15) 𝔞(main_arg16) 𝔞(main_arg17) 𝔞(main_arg18) 𝔞(main_arg19) 𝔞(main_arg20) 𝔞(main_arg21) 𝔞(main_arg22) := by
  show after (stretch 242 253) (U11 (launchContents m c)) (Proc.devRef .tc main_v203) = _
  read_stretch
  rw [U11_v176 m c, U11_arg _ main_arg18 (by decide), U11_arg _ main_arg19 (by decide), U11_arg _ main_arg20 (by decide), U11_arg _ main_arg21 (by decide)]
  rfl

/-- The line of the reference leaves in its result buffer the value read back from the operations, stage by stage. -/
theorem result : after (ops (F := F)) (launchContents m c) (Proc.devRef .tc main_v203) = val_main_v203 (F := F) 𝔞(main_arg0) 𝔞(main_arg1) 𝔞(main_arg2) 𝔞(main_arg3) 𝔞(main_arg4) 𝔞(main_arg5) 𝔞(main_arg6) 𝔞(main_arg7) 𝔞(main_arg8) 𝔞(main_arg9) 𝔞(main_arg10) 𝔞(main_arg11) 𝔞(main_arg12) 𝔞(main_arg13) 𝔞(main_arg14) 𝔞(main_arg15) 𝔞(main_arg16) 𝔞(main_arg17) 𝔞(main_arg18) 𝔞(main_arg19) 𝔞(main_arg20) 𝔞(main_arg21) 𝔞(main_arg22) :=
  (congrFun (after_ops _) _).trans (U12_v203 m c)

end Cert.ReferenceIdeal.Result

end
-- ==== Proof.RResult.lean ====
/-
  What the reference program leaves in its result buffer, and that it leaves its arguments alone.  The program is one
  straight line of host operations; after the line a buffer holds the fold of the operations' results over the launch
  contents.  At the result buffer that fold is the last stage of the read-back (reached stretch by stretch, every
  earlier stage kept as the stage it is); no operation writes an argument buffer, so there the fold returns the
  launch contents.
-/
import proofs.«406922_j70815420776874_1_alg».proof.Proof.RRes2

noncomputable section

namespace Cert.ReferenceIdeal.Result

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.RunP

variable {F : FTy → Type} [FloatOps F] (m : (ℓ : Loc nD τ sig) → Buf (Elt F) ℓ) (c : Dev nD)

/-- An argument buffer after the line holds its launch contents. -/
theorem arg_eq (b : Ref sig .tc) (hb : key b < 23) :
    after (ops (F := F)) (launchContents m c) (Proc.devRef .tc b) = m ((c.tc : Thread nD τ).loc b) :=
  (congrFun (after_ops (launchContents m c)) _).trans (U12_arg (launchContents m c) b hb)

end Cert.ReferenceIdeal.Result

end
-- ==== Proof.lean ====
/-
  The certificate of the graph-network kernel against its jnp reference, over the extended reals.

  The kernel program runs nine tiled regions (two encoders, per layer an edge update and a node update, a decoder)
  among host stretches that concatenate, gather rows, scatter-add and slice; the reference is one line of host
  operations.  Each region, read as a function of whole arrays, is a two-layer perceptron applied to every row, and so is
  each perceptron stage of the reference; the host operations between them are the same functions in both programs,
  except that the kernel's row gather fills rows whose index is out of range, where the reference's clamps: with every
  edge index in `[0, 100000)` (the precondition's last two conjuncts) the two agree.  Walking the kernel's buffers
  boundary by boundary, each holds the reference's stage of the same arguments, and the result buffer the reference's
  result.  The three frames are the generated ones (the reference's from its run); the ideal pass rewrote nothing, so
  `preserves` is trivial.
-/
import proofs.«406922_j70815420776874_1_alg».proof.Defs
import proofs.«406922_j70815420776874_1_alg».proof.Proof.Gen.Kernel
import proofs.«406922_j70815420776874_1_alg».proof.Proof.Gen.Kernel.Frame
import proofs.«406922_j70815420776874_1_alg».proof.Proof.Gen.KernelIdeal
import proofs.«406922_j70815420776874_1_alg».proof.Proof.Gen.KernelIdeal.Frame
import proofs.«406922_j70815420776874_1_alg».proof.Proof.Gen.ReferenceIdeal
import proofs.«406922_j70815420776874_1_alg».proof.Proof.Gen.Pre_finite_inputs
import proofs.«406922_j70815420776874_1_alg».proof.Proof.KRun
import proofs.«406922_j70815420776874_1_alg».proof.Proof.KFold3
import proofs.«406922_j70815420776874_1_alg».proof.Proof.RResult
import proofs.«406922_j70815420776874_1_alg».proof.Proof.PreIdx
import Idealize.ShloMosaic.Adequacy
import Idealize.ShloMosaic.Init

set_option maxRecDepth 8192

noncomputable section

namespace Cert.Proof

open Idealize.ShloMosaic Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference's frame: its run, each argument buffer read back to its launch contents. -/
theorem frame_ri : Cert.frame_ReferenceIdeal := fun m ρ _ =>
  (θ_run Cert.ReferenceIdeal.defs _ _).mono (fun _ h c =>
    ⟨(h c _).trans (Cert.ReferenceIdeal.Result.arg_eq m c Cert.ReferenceIdeal.main_arg0 (by decide)),
     (h c _).trans (Cert.ReferenceIdeal.Result.arg_eq m c Cert.ReferenceIdeal.main_arg1 (by decide)),
     (h c _).trans (Cert.ReferenceIdeal.Result.arg_eq m c Cert.ReferenceIdeal.main_arg2 (by decide)),
     (h c _).trans (Cert.ReferenceIdeal.Result.arg_eq m c Cert.ReferenceIdeal.main_arg3 (by decide)),
     (h c _).trans (Cert.ReferenceIdeal.Result.arg_eq m c Cert.ReferenceIdeal.main_arg4 (by decide)),
     (h c _).trans (Cert.ReferenceIdeal.Result.arg_eq m c Cert.ReferenceIdeal.main_arg5 (by decide)),
     (h c _).trans (Cert.ReferenceIdeal.Result.arg_eq m c Cert.ReferenceIdeal.main_arg6 (by decide)),
     (h c _).trans (Cert.ReferenceIdeal.Result.arg_eq m c Cert.ReferenceIdeal.main_arg7 (by decide)),
     (h c _).trans (Cert.ReferenceIdeal.Result.arg_eq m c Cert.ReferenceIdeal.main_arg8 (by decide)),
     (h c _).trans (Cert.ReferenceIdeal.Result.arg_eq m c Cert.ReferenceIdeal.main_arg9 (by decide)),
     (h c _).trans (Cert.ReferenceIdeal.Result.arg_eq m c Cert.ReferenceIdeal.main_arg10 (by decide)),
     (h c _).trans (Cert.ReferenceIdeal.Result.arg_eq m c Cert.ReferenceIdeal.main_arg11 (by decide)),
     (h c _).trans (Cert.ReferenceIdeal.Result.arg_eq m c Cert.ReferenceIdeal.main_arg12 (by decide)),
     (h c _).trans (Cert.ReferenceIdeal.Result.arg_eq m c Cert.ReferenceIdeal.main_arg13 (by decide)),
     (h c _).trans (Cert.ReferenceIdeal.Result.arg_eq m c Cert.ReferenceIdeal.main_arg14 (by decide)),
     (h c _).trans (Cert.ReferenceIdeal.Result.arg_eq m c Cert.ReferenceIdeal.main_arg15 (by decide)),
     (h c _).trans (Cert.ReferenceIdeal.Result.arg_eq m c Cert.ReferenceIdeal.main_arg16 (by decide)),
     (h c _).trans (Cert.ReferenceIdeal.Result.arg_eq m c Cert.ReferenceIdeal.main_arg17 (by decide)),
     (h c _).trans (Cert.ReferenceIdeal.Result.arg_eq m c Cert.ReferenceIdeal.main_arg18 (by decide)),
     (h c _).trans (Cert.ReferenceIdeal.Result.arg_eq m c Cert.ReferenceIdeal.main_arg19 (by decide)),
     (h c _).trans (Cert.ReferenceIdeal.Result.arg_eq m c Cert.ReferenceIdeal.main_arg20 (by decide)),
     (h c _).trans (Cert.ReferenceIdeal.Result.arg_eq m c Cert.ReferenceIdeal.main_arg21 (by decide)),
     (h c _).trans (Cert.ReferenceIdeal.Result.arg_eq m c Cert.ReferenceIdeal.main_arg22 (by decide))⟩)
    (Cert.ReferenceIdeal.RunP.run_raw (F := Ideal) m ρ)

theorem preserves : Cert.preserves_Kernel_KernelIdeal := trivial

/-- Both idealized programs end with the reference's last stage of the (agreeing) arguments in their result buffers. -/
theorem algebraic : Cert.algebraic_KernelIdeal_ReferenceIdeal := by
  intro m ρ m' ρ' hpre hagree
  refine ⟨fun c => Cert.ReferenceIdeal.ReadP.val_main_v203 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))
    (m ((c.tc : Thread Cert.KernelIdeal.nD Cert.KernelIdeal.τ).loc Cert.KernelIdeal.main_arg18))
    (m ((c.tc : Thread Cert.KernelIdeal.nD Cert.KernelIdeal.τ).loc Cert.KernelIdeal.main_arg19))
    (m ((c.tc : Thread Cert.KernelIdeal.nD Cert.KernelIdeal.τ).loc Cert.KernelIdeal.main_arg20))
    (m ((c.tc : Thread Cert.KernelIdeal.nD Cert.KernelIdeal.τ).loc Cert.KernelIdeal.main_arg21))
    (m ((c.tc : Thread Cert.KernelIdeal.nD Cert.KernelIdeal.τ).loc Cert.KernelIdeal.main_arg22)), ?_, ?_⟩
  · refine (θ_run Cert.KernelIdeal.defs _ _).mono (fun r h c => ⟨(h c).1.trans ?_, (h c).2⟩) (Cert.KernelIdeal.RunVal.run_result (F := Ideal) m ρ)
    exact Cert.KernelIdeal.Fold.W27_v99 m ρ c (Cert.PreIdx.inRange_of_pre _ _ _ _ _ _ _ _ _ _ _ _ _ _ _ _ _ _ _ _ _ _ _ (hpre c))
  · refine (θ_run Cert.ReferenceIdeal.defs _ _).mono (fun r h c =>
      ⟨(h c _).trans ((Cert.ReferenceIdeal.Result.result (F := Ideal) m' c).trans ?_),
       (h c _).trans (Cert.ReferenceIdeal.Result.arg_eq m' c Cert.ReferenceIdeal.main_arg0 (by decide)),
       (h c _).trans (Cert.ReferenceIdeal.Result.arg_eq m' c Cert.ReferenceIdeal.main_arg1 (by decide)),
       (h c _).trans (Cert.ReferenceIdeal.Result.arg_eq m' c Cert.ReferenceIdeal.main_arg2 (by decide)),
       (h c _).trans (Cert.ReferenceIdeal.Result.arg_eq m' c Cert.ReferenceIdeal.main_arg3 (by decide)),
       (h c _).trans (Cert.ReferenceIdeal.Result.arg_eq m' c Cert.ReferenceIdeal.main_arg4 (by decide)),
       (h c _).trans (Cert.ReferenceIdeal.Result.arg_eq m' c Cert.ReferenceIdeal.main_arg5 (by decide)),
       (h c _).trans (Cert.ReferenceIdeal.Result.arg_eq m' c Cert.ReferenceIdeal.main_arg6 (by decide)),
       (h c _).trans (Cert.ReferenceIdeal.Result.arg_eq m' c Cert.ReferenceIdeal.main_arg7 (by decide)),
       (h c _).trans (Cert.ReferenceIdeal.Result.arg_eq m' c Cert.ReferenceIdeal.main_arg8 (by decide)),
       (h c _).trans (Cert.ReferenceIdeal.Result.arg_eq m' c Cert.ReferenceIdeal.main_arg9 (by decide)),
       (h c _).trans (Cert.ReferenceIdeal.Result.arg_eq m' c Cert.ReferenceIdeal.main_arg10 (by decide)),
       (h c _).trans (Cert.ReferenceIdeal.Result.arg_eq m' c Cert.ReferenceIdeal.main_arg11 (by decide)),
       (h c _).trans (Cert.ReferenceIdeal.Result.arg_eq m' c Cert.ReferenceIdeal.main_arg12 (by decide)),
       (h c _).trans (Cert.ReferenceIdeal.Result.arg_eq m' c Cert.ReferenceIdeal.main_arg13 (by decide)),
       (h c _).trans (Cert.ReferenceIdeal.Result.arg_eq m' c Cert.ReferenceIdeal.main_arg14 (by decide)),
       (h c _).trans (Cert.ReferenceIdeal.Result.arg_eq m' c Cert.ReferenceIdeal.main_arg15 (by decide)),
       (h c _).trans (Cert.ReferenceIdeal.Result.arg_eq m' c Cert.ReferenceIdeal.main_arg16 (by decide)),
       (h c _).trans (Cert.ReferenceIdeal.Result.arg_eq m' c Cert.ReferenceIdeal.main_arg17 (by decide)),
       (h c _).trans (Cert.ReferenceIdeal.Result.arg_eq m' c Cert.ReferenceIdeal.main_arg18 (by decide)),
       (h c _).trans (Cert.ReferenceIdeal.Result.arg_eq m' c Cert.ReferenceIdeal.main_arg19 (by decide)),
       (h c _).trans (Cert.ReferenceIdeal.Result.arg_eq m' c Cert.ReferenceIdeal.main_arg20 (by decide)),
       (h c _).trans (Cert.ReferenceIdeal.Result.arg_eq m' c Cert.ReferenceIdeal.main_arg21 (by decide)),
       (h c _).trans (Cert.ReferenceIdeal.Result.arg_eq m' c Cert.ReferenceIdeal.main_arg22 (by decide))⟩)
      (Cert.ReferenceIdeal.RunP.run_raw (F := Ideal) m' ρ')
    obtain ⟨e0, e1, e2, e3, e4, e5, e6, e7, e8, e9, e10, e11, e12, e13, e14, e15, e16, e17, e18, e19, e20, e21, e22⟩ := hagree c
    rw [e0, e1, e2, e3, e4, e5, e6, e7, e8, e9, e10, e11, e12, e13, e14, e15, e16, e17, e18, e19, e20, e21, e22]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
